-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v37_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v37_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S200x128 : Shape := ⟨2, ![200, 128]⟩
abbrev S200x4x128x2 : Shape := ⟨4, ![200, 4, 128, 2]⟩
abbrev S512x1024 : Shape := ⟨2, ![512, 1024]⟩
abbrev S1024 : Shape := ⟨1, ![1024]⟩
abbrev S1024x50000 : Shape := ⟨2, ![1024, 50000]⟩
abbrev S50000 : Shape := ⟨1, ![50000]⟩
abbrev S2x4096 : Shape := ⟨2, ![2, 4096]⟩
abbrev S4096 : Shape := ⟨1, ![4096]⟩
abbrev S20000 : Shape := ⟨1, ![20000]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S200x128 : S_.BroadcastsInDim S200x128 (![] : Fin 0 → Fin S200x128.rank)
  reducesTo_S200x128_S_d0_1 : S200x128.ReducesTo [0, 1] S_
  bcast_S_S200x4x128x2 : S_.BroadcastsInDim S200x4x128x2 (![] : Fin 0 → Fin S200x4x128x2.rank)
  reducesTo_S200x4x128x2_S_d0_1_2_3 : S200x4x128x2.ReducesTo [0, 1, 2, 3] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x50000 : S_.BroadcastsInDim S1024x50000 (![] : Fin 0 → Fin S1024x50000.rank)
  reducesTo_S1024x50000_S_d0_1 : S1024x50000.ReducesTo [0, 1] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg4 : FVec F S1024 .f32) (main_arg5 : FVec F S1024x50000 .f32) (main_arg6 : FVec F S50000 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x50000 .f32 := Host.absf main_arg5
  let main_cst_8 : FVec F S_ .f32 := constant S_ .f32 0x7F800000#32
  let main_v25 : FVec F S1024x50000 .f32 := broadcastInDim S1024x50000 ![] bcast_S_S1024x50000 main_cst_8
  let main_v26 : IVec S1024x50000 1 := cmpf .olt main_v24 main_v25
  let main_c_9 : IVec S_ 1 := constantI S_ 1 1#1
  let main_v27 : IVec S_ 1 := (fun x v => Host.reduce IntOp.andi x v reducesTo_S1024x50000_S_d0_1 h_S_) main_v26 main_c_9
  let main_v28 : IVec S_ 1 := andi main_v23 main_v27
  let main_v29 : FVec F S50000 .f32 := Host.absf main_arg6
  let main_cst_10 : FVec F S_ .f32 := constant S_ .f32 0x7F800000#32
  let main_v30 : FVec F S50000 .f32 := broadcastInDim S50000 ![] bcast_S_S50000 main_cst_10
  let main_v31 : IVec S50000 1 := cmpf .olt main_v29 main_v30
  let main_c_11 : IVec S_ 1 := constantI S_ 1 1#1
  let main_v32 : IVec S_ 1 := (fun x v => Host.reduce IntOp.andi x v reducesTo_S50000_S_d0 h_S_) main_v31 main_c_11
  let main_v33 : IVec S_ 1 := andi main_v28 main_v32
  main_v33

def fn {F : FTy → Type} [FloatOps F] (main_arg0 : FVec F S20000x256 .f32) (main_arg1 : FVec F S200x128 .f32) (main_arg2 : FVec F S200x4x128x2 .f32) (main_arg3 : FVec F S512x1024 .f32) (main_arg4 : FVec F S1024 .f32) (main_arg5 : FVec F S1024x50000 .f32) (main_arg6 : FVec F S50000 .f32) (main_arg7 : IVec S2x4096 32) (main_arg8 : IVec S4096 32) (main_arg9 : IVec S4096 32) (main_arg10 : IVec S20000 32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S200x128 .f32 := Host.absf main_arg1
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  let main_v9 : FVec F S200x4x128x2 .f32 := Host.absf main_arg2
  let main_cst_2 : FVec F S_ .f32 := constant S_ .f32 0x7F800000#32
  let main_v10 : FVec F S200x4x128x2 .f32 := broadcastInDim S200x4x128x2 ![] bcast_S_S200x4x128x2 main_cst_2
  let main_v11 : IVec S200x4x128x2 1 := cmpf .olt main_v9 main_v10
  let main_c_3 : IVec S_ 1 := constantI S_ 1 1#1
  let main_v12 : IVec S_ 1 := (fun x v => Host.reduce IntOp.andi x v reducesTo_S200x4x128x2_S_d0_1_2_3 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Kernel.lean ====
abbrev S20000x256 : Shape := ⟨2, ![20000, 256]⟩
abbrev S200x128 : Shape := ⟨2, ![200, 128]⟩
abbrev S200x4x128x2 : Shape := ⟨4, ![200, 4, 128, 2]⟩
abbrev S512x1024 : Shape := ⟨2, ![512, 1024]⟩
abbrev S1024 : Shape := ⟨1, ![1024]⟩
abbrev S1024x50000 : Shape := ⟨2, ![1024, 50000]⟩
abbrev S50000 : Shape := ⟨1, ![50000]⟩
abbrev S2x4096 : Shape := ⟨2, ![2, 4096]⟩
abbrev S4096 : Shape := ⟨1, ![4096]⟩
abbrev S20000 : Shape := ⟨1, ![20000]⟩
abbrev S1x4096 : Shape := ⟨2, ![1, 4096]⟩
abbrev S_ : Shape := ⟨0, ![]⟩
abbrev S4096x1 : Shape := ⟨2, ![4096, 1]⟩
abbrev S4096x256 : Shape := ⟨2, ![4096, 256]⟩
abbrev S4096x128 : Shape := ⟨2, ![4096, 128]⟩
abbrev S200x1x128x1 : Shape := ⟨4, ![200, 1, 128, 1]⟩
abbrev S4096x512 : Shape := ⟨2, ![4096, 512]⟩
abbrev S1x1024 : Shape := ⟨2, ![1, 1024]⟩
abbrev S4096x1024 : Shape := ⟨2, ![4096, 1024]⟩
abbrev S1024x512 : Shape := ⟨2, ![1024, 512]⟩
abbrev S1024x1024 : Shape := ⟨2, ![1024, 1024]⟩
abbrev S1x50000 : Shape := ⟨2, ![1, 50000]⟩
abbrev S4096x50000 : Shape := ⟨2, ![4096, 50000]⟩
abbrev S2x4096x1 : Shape := ⟨3, ![2, 4096, 1]⟩
abbrev S1024x256 : Shape := ⟨2, ![1024, 256]⟩
abbrev S1x256 : Shape := ⟨2, ![1, 256]⟩
abbrev S1x4096x1 : Shape := ⟨3, ![1, 4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 105
  | .vmem => 17
  | .smem => 0
  | _ => 0

abbrev bufTy : (tb : Table) → Fin (tcTables nBuf tb) → BufTy
  | .hbm, ⟨0, _⟩ => ⟨S20000x256, .f32⟩
  | .hbm, ⟨1, _⟩ => ⟨S200x128, .f32⟩
  | .hbm, ⟨2, _⟩ => ⟨S200x4x128x2, .f32⟩
  | .hbm, ⟨3, _⟩ => ⟨S512x1024, .f32⟩
  | .hbm, ⟨4, _⟩ => ⟨S1024, .f32⟩
  | .hbm, ⟨5, _⟩ => ⟨S1024x50000, .f32⟩
  | .hbm, ⟨6, _⟩ => ⟨S50000, .f32⟩
  | .hbm, ⟨7, _⟩ => ⟨S2x4096, .i32⟩
  | .hbm, ⟨8, _⟩ => ⟨S4096, .i32⟩
  | .hbm, ⟨9, _⟩ => ⟨S4096, .i32⟩
  | .hbm, ⟨10, _⟩ => ⟨S20000, .i32⟩
  | .hbm, ⟨11, _⟩ => ⟨S1x4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x256, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x128, .f32⟩
  | .hbm, ⟨31, _⟩ => ⟨S200x1x128x1, .f32⟩
  | .hbm, ⟨32, _⟩ => ⟨S200x128, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S4096x128, .f32⟩
  | .hbm, ⟨42, _⟩ => ⟨S4096x512, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096, .i32⟩
  | .hbm, ⟨52, _⟩ => ⟨S4096x1, .i32⟩
  | .hbm, ⟨53, _⟩ => ⟨S1x1024, .f32⟩
  | .hbm, ⟨54, _⟩ => ⟨S4096x1024, .bf16⟩
  | .hbm, ⟨55, _⟩ => ⟨S1x50000, .f32⟩
  | .hbm, ⟨56, _⟩ => ⟨S4096x50000, .f32⟩
  | .hbm, ⟨57, _⟩ => ⟨S2x4096x1, .f32⟩
  | .hbm, ⟨58, _⟩ => ⟨S2x4096x1, .f32⟩
  | .hbm, ⟨59, _⟩ => ⟨S1x4096x1, .f32⟩
  | .hbm, ⟨60, _⟩ => ⟨S4096x1, .f32⟩
  | .hbm, ⟨61, _⟩ => ⟨S1x4096x1, .f32⟩
  | .hbm, ⟨62, _⟩ => ⟨S4096x1, .f32⟩
  | .hbm, ⟨63, _⟩ => ⟨S1x4096x1, .f32⟩
  | .hbm, ⟨64, _⟩ => ⟨S4096x1, .f32⟩
  | .hbm, ⟨65, _⟩ => ⟨S1x4096x1, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S_, .i32⟩
  | .hbm, ⟨78, _⟩ => ⟨S4096x1, .i32⟩
  | .hbm, ⟨79, _⟩ => ⟨S4096x1, .i1⟩
  | .hbm, ⟨80, _⟩ => ⟨S_, .i32⟩
  | .hbm, ⟨81, _⟩ => ⟨S4096x1, .i32⟩
  | .hbm, ⟨82, _⟩ => ⟨S4096x1, .i32⟩
  | .hbm, ⟨83, _⟩ => ⟨S4096x1, .i32⟩
  | .hbm, ⟨84, _⟩ => ⟨S4096x1x1, .i32⟩
  | .hbm, ⟨85, _⟩ => ⟨S1, .i32⟩
  | .hbm, ⟨86, _⟩ => ⟨S_, .i32⟩
  | .hbm, ⟨87, _⟩ => ⟨S4096x1x1, .i32⟩
  | .hbm, ⟨88, _⟩ => ⟨S4096x1x1, .i1⟩
  | .hbm, ⟨89, _⟩ => ⟨S1x1x1, .i32⟩
  | .hbm, ⟨90, _⟩ => ⟨S4096x1x1, .i32⟩
  | .hbm, ⟨91, _⟩ => ⟨S4096x1x1, .i1⟩
  | .hbm, ⟨92, _⟩ => ⟨S4096x1x1, .i1⟩
  | .hbm, ⟨93, _⟩ => ⟨S_, .i1⟩
  | .hbm, ⟨94, _⟩ => ⟨S4096x1, .i1⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x1, .f32⟩
  | .hbm, ⟨100, _⟩ => ⟨S4096, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S4096x1024, .bf16⟩
  | .local _ .vmem, ⟨7, _⟩ => ⟨S1024x256, .f32⟩
  | .local _ .vmem, ⟨8, _⟩ => ⟨S1024x256, .f32⟩
  | .local _ .vmem, ⟨9, _⟩ => ⟨S1x256, .f32⟩
  | .local _ .vmem, ⟨10, _⟩ => ⟨S1x256, .f32⟩
  | .local _ .vmem, ⟨11, _⟩ => ⟨S4096x256, .f32⟩
  | .local _ .vmem, ⟨12, _⟩ => ⟨S4096x256, .f32⟩
  | .local _ .vmem, ⟨13, _⟩ => ⟨S1x4096x1, .f32⟩
  | .local _ .vmem, ⟨14, _⟩ => ⟨S1x4096x1, .f32⟩
  | .local _ .vmem, ⟨15, _⟩ => ⟨S4096x1, .f32⟩
  | .local _ .vmem, ⟨16, _⟩ => ⟨S4096x1, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v37_2 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_c : Ref sig .tc := ⟨.hbm, 77, rfl⟩
abbrev main_call0_v0 : Ref sig .tc := ⟨.hbm, 78, rfl⟩
abbrev main_call0_v1 : Ref sig .tc := ⟨.hbm, 79, rfl⟩
abbrev main_call0_c_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_c_1 : Ref sig .tc := ⟨.hbm, 85, rfl⟩
abbrev main_call0_c_2 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_c_3 : Ref sig .tc := ⟨.hbm, 93, rfl⟩
abbrev main_call0_v12 : Ref sig .tc := ⟨.hbm, 94, rfl⟩
abbrev main_call0_v13 : Ref sig .tc := ⟨.hbm, 95, rfl⟩
abbrev main_call0_cst : Ref sig .tc := ⟨.hbm, 96, rfl⟩
abbrev main_call0_v14 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst : Ref sig .tc := ⟨.hbm, 101, rfl⟩
abbrev main_v59 : Ref sig .tc := ⟨.hbm, 102, rfl⟩
abbrev main_cst_7 : Ref sig .tc := ⟨.hbm, 103, rfl⟩
abbrev main_v60 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 98], ![false, false]⟩

def k1_cond3 (i : grid1.Coords) : BitVec 1 :=
  let arg1 : BitVec 32 := BitVec.ofNat 32 (i 1).val
  let c97_i32 : BitVec 32 := 97#32
  let v0 : BitVec 1 := Scalar.cmpi .eq arg1 c97_i32
  let v17 : BitVec 32 := Scalar.extui v0
  let c0_i32_9 : BitVec 32 := 0#32
  let v18 : BitVec 1 := Scalar.cmpi .ne v17 c0_i32_9
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x4096x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 1 → Memref sig .tc .vmem S1x4096x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

class Facts₀ : Prop where
  slices_S2x4096_S1x4096_0_0 : S2x4096.Slices ![0, 0] S1x4096
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S200x4x128x2_S200x1x128x1_0_3_0_1 : S200x4x128x2.Slices ![0, 3, 0, 1] S200x1x128x1
  shapeCasts_S200x1x128x1_S200x128 : S200x1x128x1.ShapeCasts S200x128
  concatenates_S4096x256_S4096x128_S4096x128_S4096x512_d1 : Shape.Concatenates [S4096x256, S4096x128, S4096x128] S4096x512 1
  shapeCasts_S4096_S4096x1 : S4096.ShapeCasts S4096x1
  shapeCasts_S1024_S1x1024 : S1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S50000_S1x50000 : S50000.ShapeCasts S1x50000
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  broadcasts_S4096x1_S4096x256 : S4096x1.Broadcasts S4096x256
  iota_S4096x256_d1_w32 : S4096x256.Iotas .tc 32 [1]
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  slices_S2x4096x1_S1x4096x1_0_0_0 : S2x4096x1.Slices ![0, 0, 0] S1x4096x1
  slices_S2x4096x1_S1x4096x1_1_0_0 : S2x4096x1.Slices ![1, 0, 0] S1x4096x1
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  reducesTo_S4096_S_d0 : S4096.ReducesTo [0] S_
  gather_S20000x256_S4096x1_S4096x256_1_0_n_n_0_1_1256_wf : GatherDims.WF S20000x256 S4096x1 S4096x256 [1] [0] [] [0] [] 1 ![1, 256]
  gather_S200x128_S4096x1_S4096x128_1_0_n_n_0_1_1128_wf : GatherDims.WF S200x128 S4096x1 S4096x128 [1] [0] [] [0] [] 1 ![1, 128]
  gather_S20000_S4096x1_S4096_n_0_n_n_0_1_1_wf : GatherDims.WF S20000 S4096x1 S4096 [] [0] [] [0] [] 1 ![1]
  dot_S1024x512_S512x1024_S1024x1024_1_0_0_1_n_n_wf : DotDims.WF S1024x512 S512x1024 S1024x1024 [1] [0] [0] [1] [] []
  dot_S4096x1024_S1024x256_S4096x256_1_0_0_1_n_n_wf : DotDims.WF S4096x1024 S1024x256 S4096x256 [1] [0] [0] [1] [] []
  gather_S4096x50000_S4096x1x1_S4096x1_n_1_0_0_1_2_11_wf : GatherDims.WF S4096x50000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x1024.size a ≤ S4096x1024.size a
  hwx1_0 : ∀ i : grid1.Coords, EltTy.bits .bf16 = 32 ∨ (Rect.block (s := S4096x1024) S4096x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x256.size a < S1024x50000.size a
  hwx1_1 : ∀ i : grid1.Coords, EltTy.bits .f32 = 32 ∨ (Rect.unit (s := S1024x50000) (fun a => cc1_transform_1 i a * S1024x256.size a) (fun a => (Pipeline.Clip.of (cc1_transform_1 i a) (S1024x256.size a) (S1024x50000.size a)).extent (S1024x256.size a)) fun a => Pipeline.Clip.inb (Pipeline.Clip.ok_of (hstart1_1 i a))).WholeWords (EltTy.packing .f32)
  hwxs1_1 : ∀ i : grid1.Coords, EltTy.bits .f32 = 32 ∨ (Rect.unit (s := S1024x256) (fun _ => 0) (fun a => (Pipeline.Clip.of (cc1_transform_1 i a) (S1024x256.size a) (S1024x50000.size a)).extent (S1024x256.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x256.size a < S1x50000.size a
  hwx1_2 : ∀ i : grid1.Coords, EltTy.bits .f32 = 32 ∨ (Rect.unit (s := S1x50000) (fun a => cc1_transform_2 i a * S1x256.size a) (fun a => (Pipeline.Clip.of (cc1_transform_2 i a) (S1x256.size a) (S1x50000.size a)).extent (S1x256.size a)) fun a => Pipeline.Clip.inb (Pipeline.Clip.ok_of (hstart1_2 i a))).WholeWords (EltTy.packing .f32)
  hwxs1_2 : ∀ i : grid1.Coords, EltTy.bits .f32 = 32 ∨ (Rect.unit (s := S1x256) (fun _ => 0) (fun a => (Pipeline.Clip.of (cc1_transform_2 i a) (S1x256.size a) (S1x50000.size a)).extent (S1x256.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4096x256.size a < S4096x50000.size a
  hwx1_3 : ∀ i : grid1.Coords, EltTy.bits .f32 = 32 ∨ (Rect.unit (s := S4096x50000) (fun a => cc1_transform_3 i a * S4096x256.size a) (fun a => (Pipeline.Clip.of (cc1_transform_3 i a) (S4096x256.size a) (S4096x50000.size a)).extent (S4096x256.size a)) fun a => Pipeline.Clip.inb (Pipeline.Clip.ok_of (hstart1_3 i a))).WholeWords (EltTy.packing .f32)
  hwxs1_3 : ∀ i : grid1.Coords, EltTy.bits .f32 = 32 ∨ (Rect.unit (s := S4096x256) (fun _ => 0) (fun a => (Pipeline.Clip.of (cc1_transform_3 i a) (S4096x256.size a) (S4096x50000.size a)).extent (S4096x256.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096x1.size a ≤ S2x4096x1.size a
  hwx1_4 : ∀ i : grid1.Coords, EltTy.bits .f32 = 32 ∨ (Rect.block (s := S2x4096x1) S1x4096x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096x1.size a ≤ S2x4096x1.size a
  hwx1_5 : ∀ i : grid1.Coords, EltTy.bits .f32 = 32 ∨ (Rect.block (s := S2x4096x1) S1x4096x1.size (cc1_transform_5 i) (hinb1_5 i)).WholeWords (EltTy.packing .f32)

variable [Facts₀]

def gather_S20000x256_S4096x1_S4096x256_1_0_n_n_0_1_1256 : GatherDims S20000x256 S4096x1 S4096x256 where
  offsetDims := [1]
  collapsedSliceDims := [0]
  operandBatchingDims := []
  startIndicesBatchingDims := []
  startIndexMap := [0]
  indexVectorDim := 1
  sliceSizes := ![1, 256]
  wf := gather_S20000x256_S4096x1_S4096x256_1_0_n_n_0_1_1256_wf
def gather_S200x128_S4096x1_S4096x128_1_0_n_n_0_1_1128 : GatherDims S200x128 S4096x1 S4096x128 where
  offsetDims := [1]
  collapsedSliceDims := [0]
  operandBatchingDims := []
  startIndicesBatchingDims := []
  startIndexMap := [0]
  indexVectorDim := 1
  sliceSizes := ![1, 128]
  wf := gather_S200x128_S4096x1_S4096x128_1_0_n_n_0_1_1128_wf
def gather_S20000_S4096x1_S4096_n_0_n_n_0_1_1 : GatherDims S20000 S4096x1 S4096 where
  offsetDims := []
  collapsedSliceDims := [0]
  operandBatchingDims := []
  startIndicesBatchingDims := []
  startIndexMap := [0]
  indexVectorDim := 1
  sliceSizes := ![1]
  wf := gather_S20000_S4096x1_S4096_n_0_n_n_0_1_1_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def gather_S4096x50000_S4096x1x1_S4096x1_n_1_0_0_1_2_11 : GatherDims S4096x50000 S4096x1x1 S4096x1 where
  offsetDims := []
  collapsedSliceDims := [1]
  operandBatchingDims := [0]
  startIndicesBatchingDims := [0]
  startIndexMap := [1]
  indexVectorDim := 2
  sliceSizes := ![1, 1]
  wf := gather_S4096x50000_S4096x1x1_S4096x1_n_1_0_0_1_2_11_wf

abbrev win0_0 : Pipeline.Window sig grid0 :=
  Pipeline.Window.ofSpec (Memref.whole main_v25) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S4096x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg5) S1024x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v36) S1x256.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v37_0) S4096x256.size cc1_transform_3 reads1_3 true false 2 stage1_3 sem1_3
    hrank1 hreads1_3 hstart1_3 nbuf1_3 (Memref.isWhole_whole _) hwx1_3 hwxs1_3 hstage1_3

abbrev win1_4 : Pipeline.Window sig grid1 :=
  Pipeline.Window.ofSpec (Memref.whole main_v37_1) S1x4096x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37_2) S1x4096x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond3 i == 1#1) | 5 => fun i => !(k1_cond3 i == 1#1) | ⟨_ + 6, h⟩ => absurd h (Nat.not_lt.2 (Nat.le_add_left _ _))

class Facts : Prop extends Facts₀ where

variable [Facts]
-- ==== ReferenceIdeal.lean ====
abbrev S20000x256 : Shape := ⟨2, ![20000, 256]⟩
abbrev S200x128 : Shape := ⟨2, ![200, 128]⟩
abbrev S200x4x128x2 : Shape := ⟨4, ![200, 4, 128, 2]⟩
abbrev S512x1024 : Shape := ⟨2, ![512, 1024]⟩
abbrev S1024 : Shape := ⟨1, ![1024]⟩
abbrev S1024x50000 : Shape := ⟨2, ![1024, 50000]⟩
abbrev S50000 : Shape := ⟨1, ![50000]⟩
abbrev S2x4096 : Shape := ⟨2, ![2, 4096]⟩
abbrev S4096 : Shape := ⟨1, ![4096]⟩
abbrev S20000 : Shape := ⟨1, ![20000]⟩
abbrev S1x4096 : Shape := ⟨2, ![1, 4096]⟩
abbrev S_ : Shape := ⟨0, ![]⟩
abbrev S4096x1 : Shape := ⟨2, ![4096, 1]⟩
abbrev S4096x256 : Shape := ⟨2, ![4096, 256]⟩
abbrev S4096x128 : Shape := ⟨2, ![4096, 128]⟩
abbrev S200x1x128x1 : Shape := ⟨4, ![200, 1, 128, 1]⟩
abbrev S4096x512 : Shape := ⟨2, ![4096, 512]⟩
abbrev S4096x1024 : Shape := ⟨2, ![4096, 1024]⟩
abbrev S1x1024 : Shape := ⟨2, ![1, 1024]⟩
abbrev S4096x50000 : Shape := ⟨2, ![4096, 50000]⟩
abbrev S1x50000 : Shape := ⟨2, ![1, 50000]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S200x128, .f32⟩
  | .hbm, ⟨2, _⟩ => ⟨S200x4x128x2, .f32⟩
  | .hbm, ⟨3, _⟩ => ⟨S512x1024, .f32⟩
  | .hbm, ⟨4, _⟩ => ⟨S1024, .f32⟩
  | .hbm, ⟨5, _⟩ => ⟨S1024x50000, .f32⟩
  | .hbm, ⟨6, _⟩ => ⟨S50000, .f32⟩
  | .hbm, ⟨7, _⟩ => ⟨S2x4096, .i32⟩
  | .hbm, ⟨8, _⟩ => ⟨S4096, .i32⟩
  | .hbm, ⟨9, _⟩ => ⟨S4096, .i32⟩
  | .hbm, ⟨10, _⟩ => ⟨S20000, .i32⟩
  | .hbm, ⟨11, _⟩ => ⟨S1x4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x256, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x128, .f32⟩
  | .hbm, ⟨31, _⟩ => ⟨S200x1x128x1, .f32⟩
  | .hbm, ⟨32, _⟩ => ⟨S200x128, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S4096x128, .f32⟩
  | .hbm, ⟨42, _⟩ => ⟨S4096x512, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x50000, .f32⟩
  | .hbm, ⟨49, _⟩ => ⟨S1x50000, .f32⟩
  | .hbm, ⟨50, _⟩ => ⟨S4096x50000, .f32⟩
  | .hbm, ⟨51, _⟩ => ⟨S4096x50000, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S4096, .i32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1, .f32⟩
  | .hbm, ⟨67, _⟩ => ⟨S4096x50000, .f32⟩
  | .hbm, ⟨68, _⟩ => ⟨S4096x50000, .f32⟩
  | .hbm, ⟨69, _⟩ => ⟨S4096x50000, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1, .f32⟩
  | .hbm, ⟨74, _⟩ => ⟨S4096x50000, .f32⟩
  | .hbm, ⟨75, _⟩ => ⟨S4096x50000, .f32⟩
  | .hbm, ⟨76, _⟩ => ⟨S4096x1, .i32⟩
  | .hbm, ⟨77, _⟩ => ⟨S_, .i32⟩
  | .hbm, ⟨78, _⟩ => ⟨S4096x1, .i32⟩
  | .hbm, ⟨79, _⟩ => ⟨S4096x1, .i1⟩
  | .hbm, ⟨80, _⟩ => ⟨S_, .i32⟩
  | .hbm, ⟨81, _⟩ => ⟨S4096x1, .i32⟩
  | .hbm, ⟨82, _⟩ => ⟨S4096x1, .i32⟩
  | .hbm, ⟨83, _⟩ => ⟨S4096x1, .i32⟩
  | .hbm, ⟨84, _⟩ => ⟨S4096x1x1, .i32⟩
  | .hbm, ⟨85, _⟩ => ⟨S1, .i32⟩
  | .hbm, ⟨86, _⟩ => ⟨S_, .i32⟩
  | .hbm, ⟨87, _⟩ => ⟨S4096x1x1, .i32⟩
  | .hbm, ⟨88, _⟩ => ⟨S4096x1x1, .i1⟩
  | .hbm, ⟨89, _⟩ => ⟨S1x1x1, .i32⟩
  | .hbm, ⟨90, _⟩ => ⟨S4096x1x1, .i32⟩
  | .hbm, ⟨91, _⟩ => ⟨S4096x1x1, .i1⟩
  | .hbm, ⟨92, _⟩ => ⟨S4096x1x1, .i1⟩
  | .hbm, ⟨93, _⟩ => ⟨S_, .i1⟩
  | .hbm, ⟨94, _⟩ => ⟨S4096x1, .i1⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call0_cst : Ref sig .tc := ⟨.hbm, 61, rfl⟩
abbrev main_call0_v0 : Ref sig .tc := ⟨.hbm, 62, rfl⟩
abbrev main_call0_cst_0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_cst_1 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_v42 : Ref sig .tc := ⟨.hbm, 75, rfl⟩
abbrev main_v43 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_cst : Ref sig .tc := ⟨.hbm, 96, rfl⟩
abbrev main_call1_v14 : Ref sig .tc := ⟨.hbm, 97, rfl⟩
abbrev main_v44 : Ref sig .tc := ⟨.hbm, 98, rfl⟩
abbrev main_v45 : Ref sig .tc := ⟨.hbm, 99, rfl⟩
abbrev main_cst : Ref sig .tc := ⟨.hbm, 100, rfl⟩
abbrev main_v46 : Ref sig .tc := ⟨.hbm, 101, rfl⟩
abbrev main_cst_7 : Ref sig .tc := ⟨.hbm, 102, rfl⟩
abbrev main_v47 : Ref sig .tc := ⟨.hbm, 103, rfl⟩

abbrev nD : Nat := 1
abbrev τ : Topo := Topo.v7x

variable {F : FTy → Type} [FloatOps F]

class Facts₀ : Prop where
  slices_S2x4096_S1x4096_0_0 : S2x4096.Slices ![0, 0] S1x4096
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S200x4x128x2_S200x1x128x1_0_3_0_1 : S200x4x128x2.Slices ![0, 3, 0, 1] S200x1x128x1
  shapeCasts_S200x1x128x1_S200x128 : S200x1x128x1.ShapeCasts S200x128
  concatenates_S4096x256_S4096x128_S4096x128_S4096x512_d1 : Shape.Concatenates [S4096x256, S4096x128, S4096x128] S4096x512 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S50000_S1x50000_1 : S50000.BroadcastsInDim S1x50000 (![1] : Fin 1 → Fin S1x50000.rank)
  bcast_S1x50000_S4096x50000_0_1 : S1x50000.BroadcastsInDim S4096x50000 (![0, 1] : Fin 2 → Fin S4096x50000.rank)
  reducesTo_S4096x50000_S4096_d1 : S4096x50000.ReducesTo [1] S4096
  h_S_ : 0 < S_.numel
  bcast_S4096x1_S4096x50000_0_1 : S4096x1.BroadcastsInDim S4096x50000 (![0, 1] : Fin 2 → Fin S4096x50000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S20000x256_S4096x1_S4096x256_1_0_n_n_0_1_1256_wf : GatherDims.WF S20000x256 S4096x1 S4096x256 [1] [0] [] [0] [] 1 ![1, 256]
  gather_S200x128_S4096x1_S4096x128_1_0_n_n_0_1_1128_wf : GatherDims.WF S200x128 S4096x1 S4096x128 [1] [0] [] [0] [] 1 ![1, 128]
  dot_S4096x512_S512x1024_S4096x1024_1_0_0_1_n_n_wf : DotDims.WF S4096x512 S512x1024 S4096x1024 [1] [0] [0] [1] [] []
  dot_S4096x1024_S1024x50000_S4096x50000_1_0_0_1_n_n_wf : DotDims.WF S4096x1024 S1024x50000 S4096x50000 [1] [0] [0] [1] [] []
  gather_S20000_S4096x1_S4096_n_0_n_n_0_1_1_wf : GatherDims.WF S20000 S4096x1 S4096 [] [0] [] [0] [] 1 ![1]
  gather_S4096x50000_S4096x1x1_S4096x1_n_1_0_0_1_2_11_wf : GatherDims.WF S4096x50000 S4096x1x1 S4096x1 [] [1] [0] [1] [0] 2 ![1, 1]

variable [Facts₀]

def gather_S20000x256_S4096x1_S4096x256_1_0_n_n_0_1_1256 : GatherDims S20000x256 S4096x1 S4096x256 where
  offsetDims := [1]
  collapsedSliceDims := [0]
  operandBatchingDims := []
  startIndicesBatchingDims := []
  startIndexMap := [0]
  indexVectorDim := 1
  sliceSizes := ![1, 256]
  wf := gather_S20000x256_S4096x1_S4096x256_1_0_n_n_0_1_1256_wf
def gather_S200x128_S4096x1_S4096x128_1_0_n_n_0_1_1128 : GatherDims S200x128 S4096x1 S4096x128 where
  offsetDims := [1]
  collapsedSliceDims := [0]
  operandBatchingDims := []
  startIndicesBatchingDims := []
  startIndexMap := [0]
  indexVectorDim := 1
  sliceSizes := ![1, 128]
  wf := gather_S200x128_S4096x1_S4096x128_1_0_n_n_0_1_1128_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def dot_S4096x1024_S1024x50000_S4096x50000_1_0_0_1_n_n : DotDims S4096x1024 S1024x50000 S4096x50000 where
  lhsContracting := [1]
  rhsContracting := [0]
  lhsNonContracting := [0]
  rhsNonContracting := [1]
  lhsBatch := []
  rhsBatch := []
  wf := dot_S4096x1024_S1024x50000_S4096x50000_1_0_0_1_n_n_wf
def gather_S20000_S4096x1_S4096_n_0_n_n_0_1_1 : GatherDims S20000 S4096x1 S4096 where
  offsetDims := []
  collapsedSliceDims := [0]
  operandBatchingDims := []
  startIndicesBatchingDims := []
  startIndexMap := [0]
  indexVectorDim := 1
  sliceSizes := ![1]
  wf := gather_S20000_S4096x1_S4096_n_0_n_n_0_1_1_wf
def gather_S4096x50000_S4096x1x1_S4096x1_n_1_0_0_1_2_11 : GatherDims S4096x50000 S4096x1x1 S4096x1 where
  offsetDims := []
  collapsedSliceDims := [1]
  operandBatchingDims := [0]
  startIndicesBatchingDims := [0]
  startIndexMap := [1]
  indexVectorDim := 2
  sliceSizes := ![1, 1]
  wf := gather_S4096x50000_S4096x1x1_S4096x1_n_1_0_0_1_2_11_wf

class Facts : Prop extends Facts₀ where

variable [Facts]
-- ==== Proof.K.Body0.lean ====
/-
  The first kernel (one row tile of tanh (emb · W1 + b1)) as exact proof data: after the body each input window's
  buffer holds its block and the output window's buffer the kernel's payload of the three input blocks.
-/
import proofs.«422837_j27685359190570_3_alg».proof.Proof.Gen.Kernel.Launch
import proofs.«422837_j27685359190570_3_alg».proof.Proof.Gen.Kernel.Skeleton
import proofs.«422837_j27685359190570_3_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block -/

/-- Input window 0's current staging buffer holds its block at every point, for any proof data whose array is
    the region-entry contents and whose body leaves the block in place: the window is uncut and never idle, so
    what the buffer holds is what a fetch there puts in it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, which is fetched at the first point only: where it is not fetched its block
    index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2, fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole-buffer access starts at zero on each axis. -/
theorem hz0 : (![0, 0] : Fin 2 → Nat) = fun _ => 0 := funext fun a => by fin_cases a <;> rfl

abbrev r0_0 : Rect S1024x512 := Rect.unit (s := S1024x512) ![0, 0] S1024x512.size inb_S1024x512_S1024x512_0_0
abbrev r0_1 : Rect S512x1024 := Rect.unit (s := S512x1024) ![0, 0] S512x1024.size inb_S512x1024_S512x1024_0_0
abbrev r0_2 : Rect S1x1024 := Rect.unit (s := S1x1024) ![0, 0] S1x1024.size inb_S1x1024_S1x1024_0_0
abbrev r0_3 : Rect S1024x1024 := Rect.unit (s := S1024x1024) ![0, 0] S1024x1024.size inb_S1024x1024_S1024x1024_0_0

/-! ## What the body leaves in the output window's buffer -/

/-- Window 3's staging buffer after the body, from the three input buffers: its one store as a piece, whose
    payload is the kernel's payload of the three whole-buffer loads. -/
def out0_3 (x0 : Vec F S1024x512 .f32) (x1 : Vec F S512x1024 .f32) (x2 : Vec F S1x1024 .f32) : Vec F S1024x1024 .bf16 :=
  View.canon [⟨r0_3, k0_pay1 (View.ld x0 r0_0) (View.ld x1 r0_1) (View.ld x2 r0_2)⟩]

/-- The one store is through the whole buffer, so it covers it. -/
theorem cover0_3 (p0 : Vec F S1024x1024 .bf16) (y : S1024x1024.Idx) :
    ∃ pc ∈ ([⟨r0_3, p0⟩] : List (View.Piece (Elt F) S1024x1024 .bf16)), y ∈ pc.1.set :=
  ⟨_, List.mem_singleton_self _, View.mem_set_unit_zero (S := S1024x1024) hz0 inb_S1024x1024_S1024x1024_0_0 y⟩

/-- A whole-buffer load reads the buffer and one whole-buffer store leaves its payload, so the output buffer
    holds the plain payload of the three input buffers. -/
theorem out0_3_eq (x0 : Vec F S1024x512 .f32) (x1 : Vec F S512x1024 .f32) (x2 : Vec F S1x1024 .f32) :
    out0_3 x0 x1 x2 = k0_pay1 x0 x1 x2 := by
  unfold out0_3
  rw [View.canon_unit_zero (S := S1024x1024) hz0, View.ld_unit_zero (S := S1024x512) hz0,
    View.ld_unit_zero (S := S512x1024) hz0, View.ld_unit_zero (S := S1x1024) hz0]

/-! ## The body's triple -/

set_option maxHeartbeats 1000000 in
/-- The kernel body on whole staging memrefs, the inputs' at read contents and the output's at anything, runs to
    the continuation holding the inputs' as they were and the output's at the payload of the inputs': the printed
    function is its skeleton, three whole-buffer loads, one unused load of the output buffer and one whole-buffer
    store, which covers the output buffer. -/
theorem sound_kernel0 (c : Dev nD) (E : Set ℕ) (i : grid0.Coords)
    (arg1 : Memref sig .tc .vmem S1024x512 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1024x1024 .bf16) (harg4 : arg4.IsWhole)
    (x0 : Vec F S1024x512 .f32) (x1 : Vec F S512x1024 .f32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__mlp1_kernel i arg1 harg1 arg2 harg2 arg3 harg3 arg4 harg4) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover0_3 _)).trans (out0_3_eq _ _ _)

/-! ## The proof data -/

/-- The proof data of the first kernel on core c: the arrays as the region finds them; after the body at point t
    each input's buffer at its block and the output's at the payload of the three input blocks; the class
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = k0_pay1 (iblk0 V c 0 t) (iblk0 V c 1 t) (iblk0 V c 2 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t: the invariant, what the core owes, and the four windows' current
    staging buffers at what they then hold, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the kernel's triple applies at the
    three blocks; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.Body1.lean ====
/-
  The second kernel (the logits tile with the running maximum and the running sum of exponentials) as
  relational proof data: what the body leaves in each window's staging buffer is constrained by predicates a
  caller chooses, and the two scratch buffers carried between grid points sit in the invariant at contents
  satisfying a predicate of the point.
-/
import proofs.«422837_j27685359190570_3_alg».proof.Proof.Gen.Kernel.Launch
import proofs.«422837_j27685359190570_3_alg».proof.Proof.Gen.Kernel.Skeleton
import proofs.«422837_j27685359190570_3_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import Idealize.ShloMosaic.Lib.Pipeline.Value

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a caller claims of the second kernel: of the two scratch columns before each point (the running
    maximum, the running sum), and of what the body leaves in the three output windows' buffers. -/
structure Spec1 (F : FTy → Type) where
  Inv : Fin (cfg1.N + 1) → Vec F S4096x1 .f32 → Vec F S4096x1 .f32 → Prop
  O3 : Fin cfg1.N → Vec F S4096x256 .f32 → Prop
  O4 : Fin cfg1.N → Vec F S1x4096x1 .f32 → Prop
  O5 : Fin cfg1.N → Vec F S1x4096x1 .f32 → Prop

/-- The two scratch columns, as whole memrefs. -/
abbrev scM0 : Memref sig .tc .vmem S4096x1 .f32 := Memref.whole cc1_scratch0
abbrev scM1 : Memref sig .tc .vmem S4096x1 .f32 := Memref.whole cc1_scratch1

/-- The first kernel's staging buffers, which the second kernel never touches: each whole at some contents. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region's invariant before point t: the untouched scoped buffers, the two scratch columns at contents
    the caller's predicate admits, the generator register at some state. -/
def Φ1 (S : Dev nD → Spec1 F) (c : Dev nD) (t : Fin (cfg1.N + 1)) : sProp 𝕄 :=
  iprop(Rest1 (F := F) c
    ∗ (∃ ms ls, ⌜(S c).Inv t ms ls⌝ ∗ owns (c : Thread nD τ) scM0 fullShare ms ∗ owns (c : Thread nD τ) scM1 fullShare ls)
    ∗ (∃ r, prngReg c r))

/-- The relational proof data of the second kernel on core c. The three inputs are left as found; the logits
    block is constrained by O3 at every point; the two statistics blocks by O4 / O5 at the last column tile of
    each half (t % 98 = 97) and left as found elsewhere. -/
def rdat1 (S : Dev nD → Spec1 F) (c : Dev nD) : RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun _ X => (S c).O3 t X
    | ⟨4, _⟩ => fun Y X => if t.val % 98 = 97 then (S c).O4 t X else X = Y
    | ⟨5, _⟩ => fun Y X => if t.val % 98 = 97 then (S c).O5 t X else X = Y
  Φ t := Φ1 S c t
  q _ := fullShare
  owed _ := 0

/-- The pure obligations: the predicates are preserved by what each of the kernel's three control cases
    computes (first tile of a half; a middle tile; the last tile of a half), stated over the kernel's own
    payload functions of the contents found in the input windows' buffers. -/
structure Steps (S : Dev nD → Spec1 F) (c : Dev nD) : Prop where
  inv0 : ∀ ms ls, (S c).Inv 0 ms ls
  stepA : ∀ (t : Fin cfg1.N) (Y : (w : Fin cfg1.W) → (cfg1.win w).block.Idx → Elt F (cfg1.win w).elt),
    (∀ w, (rdat1 V S c).Finds w t (Y w)) → t.val % 98 = 0 → ∀ ms ls, (S c).Inv t.castSucc ms ls →
      (S c).Inv t.succ (k1_pay6 (Y 0) (Y 1) (Y 2) k1_pay1) (k1_pay5 (Y 0) (Y 1) (Y 2) k1_pay1 k1_pay1 k1_pay2)
      ∧ (S c).O3 t (k1_pay3 (Y 0) (Y 1) (Y 2))
  stepB : ∀ (t : Fin cfg1.N) (Y : (w : Fin cfg1.W) → (cfg1.win w).block.Idx → Elt F (cfg1.win w).elt),
    (∀ w, (rdat1 V S c).Finds w t (Y w)) → t.val % 98 ≠ 0 → t.val % 98 ≠ 97 → ∀ ms ls, (S c).Inv t.castSucc ms ls →
      (S c).Inv t.succ (k1_pay6 (Y 0) (Y 1) (Y 2) ms) (k1_pay5 (Y 0) (Y 1) (Y 2) ms ms ls)
      ∧ (S c).O3 t (k1_pay3 (Y 0) (Y 1) (Y 2))
  stepC : ∀ (t : Fin cfg1.N) (Y : (w : Fin cfg1.W) → (cfg1.win w).block.Idx → Elt F (cfg1.win w).elt),
    (∀ w, (rdat1 V S c).Finds w t (Y w)) → t.val % 98 = 97 → ∀ ms ls, (S c).Inv t.castSucc ms ls →
      (S c).Inv t.succ
          (k1_pay11 (BitVec.ofNat 32 ((grid1.coords t) 0).val) (BitVec.ofNat 32 ((grid1.coords t) 1).val) (k1_pay3 (Y 0) (Y 1) (Y 2)) ms)
          (k1_pay10 (BitVec.ofNat 32 ((grid1.coords t) 0).val) (BitVec.ofNat 32 ((grid1.coords t) 1).val) (k1_pay3 (Y 0) (Y 1) (Y 2)) ms ms ls)
      ∧ (S c).O3 t (k1_pay3 (Y 0) (Y 1) (Y 2))
      ∧ (S c).O4 t (k1_pay12 (k1_pay11 (BitVec.ofNat 32 ((grid1.coords t) 0).val) (BitVec.ofNat 32 ((grid1.coords t) 1).val) (k1_pay3 (Y 0) (Y 1) (Y 2)) ms))
      ∧ (S c).O5 t (k1_pay7 (k1_pay10 (BitVec.ofNat 32 ((grid1.coords t) 0).val) (BitVec.ofNat 32 ((grid1.coords t) 1).val) (k1_pay3 (Y 0) (Y 1) (Y 2)) ms ms ls))

/-- The proof data's arrays are the contents the region is entered with. -/
theorem A_eq1 (S : Dev nD → Spec1 F) (c : Dev nD) (w : Fin cfg1.W) : (rdat1 V S c).A w = V c (Pipeline.arrRef spec1 w) := by
  dsimp only [rdat1]

/-- What the launch hands the region is the invariant before the first point. -/
theorem hin1 (S : Dev nD → Spec1 F) (c : Dev nD) (h0 : ∀ ms ls, (S c).Inv 0 ms ls) :
    (Pipeline.ΦA spec1 c : sProp 𝕄) ⊢ (rdat1 V S c).Φ 0 := by
  rw [show (rdat1 V S c).Φ 0 = Φ1 S c 0 from rfl]
  unfold Pipeline.ΦA Φ1 Rest1; rw [scopedRest1_eq]
  simp only [scM0, scM1, owns_whole]
  iintro ⟨⟨H0, H1, H2, H3, H4, H5, ⟨%ms, Hs0⟩, ⟨%ls, Hs1⟩⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Hs0 Hs1]
  · iexists ms, ls
    isplitr; · ipureintro; exact h0 ms ls
    isplitl [Hs0]; · iexact Hs0
    iexact Hs1
  iexact Hg

/-- The invariant after any point gives the launch's back. -/
theorem hout1 (S : Dev nD → Spec1 F) (c : Dev nD) (t : Fin (cfg1.N + 1)) :
    (rdat1 V S c).Φ t ⊢ (Pipeline.ΦA spec1 c : sProp 𝕄) := by
  rw [show (rdat1 V S c).Φ t = Φ1 S c t from rfl]
  unfold Pipeline.ΦA Φ1 Rest1; rw [scopedRest1_eq]
  simp only [scM0, scM1, owns_whole]
  iintro ⟨⟨H0, H1, H2, H3, H4, H5⟩, ⟨%ms, %ls, -, Hs0, Hs1⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [Hs0]; · iexists ms; iexact Hs0
    iexists ls; iexact Hs1
  iexact Hg

/-! # The body's three control cases

What a whole-buffer load reads and what a whole-buffer store leaves; the closed forms of the three branch
conditions; the body's run in each control case; the body at a point. -/

namespace K1

/-! ## Whole-buffer loads and stores

Every access of this kernel is through the whole-shape rectangle at offset zero: such a load reads the buffer's
contents, and such a store, made last, leaves its payload whatever the buffer held and whatever was stored before. -/

theorem z2 : (![0, 0] : Fin 2 → ℕ) = fun _ => 0 := by funext a; fin_cases a <;> rfl
theorem z3 : (![0, 0, 0] : Fin 3 → ℕ) = fun _ => 0 := by funext a; fin_cases a <;> rfl

/-- A load through the whole-shape rectangle reads the contents. -/
theorem readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- A store through the whole-shape rectangle, made last, leaves its payload. -/
theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

theorem rd_h {κ : Kind} {sp : Space} (v : View sig κ sp S4096x1024 .bf16) (f : v.ty.Contents (Elt F)) (inb) :
    v.readAt (Elt F) (Rect.unit (s := S4096x1024) ![0, 0] S4096x1024.size inb).toLoadRect f = v.read (Elt F) f :=
  readAt_whole (S := S4096x1024) v f z2 inb
theorem rd_w {κ : Kind} {sp : Space} (v : View sig κ sp S1024x256 .f32) (f : v.ty.Contents (Elt F)) (inb) :
    v.readAt (Elt F) (Rect.unit (s := S1024x256) ![0, 0] S1024x256.size inb).toLoadRect f = v.read (Elt F) f :=
  readAt_whole (S := S1024x256) v f z2 inb
theorem rd_b {κ : Kind} {sp : Space} (v : View sig κ sp S1x256 .f32) (f : v.ty.Contents (Elt F)) (inb) :
    v.readAt (Elt F) (Rect.unit (s := S1x256) ![0, 0] S1x256.size inb).toLoadRect f = v.read (Elt F) f :=
  readAt_whole (S := S1x256) v f z2 inb
theorem rd_s {κ : Kind} {sp : Space} (v : View sig κ sp S4096x1 .f32) (f : v.ty.Contents (Elt F)) (inb) :
    v.readAt (Elt F) (Rect.unit (s := S4096x1) ![0, 0] S4096x1.size inb).toLoadRect f = v.read (Elt F) f :=
  readAt_whole (S := S4096x1) v f z2 inb
theorem wr_s {κ : Kind} {sp : Space} (v : View sig κ sp S4096x1 .f32) (f : v.ty.Contents (Elt F)) (inb)
    (w : S4096x1.Idx → Elt F .f32) (L : List (View.Piece (Elt F) S4096x1 .f32)) :
    v.read (Elt F) (v.writes (Elt F) f ((⟨Rect.unit (s := S4096x1) ![0, 0] S4096x1.size inb, w⟩ : View.Piece (Elt F) S4096x1 .f32) :: L)) = w :=
  read_writes_whole (S := S4096x1) v f z2 inb w L
theorem wr_o {κ : Kind} {sp : Space} (v : View sig κ sp S4096x256 .f32) (f : v.ty.Contents (Elt F)) (inb)
    (w : S4096x256.Idx → Elt F .f32) (L : List (View.Piece (Elt F) S4096x256 .f32)) :
    v.read (Elt F) (v.writes (Elt F) f ((⟨Rect.unit (s := S4096x256) ![0, 0] S4096x256.size inb, w⟩ : View.Piece (Elt F) S4096x256 .f32) :: L)) = w :=
  read_writes_whole (S := S4096x256) v f z2 inb w L
theorem wr_t {κ : Kind} {sp : Space} (v : View sig κ sp S1x4096x1 .f32) (f : v.ty.Contents (Elt F)) (inb)
    (w : S1x4096x1.Idx → Elt F .f32) (L : List (View.Piece (Elt F) S1x4096x1 .f32)) :
    v.read (Elt F) (v.writes (Elt F) f ((⟨Rect.unit (s := S1x4096x1) ![0, 0, 0] S1x4096x1.size inb, w⟩ : View.Piece (Elt F) S1x4096x1 .f32) :: L)) = w :=
  read_writes_whole (S := S1x4096x1) v f z3 inb w L

/-- A whole-shape load of a scratch column after one whole-shape store reads the stored payload. -/
theorem rc_s {κ : Kind} {sp : Space} (v : View sig κ sp S4096x1 .f32) (inb) (w : S4096x1.Idx → Elt F .f32) :
    v.readCov [(⟨Rect.unit (s := S4096x1) ![0, 0] S4096x1.size inb, w⟩ : View.Piece (Elt F) S4096x1 .f32)]
      (Rect.unit (s := S4096x1) ![0, 0] S4096x1.size inb).toLoadRect = w :=
  View.readCov_unit_zero (S := S4096x1) v z2 inb w

/-! ## The body's three branch conditions, as propositions of the grid coordinates, in closed form -/

/-- The first conditional's condition (the column-tile coordinate is 0). -/
abbrev cond1_0 (i : grid1.Coords) : Prop :=
  (Scalar.cmpi .ne (Scalar.extui (Scalar.cmpi .eq (BitVec.ofNat 32 (i 1).val) 0#32)) 0#32) = 1#1
/-- It holds at the points ≡ 0 (mod 98): decided over the grid. -/
theorem hcond1_0 : ∀ t : Fin cfg1.N, cond1_0 (grid1.coords t) ↔ t.val % 98 = 0 :=
  (by decide +kernel : ∀ t : Fin grid1.N, cond1_0 (grid1.coords t) ↔ t.val % 98 = 0)

/-- The second conditional's condition (the column-tile coordinate is not 97). -/
abbrev cond1_1 (i : grid1.Coords) : Prop :=
  (Scalar.cmpi .ne (Scalar.extui (Scalar.xori (Scalar.cmpi .eq (BitVec.ofNat 32 (i 1).val) 97#32) 1#1)) 0#32) = 1#1
/-- It holds at the points not ≡ 97 (mod 98): decided over the grid. -/
theorem hcond1_1 : ∀ t : Fin cfg1.N, cond1_1 (grid1.coords t) ↔ t.val % 98 ≠ 97 :=
  (by decide +kernel : ∀ t : Fin grid1.N, cond1_1 (grid1.coords t) ↔ t.val % 98 ≠ 97)

/-- The third conditional's condition (the column-tile coordinate is 97). -/
abbrev cond1_2 (i : grid1.Coords) : Prop := k1_cond3 i = 1#1
/-- It holds at the points ≡ 97 (mod 98): decided over the grid. -/
theorem hcond1_2 : ∀ t : Fin cfg1.N, cond1_2 (grid1.coords t) ↔ t.val % 98 = 97 :=
  (by decide +kernel : ∀ t : Fin grid1.N, cond1_2 (grid1.coords t) ↔ t.val % 98 = 97)

set_option maxHeartbeats 4000000 in
/-- The body in the case of the first column tile of a half (the first two conditionals taken): on whole memrefs, the three inputs' at contents x0, x1, x2, the
    logits buffer at anything, the statistics buffers at x4, x5 and the two scratch columns at ms, ls, it runs to the
    continuation holding the inputs' as they were, the logits buffer at the tile's logits and the scratch columns at the running maximum and sum restarted from their initial values, the statistics buffers untouched.
    Each buffer ends at the payload of the last whole-buffer store into it; a load of a scratch column after a store
    in the same run reads the stored payload. -/
theorem runA (c : Dev nD) (i : grid1.Coords) (arg2 : Memref sig .tc .vmem S4096x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S4096x256 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S4096x1 .f32) (harg8 : arg8.IsWhole) (arg9 : Memref sig .tc .vmem S4096x1 .f32) (harg9 : arg9.IsWhole)
    (hc0 : cond1_0 i) (hc1 : cond1_1 i) (hc2 : ¬cond1_2 i)
    (x0 : Vec F S4096x1024 .bf16) (x1 : Vec F S1024x256 .f32) (x2 : Vec F S1x256 .f32)
    (x4 x5 : Vec F S1x4096x1 .f32) (ms ls : Vec F S4096x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare x5
        ∗ owns (c : Thread nD τ) arg8 fullShare ms ∗ owns (c : Thread nD τ) arg9 fullShare ls
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x0 x1 x2) ∗ owns (c : Thread nD τ) arg6 fullShare x4 ∗ owns (c : Thread nD τ) arg7 fullShare x5
            ∗ owns (c : Thread nD τ) arg8 fullShare (k1_pay6 x0 x1 x2 k1_pay1) ∗ owns (c : Thread nD τ) arg9 fullShare (k1_pay5 x0 x1 x2 k1_pay1 k1_pay1 k1_pay2)) -∗ K ⟨⟩))
      ⊢ wp frame (wpE (defs₀ (F := F)) Variants.none c none) E (cc1__mlp2_kernel i arg2 harg2 arg3 harg3 arg4 harg4 arg5 harg5 arg6 harg6 arg7 harg7 arg8 harg8 arg9 harg9) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
  subst hf0; subst hf1; subst hf2; subst hf4; subst hf5; subst hfs0; subst hfs1
  sl_exec (disch := first | exact hc0 | exact hc1 | exact hc2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro; rw [wr_o, rd_h, rd_w, rd_b]
  isplitl [H4]; · iexists _; isplitr; · ipureintro; rfl
                  iexact H4
  isplitl [H5]; · iexists _; isplitr; · ipureintro; rfl
                  iexact H5
  isplitl [HS0]
  · iexists _; isplitr
    swap; · iexact HS0
    ipureintro; rw [wr_s, rd_h, rd_w, rd_b]; sl_unfold_run_names; rw [rc_s]
  iexists _; isplitr
  swap; · iexact HS1
  ipureintro; rw [wr_s, rd_h, rd_w, rd_b]; sl_unfold_run_names; rw [rc_s, rc_s]

set_option maxHeartbeats 4000000 in
/-- The body in the case of a middle column tile (only the second conditional taken): on whole memrefs, the three inputs' at contents x0, x1, x2, the
    logits buffer at anything, the statistics buffers at x4, x5 and the two scratch columns at ms, ls, it runs to the
    continuation holding the inputs' as they were, the logits buffer at the tile's logits and the scratch columns at the running maximum and sum updated from ms, ls, the statistics buffers untouched.
    Each buffer ends at the payload of the last whole-buffer store into it; a load of a scratch column after a store
    in the same run reads the stored payload. -/
theorem runB (c : Dev nD) (i : grid1.Coords) (arg2 : Memref sig .tc .vmem S4096x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S4096x256 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S4096x1 .f32) (harg8 : arg8.IsWhole) (arg9 : Memref sig .tc .vmem S4096x1 .f32) (harg9 : arg9.IsWhole)
    (hc0 : ¬cond1_0 i) (hc1 : cond1_1 i) (hc2 : ¬cond1_2 i)
    (x0 : Vec F S4096x1024 .bf16) (x1 : Vec F S1024x256 .f32) (x2 : Vec F S1x256 .f32)
    (x4 x5 : Vec F S1x4096x1 .f32) (ms ls : Vec F S4096x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare x5
        ∗ owns (c : Thread nD τ) arg8 fullShare ms ∗ owns (c : Thread nD τ) arg9 fullShare ls
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x0 x1 x2) ∗ owns (c : Thread nD τ) arg6 fullShare x4 ∗ owns (c : Thread nD τ) arg7 fullShare x5
            ∗ owns (c : Thread nD τ) arg8 fullShare (k1_pay6 x0 x1 x2 ms) ∗ owns (c : Thread nD τ) arg9 fullShare (k1_pay5 x0 x1 x2 ms ms ls)) -∗ K ⟨⟩))
      ⊢ wp frame (wpE (defs₀ (F := F)) Variants.none c none) E (cc1__mlp2_kernel i arg2 harg2 arg3 harg3 arg4 harg4 arg5 harg5 arg6 harg6 arg7 harg7 arg8 harg8 arg9 harg9) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
  subst hf0; subst hf1; subst hf2; subst hf4; subst hf5; subst hfs0; subst hfs1
  sl_exec (disch := first | exact hc0 | exact hc1 | exact hc2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro; rw [wr_o, rd_h, rd_w, rd_b]
  isplitl [H4]; · iexists _; isplitr; · ipureintro; rfl
                  iexact H4
  isplitl [H5]; · iexists _; isplitr; · ipureintro; rfl
                  iexact H5
  isplitl [HS0]
  · iexists _; isplitr
    swap; · iexact HS0
    ipureintro; rw [wr_s, rd_h, rd_w, rd_b, rd_s]
  iexists _; isplitr
  swap; · iexact HS1
  ipureintro; rw [wr_s, rd_h, rd_w, rd_b, rd_s, rd_s]

set_option maxHeartbeats 4000000 in
/-- The body in the case of the last column tile of a half (only the third conditional taken): on whole memrefs, the three inputs' at contents x0, x1, x2, the
    logits buffer at anything, the statistics buffers at x4, x5 and the two scratch columns at ms, ls, it runs to the
    continuation holding the inputs' as they were, the logits buffer at the tile's logits and the scratch columns at the masked update from ms, ls, the two statistics buffers at the reshaped final maximum and sum.
    Each buffer ends at the payload of the last whole-buffer store into it; a load of a scratch column after a store
    in the same run reads the stored payload. -/
theorem runC (c : Dev nD) (i : grid1.Coords) (arg2 : Memref sig .tc .vmem S4096x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S4096x256 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S4096x1 .f32) (harg8 : arg8.IsWhole) (arg9 : Memref sig .tc .vmem S4096x1 .f32) (harg9 : arg9.IsWhole)
    (hc0 : ¬cond1_0 i) (hc1 : ¬cond1_1 i) (hc2 : cond1_2 i)
    (x0 : Vec F S4096x1024 .bf16) (x1 : Vec F S1024x256 .f32) (x2 : Vec F S1x256 .f32)
    (x4 x5 : Vec F S1x4096x1 .f32) (ms ls : Vec F S4096x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare x5
        ∗ owns (c : Thread nD τ) arg8 fullShare ms ∗ owns (c : Thread nD τ) arg9 fullShare ls
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x0 x1 x2) ∗ owns (c : Thread nD τ) arg6 fullShare (k1_pay12 (k1_pay11 (BitVec.ofNat 32 (i 0).val) (BitVec.ofNat 32 (i 1).val) (k1_pay3 x0 x1 x2) ms)) ∗ owns (c : Thread nD τ) arg7 fullShare (k1_pay7 (k1_pay10 (BitVec.ofNat 32 (i 0).val) (BitVec.ofNat 32 (i 1).val) (k1_pay3 x0 x1 x2) ms ms ls))
            ∗ owns (c : Thread nD τ) arg8 fullShare (k1_pay11 (BitVec.ofNat 32 (i 0).val) (BitVec.ofNat 32 (i 1).val) (k1_pay3 x0 x1 x2) ms) ∗ owns (c : Thread nD τ) arg9 fullShare (k1_pay10 (BitVec.ofNat 32 (i 0).val) (BitVec.ofNat 32 (i 1).val) (k1_pay3 x0 x1 x2) ms ms ls)) -∗ K ⟨⟩))
      ⊢ wp frame (wpE (defs₀ (F := F)) Variants.none c none) E (cc1__mlp2_kernel i arg2 harg2 arg3 harg3 arg4 harg4 arg5 harg5 arg6 harg6 arg7 harg7 arg8 harg8 arg9 harg9) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
  subst hf0; subst hf1; subst hf2; subst hf4; subst hf5; subst hfs0; subst hfs1
  sl_exec (disch := first | exact hc0 | exact hc1 | exact hc2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro; rw [wr_o, rd_h, rd_w, rd_b]
  isplitl [H4]
  · iexists _; isplitr
    swap; · iexact H4
    ipureintro; sl_unfold_run_names; rw [wr_t, rc_s, rd_h, rd_w, rd_b, rd_s]
  isplitl [H5]
  · iexists _; isplitr
    swap; · iexact H5
    ipureintro; sl_unfold_run_names; rw [wr_t, rc_s, rd_h, rd_w, rd_b, rd_s, rd_s]
  isplitl [HS0]
  · iexists _; isplitr
    swap; · iexact HS0
    ipureintro; sl_unfold_run_names; rw [wr_s, rd_h, rd_w, rd_b, rd_s]
  iexists _; isplitr
  swap; · iexact HS1
  ipureintro; sl_unfold_run_names; rw [wr_s, rd_h, rd_w, rd_b, rd_s, rd_s]

/-! ## The body obligation -/

/-- The relations of the proof data, window by window. -/
theorem after1_0 (S : Dev nD → Spec1 F) (c : Dev nD) (t : Fin cfg1.N) (Y X : (cfg1.win 0).block.Idx → Elt F (cfg1.win 0).elt) :
    (rdat1 V S c).after 0 t Y X ↔ X = Y := Iff.rfl
theorem after1_1 (S : Dev nD → Spec1 F) (c : Dev nD) (t : Fin cfg1.N) (Y X : (cfg1.win 1).block.Idx → Elt F (cfg1.win 1).elt) :
    (rdat1 V S c).after 1 t Y X ↔ X = Y := Iff.rfl
theorem after1_2 (S : Dev nD → Spec1 F) (c : Dev nD) (t : Fin cfg1.N) (Y X : (cfg1.win 2).block.Idx → Elt F (cfg1.win 2).elt) :
    (rdat1 V S c).after 2 t Y X ↔ X = Y := Iff.rfl
theorem after1_3 (S : Dev nD → Spec1 F) (c : Dev nD) (t : Fin cfg1.N) (Y X : (cfg1.win 3).block.Idx → Elt F (cfg1.win 3).elt) :
    (rdat1 V S c).after 3 t Y X ↔ (S c).O3 t X := Iff.rfl
theorem after1_4 (S : Dev nD → Spec1 F) (c : Dev nD) (t : Fin cfg1.N) (Y X : (cfg1.win 4).block.Idx → Elt F (cfg1.win 4).elt) :
    (rdat1 V S c).after 4 t Y X ↔ (if t.val % 98 = 97 then (S c).O4 t X else X = Y) := Iff.rfl
theorem after1_5 (S : Dev nD → Spec1 F) (c : Dev nD) (t : Fin cfg1.N) (Y X : (cfg1.win 5).block.Idx → Elt F (cfg1.win 5).elt) :
    (rdat1 V S c).after 5 t Y X ↔ (if t.val % 98 = 97 then (S c).O5 t X else X = Y) := Iff.rfl

set_option maxHeartbeats 4000000 in
/-- The body at any point t, the windows' buffers at any contents Y they may hold: the closed forms of the three
    conditions say which control case the point is in; that case's run applies, the invariant handing it the two scratch
    columns at contents ms, ls its predicate admits; the case's pure obligation then gives the invariant's predicate
    of the columns the run leaves and the output windows' predicates of what it leaves in their buffers; the input
    windows' buffers (and, off the last column tile, the statistics windows') come back as found. -/
theorem sound_body1 (S : Dev nD → Spec1 F) (c : Dev nD) (hS : Steps V S c) (t : Fin cfg1.N)
    (Y : (w : Fin cfg1.W) → (cfg1.win w).block.Idx → Elt F (cfg1.win w).elt) (hY : ∀ w, (rdat1 V S c).Finds w t (Y w)) :
    iprop((rdat1 V S c).Φ t.castSucc ∗ (rdat1 V S c).owesAt () t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5))
      ⊢ wp frame (wpE (defs₀ (F := F)) Variants.none c none) Set.univ (bodyAt1 t) (fun _ =>
          iprop((rdat1 V S c).Φ t.succ ∗ (rdat1 V S c).owesAt () t.succ
            ∗ (∃ X, ⌜(rdat1 V S c).after 0 t (Y 0) X⌝ ∗ owns (c : Thread nD τ) (st1_0 t) fullShare X)
            ∗ (∃ X, ⌜(rdat1 V S c).after 1 t (Y 1) X⌝ ∗ owns (c : Thread nD τ) (st1_1 t) fullShare X)
            ∗ (∃ X, ⌜(rdat1 V S c).after 2 t (Y 2) X⌝ ∗ owns (c : Thread nD τ) (st1_2 t) fullShare X)
            ∗ (∃ X, ⌜(rdat1 V S c).after 3 t (Y 3) X⌝ ∗ owns (c : Thread nD τ) (st1_3 t) fullShare X)
            ∗ (∃ X, ⌜(rdat1 V S c).after 4 t (Y 4) X⌝ ∗ owns (c : Thread nD τ) (st1_4 t) fullShare X)
            ∗ (∃ X, ⌜(rdat1 V S c).after 5 t (Y 5) X⌝ ∗ owns (c : Thread nD τ) (st1_5 t) fullShare X))) := by
  unfold bodyAt1
  rw [show (rdat1 V S c).owesAt () t.succ = (rdat1 V S c).owesAt () t.castSucc from rfl]
  rw [show (rdat1 V S c).Φ t.castSucc = Φ1 S c t.castSucc from rfl, show (rdat1 V S c).Φ t.succ = Φ1 S c t.succ from rfl]
  unfold Φ1
  iintro ⟨⟨HR, ⟨%ms, %ls, %hinv, HS0, HS1⟩, Hg⟩, Ho, H0, H1, H2, H3, H4, H5⟩
  by_cases h0 : t.val % 98 = 0
  · have h97 : ¬t.val % 98 = 97 := by omega
    have hc0 : cond1_0 (grid1.coords t) := (hcond1_0 t).mpr h0
    have hc1 : cond1_1 (grid1.coords t) := (hcond1_1 t).mpr h97
    have hc2 : ¬cond1_2 (grid1.coords t) := fun h => h97 ((hcond1_2 t).mp h)
    obtain ⟨hI, hO3⟩ := hS.stepA t Y hY h0 ms ls hinv
    iapply (runA c (grid1.coords t) _ _ _ _ _ _ _ _ _ _ _ _ _ _ _ _ hc0 hc1 hc2 (Y 0) (Y 1) (Y 2) (Y 4) (Y 5) ms ls Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HR HS0 HS1 Hg]
    · isplitl [HR]; · iexact HR
      isplitl [HS0 HS1]
      · iexists _, _; isplitr; · ipureintro; exact hI
        isplitl [HS0]; · iexact HS0
        iexact HS1
      iexact Hg
    isplitl [Ho]; · iexact Ho
    isplitl [H0]; · iexists (Y 0); isplitr; · ipureintro; exact (after1_0 V S c t _ _).mpr rfl
                    iexact H0
    isplitl [H1]; · iexists (Y 1); isplitr; · ipureintro; exact (after1_1 V S c t _ _).mpr rfl
                    iexact H1
    isplitl [H2]; · iexists (Y 2); isplitr; · ipureintro; exact (after1_2 V S c t _ _).mpr rfl
                    iexact H2
    isplitl [H3]; · iexists _; isplitr; · ipureintro; exact (after1_3 V S c t _ _).mpr hO3
                    iexact H3
    isplitl [H4]; · iexists (Y 4); isplitr; · ipureintro; exact (after1_4 V S c t _ _).mpr (by rw [if_neg h97])
                    iexact H4
    iexists (Y 5); isplitr; · ipureintro; exact (after1_5 V S c t _ _).mpr (by rw [if_neg h97])
    iexact H5
  · by_cases h97 : t.val % 98 = 97
    · have hc0 : ¬cond1_0 (grid1.coords t) := fun h => h0 ((hcond1_0 t).mp h)
      have hc1 : ¬cond1_1 (grid1.coords t) := fun h => (hcond1_1 t).mp h h97
      have hc2 : cond1_2 (grid1.coords t) := (hcond1_2 t).mpr h97
      obtain ⟨hI, hO3, hO4, hO5⟩ := hS.stepC t Y hY h97 ms ls hinv
      iapply (runC c (grid1.coords t) _ _ _ _ _ _ _ _ _ _ _ _ _ _ _ _ hc0 hc1 hc2 (Y 0) (Y 1) (Y 2) (Y 4) (Y 5) ms ls Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HR HS0 HS1 Hg]
      · isplitl [HR]; · iexact HR
        isplitl [HS0 HS1]
        · iexists _, _; isplitr; · ipureintro; exact hI
          isplitl [HS0]; · iexact HS0
          iexact HS1
        iexact Hg
      isplitl [Ho]; · iexact Ho
      isplitl [H0]; · iexists (Y 0); isplitr; · ipureintro; exact (after1_0 V S c t _ _).mpr rfl
                      iexact H0
      isplitl [H1]; · iexists (Y 1); isplitr; · ipureintro; exact (after1_1 V S c t _ _).mpr rfl
                      iexact H1
      isplitl [H2]; · iexists (Y 2); isplitr; · ipureintro; exact (after1_2 V S c t _ _).mpr rfl
                      iexact H2
      isplitl [H3]; · iexists _; isplitr; · ipureintro; exact (after1_3 V S c t _ _).mpr hO3
                      iexact H3
      isplitl [H4]; · iexists _; isplitr; · ipureintro; exact (after1_4 V S c t _ _).mpr (by rw [if_pos h97]; exact hO4)
                      iexact H4
      iexists _; isplitr; · ipureintro; exact (after1_5 V S c t _ _).mpr (by rw [if_pos h97]; exact hO5)
      iexact H5
    · have hc0 : ¬cond1_0 (grid1.coords t) := fun h => h0 ((hcond1_0 t).mp h)
      have hc1 : cond1_1 (grid1.coords t) := (hcond1_1 t).mpr h97
      have hc2 : ¬cond1_2 (grid1.coords t) := fun h => h97 ((hcond1_2 t).mp h)
      obtain ⟨hI, hO3⟩ := hS.stepB t Y hY h0 h97 ms ls hinv
      iapply (runB c (grid1.coords t) _ _ _ _ _ _ _ _ _ _ _ _ _ _ _ _ hc0 hc1 hc2 (Y 0) (Y 1) (Y 2) (Y 4) (Y 5) ms ls Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HR HS0 HS1 Hg]
      · isplitl [HR]; · iexact HR
        isplitl [HS0 HS1]
        · iexists _, _; isplitr; · ipureintro; exact hI
          isplitl [HS0]; · iexact HS0
          iexact HS1
        iexact Hg
      isplitl [Ho]; · iexact Ho
      isplitl [H0]; · iexists (Y 0); isplitr; · ipureintro; exact (after1_0 V S c t _ _).mpr rfl
                      iexact H0
      isplitl [H1]; · iexists (Y 1); isplitr; · ipureintro; exact (after1_1 V S c t _ _).mpr rfl
                      iexact H1
      isplitl [H2]; · iexists (Y 2); isplitr; · ipureintro; exact (after1_2 V S c t _ _).mpr rfl
                      iexact H2
      isplitl [H3]; · iexists _; isplitr; · ipureintro; exact (after1_3 V S c t _ _).mpr hO3
                      iexact H3
      isplitl [H4]; · iexists (Y 4); isplitr; · ipureintro; exact (after1_4 V S c t _ _).mpr (by rw [if_neg h97])
                      iexact H4
      iexists (Y 5); isplitr; · ipureintro; exact (after1_5 V S c t _ _).mpr (by rw [if_neg h97])
      iexact H5

end K1

/-- The body obligation of the relational data, from the pure obligations. -/
theorem body_obligation1 (S : Dev nD → Spec1 F) (c : Dev nD) (hS : Steps V S c) :
    (rdat1 V S c).BodyObligation (defs₀ (F := F)) Variants.none () Set.univ := fun t Y hY => by
  rw [bigSep_W1, bigSep_W1]
  exact K1.sound_body1 V S c hS t Y hY

end Cert.Kernel.H

end
-- ==== Proof.LibRDatExit.lean ====
/-
  The exit of a kernel region whose proof data constrains, rather than names, what the body leaves.

  At the end of such a region each windowed array is held at SOME contents it may have after the write-backs
  (the proof data's ArrAt at the exit point), one existential per window. A thread state that keeps every
  unscoped buffer of the core at ONE valuation needs the arrays back among them: this file gathers the
  per-window choices into one family of contents F, satisfying ArrAt window by window, and rebuilds the core's
  unscoped buffers at the old valuation overwritten by F on the arrays and untouched elsewhere.

  Beside it: for an input window the only contents ArrAt admits are the entry contents.
-/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

namespace Pipeline

open PCS
open Idealize.ShloMosaic.Rounds

variable {Λ₀ : SL.Sem.Labels} {P : Type}

namespace RDat

section OneDatum

variable {cfg : Cfg sig Λ₀} {c : Dev nD} (rd : RDat τ Val Ix Name U Lvl cfg c)

/-- An input window is never written back, so whatever its array may hold after any number of points is what it
    held at entry. -/
theorem eq_A_of_ArrAt_in {w : Fin cfg.W} (hin : (cfg.win w).isOut = false) {n : Nat}
    {F : Buf Val ((cfg.win w).arr.view.loc (c.tc : Thread nD τ))} (h : rd.ArrAt w n F) : F = rd.A w := by
  have e := rd.ArrAt_in w hin n
  rw [e] at h
  exact h

/-- The windows' separate choices of contents, gathered: one family F with ArrAt of every member, and the
    arrays held at F. -/
theorem arraysAt_gather [∀ e, Nonempty (Val e)] (n : Nat) :
    rd.arraysAt n
      ⊢ (iprop(∃ F : (w : Fin cfg.W) → Buf Val ((cfg.win w).arr.view.loc (c.tc : Thread nD τ)),
            ⌜∀ w, rd.ArrAt w n (F w)⌝ ∗ rd.arrays F) : sProp 𝕄) := by
  classical
  unfold RDat.arraysAt RDat.arrays
  iintro H
  -- a choice function in place of a choice per window
  ihave H := (BI.bigSep_exists_pi Finset.univ (fun w G => iprop(⌜rd.ArrAt w n G⌝
      ∗ (cfg.win w).arr.view.loc (c.tc : Thread nD τ) ↦[(cfg.win w).arr.view.set]{rd.share w} G))) $$ H
  icases H with ⟨%F, H⟩
  -- the pure facts about its members, out of the conjunction
  ihave H := (BI.bigSep_pure_sep Finset.univ (fun w => rd.ArrAt w n (F w))
      (fun w => (cfg.win w).arr.view.loc (c.tc : Thread nD τ) ↦[(cfg.win w).arr.view.set]{rd.share w} F w)) $$ H
  icases H with ⟨%hF, H⟩
  iexists F
  isplitr
  · ipureintro; exact fun w => hF w (Finset.mem_univ w)
  · iexact H

end OneDatum

section Uniform

variable (pcs : P → PCfg sig Λ₀ Val) (a : (p : P) → (pcs p).Adm)
  (rdats : (p : P) → (c : Dev nD) → RDat τ Val Ix Name U Lvl (pin pcs a p) c)

/-- The arrays at contents F and the unscoped rest at V are the core's unscoped buffers at any V' that has the
    arrays at F and agrees with V off them (the relational data's form of the exact data's exit lemma). -/
theorem unscopedBufs_of_arrays {p : P} (hw : WinFacts (pin pcs a p).spec) (harr : ∀ w, ((pin pcs a p).spec w).arr.IsWhole)
    (c : Dev nD) (hshare : ∀ w, (rdats p c).share w = fullShare)
    (V V' : (b : Ref sig .tc) → Buf Val ((c.tc : Thread nD τ).loc b))
    (F : (w : Fin (pin pcs a p).W) → Buf Val (((pin pcs a p).spec w).arr.view.loc (c.tc : Thread nD τ)))
    (hF : ∀ w, V' (arrRef (pin pcs a p).spec w) = F w)
    (hrest : ∀ b, b ∉ Finset.univ.image (arrRef (pin pcs a p).spec) → V' b = V b) :
    iprop((rdats p c).arrays F ∗ unscopedRest (pin pcs a p).spec c V) ⊢ (unscopedBufs c V' : sProp 𝕄) := by
  rw [unscopedBufs_split (pin pcs a) p hw.arr_unscoped hw.arr_inj c V', arrays_eq pcs a rdats p c harr hshare]
  have hrest' : (unscopedRest (pin pcs a p).spec c V : sProp 𝕄) = unscopedRest (pin pcs a p).spec c V' := by
    unfold unscopedRest
    exact bigSep_congr fun b hb => by rw [hrest b (Finset.mem_sdiff.mp hb).2]
  rw [hrest']
  exact sep_mono (Entails.of_eq (bigSep_congr fun w _ => by rw [hF])) .rfl

/-- EXIT, the arrays' part, for relational proof data: the arrays at some contents they may hold after the
    write-backs below n and the unscoped rest at the valuation W are, for SOME family F of such contents, the core's
    unscoped buffers at W overwritten by F on the arrays. -/
theorem unscopedBufs_of_arraysAt [∀ e, Nonempty (Val e)] {p : P} (hw : WinFacts (pin pcs a p).spec)
    (harr : ∀ w, ((pin pcs a p).spec w).arr.IsWhole)
    (c : Dev nD) (hshare : ∀ w, (rdats p c).share w = fullShare) (n : Nat) (W : Valuation τ sig Val) :
    iprop((rdats p c).arraysAt n ∗ unscopedRest (pin pcs a p).spec c (fun b => W b))
      ⊢ (iprop(∃ F : (w : Fin (pin pcs a p).W) → Buf Val (((pin pcs a p).spec w).arr.view.loc (c.tc : Thread nD τ)),
            ⌜∀ w, (rdats p c).ArrAt w n (F w)⌝ ∗ unscopedBufs c (fun b => Pipeline.withArrays (pin pcs a p).spec c W F b)) : sProp 𝕄) := by
  iintro ⟨Ha, Hr⟩
  ihave Ha := (rdats p c).arraysAt_gather n $$ Ha
  icases Ha with ⟨%F, %hF, Ha⟩
  iexists F
  isplitr
  · ipureintro; exact hF
  · iapply (unscopedBufs_of_arrays pcs a rdats hw harr c hshare (fun b => W b)
      (fun b => Pipeline.withArrays (pin pcs a p).spec c W F b) F
      (fun w => withArrays_arr (pin pcs a p).spec hw.arr_inj c W F w)
      (fun b hb => withArrays_of_ne (pin pcs a p).spec c W F b fun w e => hb (Finset.mem_image.mpr ⟨w, Finset.mem_univ w, e⟩)))
    isplitl [Ha]
    · iexact Ha
    · iexact Hr

end Uniform

end RDat

end Pipeline

end Idealize.ShloMosaic
-- ==== Proof.K.Run.lean ====
/-
  The whole program's run: @main as host stretches and the two kernel regions, launched once. The first region's
  proof data is exact, so the contents it leaves are named; the second region's is relational, so its three
  output arrays end at SOME contents F the proof data admits (ArrAt), and the host stretches after it run from
  the valuation built over that F. The post: on every core, for some such F, every unscoped buffer holds what
  the last stretch leaves.
-/
import proofs.«422837_j27685359190570_3_alg».proof.Proof.K.Body0
import proofs.«422837_j27685359190570_3_alg».proof.Proof.K.Body1
import proofs.«422837_j27685359190570_3_alg».proof.Proof.LibRDatExit
import proofs.«422837_j27685359190570_3_alg».proof.Proof.Gen.Kernel.Regions
import Idealize.ShloMosaic.Lib.Pipeline.RegionsLoop
import Idealize.ShloMosaic.Lib.Pipeline.FrameSuffix

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch, -/
abbrev W0 : Dev nD → Valuation τ sig (Elt F) := fun c b => m (c, b)
/-- after the first host stretch (the first region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit: its arrays at what the write-backs leave, -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- after the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- A family of contents for the second region's six arrays on core c. -/
abbrev Fam1 (c : Dev nD) : Type := (w : Fin cfg1.W) → Buf (Elt F) ((cfg1.win w).arr.view.loc (c.tc : Thread nD τ))

/-- At the second region's exit, given the contents Fo its arrays end at, -/
def W4 (c : Dev nD) (Fo : Fam1 (F := F) c) : Valuation τ sig (Elt F) := Pipeline.withArrays spec1 c (W3 m c) Fo
/-- and after the three host stretches that follow it. -/
abbrev W5 (c : Dev nD) (Fo : Fam1 (F := F) c) : Valuation τ sig (Elt F) := StableHlo.after hostOps2 (W4 m c Fo)
abbrev W6 (c : Dev nD) (Fo : Fam1 (F := F) c) : Valuation τ sig (Elt F) := StableHlo.after hostOps2_1 (W5 m c Fo)
abbrev W7 (c : Dev nD) (Fo : Fam1 (F := F) c) : Valuation τ sig (Elt F) := StableHlo.after hostOps2_2 (W6 m c Fo)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (Fo : Fam1 (F := F) c) (w : Fin cfg1.W) :
    W4 m c Fo (Proc.devRef .tc (Pipeline.arrRef spec1 w)) = Fo w := by
  unfold W4; exact Pipeline.withArrays_arr spec1 launch1.win.arr_inj c _ _ w
theorem W4_of_ne (c : Dev nD) (Fo : Fam1 (F := F) c) (b : Ref sig .tc) (hb : ∀ w, Pipeline.arrRef spec1 w ≠ b) :
    W4 m c Fo (Proc.devRef .tc b) = W3 m c (Proc.devRef .tc b) := by
  unfold W4; exact Pipeline.withArrays_of_ne spec1 c _ _ b hb

/-! ## The proof data family and the thread state -/

/-- Every pipeline's proof data: the first kernel's exact data read as relational data, the second kernel's
    relational data, each at its region's entry contents. -/
def rdats (S : Dev nD → Spec1 F) : (p : Fin 2) → (c : Dev nD) → RDat τ (Elt F) Unit ℕ (UR sig nD τ) ℕ (Pipeline.pin (pcfgs (F := F)) adm p) c
  | ⟨0, _⟩ => fun c => (dat0 (V1 m) c).toR
  | ⟨1, _⟩ => fun c => rdat1 (V3 m) S c

abbrev 𝒱₀ : Variants := Variants.none
abbrev L : GSem nD τ sig → Finset Unit := fun _ => ∅
abbrev lv : GSem nD τ sig → Unit → ℕ := fun _ _ => 0

/-- What rides beside the buffers through every segment: the generator register at some state and the core owing
    nothing. -/
abbrev R (c : Dev nD) : sProp 𝕄 := iprop((∃ r, prngReg c r) ∗ ∃ W, owes (c : Thread nD τ) (0 : CellTallies nD τ sig Unit) W)

/-- A host stretch from a named valuation. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The thread state after the second region: for SOME contents Fo of its arrays that the proof data admits after
    every write-back, every unscoped buffer at the valuation `W c Fo`; the rest riding along. -/
def TEx (S : Dev nD → Spec1 F) (W : (c : Dev nD) → Fam1 (F := F) c → Valuation τ sig (Elt F)) (c : Dev nD) : sProp 𝕄 :=
  iprop(∃ Fo : Fam1 (F := F) c, ⌜∀ w, (rdat1 (V3 m) S c).ArrAt w cfg1.N (Fo w)⌝
    ∗ StableHlo.held (c : Thread nD τ) (Pipeline.ucRefs τ sig) (W c Fo) ∗ R c)

-- the StableHLO rule is stated for any thread; at the TensorCore thread it unifies only when unification may unfold
-- plain definitions in a metavariable's type
set_option backward.isDefEq.respectTransparency.types false in
/-- A host stretch run from the existentially quantified thread state: it runs from every member. -/
def hsegEx (S : Dev nD → Spec1 F) (ops : List (HloOp τ sig (Elt F))) (hsub : ops.Forall fun op => op.bufs ⊆ StableHlo.tcRefs τ sig)
    (hfresh : ops.Forall fun op => op.fresh = ∅) (W : (c : Dev nD) → Fam1 (F := F) c → Valuation τ sig (Elt F)) :
    Pipeline.HostSeg (Name := ℕ) (U := UR sig nD τ) (pcfgs (F := F)) defs₀ 𝒱₀ L lv where
  prog := StableHlo.seq ops
  pre c := TEx m S W c
  post c := TEx m S (fun c Fo => StableHlo.after ops (W c Fo)) c
  run c {β} k K := by
    unfold TEx
    iintro ⟨Hk, Hbd, ⟨%Fo, %hFo, Hh, HR⟩, Hla⟩
    have hrun := (hseg ops hsub hfresh (fun c' => if c' = c then W c Fo else W0 m c')).run c k K
    dsimp only [hseg, Pipeline.HostSeg.ofOps] at hrun
    rw [if_pos rfl] at hrun
    iapply hrun
    isplitl [Hk]
    · iintro ⟨Hbd, Hh, HR⟩
      iapply Hk
      isplitl [Hbd]; · iexact Hbd
      iexists Fo
      isplitr; · ipureintro; exact hFo
      isplitl [Hh]; · iexact Hh
      iexact HR
    isplitl [Hbd]; · iexact Hbd
    isplitr [Hla]
    · isplitl [Hh]; · iexact Hh
      iexact HR
    · iexact Hla

/-- The relational data's share of every array is the full one. -/
theorem share_full (S : Dev nD → Spec1 F) (p : Fin 2) (c : Dev nD) (w) : (rdats m S p c).share w = fullShare := by
  match p with
  | ⟨0, _⟩ => unfold RDat.share; split <;> rfl
  | ⟨1, _⟩ => unfold RDat.share; split <;> rfl

theorem hF0 (c : Dev nD) (w : Fin cfg0.W) : V2 m c (Pipeline.arrRef spec0 w) = (dat0 (V1 m) c).arrAt w cfg0.N :=
  W2_arr m c w
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
/-- REGION 0: entered from every unscoped buffer at W1, left at W2. -/
def reg0 (S : Dev nD → Spec1 F) : Pipeline.RDat.RegionSeg (pcfgs (F := F)) adm (rdats m S) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m S) launch0.win launch0.arr_whole c
      (share_full m S 0 c) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m S 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m S 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.RDat.unscopedBufs_of_arrays (p := 0) (pcfgs (F := F)) adm (rdats m S) (Ix := Unit) (Name := ℕ) (U := UR sig nD τ) (Lvl := ℕ)
      launch0.win launch0.arr_whole c (share_full m S 0 c)
      (V1 m c) (V2 m c) (fun w => (dat0 (V1 m) c).arrAt w cfg0.N) (hF0 m c) (hrest0 m c)
    rw [Pipeline.unscopedBufs_held] at hjoin
    have hpost := Pipeline.Dat.toR_arraysAt_post (Ix := Unit) (Name := ℕ) (U := UR sig nD τ) (Lvl := ℕ) (dat0 (V1 m) c) cfg0.N
    rw [show (rdats m S 0 c).arraysAt (Pipeline.pin (pcfgs (F := F)) adm 0).N = (dat0 (V1 m) c).toR.arraysAt cfg0.N from rfl]
    iintro ⟨Ha, HO, HY, Hrest⟩
    ihave Ha := hpost $$ Ha
    imodintro
    isplitl [Ha Hrest]
    · iapply hjoin
      isplitl [Ha]
      · iapply (show ((dat0 (V1 m) c).arrays (fun w => (dat0 (V1 m) c).arrAt w cfg0.N) : sProp 𝕄)
            ⊢ (rdats m S 0 c).arrays (fun w => (dat0 (V1 m) c).arrAt w cfg0.N) from .rfl)
        iexact Ha
      · iexact Hrest
    isplitl [HY]; · iexact HY
    unfold Pipeline.RDat.owesAt Pipeline.owesWithin
    icases HO with ⟨%W, -, HO⟩; iexists W; iexact HO

set_option backward.isDefEq.respectTransparency.types false in
/-- REGION 1: entered from every unscoped buffer at W3; left, for some contents of its arrays that the relational
    data admits, at W4 of them. -/
def reg1 (S : Dev nD → Spec1 F) (hS : ∀ c, Steps (V3 m) S c) : Pipeline.RDat.RegionSeg (pcfgs (F := F)) adm (rdats m S) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) S c (hS c)
  hwaits := Pipeline.RDat.hwaits_of_owed_zero _ _ _ _ L lv 1 fun _ _ => rfl
  pre c := iprop(StableHlo.held (c : Thread nD τ) (Pipeline.ucRefs τ sig) (W3 m c) ∗ R c)
  post c := TEx m S (W4 m) c
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m S) launch1.win launch1.arr_whole c
      (share_full m S 1 c) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m S 1 c).Φ 0 = (rdat1 (V3 m) S c).Φ 0 from rfl]
    iintro ⟨Hp, -, Hr⟩
    iapply (hin1 (V3 m) S c (hS c).inv0)
    unfold Pipeline.ΦA
    isplitl [Hr]; · iexact Hr
    iexact Hp
  hout c := by
    rw [Pipeline.ownSems0_none, show (rdats m S 1 c).Φ (Fin.last (Pipeline.pin (pcfgs (F := F)) adm 1).N) = (rdat1 (V3 m) S c).Φ (Fin.last cfg1.N) from rfl]
    iintro H
    ihave H := (hout1 (V3 m) S c (Fin.last cfg1.N)) $$ H
    unfold Pipeline.ΦA
    icases H with ⟨Hr, Hp⟩
    isplitl [Hp]; · iexact Hp
    isplitr; · iempintro
    iexact Hr
  hexit c := by
    have hjoin := Pipeline.RDat.unscopedBufs_of_arraysAt (p := 1) (pcfgs (F := F)) adm (rdats m S) (Ix := Unit) (Name := ℕ) (U := UR sig nD τ) (Lvl := ℕ)
      launch1.win launch1.arr_whole c (share_full m S 1 c) cfg1.N (W3 m c)
    simp only [Pipeline.unscopedBufs_held] at hjoin
    iintro ⟨Ha, HO, HY, Hrest⟩
    ihave H := hjoin $$ [Ha Hrest]
    · isplitl [Ha] <;> iassumption
    icases H with ⟨%Fo, %hFo, Hub⟩
    imodintro
    unfold TEx
    iexists Fo
    isplitr; · ipureintro; exact hFo
    isplitl [Hub]; · iexact Hub
    isplitl [HY]; · iexact HY
    unfold Pipeline.RDat.owesAt Pipeline.owesWithin
    icases HO with ⟨%W, -, HO⟩; iexists W; iexact HO

/-! ## @main as segments, and the launch -/

/-- @main's seven segments in order. -/
abbrev segs (S : Dev nD → Spec1 F) (hS : ∀ c, Steps (V3 m) S c) :
    List (Pipeline.RDat.Seg (pcfgs (F := F)) adm (rdats m S) () defs₀ 𝒱₀ L lv) :=
  [ .host (hseg hostOps0 hostOps0_sub hostOps0_fresh (W0 m)),
    .region (reg0 m S),
    .host (hseg hostOps1 hostOps1_sub hostOps1_fresh (W2 m)),
    .region (reg1 m S hS),
    .host (hsegEx m S hostOps2 hostOps2_sub hostOps2_fresh (W4 m)),
    .host (hsegEx m S hostOps2_1 hostOps2_1_sub hostOps2_1_fresh (W5 m)),
    .host (hsegEx m S hostOps2_2 hostOps2_2_sub hostOps2_2_fresh (W6 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes. -/
def Tₙ (S : Dev nD → Spec1 F) (c : Dev nD) : sProp 𝕄 :=
  iprop(∃ Fo : Fam1 (F := F) c, ⌜∀ w, (rdat1 (V3 m) S c).ArrAt w cfg1.N (Fo w)⌝
    ∗ StableHlo.held (c : Thread nD τ) (Pipeline.ucRefs τ sig) (W7 m c Fo) ∗ ∃ r, prngReg c r)

set_option backward.isDefEq.respectTransparency.types false in
/-- THE RUN. From any memory with zero counters every weakly fair execution of @main terminates, and on every core,
    for some contents Fo of the second region's arrays that its relational data admits after every write-back,
    every unscoped buffer of the final memory holds what the last host stretch leaves over Fo. -/
theorem run_all (S : Dev nD → Spec1 F) (hS : ∀ c, Steps (V3 m) S c) :
    θ_run defs (onTc (τ := τ) (main (F := F))) ⟨m, fun _ => 0, ρ⟩ (fun r => ∀ c : Dev nD,
      ∃ Fo : Fam1 (F := F) c, (∀ w, (rdat1 (V3 m) S c).ArrAt w cfg1.N (Fo w))
        ∧ ∀ b ∈ Pipeline.ucRefs τ sig, r.2.mem (((c : Thread nD τ)).1, b) = W7 m c Fo b) :=
  Pipeline.RDat.θ_run_regions_kit (pcfgs (F := F)) adm (rdats m S) () cellOf_inj emb₁ defs₀ 𝒱₀ L lv m ρ main (segs m S hS)
    (fun c Q => by
      rewrite [main_chain c, Pipeline.RDat.Seg.run_eq_chain,
        show (segs m S hS).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m S)
    (hch := ⟨fun _ => .rfl, fun _ => .rfl, fun _ => .rfl, fun _ => .rfl, fun _ => .rfl, fun _ => .rfl, fun _ => .rfl, fun c => by
      show TEx m S (W7 m) c ⊢ _
      unfold TEx Tₙ
      iintro ⟨%Fo, %hFo, Hh, Hp, HO⟩
      isplitr [HO]
      · iexists Fo
        isplitr; · ipureintro; exact hFo
        isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ Fo : Fam1 (F := F) c, (∀ w, (rdat1 (V3 m) S c).ArrAt w cfg1.N (Fo w))
        ∧ ∀ b ∈ Pipeline.ucRefs τ sig, s.mem (((c : Thread nD τ)).1, b) = W7 m c Fo b)
    (hfin := fun c s' => by
      unfold Tₙ
      iintro ⟨⟨%Fo, %hFo, Hh, -⟩, HSI⟩
      unfold StableHlo.held
      ihave Hr := (pointsTo_read_all (Pipeline.ucRefs τ sig) (fun b => (((c : Thread nD τ)).1, b)) (W7 m c Fo) s') $$ [Hh HSI]
      · isplitl [Hh] <;> iassumption
      icases Hr with ⟨%h, HSI⟩
      imodintro
      isplitr
      · ipureintro; exact ⟨Fo, hFo, h⟩
      · iexact HSI)
    (hQ := fun s h c => h c)

end Cert.Kernel.H

end
-- ==== Proof.K.Frames.lean ====
/-
  The frame claim from the run: every argument array ends as launched. No host stretch writes an argument, and a
  region changes only its output arrays; an argument that is an input array of a region (the first region's weights,
  the second region's weights) is among its arrays at the entry contents.
-/
import proofs.«422837_j27685359190570_3_alg».proof.Proof.K.Run

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The specification that claims nothing. -/
def trivSpec : Spec1 F where
  Inv _ _ _ := True
  O3 _ _ := True
  O4 _ _ := True
  O5 _ _ := True

theorem trivSteps (V : (c : Dev nD) → (b : Ref sig .tc) → Buf (Elt F) ((c : Thread nD τ).loc b)) (c : Dev nD) :
    Steps V (fun _ => trivSpec (F := F)) c where
  inv0 _ _ := trivial
  stepA _ _ _ _ _ _ _ := ⟨trivial, trivial⟩
  stepB _ _ _ _ _ _ _ _ := ⟨trivial, trivial⟩
  stepC _ _ _ _ _ _ _ := ⟨trivial, trivial, trivial, trivial⟩

/-- A reference that no host stretch writes and that is, for each region, either none of its arrays or an input
    array of it, holds at the end what it held at launch. -/
theorem W7_kept (S : Dev nD → Spec1 F) (c : Dev nD) (Fo : Fam1 (F := F) c) (hFo : ∀ w, (rdat1 (V3 m) S c).ArrAt w cfg1.N (Fo w))
    (r : Ref sig .tc)
    (h0 : r ∉ hostOps0_W) (h1 : r ∉ hostOps1_W) (h2 : r ∉ hostOps2_W) (h3 : r ∉ hostOps2_1_W) (h4 : r ∉ hostOps2_2_W)
    (hr0 : ∀ w, Pipeline.arrRef spec0 w = r → (cfg0.win w).isOut = false)
    (hr1 : ∀ w, Pipeline.arrRef spec1 w = r → (cfg1.win w).isOut = false) :
    W7 m c Fo (Proc.devRef .tc r) = m ((c : Thread nD τ).loc r) := by
  have e7 : W7 m c Fo (Proc.devRef .tc r) = W6 m c Fo (Proc.devRef .tc r) := StableHlo.after_of_writes_sub hostOps2_2 _ hostOps2_2_writes h4
  have e6 : W6 m c Fo (Proc.devRef .tc r) = W5 m c Fo (Proc.devRef .tc r) := StableHlo.after_of_writes_sub hostOps2_1 _ hostOps2_1_writes h3
  have e5 : W5 m c Fo (Proc.devRef .tc r) = W4 m c Fo (Proc.devRef .tc r) := StableHlo.after_of_writes_sub hostOps2 _ hostOps2_writes h2
  have e4 : W4 m c Fo (Proc.devRef .tc r) = W3 m c (Proc.devRef .tc r) := by
    by_cases hw : ∃ w, Pipeline.arrRef spec1 w = r
    · obtain ⟨w, rfl⟩ := hw
      rw [W4_arr m c Fo w, (rdat1 (V3 m) S c).eq_A_of_ArrAt_in (hr1 w rfl) (hFo w)]
      exact A_eq1 (V3 m) S c w
    · exact W4_of_ne m c Fo r fun w e => hw ⟨w, e⟩
  have e3 : W3 m c (Proc.devRef .tc r) = W2 m c (Proc.devRef .tc r) := StableHlo.after_of_writes_sub hostOps1 _ hostOps1_writes h1
  have e2 : W2 m c (Proc.devRef .tc r) = W1 m c (Proc.devRef .tc r) := by
    by_cases hw : ∃ w, Pipeline.arrRef spec0 w = r
    · obtain ⟨w, rfl⟩ := hw
      rw [W2_arr m c w, (dat0 (V1 m) c).arrAt_in w (hr0 w rfl) _]
      exact A_eq0 (V1 m) c w
    · exact W2_of_ne m c r fun w e => hw ⟨w, e⟩
  have e1 : W1 m c (Proc.devRef .tc r) = W0 m c (Proc.devRef .tc r) := StableHlo.after_of_writes_sub hostOps0 _ hostOps0_writes h0
  rw [e7, e6, e5, e4, e3, e2, e1]

/-- A final memory that holds, at every unscoped buffer, what the last host stretch leaves over contents Fo the
    second region's relational data admits, holds every argument as launched. -/
theorem args_of_mem (S : Dev nD → Spec1 F) (c : Dev nD) (Fo : Fam1 (F := F) c) (hFo : ∀ w, (rdat1 (V3 m) S c).ArrAt w cfg1.N (Fo w))
    (s : MemSt nD τ sig (Elt F)) (hmem : ∀ b ∈ Pipeline.ucRefs τ sig, s.mem (((c : Thread nD τ)).1, b) = W7 m c Fo b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10) := by
  have k : ∀ (a : Ref sig .tc) (hu : ¬ (Proc.devRef .tc a : DevRef τ sig).isScoped)
      (h0 : a ∉ hostOps0_W) (h1 : a ∉ hostOps1_W) (h2 : a ∉ hostOps2_W) (h3 : a ∉ hostOps2_1_W) (h4 : a ∉ hostOps2_2_W)
      (hr0 : ∀ w, Pipeline.arrRef spec0 w = a → (cfg0.win w).isOut = false)
      (hr1 : ∀ w, Pipeline.arrRef spec1 w = a → (cfg1.win w).isOut = false),
      s.mem ((c.tc : Thread nD τ).loc a) = m ((c.tc : Thread nD τ).loc a) :=
    fun a hu h0 h1 h2 h3 h4 hr0 hr1 => (hmem _ (mem_uc a hu)).trans (W7_kept m S c Fo hFo a h0 h1 h2 h3 h4 hr0 hr1)
  exact ⟨k main_arg0 (by decide) (by decide) (by decide) (by decide) (by decide) (by decide) (by decide) (by decide),
    k main_arg1 (by decide) (by decide) (by decide) (by decide) (by decide) (by decide) (by decide) (by decide),
    k main_arg2 (by decide) (by decide) (by decide) (by decide) (by decide) (by decide) (by decide) (by decide),
    k main_arg3 (by decide) (by decide) (by decide) (by decide) (by decide) (by decide) (by decide) (by decide),
    k main_arg4 (by decide) (by decide) (by decide) (by decide) (by decide) (by decide) (by decide) (by decide),
    k main_arg5 (by decide) (by decide) (by decide) (by decide) (by decide) (by decide) (by decide) (by decide),
    k main_arg6 (by decide) (by decide) (by decide) (by decide) (by decide) (by decide) (by decide) (by decide),
    k main_arg7 (by decide) (by decide) (by decide) (by decide) (by decide) (by decide) (by decide) (by decide),
    k main_arg8 (by decide) (by decide) (by decide) (by decide) (by decide) (by decide) (by decide) (by decide),
    k main_arg9 (by decide) (by decide) (by decide) (by decide) (by decide) (by decide) (by decide) (by decide),
    k main_arg10 (by decide) (by decide) (by decide) (by decide) (by decide) (by decide) (by decide) (by decide)⟩

/-- THE FRAME, at any float instance, from the run at any specification whose pure obligations hold. -/
theorem frame_of_steps (S : Dev nD → Spec1 F) (hS : ∀ c, Steps (V3 m) S c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨Fo, hFo, hmem⟩ := h c
    exact args_of_mem m S c Fo hFo r.2 hmem)
    (run_all m ρ S hS)

/-- THE FRAME: the program runs, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_steps m ρ (fun _ => trivSpec) (fun c => trivSteps (V3 m) c)

end Cert.Kernel.H

end
-- ==== Proof.KI.Body0.lean ====
/-
  The first kernel (one row tile of tanh (emb · W1 + b1)) as exact proof data: after the body each input window's
  buffer holds its block and the output window's buffer the kernel's payload of the three input blocks.
-/
import proofs.«422837_j27685359190570_3_alg».proof.Proof.Gen.KernelIdeal.Launch
import proofs.«422837_j27685359190570_3_alg».proof.Proof.Gen.KernelIdeal.Skeleton
import proofs.«422837_j27685359190570_3_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block -/

/-- Input window 0's current staging buffer holds its block at every point, for any proof data whose array is
    the region-entry contents and whose body leaves the block in place: the window is uncut and never idle, so
    what the buffer holds is what a fetch there puts in it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, which is fetched at the first point only: where it is not fetched its block
    index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2, fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole-buffer access starts at zero on each axis. -/
theorem hz0 : (![0, 0] : Fin 2 → Nat) = fun _ => 0 := funext fun a => by fin_cases a <;> rfl

abbrev r0_0 : Rect S1024x512 := Rect.unit (s := S1024x512) ![0, 0] S1024x512.size inb_S1024x512_S1024x512_0_0
abbrev r0_1 : Rect S512x1024 := Rect.unit (s := S512x1024) ![0, 0] S512x1024.size inb_S512x1024_S512x1024_0_0
abbrev r0_2 : Rect S1x1024 := Rect.unit (s := S1x1024) ![0, 0] S1x1024.size inb_S1x1024_S1x1024_0_0
abbrev r0_3 : Rect S1024x1024 := Rect.unit (s := S1024x1024) ![0, 0] S1024x1024.size inb_S1024x1024_S1024x1024_0_0

/-! ## What the body leaves in the output window's buffer -/

/-- Window 3's staging buffer after the body, from the three input buffers: its one store as a piece, whose
    payload is the kernel's payload of the three whole-buffer loads. -/
def out0_3 (x0 : Vec F S1024x512 .f32) (x1 : Vec F S512x1024 .f32) (x2 : Vec F S1x1024 .f32) : Vec F S1024x1024 .bf16 :=
  View.canon [⟨r0_3, k0_pay1 (View.ld x0 r0_0) (View.ld x1 r0_1) (View.ld x2 r0_2)⟩]

/-- The one store is through the whole buffer, so it covers it. -/
theorem cover0_3 (p0 : Vec F S1024x1024 .bf16) (y : S1024x1024.Idx) :
    ∃ pc ∈ ([⟨r0_3, p0⟩] : List (View.Piece (Elt F) S1024x1024 .bf16)), y ∈ pc.1.set :=
  ⟨_, List.mem_singleton_self _, View.mem_set_unit_zero (S := S1024x1024) hz0 inb_S1024x1024_S1024x1024_0_0 y⟩

/-- A whole-buffer load reads the buffer and one whole-buffer store leaves its payload, so the output buffer
    holds the plain payload of the three input buffers. -/
theorem out0_3_eq (x0 : Vec F S1024x512 .f32) (x1 : Vec F S512x1024 .f32) (x2 : Vec F S1x1024 .f32) :
    out0_3 x0 x1 x2 = k0_pay1 x0 x1 x2 := by
  unfold out0_3
  rw [View.canon_unit_zero (S := S1024x1024) hz0, View.ld_unit_zero (S := S1024x512) hz0,
    View.ld_unit_zero (S := S512x1024) hz0, View.ld_unit_zero (S := S1x1024) hz0]

/-! ## The body's triple -/

set_option maxHeartbeats 1000000 in
/-- The kernel body on whole staging memrefs, the inputs' at read contents and the output's at anything, runs to
    the continuation holding the inputs' as they were and the output's at the payload of the inputs': the printed
    function is its skeleton, three whole-buffer loads, one unused load of the output buffer and one whole-buffer
    store, which covers the output buffer. -/
theorem sound_kernel0 (c : Dev nD) (E : Set ℕ) (i : grid0.Coords)
    (arg1 : Memref sig .tc .vmem S1024x512 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1024x1024 .bf16) (harg4 : arg4.IsWhole)
    (x0 : Vec F S1024x512 .f32) (x1 : Vec F S512x1024 .f32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__mlp1_kernel i arg1 harg1 arg2 harg2 arg3 harg3 arg4 harg4) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover0_3 _)).trans (out0_3_eq _ _ _)

/-! ## The proof data -/

/-- The proof data of the first kernel on core c: the arrays as the region finds them; after the body at point t
    each input's buffer at its block and the output's at the payload of the three input blocks; the class
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = k0_pay1 (iblk0 V c 0 t) (iblk0 V c 1 t) (iblk0 V c 2 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t: the invariant, what the core owes, and the four windows' current
    staging buffers at what they then hold, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the kernel's triple applies at the
    three blocks; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.Body1.lean ====
/-
  The second kernel (the logits tile with the running maximum and the running sum of exponentials) as
  relational proof data: what the body leaves in each window's staging buffer is constrained by predicates a
  caller chooses, and the two scratch buffers carried between grid points sit in the invariant at contents
  satisfying a predicate of the point.
-/
import proofs.«422837_j27685359190570_3_alg».proof.Proof.Gen.KernelIdeal.Launch
import proofs.«422837_j27685359190570_3_alg».proof.Proof.Gen.KernelIdeal.Skeleton
import proofs.«422837_j27685359190570_3_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What a caller claims of the second kernel: of the two scratch columns before each point (the running
    maximum, the running sum), and of what the body leaves in the three output windows' buffers. -/
structure Spec1 (F : FTy → Type) where
  Inv : Fin (cfg1.N + 1) → Vec F S4096x1 .f32 → Vec F S4096x1 .f32 → Prop
  O3 : Fin cfg1.N → Vec F S4096x256 .f32 → Prop
  O4 : Fin cfg1.N → Vec F S1x4096x1 .f32 → Prop
  O5 : Fin cfg1.N → Vec F S1x4096x1 .f32 → Prop

/-- The two scratch columns, as whole memrefs. -/
abbrev scM0 : Memref sig .tc .vmem S4096x1 .f32 := Memref.whole cc1_scratch0
abbrev scM1 : Memref sig .tc .vmem S4096x1 .f32 := Memref.whole cc1_scratch1

/-- The first kernel's staging buffers, which the second kernel never touches: each whole at some contents. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region's invariant before point t: the untouched scoped buffers, the two scratch columns at contents
    the caller's predicate admits, the generator register at some state. -/
def Φ1 (S : Dev nD → Spec1 F) (c : Dev nD) (t : Fin (cfg1.N + 1)) : sProp 𝕄 :=
  iprop(Rest1 (F := F) c
    ∗ (∃ ms ls, ⌜(S c).Inv t ms ls⌝ ∗ owns (c : Thread nD τ) scM0 fullShare ms ∗ owns (c : Thread nD τ) scM1 fullShare ls)
    ∗ (∃ r, prngReg c r))

/-- The relational proof data of the second kernel on core c. The three inputs are left as found; the logits
    block is constrained by O3 at every point; the two statistics blocks by O4 / O5 at the last column tile of
    each half (t % 98 = 97) and left as found elsewhere. -/
def rdat1 (S : Dev nD → Spec1 F) (c : Dev nD) : RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun _ X => (S c).O3 t X
    | ⟨4, _⟩ => fun Y X => if t.val % 98 = 97 then (S c).O4 t X else X = Y
    | ⟨5, _⟩ => fun Y X => if t.val % 98 = 97 then (S c).O5 t X else X = Y
  Φ t := Φ1 S c t
  q _ := fullShare
  owed _ := 0

/-- The pure obligations: the predicates are preserved by what each of the kernel's three control cases
    computes (first tile of a half; a middle tile; the last tile of a half), stated over the kernel's own
    payload functions of the contents found in the input windows' buffers. -/
structure Steps (S : Dev nD → Spec1 F) (c : Dev nD) : Prop where
  inv0 : ∀ ms ls, (S c).Inv 0 ms ls
  stepA : ∀ (t : Fin cfg1.N) (Y : (w : Fin cfg1.W) → (cfg1.win w).block.Idx → Elt F (cfg1.win w).elt),
    (∀ w, (rdat1 V S c).Finds w t (Y w)) → t.val % 98 = 0 → ∀ ms ls, (S c).Inv t.castSucc ms ls →
      (S c).Inv t.succ (k1_pay6 (Y 0) (Y 1) (Y 2) k1_pay1) (k1_pay5 (Y 0) (Y 1) (Y 2) k1_pay1 k1_pay1 k1_pay2)
      ∧ (S c).O3 t (k1_pay3 (Y 0) (Y 1) (Y 2))
  stepB : ∀ (t : Fin cfg1.N) (Y : (w : Fin cfg1.W) → (cfg1.win w).block.Idx → Elt F (cfg1.win w).elt),
    (∀ w, (rdat1 V S c).Finds w t (Y w)) → t.val % 98 ≠ 0 → t.val % 98 ≠ 97 → ∀ ms ls, (S c).Inv t.castSucc ms ls →
      (S c).Inv t.succ (k1_pay6 (Y 0) (Y 1) (Y 2) ms) (k1_pay5 (Y 0) (Y 1) (Y 2) ms ms ls)
      ∧ (S c).O3 t (k1_pay3 (Y 0) (Y 1) (Y 2))
  stepC : ∀ (t : Fin cfg1.N) (Y : (w : Fin cfg1.W) → (cfg1.win w).block.Idx → Elt F (cfg1.win w).elt),
    (∀ w, (rdat1 V S c).Finds w t (Y w)) → t.val % 98 = 97 → ∀ ms ls, (S c).Inv t.castSucc ms ls →
      (S c).Inv t.succ
          (k1_pay11 (BitVec.ofNat 32 ((grid1.coords t) 0).val) (BitVec.ofNat 32 ((grid1.coords t) 1).val) (k1_pay3 (Y 0) (Y 1) (Y 2)) ms)
          (k1_pay10 (BitVec.ofNat 32 ((grid1.coords t) 0).val) (BitVec.ofNat 32 ((grid1.coords t) 1).val) (k1_pay3 (Y 0) (Y 1) (Y 2)) ms ms ls)
      ∧ (S c).O3 t (k1_pay3 (Y 0) (Y 1) (Y 2))
      ∧ (S c).O4 t (k1_pay12 (k1_pay11 (BitVec.ofNat 32 ((grid1.coords t) 0).val) (BitVec.ofNat 32 ((grid1.coords t) 1).val) (k1_pay3 (Y 0) (Y 1) (Y 2)) ms))
      ∧ (S c).O5 t (k1_pay7 (k1_pay10 (BitVec.ofNat 32 ((grid1.coords t) 0).val) (BitVec.ofNat 32 ((grid1.coords t) 1).val) (k1_pay3 (Y 0) (Y 1) (Y 2)) ms ms ls))

/-- The proof data's arrays are the contents the region is entered with. -/
theorem A_eq1 (S : Dev nD → Spec1 F) (c : Dev nD) (w : Fin cfg1.W) : (rdat1 V S c).A w = V c (Pipeline.arrRef spec1 w) := by
  dsimp only [rdat1]

/-- What the launch hands the region is the invariant before the first point. -/
theorem hin1 (S : Dev nD → Spec1 F) (c : Dev nD) (h0 : ∀ ms ls, (S c).Inv 0 ms ls) :
    (Pipeline.ΦA spec1 c : sProp 𝕄) ⊢ (rdat1 V S c).Φ 0 := by
  rw [show (rdat1 V S c).Φ 0 = Φ1 S c 0 from rfl]
  unfold Pipeline.ΦA Φ1 Rest1; rw [scopedRest1_eq]
  simp only [scM0, scM1, owns_whole]
  iintro ⟨⟨H0, H1, H2, H3, H4, H5, ⟨%ms, Hs0⟩, ⟨%ls, Hs1⟩⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Hs0 Hs1]
  · iexists ms, ls
    isplitr; · ipureintro; exact h0 ms ls
    isplitl [Hs0]; · iexact Hs0
    iexact Hs1
  iexact Hg

/-- The invariant after any point gives the launch's back. -/
theorem hout1 (S : Dev nD → Spec1 F) (c : Dev nD) (t : Fin (cfg1.N + 1)) :
    (rdat1 V S c).Φ t ⊢ (Pipeline.ΦA spec1 c : sProp 𝕄) := by
  rw [show (rdat1 V S c).Φ t = Φ1 S c t from rfl]
  unfold Pipeline.ΦA Φ1 Rest1; rw [scopedRest1_eq]
  simp only [scM0, scM1, owns_whole]
  iintro ⟨⟨H0, H1, H2, H3, H4, H5⟩, ⟨%ms, %ls, -, Hs0, Hs1⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [Hs0]; · iexists ms; iexact Hs0
    iexists ls; iexact Hs1
  iexact Hg

/-! # The body's three control cases

What a whole-buffer load reads and what a whole-buffer store leaves; the closed forms of the three branch
conditions; the body's run in each control case; the body at a point. -/

namespace K1

/-! ## Whole-buffer loads and stores

Every access of this kernel is through the whole-shape rectangle at offset zero: such a load reads the buffer's
contents, and such a store, made last, leaves its payload whatever the buffer held and whatever was stored before. -/

theorem z2 : (![0, 0] : Fin 2 → ℕ) = fun _ => 0 := by funext a; fin_cases a <;> rfl
theorem z3 : (![0, 0, 0] : Fin 3 → ℕ) = fun _ => 0 := by funext a; fin_cases a <;> rfl

/-- A load through the whole-shape rectangle reads the contents. -/
theorem readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- A store through the whole-shape rectangle, made last, leaves its payload. -/
theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

theorem rd_h {κ : Kind} {sp : Space} (v : View sig κ sp S4096x1024 .bf16) (f : v.ty.Contents (Elt F)) (inb) :
    v.readAt (Elt F) (Rect.unit (s := S4096x1024) ![0, 0] S4096x1024.size inb).toLoadRect f = v.read (Elt F) f :=
  readAt_whole (S := S4096x1024) v f z2 inb
theorem rd_w {κ : Kind} {sp : Space} (v : View sig κ sp S1024x256 .f32) (f : v.ty.Contents (Elt F)) (inb) :
    v.readAt (Elt F) (Rect.unit (s := S1024x256) ![0, 0] S1024x256.size inb).toLoadRect f = v.read (Elt F) f :=
  readAt_whole (S := S1024x256) v f z2 inb
theorem rd_b {κ : Kind} {sp : Space} (v : View sig κ sp S1x256 .f32) (f : v.ty.Contents (Elt F)) (inb) :
    v.readAt (Elt F) (Rect.unit (s := S1x256) ![0, 0] S1x256.size inb).toLoadRect f = v.read (Elt F) f :=
  readAt_whole (S := S1x256) v f z2 inb
theorem rd_s {κ : Kind} {sp : Space} (v : View sig κ sp S4096x1 .f32) (f : v.ty.Contents (Elt F)) (inb) :
    v.readAt (Elt F) (Rect.unit (s := S4096x1) ![0, 0] S4096x1.size inb).toLoadRect f = v.read (Elt F) f :=
  readAt_whole (S := S4096x1) v f z2 inb
theorem wr_s {κ : Kind} {sp : Space} (v : View sig κ sp S4096x1 .f32) (f : v.ty.Contents (Elt F)) (inb)
    (w : S4096x1.Idx → Elt F .f32) (L : List (View.Piece (Elt F) S4096x1 .f32)) :
    v.read (Elt F) (v.writes (Elt F) f ((⟨Rect.unit (s := S4096x1) ![0, 0] S4096x1.size inb, w⟩ : View.Piece (Elt F) S4096x1 .f32) :: L)) = w :=
  read_writes_whole (S := S4096x1) v f z2 inb w L
theorem wr_o {κ : Kind} {sp : Space} (v : View sig κ sp S4096x256 .f32) (f : v.ty.Contents (Elt F)) (inb)
    (w : S4096x256.Idx → Elt F .f32) (L : List (View.Piece (Elt F) S4096x256 .f32)) :
    v.read (Elt F) (v.writes (Elt F) f ((⟨Rect.unit (s := S4096x256) ![0, 0] S4096x256.size inb, w⟩ : View.Piece (Elt F) S4096x256 .f32) :: L)) = w :=
  read_writes_whole (S := S4096x256) v f z2 inb w L
theorem wr_t {κ : Kind} {sp : Space} (v : View sig κ sp S1x4096x1 .f32) (f : v.ty.Contents (Elt F)) (inb)
    (w : S1x4096x1.Idx → Elt F .f32) (L : List (View.Piece (Elt F) S1x4096x1 .f32)) :
    v.read (Elt F) (v.writes (Elt F) f ((⟨Rect.unit (s := S1x4096x1) ![0, 0, 0] S1x4096x1.size inb, w⟩ : View.Piece (Elt F) S1x4096x1 .f32) :: L)) = w :=
  read_writes_whole (S := S1x4096x1) v f z3 inb w L

/-- A whole-shape load of a scratch column after one whole-shape store reads the stored payload. -/
theorem rc_s {κ : Kind} {sp : Space} (v : View sig κ sp S4096x1 .f32) (inb) (w : S4096x1.Idx → Elt F .f32) :
    v.readCov [(⟨Rect.unit (s := S4096x1) ![0, 0] S4096x1.size inb, w⟩ : View.Piece (Elt F) S4096x1 .f32)]
      (Rect.unit (s := S4096x1) ![0, 0] S4096x1.size inb).toLoadRect = w :=
  View.readCov_unit_zero (S := S4096x1) v z2 inb w

/-! ## The body's three branch conditions, as propositions of the grid coordinates, in closed form -/

/-- The first conditional's condition (the column-tile coordinate is 0). -/
abbrev cond1_0 (i : grid1.Coords) : Prop :=
  (Scalar.cmpi .ne (Scalar.extui (Scalar.cmpi .eq (BitVec.ofNat 32 (i 1).val) 0#32)) 0#32) = 1#1
/-- It holds at the points ≡ 0 (mod 98): decided over the grid. -/
theorem hcond1_0 : ∀ t : Fin cfg1.N, cond1_0 (grid1.coords t) ↔ t.val % 98 = 0 :=
  (by decide +kernel : ∀ t : Fin grid1.N, cond1_0 (grid1.coords t) ↔ t.val % 98 = 0)

/-- The second conditional's condition (the column-tile coordinate is not 97). -/
abbrev cond1_1 (i : grid1.Coords) : Prop :=
  (Scalar.cmpi .ne (Scalar.extui (Scalar.xori (Scalar.cmpi .eq (BitVec.ofNat 32 (i 1).val) 97#32) 1#1)) 0#32) = 1#1
/-- It holds at the points not ≡ 97 (mod 98): decided over the grid. -/
theorem hcond1_1 : ∀ t : Fin cfg1.N, cond1_1 (grid1.coords t) ↔ t.val % 98 ≠ 97 :=
  (by decide +kernel : ∀ t : Fin grid1.N, cond1_1 (grid1.coords t) ↔ t.val % 98 ≠ 97)

/-- The third conditional's condition (the column-tile coordinate is 97). -/
abbrev cond1_2 (i : grid1.Coords) : Prop := k1_cond3 i = 1#1
/-- It holds at the points ≡ 97 (mod 98): decided over the grid. -/
theorem hcond1_2 : ∀ t : Fin cfg1.N, cond1_2 (grid1.coords t) ↔ t.val % 98 = 97 :=
  (by decide +kernel : ∀ t : Fin grid1.N, cond1_2 (grid1.coords t) ↔ t.val % 98 = 97)

set_option maxHeartbeats 4000000 in
/-- The body in the case of the first column tile of a half (the first two conditionals taken): on whole memrefs, the three inputs' at contents x0, x1, x2, the
    logits buffer at anything, the statistics buffers at x4, x5 and the two scratch columns at ms, ls, it runs to the
    continuation holding the inputs' as they were, the logits buffer at the tile's logits and the scratch columns at the running maximum and sum restarted from their initial values, the statistics buffers untouched.
    Each buffer ends at the payload of the last whole-buffer store into it; a load of a scratch column after a store
    in the same run reads the stored payload. -/
theorem runA (c : Dev nD) (i : grid1.Coords) (arg2 : Memref sig .tc .vmem S4096x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S4096x256 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S4096x1 .f32) (harg8 : arg8.IsWhole) (arg9 : Memref sig .tc .vmem S4096x1 .f32) (harg9 : arg9.IsWhole)
    (hc0 : cond1_0 i) (hc1 : cond1_1 i) (hc2 : ¬cond1_2 i)
    (x0 : Vec F S4096x1024 .bf16) (x1 : Vec F S1024x256 .f32) (x2 : Vec F S1x256 .f32)
    (x4 x5 : Vec F S1x4096x1 .f32) (ms ls : Vec F S4096x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare x5
        ∗ owns (c : Thread nD τ) arg8 fullShare ms ∗ owns (c : Thread nD τ) arg9 fullShare ls
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x0 x1 x2) ∗ owns (c : Thread nD τ) arg6 fullShare x4 ∗ owns (c : Thread nD τ) arg7 fullShare x5
            ∗ owns (c : Thread nD τ) arg8 fullShare (k1_pay6 x0 x1 x2 k1_pay1) ∗ owns (c : Thread nD τ) arg9 fullShare (k1_pay5 x0 x1 x2 k1_pay1 k1_pay1 k1_pay2)) -∗ K ⟨⟩))
      ⊢ wp frame (wpE (defs₀ (F := F)) Variants.none c none) E (cc1__mlp2_kernel i arg2 harg2 arg3 harg3 arg4 harg4 arg5 harg5 arg6 harg6 arg7 harg7 arg8 harg8 arg9 harg9) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
  subst hf0; subst hf1; subst hf2; subst hf4; subst hf5; subst hfs0; subst hfs1
  sl_exec (disch := first | exact hc0 | exact hc1 | exact hc2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro; rw [wr_o, rd_h, rd_w, rd_b]
  isplitl [H4]; · iexists _; isplitr; · ipureintro; rfl
                  iexact H4
  isplitl [H5]; · iexists _; isplitr; · ipureintro; rfl
                  iexact H5
  isplitl [HS0]
  · iexists _; isplitr
    swap; · iexact HS0
    ipureintro; rw [wr_s, rd_h, rd_w, rd_b]; sl_unfold_run_names; rw [rc_s]
  iexists _; isplitr
  swap; · iexact HS1
  ipureintro; rw [wr_s, rd_h, rd_w, rd_b]; sl_unfold_run_names; rw [rc_s, rc_s]

set_option maxHeartbeats 4000000 in
/-- The body in the case of a middle column tile (only the second conditional taken): on whole memrefs, the three inputs' at contents x0, x1, x2, the
    logits buffer at anything, the statistics buffers at x4, x5 and the two scratch columns at ms, ls, it runs to the
    continuation holding the inputs' as they were, the logits buffer at the tile's logits and the scratch columns at the running maximum and sum updated from ms, ls, the statistics buffers untouched.
    Each buffer ends at the payload of the last whole-buffer store into it; a load of a scratch column after a store
    in the same run reads the stored payload. -/
theorem runB (c : Dev nD) (i : grid1.Coords) (arg2 : Memref sig .tc .vmem S4096x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S4096x256 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S4096x1 .f32) (harg8 : arg8.IsWhole) (arg9 : Memref sig .tc .vmem S4096x1 .f32) (harg9 : arg9.IsWhole)
    (hc0 : ¬cond1_0 i) (hc1 : cond1_1 i) (hc2 : ¬cond1_2 i)
    (x0 : Vec F S4096x1024 .bf16) (x1 : Vec F S1024x256 .f32) (x2 : Vec F S1x256 .f32)
    (x4 x5 : Vec F S1x4096x1 .f32) (ms ls : Vec F S4096x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare x5
        ∗ owns (c : Thread nD τ) arg8 fullShare ms ∗ owns (c : Thread nD τ) arg9 fullShare ls
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x0 x1 x2) ∗ owns (c : Thread nD τ) arg6 fullShare x4 ∗ owns (c : Thread nD τ) arg7 fullShare x5
            ∗ owns (c : Thread nD τ) arg8 fullShare (k1_pay6 x0 x1 x2 ms) ∗ owns (c : Thread nD τ) arg9 fullShare (k1_pay5 x0 x1 x2 ms ms ls)) -∗ K ⟨⟩))
      ⊢ wp frame (wpE (defs₀ (F := F)) Variants.none c none) E (cc1__mlp2_kernel i arg2 harg2 arg3 harg3 arg4 harg4 arg5 harg5 arg6 harg6 arg7 harg7 arg8 harg8 arg9 harg9) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
  subst hf0; subst hf1; subst hf2; subst hf4; subst hf5; subst hfs0; subst hfs1
  sl_exec (disch := first | exact hc0 | exact hc1 | exact hc2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro; rw [wr_o, rd_h, rd_w, rd_b]
  isplitl [H4]; · iexists _; isplitr; · ipureintro; rfl
                  iexact H4
  isplitl [H5]; · iexists _; isplitr; · ipureintro; rfl
                  iexact H5
  isplitl [HS0]
  · iexists _; isplitr
    swap; · iexact HS0
    ipureintro; rw [wr_s, rd_h, rd_w, rd_b, rd_s]
  iexists _; isplitr
  swap; · iexact HS1
  ipureintro; rw [wr_s, rd_h, rd_w, rd_b, rd_s, rd_s]

set_option maxHeartbeats 4000000 in
/-- The body in the case of the last column tile of a half (only the third conditional taken): on whole memrefs, the three inputs' at contents x0, x1, x2, the
    logits buffer at anything, the statistics buffers at x4, x5 and the two scratch columns at ms, ls, it runs to the
    continuation holding the inputs' as they were, the logits buffer at the tile's logits and the scratch columns at the masked update from ms, ls, the two statistics buffers at the reshaped final maximum and sum.
    Each buffer ends at the payload of the last whole-buffer store into it; a load of a scratch column after a store
    in the same run reads the stored payload. -/
theorem runC (c : Dev nD) (i : grid1.Coords) (arg2 : Memref sig .tc .vmem S4096x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S4096x256 .f32) (harg5 : arg5.IsWhole) (arg6 : Memref sig .tc .vmem S1x4096x1 .f32) (harg6 : arg6.IsWhole) (arg7 : Memref sig .tc .vmem S1x4096x1 .f32) (harg7 : arg7.IsWhole) (arg8 : Memref sig .tc .vmem S4096x1 .f32) (harg8 : arg8.IsWhole) (arg9 : Memref sig .tc .vmem S4096x1 .f32) (harg9 : arg9.IsWhole)
    (hc0 : ¬cond1_0 i) (hc1 : ¬cond1_1 i) (hc2 : cond1_2 i)
    (x0 : Vec F S4096x1024 .bf16) (x1 : Vec F S1024x256 .f32) (x2 : Vec F S1x256 .f32)
    (x4 x5 : Vec F S1x4096x1 .f32) (ms ls : Vec F S4096x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare x5
        ∗ owns (c : Thread nD τ) arg8 fullShare ms ∗ owns (c : Thread nD τ) arg9 fullShare ls
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x0 x1 x2) ∗ owns (c : Thread nD τ) arg6 fullShare (k1_pay12 (k1_pay11 (BitVec.ofNat 32 (i 0).val) (BitVec.ofNat 32 (i 1).val) (k1_pay3 x0 x1 x2) ms)) ∗ owns (c : Thread nD τ) arg7 fullShare (k1_pay7 (k1_pay10 (BitVec.ofNat 32 (i 0).val) (BitVec.ofNat 32 (i 1).val) (k1_pay3 x0 x1 x2) ms ms ls))
            ∗ owns (c : Thread nD τ) arg8 fullShare (k1_pay11 (BitVec.ofNat 32 (i 0).val) (BitVec.ofNat 32 (i 1).val) (k1_pay3 x0 x1 x2) ms) ∗ owns (c : Thread nD τ) arg9 fullShare (k1_pay10 (BitVec.ofNat 32 (i 0).val) (BitVec.ofNat 32 (i 1).val) (k1_pay3 x0 x1 x2) ms ms ls)) -∗ K ⟨⟩))
      ⊢ wp frame (wpE (defs₀ (F := F)) Variants.none c none) E (cc1__mlp2_kernel i arg2 harg2 arg3 harg3 arg4 harg4 arg5 harg5 arg6 harg6 arg7 harg7 arg8 harg8 arg9 harg9) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
  subst hf0; subst hf1; subst hf2; subst hf4; subst hf5; subst hfs0; subst hfs1
  sl_exec (disch := first | exact hc0 | exact hc1 | exact hc2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro; rw [wr_o, rd_h, rd_w, rd_b]
  isplitl [H4]
  · iexists _; isplitr
    swap; · iexact H4
    ipureintro; sl_unfold_run_names; rw [wr_t, rc_s, rd_h, rd_w, rd_b, rd_s]
  isplitl [H5]
  · iexists _; isplitr
    swap; · iexact H5
    ipureintro; sl_unfold_run_names; rw [wr_t, rc_s, rd_h, rd_w, rd_b, rd_s, rd_s]
  isplitl [HS0]
  · iexists _; isplitr
    swap; · iexact HS0
    ipureintro; sl_unfold_run_names; rw [wr_s, rd_h, rd_w, rd_b, rd_s]
  iexists _; isplitr
  swap; · iexact HS1
  ipureintro; sl_unfold_run_names; rw [wr_s, rd_h, rd_w, rd_b, rd_s, rd_s]

/-! ## The body obligation -/

/-- The relations of the proof data, window by window. -/
theorem after1_0 (S : Dev nD → Spec1 F) (c : Dev nD) (t : Fin cfg1.N) (Y X : (cfg1.win 0).block.Idx → Elt F (cfg1.win 0).elt) :
    (rdat1 V S c).after 0 t Y X ↔ X = Y := Iff.rfl
theorem after1_1 (S : Dev nD → Spec1 F) (c : Dev nD) (t : Fin cfg1.N) (Y X : (cfg1.win 1).block.Idx → Elt F (cfg1.win 1).elt) :
    (rdat1 V S c).after 1 t Y X ↔ X = Y := Iff.rfl
theorem after1_2 (S : Dev nD → Spec1 F) (c : Dev nD) (t : Fin cfg1.N) (Y X : (cfg1.win 2).block.Idx → Elt F (cfg1.win 2).elt) :
    (rdat1 V S c).after 2 t Y X ↔ X = Y := Iff.rfl
theorem after1_3 (S : Dev nD → Spec1 F) (c : Dev nD) (t : Fin cfg1.N) (Y X : (cfg1.win 3).block.Idx → Elt F (cfg1.win 3).elt) :
    (rdat1 V S c).after 3 t Y X ↔ (S c).O3 t X := Iff.rfl
theorem after1_4 (S : Dev nD → Spec1 F) (c : Dev nD) (t : Fin cfg1.N) (Y X : (cfg1.win 4).block.Idx → Elt F (cfg1.win 4).elt) :
    (rdat1 V S c).after 4 t Y X ↔ (if t.val % 98 = 97 then (S c).O4 t X else X = Y) := Iff.rfl
theorem after1_5 (S : Dev nD → Spec1 F) (c : Dev nD) (t : Fin cfg1.N) (Y X : (cfg1.win 5).block.Idx → Elt F (cfg1.win 5).elt) :
    (rdat1 V S c).after 5 t Y X ↔ (if t.val % 98 = 97 then (S c).O5 t X else X = Y) := Iff.rfl

set_option maxHeartbeats 4000000 in
/-- The body at any point t, the windows' buffers at any contents Y they may hold: the closed forms of the three
    conditions say which control case the point is in; that case's run applies, the invariant handing it the two scratch
    columns at contents ms, ls its predicate admits; the case's pure obligation then gives the invariant's predicate
    of the columns the run leaves and the output windows' predicates of what it leaves in their buffers; the input
    windows' buffers (and, off the last column tile, the statistics windows') come back as found. -/
theorem sound_body1 (S : Dev nD → Spec1 F) (c : Dev nD) (hS : Steps V S c) (t : Fin cfg1.N)
    (Y : (w : Fin cfg1.W) → (cfg1.win w).block.Idx → Elt F (cfg1.win w).elt) (hY : ∀ w, (rdat1 V S c).Finds w t (Y w)) :
    iprop((rdat1 V S c).Φ t.castSucc ∗ (rdat1 V S c).owesAt () t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5))
      ⊢ wp frame (wpE (defs₀ (F := F)) Variants.none c none) Set.univ (bodyAt1 t) (fun _ =>
          iprop((rdat1 V S c).Φ t.succ ∗ (rdat1 V S c).owesAt () t.succ
            ∗ (∃ X, ⌜(rdat1 V S c).after 0 t (Y 0) X⌝ ∗ owns (c : Thread nD τ) (st1_0 t) fullShare X)
            ∗ (∃ X, ⌜(rdat1 V S c).after 1 t (Y 1) X⌝ ∗ owns (c : Thread nD τ) (st1_1 t) fullShare X)
            ∗ (∃ X, ⌜(rdat1 V S c).after 2 t (Y 2) X⌝ ∗ owns (c : Thread nD τ) (st1_2 t) fullShare X)
            ∗ (∃ X, ⌜(rdat1 V S c).after 3 t (Y 3) X⌝ ∗ owns (c : Thread nD τ) (st1_3 t) fullShare X)
            ∗ (∃ X, ⌜(rdat1 V S c).after 4 t (Y 4) X⌝ ∗ owns (c : Thread nD τ) (st1_4 t) fullShare X)
            ∗ (∃ X, ⌜(rdat1 V S c).after 5 t (Y 5) X⌝ ∗ owns (c : Thread nD τ) (st1_5 t) fullShare X))) := by
  unfold bodyAt1
  rw [show (rdat1 V S c).owesAt () t.succ = (rdat1 V S c).owesAt () t.castSucc from rfl]
  rw [show (rdat1 V S c).Φ t.castSucc = Φ1 S c t.castSucc from rfl, show (rdat1 V S c).Φ t.succ = Φ1 S c t.succ from rfl]
  unfold Φ1
  iintro ⟨⟨HR, ⟨%ms, %ls, %hinv, HS0, HS1⟩, Hg⟩, Ho, H0, H1, H2, H3, H4, H5⟩
  by_cases h0 : t.val % 98 = 0
  · have h97 : ¬t.val % 98 = 97 := by omega
    have hc0 : cond1_0 (grid1.coords t) := (hcond1_0 t).mpr h0
    have hc1 : cond1_1 (grid1.coords t) := (hcond1_1 t).mpr h97
    have hc2 : ¬cond1_2 (grid1.coords t) := fun h => h97 ((hcond1_2 t).mp h)
    obtain ⟨hI, hO3⟩ := hS.stepA t Y hY h0 ms ls hinv
    iapply (runA c (grid1.coords t) _ _ _ _ _ _ _ _ _ _ _ _ _ _ _ _ hc0 hc1 hc2 (Y 0) (Y 1) (Y 2) (Y 4) (Y 5) ms ls Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HR HS0 HS1 Hg]
    · isplitl [HR]; · iexact HR
      isplitl [HS0 HS1]
      · iexists _, _; isplitr; · ipureintro; exact hI
        isplitl [HS0]; · iexact HS0
        iexact HS1
      iexact Hg
    isplitl [Ho]; · iexact Ho
    isplitl [H0]; · iexists (Y 0); isplitr; · ipureintro; exact (after1_0 V S c t _ _).mpr rfl
                    iexact H0
    isplitl [H1]; · iexists (Y 1); isplitr; · ipureintro; exact (after1_1 V S c t _ _).mpr rfl
                    iexact H1
    isplitl [H2]; · iexists (Y 2); isplitr; · ipureintro; exact (after1_2 V S c t _ _).mpr rfl
                    iexact H2
    isplitl [H3]; · iexists _; isplitr; · ipureintro; exact (after1_3 V S c t _ _).mpr hO3
                    iexact H3
    isplitl [H4]; · iexists (Y 4); isplitr; · ipureintro; exact (after1_4 V S c t _ _).mpr (by rw [if_neg h97])
                    iexact H4
    iexists (Y 5); isplitr; · ipureintro; exact (after1_5 V S c t _ _).mpr (by rw [if_neg h97])
    iexact H5
  · by_cases h97 : t.val % 98 = 97
    · have hc0 : ¬cond1_0 (grid1.coords t) := fun h => h0 ((hcond1_0 t).mp h)
      have hc1 : ¬cond1_1 (grid1.coords t) := fun h => (hcond1_1 t).mp h h97
      have hc2 : cond1_2 (grid1.coords t) := (hcond1_2 t).mpr h97
      obtain ⟨hI, hO3, hO4, hO5⟩ := hS.stepC t Y hY h97 ms ls hinv
      iapply (runC c (grid1.coords t) _ _ _ _ _ _ _ _ _ _ _ _ _ _ _ _ hc0 hc1 hc2 (Y 0) (Y 1) (Y 2) (Y 4) (Y 5) ms ls Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HR HS0 HS1 Hg]
      · isplitl [HR]; · iexact HR
        isplitl [HS0 HS1]
        · iexists _, _; isplitr; · ipureintro; exact hI
          isplitl [HS0]; · iexact HS0
          iexact HS1
        iexact Hg
      isplitl [Ho]; · iexact Ho
      isplitl [H0]; · iexists (Y 0); isplitr; · ipureintro; exact (after1_0 V S c t _ _).mpr rfl
                      iexact H0
      isplitl [H1]; · iexists (Y 1); isplitr; · ipureintro; exact (after1_1 V S c t _ _).mpr rfl
                      iexact H1
      isplitl [H2]; · iexists (Y 2); isplitr; · ipureintro; exact (after1_2 V S c t _ _).mpr rfl
                      iexact H2
      isplitl [H3]; · iexists _; isplitr; · ipureintro; exact (after1_3 V S c t _ _).mpr hO3
                      iexact H3
      isplitl [H4]; · iexists _; isplitr; · ipureintro; exact (after1_4 V S c t _ _).mpr (by rw [if_pos h97]; exact hO4)
                      iexact H4
      iexists _; isplitr; · ipureintro; exact (after1_5 V S c t _ _).mpr (by rw [if_pos h97]; exact hO5)
      iexact H5
    · have hc0 : ¬cond1_0 (grid1.coords t) := fun h => h0 ((hcond1_0 t).mp h)
      have hc1 : cond1_1 (grid1.coords t) := (hcond1_1 t).mpr h97
      have hc2 : ¬cond1_2 (grid1.coords t) := fun h => h97 ((hcond1_2 t).mp h)
      obtain ⟨hI, hO3⟩ := hS.stepB t Y hY h0 h97 ms ls hinv
      iapply (runB c (grid1.coords t) _ _ _ _ _ _ _ _ _ _ _ _ _ _ _ _ hc0 hc1 hc2 (Y 0) (Y 1) (Y 2) (Y 4) (Y 5) ms ls Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HR HS0 HS1 Hg]
      · isplitl [HR]; · iexact HR
        isplitl [HS0 HS1]
        · iexists _, _; isplitr; · ipureintro; exact hI
          isplitl [HS0]; · iexact HS0
          iexact HS1
        iexact Hg
      isplitl [Ho]; · iexact Ho
      isplitl [H0]; · iexists (Y 0); isplitr; · ipureintro; exact (after1_0 V S c t _ _).mpr rfl
                      iexact H0
      isplitl [H1]; · iexists (Y 1); isplitr; · ipureintro; exact (after1_1 V S c t _ _).mpr rfl
                      iexact H1
      isplitl [H2]; · iexists (Y 2); isplitr; · ipureintro; exact (after1_2 V S c t _ _).mpr rfl
                      iexact H2
      isplitl [H3]; · iexists _; isplitr; · ipureintro; exact (after1_3 V S c t _ _).mpr hO3
                      iexact H3
      isplitl [H4]; · iexists (Y 4); isplitr; · ipureintro; exact (after1_4 V S c t _ _).mpr (by rw [if_neg h97])
                      iexact H4
      iexists (Y 5); isplitr; · ipureintro; exact (after1_5 V S c t _ _).mpr (by rw [if_neg h97])
      iexact H5

end K1

/-- The body obligation of the relational data, from the pure obligations. -/
theorem body_obligation1 (S : Dev nD → Spec1 F) (c : Dev nD) (hS : Steps V S c) :
    (rdat1 V S c).BodyObligation (defs₀ (F := F)) Variants.none () Set.univ := fun t Y hY => by
  rw [bigSep_W1, bigSep_W1]
  exact K1.sound_body1 V S c hS t Y hY

end Cert.KernelIdeal.H

end
-- ==== Proof.KI.Run.lean ====
/-
  The whole program's run: @main as host stretches and the two kernel regions, launched once. The first region's
  proof data is exact, so the contents it leaves are named; the second region's is relational, so its three
  output arrays end at SOME contents F the proof data admits (ArrAt), and the host stretches after it run from
  the valuation built over that F. The post: on every core, for some such F, every unscoped buffer holds what
  the last stretch leaves.
-/
import proofs.«422837_j27685359190570_3_alg».proof.Proof.KI.Body0
import proofs.«422837_j27685359190570_3_alg».proof.Proof.KI.Body1
import proofs.«422837_j27685359190570_3_alg».proof.Proof.LibRDatExit
import proofs.«422837_j27685359190570_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch, -/
abbrev W0 : Dev nD → Valuation τ sig (Elt F) := fun c b => m (c, b)
/-- after the first host stretch (the first region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit: its arrays at what the write-backs leave, -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- after the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- A family of contents for the second region's six arrays on core c. -/
abbrev Fam1 (c : Dev nD) : Type := (w : Fin cfg1.W) → Buf (Elt F) ((cfg1.win w).arr.view.loc (c.tc : Thread nD τ))

/-- At the second region's exit, given the contents Fo its arrays end at, -/
def W4 (c : Dev nD) (Fo : Fam1 (F := F) c) : Valuation τ sig (Elt F) := Pipeline.withArrays spec1 c (W3 m c) Fo
/-- and after the three host stretches that follow it. -/
abbrev W5 (c : Dev nD) (Fo : Fam1 (F := F) c) : Valuation τ sig (Elt F) := StableHlo.after hostOps2 (W4 m c Fo)
abbrev W6 (c : Dev nD) (Fo : Fam1 (F := F) c) : Valuation τ sig (Elt F) := StableHlo.after hostOps2_1 (W5 m c Fo)
abbrev W7 (c : Dev nD) (Fo : Fam1 (F := F) c) : Valuation τ sig (Elt F) := StableHlo.after hostOps2_2 (W6 m c Fo)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (Fo : Fam1 (F := F) c) (w : Fin cfg1.W) :
    W4 m c Fo (Proc.devRef .tc (Pipeline.arrRef spec1 w)) = Fo w := by
  unfold W4; exact Pipeline.withArrays_arr spec1 launch1.win.arr_inj c _ _ w
theorem W4_of_ne (c : Dev nD) (Fo : Fam1 (F := F) c) (b : Ref sig .tc) (hb : ∀ w, Pipeline.arrRef spec1 w ≠ b) :
    W4 m c Fo (Proc.devRef .tc b) = W3 m c (Proc.devRef .tc b) := by
  unfold W4; exact Pipeline.withArrays_of_ne spec1 c _ _ b hb

/-! ## The proof data family and the thread state -/

/-- Every pipeline's proof data: the first kernel's exact data read as relational data, the second kernel's
    relational data, each at its region's entry contents. -/
def rdats (S : Dev nD → Spec1 F) : (p : Fin 2) → (c : Dev nD) → RDat τ (Elt F) Unit ℕ (UR sig nD τ) ℕ (Pipeline.pin (pcfgs (F := F)) adm p) c
  | ⟨0, _⟩ => fun c => (dat0 (V1 m) c).toR
  | ⟨1, _⟩ => fun c => rdat1 (V3 m) S c

abbrev 𝒱₀ : Variants := Variants.none
abbrev L : GSem nD τ sig → Finset Unit := fun _ => ∅
abbrev lv : GSem nD τ sig → Unit → ℕ := fun _ _ => 0

/-- What rides beside the buffers through every segment: the generator register at some state and the core owing
    nothing. -/
abbrev R (c : Dev nD) : sProp 𝕄 := iprop((∃ r, prngReg c r) ∗ ∃ W, owes (c : Thread nD τ) (0 : CellTallies nD τ sig Unit) W)

/-- A host stretch from a named valuation. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The thread state after the second region: for SOME contents Fo of its arrays that the proof data admits after
    every write-back, every unscoped buffer at the valuation `W c Fo`; the rest riding along. -/
def TEx (S : Dev nD → Spec1 F) (W : (c : Dev nD) → Fam1 (F := F) c → Valuation τ sig (Elt F)) (c : Dev nD) : sProp 𝕄 :=
  iprop(∃ Fo : Fam1 (F := F) c, ⌜∀ w, (rdat1 (V3 m) S c).ArrAt w cfg1.N (Fo w)⌝
    ∗ StableHlo.held (c : Thread nD τ) (Pipeline.ucRefs τ sig) (W c Fo) ∗ R c)

-- the StableHLO rule is stated for any thread; at the TensorCore thread it unifies only when unification may unfold
-- plain definitions in a metavariable's type
set_option backward.isDefEq.respectTransparency.types false in
/-- A host stretch run from the existentially quantified thread state: it runs from every member. -/
def hsegEx (S : Dev nD → Spec1 F) (ops : List (HloOp τ sig (Elt F))) (hsub : ops.Forall fun op => op.bufs ⊆ StableHlo.tcRefs τ sig)
    (hfresh : ops.Forall fun op => op.fresh = ∅) (W : (c : Dev nD) → Fam1 (F := F) c → Valuation τ sig (Elt F)) :
    Pipeline.HostSeg (Name := ℕ) (U := UR sig nD τ) (pcfgs (F := F)) defs₀ 𝒱₀ L lv where
  prog := StableHlo.seq ops
  pre c := TEx m S W c
  post c := TEx m S (fun c Fo => StableHlo.after ops (W c Fo)) c
  run c {β} k K := by
    unfold TEx
    iintro ⟨Hk, Hbd, ⟨%Fo, %hFo, Hh, HR⟩, Hla⟩
    have hrun := (hseg ops hsub hfresh (fun c' => if c' = c then W c Fo else W0 m c')).run c k K
    dsimp only [hseg, Pipeline.HostSeg.ofOps] at hrun
    rw [if_pos rfl] at hrun
    iapply hrun
    isplitl [Hk]
    · iintro ⟨Hbd, Hh, HR⟩
      iapply Hk
      isplitl [Hbd]; · iexact Hbd
      iexists Fo
      isplitr; · ipureintro; exact hFo
      isplitl [Hh]; · iexact Hh
      iexact HR
    isplitl [Hbd]; · iexact Hbd
    isplitr [Hla]
    · isplitl [Hh]; · iexact Hh
      iexact HR
    · iexact Hla

/-- The relational data's share of every array is the full one. -/
theorem share_full (S : Dev nD → Spec1 F) (p : Fin 2) (c : Dev nD) (w) : (rdats m S p c).share w = fullShare := by
  match p with
  | ⟨0, _⟩ => unfold RDat.share; split <;> rfl
  | ⟨1, _⟩ => unfold RDat.share; split <;> rfl

theorem hF0 (c : Dev nD) (w : Fin cfg0.W) : V2 m c (Pipeline.arrRef spec0 w) = (dat0 (V1 m) c).arrAt w cfg0.N :=
  W2_arr m c w
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
/-- REGION 0: entered from every unscoped buffer at W1, left at W2. -/
def reg0 (S : Dev nD → Spec1 F) : Pipeline.RDat.RegionSeg (pcfgs (F := F)) adm (rdats m S) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m S) launch0.win launch0.arr_whole c
      (share_full m S 0 c) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m S 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m S 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.RDat.unscopedBufs_of_arrays (p := 0) (pcfgs (F := F)) adm (rdats m S) (Ix := Unit) (Name := ℕ) (U := UR sig nD τ) (Lvl := ℕ)
      launch0.win launch0.arr_whole c (share_full m S 0 c)
      (V1 m c) (V2 m c) (fun w => (dat0 (V1 m) c).arrAt w cfg0.N) (hF0 m c) (hrest0 m c)
    rw [Pipeline.unscopedBufs_held] at hjoin
    have hpost := Pipeline.Dat.toR_arraysAt_post (Ix := Unit) (Name := ℕ) (U := UR sig nD τ) (Lvl := ℕ) (dat0 (V1 m) c) cfg0.N
    rw [show (rdats m S 0 c).arraysAt (Pipeline.pin (pcfgs (F := F)) adm 0).N = (dat0 (V1 m) c).toR.arraysAt cfg0.N from rfl]
    iintro ⟨Ha, HO, HY, Hrest⟩
    ihave Ha := hpost $$ Ha
    imodintro
    isplitl [Ha Hrest]
    · iapply hjoin
      isplitl [Ha]
      · iapply (show ((dat0 (V1 m) c).arrays (fun w => (dat0 (V1 m) c).arrAt w cfg0.N) : sProp 𝕄)
            ⊢ (rdats m S 0 c).arrays (fun w => (dat0 (V1 m) c).arrAt w cfg0.N) from .rfl)
        iexact Ha
      · iexact Hrest
    isplitl [HY]; · iexact HY
    unfold Pipeline.RDat.owesAt Pipeline.owesWithin
    icases HO with ⟨%W, -, HO⟩; iexists W; iexact HO

set_option backward.isDefEq.respectTransparency.types false in
/-- REGION 1: entered from every unscoped buffer at W3; left, for some contents of its arrays that the relational
    data admits, at W4 of them. -/
def reg1 (S : Dev nD → Spec1 F) (hS : ∀ c, Steps (V3 m) S c) : Pipeline.RDat.RegionSeg (pcfgs (F := F)) adm (rdats m S) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) S c (hS c)
  hwaits := Pipeline.RDat.hwaits_of_owed_zero _ _ _ _ L lv 1 fun _ _ => rfl
  pre c := iprop(StableHlo.held (c : Thread nD τ) (Pipeline.ucRefs τ sig) (W3 m c) ∗ R c)
  post c := TEx m S (W4 m) c
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m S) launch1.win launch1.arr_whole c
      (share_full m S 1 c) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m S 1 c).Φ 0 = (rdat1 (V3 m) S c).Φ 0 from rfl]
    iintro ⟨Hp, -, Hr⟩
    iapply (hin1 (V3 m) S c (hS c).inv0)
    unfold Pipeline.ΦA
    isplitl [Hr]; · iexact Hr
    iexact Hp
  hout c := by
    rw [Pipeline.ownSems0_none, show (rdats m S 1 c).Φ (Fin.last (Pipeline.pin (pcfgs (F := F)) adm 1).N) = (rdat1 (V3 m) S c).Φ (Fin.last cfg1.N) from rfl]
    iintro H
    ihave H := (hout1 (V3 m) S c (Fin.last cfg1.N)) $$ H
    unfold Pipeline.ΦA
    icases H with ⟨Hr, Hp⟩
    isplitl [Hp]; · iexact Hp
    isplitr; · iempintro
    iexact Hr
  hexit c := by
    have hjoin := Pipeline.RDat.unscopedBufs_of_arraysAt (p := 1) (pcfgs (F := F)) adm (rdats m S) (Ix := Unit) (Name := ℕ) (U := UR sig nD τ) (Lvl := ℕ)
      launch1.win launch1.arr_whole c (share_full m S 1 c) cfg1.N (W3 m c)
    simp only [Pipeline.unscopedBufs_held] at hjoin
    iintro ⟨Ha, HO, HY, Hrest⟩
    ihave H := hjoin $$ [Ha Hrest]
    · isplitl [Ha] <;> iassumption
    icases H with ⟨%Fo, %hFo, Hub⟩
    imodintro
    unfold TEx
    iexists Fo
    isplitr; · ipureintro; exact hFo
    isplitl [Hub]; · iexact Hub
    isplitl [HY]; · iexact HY
    unfold Pipeline.RDat.owesAt Pipeline.owesWithin
    icases HO with ⟨%W, -, HO⟩; iexists W; iexact HO

/-! ## @main as segments, and the launch -/

/-- @main's seven segments in order. -/
abbrev segs (S : Dev nD → Spec1 F) (hS : ∀ c, Steps (V3 m) S c) :
    List (Pipeline.RDat.Seg (pcfgs (F := F)) adm (rdats m S) () defs₀ 𝒱₀ L lv) :=
  [ .host (hseg hostOps0 hostOps0_sub hostOps0_fresh (W0 m)),
    .region (reg0 m S),
    .host (hseg hostOps1 hostOps1_sub hostOps1_fresh (W2 m)),
    .region (reg1 m S hS),
    .host (hsegEx m S hostOps2 hostOps2_sub hostOps2_fresh (W4 m)),
    .host (hsegEx m S hostOps2_1 hostOps2_1_sub hostOps2_1_fresh (W5 m)),
    .host (hsegEx m S hostOps2_2 hostOps2_2_sub hostOps2_2_fresh (W6 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes. -/
def Tₙ (S : Dev nD → Spec1 F) (c : Dev nD) : sProp 𝕄 :=
  iprop(∃ Fo : Fam1 (F := F) c, ⌜∀ w, (rdat1 (V3 m) S c).ArrAt w cfg1.N (Fo w)⌝
    ∗ StableHlo.held (c : Thread nD τ) (Pipeline.ucRefs τ sig) (W7 m c Fo) ∗ ∃ r, prngReg c r)

set_option backward.isDefEq.respectTransparency.types false in
/-- THE RUN. From any memory with zero counters every weakly fair execution of @main terminates, and on every core,
    for some contents Fo of the second region's arrays that its relational data admits after every write-back,
    every unscoped buffer of the final memory holds what the last host stretch leaves over Fo. -/
theorem run_all (S : Dev nD → Spec1 F) (hS : ∀ c, Steps (V3 m) S c) :
    θ_run defs (onTc (τ := τ) (main (F := F))) ⟨m, fun _ => 0, ρ⟩ (fun r => ∀ c : Dev nD,
      ∃ Fo : Fam1 (F := F) c, (∀ w, (rdat1 (V3 m) S c).ArrAt w cfg1.N (Fo w))
        ∧ ∀ b ∈ Pipeline.ucRefs τ sig, r.2.mem (((c : Thread nD τ)).1, b) = W7 m c Fo b) :=
  Pipeline.RDat.θ_run_regions_kit (pcfgs (F := F)) adm (rdats m S) () cellOf_inj emb₁ defs₀ 𝒱₀ L lv m ρ main (segs m S hS)
    (fun c Q => by
      rewrite [main_chain c, Pipeline.RDat.Seg.run_eq_chain,
        show (segs m S hS).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m S)
    (hch := ⟨fun _ => .rfl, fun _ => .rfl, fun _ => .rfl, fun _ => .rfl, fun _ => .rfl, fun _ => .rfl, fun _ => .rfl, fun c => by
      show TEx m S (W7 m) c ⊢ _
      unfold TEx Tₙ
      iintro ⟨%Fo, %hFo, Hh, Hp, HO⟩
      isplitr [HO]
      · iexists Fo
        isplitr; · ipureintro; exact hFo
        isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ Fo : Fam1 (F := F) c, (∀ w, (rdat1 (V3 m) S c).ArrAt w cfg1.N (Fo w))
        ∧ ∀ b ∈ Pipeline.ucRefs τ sig, s.mem (((c : Thread nD τ)).1, b) = W7 m c Fo b)
    (hfin := fun c s' => by
      unfold Tₙ
      iintro ⟨⟨%Fo, %hFo, Hh, -⟩, HSI⟩
      unfold StableHlo.held
      ihave Hr := (pointsTo_read_all (Pipeline.ucRefs τ sig) (fun b => (((c : Thread nD τ)).1, b)) (W7 m c Fo) s') $$ [Hh HSI]
      · isplitl [Hh] <;> iassumption
      icases Hr with ⟨%h, HSI⟩
      imodintro
      isplitr
      · ipureintro; exact ⟨Fo, hFo, h⟩
      · iexact HSI)
    (hQ := fun s h c => h c)

end Cert.KernelIdeal.H

end
-- ==== Proof.KI.Frames.lean ====
/-
  The frame claim from the run: every argument array ends as launched. No host stretch writes an argument, and a
  region changes only its output arrays; an argument that is an input array of a region (the first region's weights,
  the second region's weights) is among its arrays at the entry contents.
-/
import proofs.«422837_j27685359190570_3_alg».proof.Proof.KI.Run

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The specification that claims nothing. -/
def trivSpec : Spec1 F where
  Inv _ _ _ := True
  O3 _ _ := True
  O4 _ _ := True
  O5 _ _ := True

theorem trivSteps (V : (c : Dev nD) → (b : Ref sig .tc) → Buf (Elt F) ((c : Thread nD τ).loc b)) (c : Dev nD) :
    Steps V (fun _ => trivSpec (F := F)) c where
  inv0 _ _ := trivial
  stepA _ _ _ _ _ _ _ := ⟨trivial, trivial⟩
  stepB _ _ _ _ _ _ _ _ := ⟨trivial, trivial⟩
  stepC _ _ _ _ _ _ _ := ⟨trivial, trivial, trivial, trivial⟩

/-- A reference that no host stretch writes and that is, for each region, either none of its arrays or an input
    array of it, holds at the end what it held at launch. -/
theorem W7_kept (S : Dev nD → Spec1 F) (c : Dev nD) (Fo : Fam1 (F := F) c) (hFo : ∀ w, (rdat1 (V3 m) S c).ArrAt w cfg1.N (Fo w))
    (r : Ref sig .tc)
    (h0 : r ∉ hostOps0_W) (h1 : r ∉ hostOps1_W) (h2 : r ∉ hostOps2_W) (h3 : r ∉ hostOps2_1_W) (h4 : r ∉ hostOps2_2_W)
    (hr0 : ∀ w, Pipeline.arrRef spec0 w = r → (cfg0.win w).isOut = false)
    (hr1 : ∀ w, Pipeline.arrRef spec1 w = r → (cfg1.win w).isOut = false) :
    W7 m c Fo (Proc.devRef .tc r) = m ((c : Thread nD τ).loc r) := by
  have e7 : W7 m c Fo (Proc.devRef .tc r) = W6 m c Fo (Proc.devRef .tc r) := StableHlo.after_of_writes_sub hostOps2_2 _ hostOps2_2_writes h4
  have e6 : W6 m c Fo (Proc.devRef .tc r) = W5 m c Fo (Proc.devRef .tc r) := StableHlo.after_of_writes_sub hostOps2_1 _ hostOps2_1_writes h3
  have e5 : W5 m c Fo (Proc.devRef .tc r) = W4 m c Fo (Proc.devRef .tc r) := StableHlo.after_of_writes_sub hostOps2 _ hostOps2_writes h2
  have e4 : W4 m c Fo (Proc.devRef .tc r) = W3 m c (Proc.devRef .tc r) := by
    by_cases hw : ∃ w, Pipeline.arrRef spec1 w = r
    · obtain ⟨w, rfl⟩ := hw
      rw [W4_arr m c Fo w, (rdat1 (V3 m) S c).eq_A_of_ArrAt_in (hr1 w rfl) (hFo w)]
      exact A_eq1 (V3 m) S c w
    · exact W4_of_ne m c Fo r fun w e => hw ⟨w, e⟩
  have e3 : W3 m c (Proc.devRef .tc r) = W2 m c (Proc.devRef .tc r) := StableHlo.after_of_writes_sub hostOps1 _ hostOps1_writes h1
  have e2 : W2 m c (Proc.devRef .tc r) = W1 m c (Proc.devRef .tc r) := by
    by_cases hw : ∃ w, Pipeline.arrRef spec0 w = r
    · obtain ⟨w, rfl⟩ := hw
      rw [W2_arr m c w, (dat0 (V1 m) c).arrAt_in w (hr0 w rfl) _]
      exact A_eq0 (V1 m) c w
    · exact W2_of_ne m c r fun w e => hw ⟨w, e⟩
  have e1 : W1 m c (Proc.devRef .tc r) = W0 m c (Proc.devRef .tc r) := StableHlo.after_of_writes_sub hostOps0 _ hostOps0_writes h0
  rw [e7, e6, e5, e4, e3, e2, e1]

/-- A final memory that holds, at every unscoped buffer, what the last host stretch leaves over contents Fo the
    second region's relational data admits, holds every argument as launched. -/
theorem args_of_mem (S : Dev nD → Spec1 F) (c : Dev nD) (Fo : Fam1 (F := F) c) (hFo : ∀ w, (rdat1 (V3 m) S c).ArrAt w cfg1.N (Fo w))
    (s : MemSt nD τ sig (Elt F)) (hmem : ∀ b ∈ Pipeline.ucRefs τ sig, s.mem (((c : Thread nD τ)).1, b) = W7 m c Fo b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10) := by
  have k : ∀ (a : Ref sig .tc) (hu : ¬ (Proc.devRef .tc a : DevRef τ sig).isScoped)
      (h0 : a ∉ hostOps0_W) (h1 : a ∉ hostOps1_W) (h2 : a ∉ hostOps2_W) (h3 : a ∉ hostOps2_1_W) (h4 : a ∉ hostOps2_2_W)
      (hr0 : ∀ w, Pipeline.arrRef spec0 w = a → (cfg0.win w).isOut = false)
      (hr1 : ∀ w, Pipeline.arrRef spec1 w = a → (cfg1.win w).isOut = false),
      s.mem ((c.tc : Thread nD τ).loc a) = m ((c.tc : Thread nD τ).loc a) :=
    fun a hu h0 h1 h2 h3 h4 hr0 hr1 => (hmem _ (mem_uc a hu)).trans (W7_kept m S c Fo hFo a h0 h1 h2 h3 h4 hr0 hr1)
  exact ⟨k main_arg0 (by decide) (by decide) (by decide) (by decide) (by decide) (by decide) (by decide) (by decide),
    k main_arg1 (by decide) (by decide) (by decide) (by decide) (by decide) (by decide) (by decide) (by decide),
    k main_arg2 (by decide) (by decide) (by decide) (by decide) (by decide) (by decide) (by decide) (by decide),
    k main_arg3 (by decide) (by decide) (by decide) (by decide) (by decide) (by decide) (by decide) (by decide),
    k main_arg4 (by decide) (by decide) (by decide) (by decide) (by decide) (by decide) (by decide) (by decide),
    k main_arg5 (by decide) (by decide) (by decide) (by decide) (by decide) (by decide) (by decide) (by decide),
    k main_arg6 (by decide) (by decide) (by decide) (by decide) (by decide) (by decide) (by decide) (by decide),
    k main_arg7 (by decide) (by decide) (by decide) (by decide) (by decide) (by decide) (by decide) (by decide),
    k main_arg8 (by decide) (by decide) (by decide) (by decide) (by decide) (by decide) (by decide) (by decide),
    k main_arg9 (by decide) (by decide) (by decide) (by decide) (by decide) (by decide) (by decide) (by decide),
    k main_arg10 (by decide) (by decide) (by decide) (by decide) (by decide) (by decide) (by decide) (by decide)⟩

/-- THE FRAME, at any float instance, from the run at any specification whose pure obligations hold. -/
theorem frame_of_steps (S : Dev nD → Spec1 F) (hS : ∀ c, Steps (V3 m) S c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨Fo, hFo, hmem⟩ := h c
    exact args_of_mem m S c Fo hFo r.2 hmem)
    (run_all m ρ S hS)

/-- THE FRAME: the program runs, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_steps m ρ (fun _ => trivSpec) (fun c => trivSteps (V3 m) c)

end Cert.KernelIdeal.H

end
-- ==== Proof.LseMath.lean ====
/-
  The algebra of a blocked ("online") log-sum-exp over the extended reals.

  A row of logits x is scanned tile by tile keeping a running maximum m and a running sum l of exp (x - m); a
  padded entry of a tile is the bottom element, which the maximum ignores and whose exponential is zero. Two
  such scans over disjoint parts are merged by rescaling each sum to the common maximum. The result is the
  maximum and the sum of exponentials over the whole row, and subtracting their log-sum-exp from an entry is
  the reference's two-step subtraction.
-/
import Idealize.ShloMosaic.PureOps.Ideal
import Mathlib.Data.EReal.Basic
import Mathlib.Data.EReal.Operations
import Mathlib.Algebra.BigOperators.Group.Finset.Basic
import Mathlib.Algebra.Order.BigOperators.Group.Finset
import Mathlib.Data.Finset.Lattice.Fold
import Mathlib.Analysis.SpecialFunctions.Log.Basic

noncomputable section

namespace Cert.LseMath

open Idealize.ShloMosaic

variable {ι : Type} [DecidableEq ι]

/-- An entry is a real number or the bottom element (never the top). -/
def NoTop (s : Finset ι) (x : ι → EReal) : Prop := ∀ n ∈ s, x n ≠ ⊤
/-- Some entry of the part is a real number. -/
def HasReal (s : Finset ι) (x : ι → EReal) : Prop := ∃ n ∈ s, x n ≠ ⊥ ∧ x n ≠ ⊤

/-- The sum of exponentials of a part, shifted by m. -/
def esum (s : Finset ι) (x : ι → EReal) (m : EReal) : EReal := ∑ n ∈ s, Ideal.exp (x n - m)

/-! ### Auxiliary lemmas -/

/-- The shifted exponential of an entry as a real number: zero at the bottom element, and the real exponential
    of the difference at a real entry. -/
def rexp (y : EReal) (m : ℝ) : ℝ := if y = ⊥ then 0 else Real.exp (y.toReal - m)

/-- At an entry that is not the top element and a real shift, the extended exponential of the difference is the
    coercion of `rexp`: the difference is the bottom element (exponential zero) or a real number. -/
theorem exp_sub_coe (y : EReal) (hy : y ≠ ⊤) (m : ℝ) :
    Ideal.exp (y - (m : EReal)) = ((rexp y m : ℝ) : EReal) := by
  induction y using EReal.rec with
  | bot => rw [EReal.bot_sub, Ideal.exp_bot]; simp [rexp]
  | coe r =>
    rw [← EReal.coe_sub, Ideal.exp_coe]
    simp [rexp]
  | top => exact absurd rfl hy

theorem rexp_nonneg (y : EReal) (m : ℝ) : 0 ≤ rexp y m := by
  unfold rexp; split_ifs
  · exact le_rfl
  · exact (Real.exp_pos _).le

theorem rexp_pos (y : EReal) (hy : y ≠ ⊥) (m : ℝ) : 0 < rexp y m := by
  unfold rexp; rw [if_neg hy]; exact Real.exp_pos _

/-- Changing the shift from a to m multiplies the shifted exponential by exp (a - m). -/
theorem rexp_shift (y : EReal) (a m : ℝ) : Real.exp (a - m) * rexp y a = rexp y m := by
  unfold rexp; split_ifs
  · exact mul_zero _
  · rw [← Real.exp_add]; congr 1; ring

/-- The coercion of a finite sum of reals is the sum of the coercions. -/
theorem coe_sum (s : Finset ι) (f : ι → ℝ) : ((∑ n ∈ s, f n : ℝ) : EReal) = ∑ n ∈ s, (f n : EReal) := by
  induction s using Finset.induction_on with
  | empty => simp
  | insert a s ha ih => rw [Finset.sum_insert ha, Finset.sum_insert ha, EReal.coe_add, ih]

/-- At a real shift the shifted sum of a part without top entries is a coerced real sum. -/
theorem esum_coe (s : Finset ι) (x : ι → EReal) (h1 : NoTop s x) (m : ℝ) :
    esum s x (m : EReal) = ((∑ n ∈ s, rexp (x n) m : ℝ) : EReal) := by
  unfold esum
  rw [coe_sum]
  exact Finset.sum_congr rfl (fun n hn => exp_sub_coe (x n) (h1 n hn) m)

/-- The maximum of a part without top entries is the bottom element or a real number: it is the bottom element
    for the empty part, and the maximum of two such values is one of them. -/
theorem sup_bot_or_real (s : Finset ι) (x : ι → EReal) (h1 : NoTop s x) :
    s.sup x = ⊥ ∨ ∃ r : ℝ, s.sup x = (r : EReal) := by
  induction s using Finset.induction_on with
  | empty => left; exact Finset.sup_empty
  | insert a s ha ih =>
    have hs : NoTop s x := fun n hn => h1 n (Finset.mem_insert_of_mem hn)
    have hxa : x a = ⊥ ∨ ∃ r : ℝ, x a = (r : EReal) := by
      have hne := h1 a (Finset.mem_insert_self a s)
      induction hx : x a using EReal.rec with
      | bot => left; rfl
      | coe r => right; exact ⟨r, rfl⟩
      | top => exact absurd hx hne
    rw [Finset.sup_insert]
    rcases le_total (x a) (s.sup x) with h | h
    · rw [sup_eq_right.mpr h]; exact ih hs
    · rw [sup_eq_left.mpr h]; exact hxa

/-- The sum of a part all of whose entries are the bottom element is zero at every shift. -/
theorem esum_all_bot (s : Finset ι) (x : ι → EReal) (hb : ∀ n ∈ s, x n = ⊥) (m : EReal) : esum s x m = 0 := by
  unfold esum
  apply Finset.sum_eq_zero
  intro n hn
  rw [hb n hn, EReal.bot_sub, Ideal.exp_bot]

/-- Rescaling the sum of a part, taken at the part's own maximum, to a real shift m. When the maximum is the
    bottom element every entry is, and both sides are zero; when it is a real a, each term
    exp (a - m) * exp (x - a) is exp (x - m). -/
theorem rescale (s : Finset ι) (x : ι → EReal) (h1 : NoTop s x) (m : ℝ) :
    Ideal.exp (s.sup x - (m : EReal)) * esum s x (s.sup x) = esum s x (m : EReal) := by
  rcases sup_bot_or_real s x h1 with h | ⟨a, h⟩
  · have hb : ∀ n ∈ s, x n = ⊥ := (Finset.sup_eq_bot_iff x s).mp h
    rw [esum_all_bot s x hb, esum_all_bot s x hb, mul_zero]
  · rw [h, esum_coe s x h1 a, esum_coe s x h1 m, ← EReal.coe_sub, Ideal.exp_coe, ← EReal.coe_mul,
      Finset.mul_sum]
    congr 1
    exact Finset.sum_congr rfl (fun n _ => rexp_shift (x n) a m)

/-- The shifted sum over a disjoint union is the sum of the two shifted sums. -/
theorem esum_union (A B : Finset ι) (hd : Disjoint A B) (x : ι → EReal) (m : EReal) :
    esum (A ∪ B) x m = esum A x m + esum B x m := by
  unfold esum; exact Finset.sum_union hd

theorem max_sup_union (A B : Finset ι) (x : ι → EReal) : max (A.sup x) (B.sup x) = (A ∪ B).sup x :=
  (Finset.sup_union).symm

/-! ### The interface -/

/-- With a real entry and no top entry, the maximum of a part is a real number. -/
theorem sup_real (s : Finset ι) (x : ι → EReal) (h1 : NoTop s x) (h2 : HasReal s x) : ∃ r : ℝ, s.sup x = (r : EReal) := by
  rcases sup_bot_or_real s x h1 with h | h
  · obtain ⟨n, hn, hnb, _⟩ := h2
    exact absurd ((Finset.sup_eq_bot_iff x s).mp h n hn) hnb
  · exact h

/-- The shifted sum of exponentials at a real shift is a positive real number when some entry is real. -/
theorem esum_pos_real (s : Finset ι) (x : ι → EReal) (h1 : NoTop s x) (h2 : HasReal s x) (m : ℝ) :
    ∃ r : ℝ, 0 < r ∧ esum s x (m : EReal) = (r : EReal) := by
  obtain ⟨n, hn, hnb, _⟩ := h2
  refine ⟨∑ n ∈ s, rexp (x n) m, ?_, esum_coe s x h1 m⟩
  exact Finset.sum_pos' (fun i _ => rexp_nonneg (x i) m) ⟨n, hn, rexp_pos (x n) hnb m⟩

/-- One step of the scan: the part seen so far (`old`, possibly empty: then its maximum is the bottom element and
    its sum is zero) and a new tile with a real entry. -/
theorem online_step (old new : Finset ι) (hd : Disjoint old new) (x : ι → EReal)
    (h1 : NoTop (old ∪ new) x) (h2 : HasReal new x) :
    max (old.sup x) (new.sup x) = (old ∪ new).sup x
    ∧ Ideal.exp (old.sup x - max (old.sup x) (new.sup x)) * esum old x (old.sup x) + esum new x (max (old.sup x) (new.sup x))
        = esum (old ∪ new) x (max (old.sup x) (new.sup x)) := by
  refine ⟨max_sup_union old new x, ?_⟩
  have hU : HasReal (old ∪ new) x := by
    obtain ⟨n, hn, h⟩ := h2
    exact ⟨n, Finset.mem_union_right old hn, h⟩
  obtain ⟨m, hm⟩ := sup_real (old ∪ new) x h1 hU
  have hold : NoTop old x := fun n hn => h1 n (Finset.mem_union_left new hn)
  rw [max_sup_union old new x, hm, rescale old x hold m, esum_union old new hd x]

/-- Merging the scans of two disjoint parts, each with a real entry. -/
theorem merge (A B : Finset ι) (hd : Disjoint A B) (x : ι → EReal) (h1 : NoTop (A ∪ B) x) (hA : HasReal A x) (hB : HasReal B x) :
    max (A.sup x) (B.sup x) = (A ∪ B).sup x
    ∧ esum A x (A.sup x) * Ideal.exp (A.sup x - max (A.sup x) (B.sup x))
        + esum B x (B.sup x) * Ideal.exp (B.sup x - max (A.sup x) (B.sup x))
        = esum (A ∪ B) x (max (A.sup x) (B.sup x)) := by
  refine ⟨max_sup_union A B x, ?_⟩
  have hU : HasReal (A ∪ B) x := by
    obtain ⟨n, hn, h⟩ := hA
    exact ⟨n, Finset.mem_union_left B hn, h⟩
  obtain ⟨m, hm⟩ := sup_real (A ∪ B) x h1 hU
  have hA1 : NoTop A x := fun n hn => h1 n (Finset.mem_union_left B hn)
  have hB1 : NoTop B x := fun n hn => h1 n (Finset.mem_union_right A hn)
  rw [max_sup_union A B x, hm, mul_comm (esum A x (A.sup x)), mul_comm (esum B x (B.sup x)),
    rescale A x hA1 m, rescale B x hB1 m, esum_union A B hd x]

/-- Entries equal to the bottom element change neither the maximum nor the shifted sum: a part may be cut down to
    any subset that keeps all its other entries. -/
theorem sup_of_bot_off (s s' : Finset ι) (hss : s' ⊆ s) (x : ι → EReal) (hb : ∀ n ∈ s, n ∉ s' → x n = ⊥) : s.sup x = s'.sup x := by
  apply le_antisymm
  · apply Finset.sup_le
    intro n hn
    by_cases h : n ∈ s'
    · exact Finset.le_sup h
    · rw [hb n hn h]; exact bot_le
  · exact Finset.sup_mono hss
theorem esum_of_bot_off (s s' : Finset ι) (hss : s' ⊆ s) (x : ι → EReal) (hb : ∀ n ∈ s, n ∉ s' → x n = ⊥) (m : EReal) :
    esum s x m = esum s' x m := by
  unfold esum
  refine (Finset.sum_subset hss ?_).symm
  intro n hn hn'
  rw [hb n hn hn', EReal.bot_sub, Ideal.exp_bot]

/-- Subtracting the log-sum-exp M + log L from a real entry is the two-step subtraction, for real M and positive
    real L. -/
theorem sub_lse_real (xl M L : ℝ) (hL : 0 < L) :
    (xl : EReal) - ((M : EReal) + Ideal.log (L : EReal)) = ((xl : EReal) - (M : EReal)) - Ideal.log (L : EReal) := by
  rw [Ideal.log_coe, if_neg (not_le.mpr hL), ← EReal.coe_add, ← EReal.coe_sub, ← EReal.coe_sub, ← EReal.coe_sub]
  congr 1
  ring

/-- Subtracting anything from the bottom element leaves it. -/
theorem bot_sub (a : EReal) : (⊥ : EReal) - a = ⊥ :=
  EReal.bot_sub a

end Cert.LseMath

end
-- ==== Proof.KI.SpecI.lean ====
/-
  What the second kernel computes, over the extended reals. From the hidden activations h [4096,1024], the weights
  w [1024,50000] and the bias b [1,50000]: the logits tp e n = (∑ k, h e k · w k n) + b n; a row of logits padded
  with the bottom element past column 50000 (xpad), so that the 196 column tiles of 256 are uniform; the running
  maximum and the running sum of shifted exponentials over the tiles seen so far in the current half of the grid
  (tiles 0-97 on the first half, 98-195 on the second).
-/
import proofs.«422837_j27685359190570_3_alg».proof.Proof.KI.Body1
import proofs.«422837_j27685359190570_3_alg».proof.Proof.LseMath
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx Cert.LseMath

variable (h : Vec Ideal S4096x1024 .bf16) (w : Vec Ideal S1024x50000 .f32) (b : Vec Ideal S1x50000 .f32)

/-- The logit of row e and column n. -/
def tp (e : Fin 4096) (n : Fin 50000) : EReal :=
  (∑ k : Fin 1024, h (ix2 e k) * w (ix2 k n)) + b (ix2 0 n)

/-- Row e of the logits, padded with the bottom element past the last column. -/
def xpad (e : Fin 4096) (n : ℕ) : EReal := if hn : n < 50000 then tp h w b e ⟨n, hn⟩ else ⊥

/-- The columns of the tiles lo, …, hi - 1. -/
def cols (lo hi : ℕ) : Finset ℕ := Finset.Ico (lo * 256) (hi * 256)

/-- The first tile of the half of the grid that point t lies in. -/
def half0 (t : ℕ) : ℕ := t / 98 * 98

/-- The claims about the second kernel at the ideal instance: before a point that is not the first of its half the
    two scratch columns hold the running maximum and the running shifted sum over the tiles of the half seen so
    far; the logits block agrees with the logits on the columns inside the array; the statistics blocks written
    at the last tile of a half hold that half's maximum and shifted sum. -/
def specI : Spec1 Ideal where
  Inv t ms ls := t.val % 98 ≠ 0 → ∀ e : Fin 4096,
    ms (ix2 e 0) = (cols (half0 t.val) t.val).sup (xpad h w b e)
    ∧ ls (ix2 e 0) = esum (cols (half0 t.val) t.val) (xpad h w b e) ((cols (half0 t.val) t.val).sup (xpad h w b e))
  O3 t X := ∀ (e : Fin 4096) (col : Fin 256) (hn : t.val * 256 + col.val < 50000),
    X (ix2 e col) = tp h w b e ⟨t.val * 256 + col.val, hn⟩
  O4 t X := ∀ e : Fin 4096, X (ix3 0 e 0) = (cols (half0 t.val) (t.val + 1)).sup (xpad h w b e)
  O5 t X := ∀ e : Fin 4096, X (ix3 0 e 0)
    = esum (cols (half0 t.val) (t.val + 1)) (xpad h w b e) ((cols (half0 t.val) (t.val + 1)).sup (xpad h w b e))

/-- The three arrays are real-valued. -/
structure FinIn : Prop where
  hh : ∀ i, ∃ r : ℝ, h i = (r : EReal)
  hw : ∀ i, ∃ r : ℝ, w i = (r : EReal)
  hb : ∀ i, ∃ r : ℝ, b i = (r : EReal)

end Cert.KernelIdeal.H

end
-- ==== Proof.KI.FindsI.lean ====
/-
  What the second kernel's body finds in its three input windows' buffers, and the logits tile it computes from
  them, at the ideal instance: the activations' buffer holds the whole array at every point; the weights' and the
  bias's buffers hold their column tile on the columns inside the array; so the tile's entry at such a column is
  the logit.
-/
import proofs.«422837_j27685359190570_3_alg».proof.Proof.KI.SpecI
import Idealize.ShloMosaic.Lib.Pipeline.FrameBody

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx Cert.LseMath

variable (V : (c : Dev nD) → (b : Ref sig .tc) → Buf (Elt Ideal) ((c : Thread nD τ).loc b))
variable (S : Dev nD → Spec1 Ideal) (c : Dev nD)

/-- The three arrays the second kernel reads, as the region finds them. -/
abbrev hArr : Vec Ideal S4096x1024 .bf16 := V c main_v35
abbrev wArr : Vec Ideal S1024x50000 .f32 := V c main_arg5
abbrev bArr : Vec Ideal S1x50000 .f32 := V c main_v36

/-- The activations' window is the whole array, fetched once and left as found: its buffer holds the array at
    every point. -/
theorem finds0 (t : Fin cfg1.N) (Y0 : (cfg1.win 0).block.Idx → Elt Ideal (cfg1.win 0).elt)
    (h : (rdat1 V S c).Finds 0 t Y0) : (Y0 : Vec Ideal S4096x1024 .bf16) = hArr V c := by
  -- an input left as found holds, at every point, what a fetch there puts in the buffer
  obtain ⟨d, hd⟩ := RDat.finds_in_eq_fetched (rdat1 V S c) 0 rfl (fun _ _ _ => rfl) (fun t Y X h => h) t Y0 h
  rw [hd]
  unfold RDat.fetched RDat.blockOf
  funext j
  -- the block is not cut, so every index of it is moved, and the block at index (0, 0) is the array itself
  have hm : (cfg1.win 0).moved (cfg1.grid.coords t) j = true := rfl
  unfold Window.fill
  rw [dif_pos hm]
  show V c main_v35 (((cfg1.win 0).blk t).view.emb _) = V c main_v35 j
  congr 1
  funext a; apply Fin.ext
  have i0 : win1_0.index t (0 : Fin 2) = 0 := rfl
  have i1 : win1_0.index t (1 : Fin 2) = 0 := rfl
  match a with
  | ⟨0, _⟩ => show win1_0.index t (0 : Fin 2) * 4096 + 1 * (j 0).val = (j 0).val; omega
  | ⟨1, _⟩ => show win1_0.index t (1 : Fin 2) * 1024 + 1 * (j 1).val = (j 1).val; omega

/-- The weights' and the bias's index maps over the grid: block (0, t) at point t. -/
theorem idx1_1 : ∀ t : Fin cfg1.N, win1_1.index t (1 : Fin 2) = t.val ∧ win1_1.index t (0 : Fin 2) = 0 :=
  (by decide +kernel : ∀ t : Fin grid1.N, win1_1.index t (1 : Fin 2) = t.val ∧ win1_1.index t (0 : Fin 2) = 0)
theorem idx1_2 : ∀ t : Fin cfg1.N, win1_2.index t (1 : Fin 2) = t.val ∧ win1_2.index t (0 : Fin 2) = 0 :=
  (by decide +kernel : ∀ t : Fin grid1.N, win1_2.index t (1 : Fin 2) = t.val ∧ win1_2.index t (0 : Fin 2) = 0)

/-- A lane of a block of 256 columns at block index t whose column lies inside an array of 50000 columns is among
    the lanes the transfer moves: all 256 if the block ends inside the array, else the first 50000 - t * 256. -/
theorem lane_lt_extent (t col : Nat) (hc : col < 256) (hn : t * 256 + col < 50000) :
    col < (Pipeline.Clip.of t 256 50000).extent 256 := by
  unfold Pipeline.Clip.of
  split
  · exact hc
  · show col < 50000 - t * 256; omega

/-- The weights' window is fetched at every point: on the columns inside the array its buffer holds the tile. -/
theorem finds1 (t : Fin cfg1.N) (Y1 : (cfg1.win 1).block.Idx → Elt Ideal (cfg1.win 1).elt)
    (h : (rdat1 V S c).Finds 1 t Y1) (k : Fin 1024) (col : Fin 256) (hn : t.val * 256 + col.val < 50000) :
    (Y1 : Vec Ideal S1024x256 .f32) (ix2 k col) = wArr V c (ix2 k ⟨t.val * 256 + col.val, hn⟩) := by
  -- just fetched: the array's block on the part of the buffer the transfer fills
  obtain ⟨d, hd⟩ := ((rdat1 V S c).finds_of_fetch (fetch1_1 t) Y1).mp h
  rw [hd]
  unfold RDat.fetched RDat.blockOf
  obtain ⟨e1, e0⟩ := idx1_1 t
  -- the index (k, col) is in that part: all 1024 rows are, and the lane is by its column
  have hm : (cfg1.win 1).moved (cfg1.grid.coords t) (ix2 k col) = true := by
    rw [Window.moved_iff]
    intro a
    match a with
    | ⟨0, _⟩ =>
      show k.val < (Pipeline.Clip.of (win1_1.index t (0 : Fin 2)) 1024 1024).extent 1024
      rw [e0]; exact k.isLt
    | ⟨1, _⟩ =>
      show col.val < (Pipeline.Clip.of (win1_1.index t (1 : Fin 2)) 256 50000).extent 256
      rw [e1]; exact lane_lt_extent _ _ col.isLt hn
  unfold Window.fill
  rw [dif_pos hm]
  -- the block's element there is the array's at row 0 * 1024 + k and column t * 256 + col
  show V c main_arg5 (((cfg1.win 1).blk t).view.emb _) = V c main_arg5 _
  congr 1
  funext a; apply Fin.ext
  match a with
  | ⟨0, _⟩ => show win1_1.index t (0 : Fin 2) * 1024 + 1 * k.val = k.val; omega
  | ⟨1, _⟩ => show win1_1.index t (1 : Fin 2) * 256 + 1 * col.val = t.val * 256 + col.val; omega

/-- The bias's window likewise. -/
theorem finds2 (t : Fin cfg1.N) (Y2 : (cfg1.win 2).block.Idx → Elt Ideal (cfg1.win 2).elt)
    (h : (rdat1 V S c).Finds 2 t Y2) (col : Fin 256) (hn : t.val * 256 + col.val < 50000) :
    (Y2 : Vec Ideal S1x256 .f32) (ix2 0 col) = bArr V c (ix2 0 ⟨t.val * 256 + col.val, hn⟩) := by
  obtain ⟨d, hd⟩ := ((rdat1 V S c).finds_of_fetch (fetch1_2 t) Y2).mp h
  rw [hd]
  unfold RDat.fetched RDat.blockOf
  obtain ⟨e1, e0⟩ := idx1_2 t
  -- the index (0, col) is in the part the transfer fills: the one row is, and the lane is by its column
  have hm : (cfg1.win 2).moved (cfg1.grid.coords t) (ix2 0 col) = true := by
    rw [Window.moved_iff]
    intro a
    match a with
    | ⟨0, _⟩ =>
      show 0 < (Pipeline.Clip.of (win1_2.index t (0 : Fin 2)) 1 1).extent 1
      rw [e0]; exact Nat.one_pos
    | ⟨1, _⟩ =>
      show col.val < (Pipeline.Clip.of (win1_2.index t (1 : Fin 2)) 256 50000).extent 256
      rw [e1]; exact lane_lt_extent _ _ col.isLt hn
  unfold Window.fill
  rw [dif_pos hm]
  -- the block's element there is the array's at row 0 and column t * 256 + col
  show V c main_v36 (((cfg1.win 2).blk t).view.emb _) = V c main_v36 _
  congr 1
  funext a; apply Fin.ext
  match a with
  | ⟨0, _⟩ => show win1_2.index t (0 : Fin 2) * 1 + 1 * 0 = 0; omega
  | ⟨1, _⟩ => show win1_2.index t (1 : Fin 2) * 256 + 1 * col.val = t.val * 256 + col.val; omega

/-- The operand indices of the kernel's matrix product at a result index (row, column) and a contraction index:
    (row, contraction index) on the left, (contraction index, column) on the right, axis by axis. -/
theorem lhs_pay3_0 (i : S4096x256.Idx) (q : dot_S4096x1024_S1024x256_S4096x256_1_0_0_1_n_n.contr.Idx) :
    (dot_S4096x1024_S1024x256_S4096x256_1_0_0_1_n_n.lhsIdx i q 0).val = (i 0).val := by
  unfold DotDims.lhsIdx
  rw [dif_neg (show ¬(0 : Fin S4096x1024.rank) ∈ dot_S4096x1024_S1024x256_S4096x256_1_0_0_1_n_n.lhsBatch by decide), dif_pos (show (0 : Fin S4096x1024.rank) ∈ dot_S4096x1024_S1024x256_S4096x256_1_0_0_1_n_n.lhsNonContracting by decide)]
  rfl
theorem lhs_pay3_1 (i : S4096x256.Idx) (q : dot_S4096x1024_S1024x256_S4096x256_1_0_0_1_n_n.contr.Idx) :
    (dot_S4096x1024_S1024x256_S4096x256_1_0_0_1_n_n.lhsIdx i q 1).val = (q ⟨0, by decide⟩).val :=
  dot_S4096x1024_S1024x256_S4096x256_1_0_0_1_n_n.lhsIdx_val_of_single rfl i q
theorem rhs_pay3_0 (i : S4096x256.Idx) (q : dot_S4096x1024_S1024x256_S4096x256_1_0_0_1_n_n.contr.Idx) :
    (dot_S4096x1024_S1024x256_S4096x256_1_0_0_1_n_n.rhsIdx i q 0).val = (q ⟨0, by decide⟩).val :=
  dot_S4096x1024_S1024x256_S4096x256_1_0_0_1_n_n.rhsIdx_val_of_single rfl i q
theorem rhs_pay3_1 (i : S4096x256.Idx) (q : dot_S4096x1024_S1024x256_S4096x256_1_0_0_1_n_n.contr.Idx) :
    (dot_S4096x1024_S1024x256_S4096x256_1_0_0_1_n_n.rhsIdx i q 1).val = (i 1).val := by
  unfold DotDims.rhsIdx
  rw [dif_neg (show ¬(1 : Fin S1024x256.rank) ∈ dot_S4096x1024_S1024x256_S4096x256_1_0_0_1_n_n.rhsBatch by decide), dif_pos (show (1 : Fin S1024x256.rank) ∈ dot_S4096x1024_S1024x256_S4096x256_1_0_0_1_n_n.rhsNonContracting by decide)]
  rfl

/-- The logits tile from any three buffer contents, at an index: the shape casts to the same shape and the narrowing
    of the weights are the identity on extended reals, the matrix product into a zero accumulator is the sum of
    products over the 1024 contraction indices, and the bias row is broadcast down the rows. -/
theorem pay3_at (v4 : Vec Ideal S4096x1024 .bf16) (v6 : Vec Ideal S1024x256 .f32) (v9 : Vec Ideal S1x256 .f32)
    (e : Fin 4096) (col : Fin 256) :
    k1_pay3 (F := Ideal) v4 v6 v9 (ix2 e col) = (∑ k : Fin 1024, v4 (ix2 e k) * v6 (ix2 k col)) + v9 (ix2 0 col) := by
  unfold k1_pay3
  simp only [shapeCast_self]
  rw [addf_apply]
  congr 1
  · -- the matrix product into a zero accumulator is the sum over the contraction index
    show FloatOps.matmul (F := Ideal) dot_S4096x1024_S1024x256_S4096x256_1_0_0_1_n_n none v4 (truncf (F := Ideal) FTy.bf16 v6 bitsLt_bf16_f32) (constant (F := Ideal) S4096x256 .f32 0x00000000#32) (ix2 e col) = _
    rw [Ideal.matmul_constant_zero_apply, ← Equiv.sum_comp (contrEquiv1 dot_S4096x1024_S1024x256_S4096x256_1_0_0_1_n_n 1024 rfl rfl).symm]
    refine Finset.sum_congr rfl fun k _ => ?_
    have hk := contrEquiv1_symm_val dot_S4096x1024_S1024x256_S4096x256_1_0_0_1_n_n 1024 rfl rfl k
    have el : dot_S4096x1024_S1024x256_S4096x256_1_0_0_1_n_n.lhsIdx (ix2 e col) ((contrEquiv1 dot_S4096x1024_S1024x256_S4096x256_1_0_0_1_n_n 1024 rfl rfl).symm k) = ix2 e k := funext fun a => Fin.ext (by
      match a with
      | ⟨0, _⟩ => exact lhs_pay3_0 _ _
      | ⟨1, _⟩ => exact (lhs_pay3_1 _ _).trans hk)
    have er : dot_S4096x1024_S1024x256_S4096x256_1_0_0_1_n_n.rhsIdx (ix2 e col) ((contrEquiv1 dot_S4096x1024_S1024x256_S4096x256_1_0_0_1_n_n 1024 rfl rfl).symm k) = ix2 k col := funext fun a => Fin.ext (by
      match a with
      | ⟨0, _⟩ => exact (rhs_pay3_0 _ _).trans hk
      | ⟨1, _⟩ => exact rhs_pay3_1 _ _)
    rw [el, er, truncf_apply]
  · -- the bias row broadcast down the rows reads the row at the column
    exact broadcastTo_apply v9 broadcasts_S1x256_S4096x256 (ix2 e col) (ix2 0 col) (fun a => match a with
      | ⟨0, _⟩ => by show 0 = if (1 : Nat) = 1 then 0 else _; rw [if_pos rfl]
      | ⟨1, _⟩ => by show col.val = if (256 : Nat) = 1 then 0 else col.val; rw [if_neg (by decide)])

/-- The logits tile at a column inside the array is the logit. -/
theorem pay3_apply (t : Fin cfg1.N) (Y : (w : Fin cfg1.W) → (cfg1.win w).block.Idx → Elt Ideal (cfg1.win w).elt)
    (hY : ∀ w, (rdat1 V S c).Finds w t (Y w)) (e : Fin 4096) (col : Fin 256) (hn : t.val * 256 + col.val < 50000) :
    k1_pay3 (F := Ideal) (Y 0) (Y 1) (Y 2) (ix2 e col) = tp (hArr V c) (wArr V c) (bArr V c) e ⟨t.val * 256 + col.val, hn⟩ := by
  have h0 := finds0 V S c t (Y 0) (hY 0)
  have h1 := fun k => finds1 V S c t (Y 1) (hY 1) k col hn
  have h2 := finds2 V S c t (Y 2) (hY 2) col hn
  refine (pay3_at (Y 0) (Y 1) (Y 2) e col).trans ?_
  unfold tp
  exact congrArg₂ (· + ·) (Finset.sum_congr rfl fun k _ => congrArg₂ (· * ·) (congrFun h0 (ix2 e k)) (h1 k)) h2

end Cert.KernelIdeal.H

end
-- ==== Proof.KI.MaskI.lean ====
/-
  The column mask of the last tile of each half, at the ideal instance: the kernel replaces the entries of the
  logits tile whose global column (tile number × 256 + lane) is 50000 or more by a constant that the certificate's
  table names the bottom element; so the masked tile is the tile where the column is inside the array and the
  bottom element elsewhere.
-/
import proofs.«422837_j27685359190570_3_alg».proof.Proof.Gen.KernelIdeal.Skeleton
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

/-- The named fill constant denotes the bottom element at the ideal instance. -/
theorem neg_big_bot : Named.named (F := Ideal) Cert.KernelIdeal.κ "neg_big" (φ := .f32) 0xFF333332#32 = (⊥ : EReal) :=
  IdealRules.named_const.ideal_named_scalar _ _ _ _ rfl

/-- The tile's first column as a 32-bit word: at grid point t, with coordinates (t / 98, t % 98) on the grid [2, 98],
    the word (t / 98 · 98 + t % 98) · 256 is t · 256 — the products stay far below 2^32, so nothing wraps. Checked at
    each of the 196 points. -/
theorem tile_word : ∀ t : Fin grid1.N,
    ((BitVec.ofNat 32 ((grid1.coords t) 0).val * 98#32 + BitVec.ofNat 32 ((grid1.coords t) 1).val) * 256#32).toNat = t.val * 256 := by
  decide +kernel

/-- A select on "first column + lane < 50000", compared signed on words, is the `if` on the naturals: with the first
    column n · 256 for n < 196 and the lane c < 256, the sum is at most 195 · 256 + 255 < 2^31, so the addition does not
    wrap and both sides of the signed comparison are non-negative. -/
theorem select_lt_word {α : Type} (W : BitVec 32) (n c : Nat) (hW : W.toNat = n * 256) (hn : n < 196) (hc : c < 256) (a b : α) :
    Scalar.select (IntOp.cmpi .slt (IntOp.addi W (BitVec.ofNat 32 c)) 50000#32) a b
      = if n * 256 + c < 50000 then a else b := by
  have ha : (IntOp.addi W (BitVec.ofNat 32 c)).toNat = n * 256 + c := by
    simp only [IntOp.addi, BitVec.toNat_add, hW, BitVec.toNat_ofNat]; omega
  have hb : (50000#32 : BitVec 32).toNat = 50000 := rfl
  have hiff := StableHlo.Predicate.slt_iff_toNat (a := IntOp.addi W (BitVec.ofNat 32 c)) (b := 50000#32)
    (by rw [ha]; omega) (by rw [hb]; omega)
  rw [ha, hb] at hiff
  by_cases h : n * 256 + c < 50000
  · rw [hiff.mpr h, select_one, if_pos h]
  · rw [eq_zero_of_ne_one (fun h1 => h (hiff.mp h1)), select_zero, if_neg h]

/-- The masked tile, entry by entry: at grid point t (tile number t on the whole row of 196 tiles) the entry of
    row e and lane col is the tile's entry if t · 256 + col < 50000 and the bottom element otherwise. -/
theorem pay8_apply (t : Fin cfg1.N) (v12 : FVec Ideal S4096x256 .f32) (e : Fin 4096) (col : Fin 256) :
    k1_pay8 (F := Ideal) (BitVec.ofNat 32 ((grid1.coords t) 0).val) (BitVec.ofNat 32 ((grid1.coords t) 1).val) v12 (ix2 e col)
      = if t.val * 256 + col.val < 50000 then v12 (ix2 e col) else (⊥ : EReal) := by
  -- Read at the index, the tile is a select on the compare of (first column + the lane's iota) with 50000.
  show Scalar.select (IntOp.cmpi .slt (IntOp.addi
      ((BitVec.ofNat 32 ((grid1.coords t) 0).val * 98#32 + BitVec.ofNat 32 ((grid1.coords t) 1).val) * 256#32)
      (iota .tc S4096x256 32 [1] iota_S4096x256_d1_w32 (ix2 e col))) 50000#32) (v12 (ix2 e col))
      (Named.named (F := Ideal) κ "neg_big" (φ := .f32) 0xFF333332#32) = _
  -- The iota along axis 1 reads the lane; the fill constant is the bottom element.
  rw [iota_single_apply, neg_big_bot]
  exact select_lt_word _ t.val col.val (tile_word t) t.isLt col.isLt _ _

end Cert.KernelIdeal.H

end
-- ==== Proof.KI.StepsI.lean ====
/-
  The second kernel's three control cases preserve the claims of the ideal specification: the logits tile is the
  logits on the columns inside the array; the row maximum and the row sum of shifted exponentials of a tile extend
  the running maximum and the running shifted sum by one tile (the algebra of the blocked log-sum-exp); on the
  last tile of a half the padded lanes are the bottom element, which neither reduction sees.
-/
import proofs.«422837_j27685359190570_3_alg».proof.Proof.KI.FindsI
import proofs.«422837_j27685359190570_3_alg».proof.Proof.KI.MaskI

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx Cert.LseMath

/-! ### Index bookkeeping of the column tiles -/

/-- The columns of tile t are the images of the 256 lanes under lane ↦ t · 256 + lane. -/
theorem cols_eq_image (t : ℕ) :
    cols t (t + 1) = (Finset.univ : Finset (Fin 256)).image (fun col => t * 256 + col.val) := by
  ext n
  simp only [cols, Finset.mem_Ico, Finset.mem_image, Finset.mem_univ, true_and]
  constructor
  · rintro ⟨h1, h2⟩
    exact ⟨⟨n - t * 256, by omega⟩, by show t * 256 + (n - t * 256) = n; omega⟩
  · rintro ⟨col, rfl⟩
    have := col.isLt
    constructor <;> omega

/-- The maximum over the 256 lanes of a tile is the maximum over the tile's columns. -/
theorem sup_tile (x : ℕ → EReal) (t : ℕ) :
    (Finset.univ : Finset (Fin 256)).sup (fun col => x (t * 256 + col.val)) = (cols t (t + 1)).sup x := by
  rw [cols_eq_image, Finset.sup_image]; rfl

/-- The sum over the 256 lanes of a tile is the sum over the tile's columns: the lane map is injective. -/
theorem sum_tile (y : ℕ → EReal) (t : ℕ) :
    ∑ col : Fin 256, y (t * 256 + col.val) = ∑ n ∈ cols t (t + 1), y n := by
  rw [cols_eq_image, Finset.sum_image]
  intro a _ b _ hab
  have hab' : t * 256 + a.val = t * 256 + b.val := hab
  exact Fin.ext (by omega)

/-- Consecutive runs of tiles join, and are disjoint. -/
theorem cols_union (lo t : ℕ) (h : lo ≤ t) : cols lo t ∪ cols t (t + 1) = cols lo (t + 1) := by
  unfold cols
  exact Finset.Ico_union_Ico_eq_Ico (Nat.mul_le_mul_right 256 h) (Nat.mul_le_mul_right 256 (Nat.le_succ t))

theorem cols_disjoint (lo t : ℕ) : Disjoint (cols lo t) (cols t (t + 1)) := by
  unfold cols
  exact Finset.Ico_disjoint_Ico_consecutive _ _ _

theorem cols_self (t : ℕ) : cols t t = ∅ := by
  unfold cols; exact Finset.Ico_self _

/-! ### The layout operations of the payloads, read at an index -/

/-- The inserted index of the lane reduction at row e and lane col is (e, col). -/
theorem lift_ix (e : Fin 4096) (col : Fin 256) : reduces_S4096x256_S4096.lift (ix1 e) col = ix2 e col := by
  funext a
  match a with
  | ⟨0, _⟩ => exact Fin.ext rfl
  | ⟨1, _⟩ => exact Fin.ext rfl

/-- A vector of 4096 entries cast to a column reads its entry e at (e, 0). -/
theorem shapeCast_col_apply {α : Type} (w : S4096.Idx → α) (e : Fin 4096) :
    shapeCast S4096x1 w shapeCasts_S4096_S4096x1 (ix2 e (0 : Fin 1)) = w (ix1 e) :=
  shapeCast_apply w shapeCasts_S4096_S4096x1 _ _ (by
    rw [Shape.rowMajor_val_two, Shape.rowMajor_val_one]
    show e.val = e.val * 1 + 0
    omega)

/-- A column broadcast along the lanes reads its entry (e, 0) at (e, col). -/
theorem broadcast_col_apply {α : Type} (m : S4096x1.Idx → α) (e : Fin 4096) (col : Fin 256) :
    broadcastTo S4096x256 m broadcasts_S4096x1_S4096x256 (ix2 e col) = m (ix2 e (0 : Fin 1)) := by
  refine broadcastTo_apply m broadcasts_S4096x1_S4096x256 (ix2 e col) (ix2 e (0 : Fin 1)) fun ax => ?_
  match ax with
  | ⟨0, _⟩ => rfl
  | ⟨1, _⟩ => rfl

/-- The pattern of minus infinity denotes the bottom element, and the zero pattern zero. -/
theorem ofBits_neg_inf : Ideal.ofBits .f32 0xFF800000#32 = (⊥ : EReal) := by
  simp [Ideal.ofBits, Ideal.ieee]

/-! ### The two reductions over the lanes of a tile -/

/-- The lane maximum at row e of a tile whose row e is x on the tile's columns. -/
theorem red_max (v : FVec Ideal S4096x256 .f32) (e : Fin 4096) (x : ℕ → EReal) (t : ℕ)
    (hv : ∀ col : Fin 256, v (ix2 e col) = x (t * 256 + col.val)) :
    multiReduction (F := Ideal) .maximumf [1] S4096 v 0xFF800000#32 reduces_S4096x256_S4096 (.inl rfl) rfl (ix1 e)
      = (cols t (t + 1)).sup x := by
  refine (Ideal.multiReduction_maximumf_single v 0xFF800000#32 reduces_S4096x256_S4096 (.inl rfl) rfl (ix1 e)).trans ?_
  rw [← sup_tile]
  show Finset.fold max (Ideal.ofBits .f32 0xFF800000#32) (fun col : Fin 256 => v (reduces_S4096x256_S4096.lift (ix1 e) col)) Finset.univ
    = Finset.fold max ⊥ (fun col : Fin 256 => x (t * 256 + col.val)) Finset.univ
  rw [ofBits_neg_inf]
  congr 1
  funext col
  rw [lift_ix, hv]

/-- The lane sum at row e of a tile whose row e is y on the tile's columns. -/
theorem red_add (w : FVec Ideal S4096x256 .f32) (e : Fin 4096) (y : ℕ → EReal) (t : ℕ)
    (hw : ∀ col : Fin 256, w (ix2 e col) = y (t * 256 + col.val)) :
    multiReduction (F := Ideal) .add [1] S4096 w 0x00000000#32 reduces_S4096x256_S4096 (.inl rfl) rfl (ix1 e)
      = ∑ n ∈ cols t (t + 1), y n := by
  refine (Ideal.multiReduction_add_single w 0x00000000#32 reduces_S4096x256_S4096 (.inl rfl) rfl (ix1 e)).trans ?_
  rw [← sum_tile]
  show ∑ col : Fin 256, w (reduces_S4096x256_S4096.lift (ix1 e) col) = ∑ col : Fin 256, y (t * 256 + col.val)
  refine Finset.sum_congr rfl fun col _ => ?_
  rw [lift_ix, hw]

/-! ### The kernel's two statistics payloads over a variable tile -/

/-- The new running maximum: the old one joined with the lane maximum of the tile. -/
def gmax (v : FVec Ideal S4096x256 .f32) (v21 : Vec Ideal S4096x1 .f32) : FVec Ideal S4096x1 .f32 :=
  maximumf v21 (shapeCast S4096x1
    (multiReduction (F := Ideal) .maximumf [1] S4096 v 0xFF800000#32 reduces_S4096x256_S4096 (.inl rfl) rfl)
    shapeCasts_S4096_S4096x1)

/-- The new running sum at the new maximum m: the old sum rescaled from its maximum v23 to m, plus the lane sum of
    the tile's exponentials shifted by m. -/
def gsum (v : FVec Ideal S4096x256 .f32) (m : FVec Ideal S4096x1 .f32) (v23 v29 : Vec Ideal S4096x1 .f32) :
    FVec Ideal S4096x1 .f32 :=
  shapeCast S4096x1 (addf (mulf (exp (subf v23 m)) v29) (shapeCast S4096x1
    (multiReduction (F := Ideal) .add [1] S4096 (exp (subf v (broadcastTo S4096x256 m broadcasts_S4096x1_S4096x256)))
      0x00000000#32 reduces_S4096x256_S4096 (.inl rfl) rfl)
    shapeCasts_S4096_S4096x1)) shapeCasts_S4096x1_S4096x1

/-- The kernel's statistics payloads are these two functions of the logits tile (cases A and B) or of the masked
    tile (case C); a shape cast to the same shape is the identity. -/
theorem pay4_eq (v4 : Vec Ideal S4096x1024 .bf16) (v6 : Vec Ideal S1024x256 .f32) (v9 : Vec Ideal S1x256 .f32)
    (v21 : Vec Ideal S4096x1 .f32) :
    k1_pay4 (F := Ideal) v4 v6 v9 v21 = gmax (k1_pay3 v4 v6 v9) v21 := rfl

theorem pay5_eq (v4 : Vec Ideal S4096x1024 .bf16) (v6 : Vec Ideal S1024x256 .f32) (v9 : Vec Ideal S1x256 .f32)
    (v21 v23 v29 : Vec Ideal S4096x1 .f32) :
    k1_pay5 (F := Ideal) v4 v6 v9 v21 v23 v29 = gsum (k1_pay3 v4 v6 v9) (gmax (k1_pay3 v4 v6 v9) v21) v23 v29 := rfl

theorem pay6_eq (v4 : Vec Ideal S4096x1024 .bf16) (v6 : Vec Ideal S1024x256 .f32) (v9 : Vec Ideal S1x256 .f32)
    (v21 : Vec Ideal S4096x1 .f32) :
    k1_pay6 (F := Ideal) v4 v6 v9 v21 = gmax (k1_pay3 v4 v6 v9) v21 :=
  shapeCast_self _ _

theorem pay9_eq (a0 a1 : BitVec 32) (v12 : FVec Ideal S4096x256 .f32) (v31 : Vec Ideal S4096x1 .f32) :
    k1_pay9 (F := Ideal) a0 a1 v12 v31 = gmax (k1_pay8 a0 a1 v12) v31 := rfl

theorem pay10_eq (a0 a1 : BitVec 32) (v12 : FVec Ideal S4096x256 .f32) (v31 v33 v39 : Vec Ideal S4096x1 .f32) :
    k1_pay10 (F := Ideal) a0 a1 v12 v31 v33 v39 = gsum (k1_pay8 a0 a1 v12) (gmax (k1_pay8 a0 a1 v12) v31) v33 v39 := rfl

theorem pay11_eq (a0 a1 : BitVec 32) (v12 : FVec Ideal S4096x256 .f32) (v31 : Vec Ideal S4096x1 .f32) :
    k1_pay11 (F := Ideal) a0 a1 v12 v31 = gmax (k1_pay8 a0 a1 v12) v31 :=
  shapeCast_self _ _

/-- The two statistics blocks are the columns with a leading unit axis. -/
theorem pay12_apply (v : Vec Ideal S4096x1 .f32) (e : Fin 4096) :
    k1_pay12 (F := Ideal) v (ix3 (0 : Fin 1) e (0 : Fin 1)) = v (ix2 e (0 : Fin 1)) :=
  shapeCast_ab_1ab_apply v shapeCasts_S4096x1_S1x4096x1 0 e 0

theorem pay7_apply (v : Vec Ideal S4096x1 .f32) (e : Fin 4096) :
    k1_pay7 (F := Ideal) v (ix3 (0 : Fin 1) e (0 : Fin 1)) = v (ix2 e (0 : Fin 1)) :=
  shapeCast_ab_1ab_apply v shapeCasts_S4096x1_S1x4096x1 0 e 0

/-- The scratch columns of the first tile of a half: the bottom element and zero. -/
theorem pay1_apply (e : Fin 4096) : k1_pay1 (F := Ideal) (ix2 e (0 : Fin 1)) = (⊥ : EReal) := by
  show shapeCast S4096x1 (broadcast S4096x1 (Ideal.ofBits .f32 0xFF800000#32)) shapeCasts_S4096x1_S4096x1 (ix2 e (0 : Fin 1)) = ⊥
  rw [shapeCast_self, broadcast_apply, ofBits_neg_inf]

theorem pay2_apply (e : Fin 4096) : k1_pay2 (F := Ideal) (ix2 e (0 : Fin 1)) = (0 : EReal) := by
  show shapeCast S4096x1 (broadcast S4096x1 (Ideal.ofBits .f32 0x00000000#32)) shapeCasts_S4096x1_S4096x1 (ix2 e (0 : Fin 1)) = 0
  rw [shapeCast_self, broadcast_apply, Ideal.ofBits_zero_f32]

/-- The new maximum at row e, over a tile whose row e is x on the tile's columns. -/
theorem gmax_apply (v : FVec Ideal S4096x256 .f32) (v21 : Vec Ideal S4096x1 .f32) (e : Fin 4096) (x : ℕ → EReal) (t : ℕ)
    (hv : ∀ col : Fin 256, v (ix2 e col) = x (t * 256 + col.val)) :
    gmax v v21 (ix2 e (0 : Fin 1)) = max (v21 (ix2 e (0 : Fin 1))) ((cols t (t + 1)).sup x) := by
  unfold gmax
  refine (maximumf_apply _ _ _).trans ?_
  refine congrArg (max (v21 (ix2 e (0 : Fin 1)))) ?_
  exact (shapeCast_col_apply _ e).trans (red_max v e x t hv)

/-- The new sum at row e. -/
theorem gsum_apply (v : FVec Ideal S4096x256 .f32) (m : FVec Ideal S4096x1 .f32) (v23 v29 : Vec Ideal S4096x1 .f32)
    (e : Fin 4096) (x : ℕ → EReal) (t : ℕ)
    (hv : ∀ col : Fin 256, v (ix2 e col) = x (t * 256 + col.val)) :
    gsum v m v23 v29 (ix2 e (0 : Fin 1))
      = Ideal.exp (v23 (ix2 e (0 : Fin 1)) - m (ix2 e (0 : Fin 1))) * v29 (ix2 e (0 : Fin 1))
        + esum (cols t (t + 1)) x (m (ix2 e (0 : Fin 1))) := by
  unfold gsum
  refine (congrFun (shapeCast_self _ shapeCasts_S4096x1_S4096x1) _).trans ?_
  refine (addf_apply _ _ _).trans ?_
  refine congrArg₂ (· + ·) rfl ?_
  refine (shapeCast_col_apply _ e).trans ?_
  refine red_add _ e (fun n => Ideal.exp (x n - m (ix2 e (0 : Fin 1)))) t fun col => ?_
  show Ideal.exp (v (ix2 e col) - broadcastTo S4096x256 m broadcasts_S4096x1_S4096x256 (ix2 e col)) = _
  rw [broadcast_col_apply, hv]

/-! ### The padded rows of logits -/

section Rows
variable (h : Vec Ideal S4096x1024 .bf16) (w : Vec Ideal S1024x50000 .f32) (b : Vec Ideal S1x50000 .f32)

/-- A finite sum of extended reals each of which is a real number is a real number. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r1, h1⟩ := hf a (Finset.mem_insert_self a s)
    obtain ⟨r2, h2⟩ := ih (fun i hi => hf i (Finset.mem_insert_of_mem hi))
    exact ⟨r1 + r2, by rw [Finset.sum_insert ha, h1, h2, EReal.coe_add]⟩

/-- Over real-valued arrays every logit is a real number: a finite sum of products of reals plus a real. -/
theorem tp_real (hfin : FinIn h w b) (e : Fin 4096) (n : Fin 50000) : ∃ r : ℝ, tp h w b e n = (r : EReal) := by
  unfold tp
  obtain ⟨s, hs⟩ := sum_real Finset.univ (fun k : Fin 1024 => h (ix2 e k) * w (ix2 k n)) (fun k _ => by
    obtain ⟨r1, h1⟩ := hfin.hh (ix2 e k)
    obtain ⟨r2, h2⟩ := hfin.hw (ix2 k n)
    exact ⟨r1 * r2, by rw [h1, h2, EReal.coe_mul]⟩)
  obtain ⟨r3, h3⟩ := hfin.hb (ix2 0 n)
  exact ⟨s + r3, by rw [hs, h3, EReal.coe_add]⟩

theorem xpad_of_lt (e : Fin 4096) (n : ℕ) (hn : n < 50000) : xpad h w b e n = tp h w b e ⟨n, hn⟩ := by
  unfold xpad; exact dif_pos hn

theorem xpad_of_ge (e : Fin 4096) (n : ℕ) (hn : ¬ n < 50000) : xpad h w b e n = ⊥ := by
  unfold xpad; exact dif_neg hn

/-- A padded row has no top entry. -/
theorem xpad_noTop (hfin : FinIn h w b) (e : Fin 4096) (s : Finset ℕ) : NoTop s (xpad h w b e) := by
  intro n _
  by_cases hn : n < 50000
  · obtain ⟨r, hr⟩ := tp_real h w b hfin e ⟨n, hn⟩
    rw [xpad_of_lt h w b e n hn, hr]; exact EReal.coe_ne_top r
  · rw [xpad_of_ge h w b e n hn]; exact bot_ne_top

/-- A tile that starts inside the array has a real entry: its first column. -/
theorem xpad_hasReal (hfin : FinIn h w b) (e : Fin 4096) (t : ℕ) (ht : t * 256 < 50000) :
    HasReal (cols t (t + 1)) (xpad h w b e) := by
  refine ⟨t * 256, ?_, ?_⟩
  · unfold cols; rw [Finset.mem_Ico]; constructor <;> omega
  · obtain ⟨r, hr⟩ := tp_real h w b hfin e ⟨t * 256, ht⟩
    rw [xpad_of_lt h w b e _ ht, hr]
    exact ⟨EReal.coe_ne_bot r, EReal.coe_ne_top r⟩

end Rows

/-! ### One step of the scan, at one row -/

/-- The algebra of one step: from the maximum and shifted sum over the tiles lo, …, t - 1 to those over
    lo, …, t. -/
theorem lse_step (x : ℕ → EReal) (lo t : ℕ) (hlo : lo ≤ t) (h1 : NoTop (cols lo (t + 1)) x)
    (h2 : HasReal (cols t (t + 1)) x) (ms ls : EReal)
    (hms : ms = (cols lo t).sup x) (hls : ls = esum (cols lo t) x ((cols lo t).sup x)) :
    max ms ((cols t (t + 1)).sup x) = (cols lo (t + 1)).sup x
    ∧ Ideal.exp (ms - max ms ((cols t (t + 1)).sup x)) * ls + esum (cols t (t + 1)) x (max ms ((cols t (t + 1)).sup x))
        = esum (cols lo (t + 1)) x ((cols lo (t + 1)).sup x) := by
  subst hms hls
  have hstep := online_step (cols lo t) (cols t (t + 1)) (cols_disjoint lo t) x
    (by rw [cols_union lo t hlo]; exact h1) h2
  rw [cols_union lo t hlo] at hstep
  obtain ⟨ha, hb⟩ := hstep
  refine ⟨ha, ?_⟩
  rw [hb, ha]

/-- The two statistics payloads at row e, over a tile whose row e is x on the tile's columns and scratch columns
    holding the statistics of the tiles lo, …, t - 1: the statistics of the tiles lo, …, t. -/
theorem stats_step (v : FVec Ideal S4096x256 .f32) (ms ls : Vec Ideal S4096x1 .f32) (e : Fin 4096) (x : ℕ → EReal)
    (lo t : ℕ) (hlo : lo ≤ t) (h1 : NoTop (cols lo (t + 1)) x) (h2 : HasReal (cols t (t + 1)) x)
    (hv : ∀ col : Fin 256, v (ix2 e col) = x (t * 256 + col.val))
    (hms : ms (ix2 e (0 : Fin 1)) = (cols lo t).sup x)
    (hls : ls (ix2 e (0 : Fin 1)) = esum (cols lo t) x ((cols lo t).sup x)) :
    gmax v ms (ix2 e (0 : Fin 1)) = (cols lo (t + 1)).sup x
    ∧ gsum v (gmax v ms) ms ls (ix2 e (0 : Fin 1)) = esum (cols lo (t + 1)) x ((cols lo (t + 1)).sup x) := by
  have hm := gmax_apply v ms e x t hv
  have hs := gsum_apply v (gmax v ms) ms ls e x t hv
  obtain ⟨ha, hb⟩ := lse_step x lo t hlo h1 h2 _ _ hms hls
  refine ⟨hm.trans ha, ?_⟩
  rw [hs, hm]
  exact hb

/-! ### The grid's arithmetic -/

theorem half0_le (t : ℕ) : half0 t ≤ t := by unfold half0; omega
theorem half0_first (t : ℕ) (h : t % 98 = 0) : half0 (t + 1) = t := by unfold half0; omega
theorem half0_mid (t : ℕ) (h : t % 98 ≠ 97) : half0 (t + 1) = half0 t := by unfold half0; omega

theorem esum_empty (x : ℕ → EReal) (m : EReal) : esum (∅ : Finset ℕ) x m = 0 := Finset.sum_empty

variable (V : (c : Dev nD) → (b : Ref sig .tc) → Buf (Elt Ideal) ((c : Thread nD τ).loc b))

/-- The ideal specification at the arrays the region finds on each core. -/
abbrev SI : Dev nD → Spec1 Ideal := fun c => specI (hArr V c) (wArr V c) (bArr V c)

/-- The grid has 196 points. -/
theorem t_lt (t : Fin cfg1.N) : t.val < 196 := (show cfg1.N = 196 from N_1) ▸ t.isLt

/-- On a tile that lies wholly inside the array the logits tile is the padded row on the tile's columns. -/
theorem tile_full (c : Dev nD) (t : Fin cfg1.N)
    (Y : (w : Fin cfg1.W) → (cfg1.win w).block.Idx → Elt Ideal (cfg1.win w).elt)
    (hY : ∀ w, (rdat1 V (SI V) c).Finds w t (Y w)) (ht : (t.val + 1) * 256 ≤ 50000) (e : Fin 4096) (col : Fin 256) :
    k1_pay3 (F := Ideal) (Y 0) (Y 1) (Y 2) (ix2 e col)
      = xpad (hArr V c) (wArr V c) (bArr V c) e (t.val * 256 + col.val) := by
  have hn : t.val * 256 + col.val < 50000 := by have := col.isLt; omega
  rw [xpad_of_lt _ _ _ e _ hn]
  exact pay3_apply V (SI V) c t Y hY e col hn

/-- The masked tile is the padded row on the tile's columns, wherever the tile lies. -/
theorem tile_masked (c : Dev nD) (t : Fin cfg1.N)
    (Y : (w : Fin cfg1.W) → (cfg1.win w).block.Idx → Elt Ideal (cfg1.win w).elt)
    (hY : ∀ w, (rdat1 V (SI V) c).Finds w t (Y w)) (e : Fin 4096) (col : Fin 256) :
    k1_pay8 (F := Ideal) (BitVec.ofNat 32 ((grid1.coords t) 0).val) (BitVec.ofNat 32 ((grid1.coords t) 1).val)
        (k1_pay3 (Y 0) (Y 1) (Y 2)) (ix2 e col)
      = xpad (hArr V c) (wArr V c) (bArr V c) e (t.val * 256 + col.val) := by
  refine (pay8_apply t _ e col).trans ?_
  by_cases hn : t.val * 256 + col.val < 50000
  · rw [if_pos hn, xpad_of_lt _ _ _ e _ hn]
    exact pay3_apply V (SI V) c t Y hY e col hn
  · rw [if_neg hn, xpad_of_ge _ _ _ e _ hn]

/-- The logits block claim, at every point. -/
theorem o3_I (c : Dev nD) (t : Fin cfg1.N)
    (Y : (w : Fin cfg1.W) → (cfg1.win w).block.Idx → Elt Ideal (cfg1.win w).elt)
    (hY : ∀ w, (rdat1 V (SI V) c).Finds w t (Y w)) : (SI V c).O3 t (k1_pay3 (Y 0) (Y 1) (Y 2)) :=
  fun e col hn => pay3_apply V (SI V) c t Y hY e col hn

/-- The first tile of a half: the scratch columns were just reset, which is the empty scan. -/
theorem invA_I (c : Dev nD) (hfin : FinIn (hArr V c) (wArr V c) (bArr V c)) (t : Fin cfg1.N)
    (Y : (w : Fin cfg1.W) → (cfg1.win w).block.Idx → Elt Ideal (cfg1.win w).elt)
    (hY : ∀ w, (rdat1 V (SI V) c).Finds w t (Y w)) (h0 : t.val % 98 = 0) :
    (SI V c).Inv t.succ (k1_pay6 (F := Ideal) (Y 0) (Y 1) (Y 2) (k1_pay1 (F := Ideal)))
      (k1_pay5 (F := Ideal) (Y 0) (Y 1) (Y 2) (k1_pay1 (F := Ideal)) (k1_pay1 (F := Ideal)) (k1_pay2 (F := Ideal))) := by
  have ht := t_lt t
  intro _ e
  rw [Fin.val_succ, half0_first t.val h0, pay6_eq, pay5_eq]
  have hb : (t.val + 1) * 256 ≤ 50000 := by omega
  have hb2 : t.val * 256 < 50000 := by omega
  have h1 := xpad_noTop (hArr V c) (wArr V c) (bArr V c) hfin e (cols t.val (t.val + 1))
  have h2 := xpad_hasReal (hArr V c) (wArr V c) (bArr V c) hfin e t.val hb2
  have hv : ∀ col : Fin 256, k1_pay3 (F := Ideal) (Y 0) (Y 1) (Y 2) (ix2 e col)
      = xpad (hArr V c) (wArr V c) (bArr V c) e (t.val * 256 + col.val) := fun col => tile_full V c t Y hY hb e col
  have hms : k1_pay1 (F := Ideal) (ix2 e (0 : Fin 1)) = (cols t.val t.val).sup (xpad (hArr V c) (wArr V c) (bArr V c) e) := by
    rw [cols_self, Finset.sup_empty]; exact pay1_apply e
  have hls : k1_pay2 (F := Ideal) (ix2 e (0 : Fin 1)) = esum (cols t.val t.val) (xpad (hArr V c) (wArr V c) (bArr V c) e)
      ((cols t.val t.val).sup (xpad (hArr V c) (wArr V c) (bArr V c) e)) := by
    rw [cols_self, esum_empty]; exact pay2_apply e
  have key := stats_step (k1_pay3 (F := Ideal) (Y 0) (Y 1) (Y 2)) (k1_pay1 (F := Ideal)) (k1_pay2 (F := Ideal)) e
    (xpad (hArr V c) (wArr V c) (bArr V c) e) t.val t.val le_rfl h1 h2 hv hms hls
  exact key

/-- A middle tile: the scratch columns hold the statistics of the tiles of the half seen so far. -/
theorem invB_I (c : Dev nD) (hfin : FinIn (hArr V c) (wArr V c) (bArr V c)) (t : Fin cfg1.N)
    (Y : (w : Fin cfg1.W) → (cfg1.win w).block.Idx → Elt Ideal (cfg1.win w).elt)
    (hY : ∀ w, (rdat1 V (SI V) c).Finds w t (Y w)) (h0 : t.val % 98 ≠ 0) (h97 : t.val % 98 ≠ 97)
    (ms ls : Vec Ideal S4096x1 .f32) (hinv : (SI V c).Inv t.castSucc ms ls) :
    (SI V c).Inv t.succ (k1_pay6 (F := Ideal) (Y 0) (Y 1) (Y 2) ms) (k1_pay5 (F := Ideal) (Y 0) (Y 1) (Y 2) ms ms ls) := by
  have ht := t_lt t
  intro _ e
  obtain ⟨hms, hls⟩ := hinv h0 e
  rw [Fin.val_succ, half0_mid t.val h97, pay6_eq, pay5_eq]
  exact stats_step (k1_pay3 (Y 0) (Y 1) (Y 2)) ms ls e (xpad (hArr V c) (wArr V c) (bArr V c) e)
    (half0 t.val) t.val (half0_le t.val) (xpad_noTop _ _ _ hfin e _) (xpad_hasReal _ _ _ hfin e t.val (by omega))
    (fun col => tile_full V c t Y hY (by omega) e col) hms hls

/-- The last tile of a half: the same step on the masked tile gives the half's statistics. -/
theorem statsC_I (c : Dev nD) (hfin : FinIn (hArr V c) (wArr V c) (bArr V c)) (t : Fin cfg1.N)
    (Y : (w : Fin cfg1.W) → (cfg1.win w).block.Idx → Elt Ideal (cfg1.win w).elt)
    (hY : ∀ w, (rdat1 V (SI V) c).Finds w t (Y w)) (h97 : t.val % 98 = 97)
    (ms ls : Vec Ideal S4096x1 .f32) (hinv : (SI V c).Inv t.castSucc ms ls) (e : Fin 4096) :
    k1_pay11 (F := Ideal) (BitVec.ofNat 32 ((grid1.coords t) 0).val) (BitVec.ofNat 32 ((grid1.coords t) 1).val)
        (k1_pay3 (Y 0) (Y 1) (Y 2)) ms (ix2 e (0 : Fin 1))
      = (cols (half0 t.val) (t.val + 1)).sup (xpad (hArr V c) (wArr V c) (bArr V c) e)
    ∧ k1_pay10 (F := Ideal) (BitVec.ofNat 32 ((grid1.coords t) 0).val) (BitVec.ofNat 32 ((grid1.coords t) 1).val)
        (k1_pay3 (Y 0) (Y 1) (Y 2)) ms ms ls (ix2 e (0 : Fin 1))
      = esum (cols (half0 t.val) (t.val + 1)) (xpad (hArr V c) (wArr V c) (bArr V c) e)
          ((cols (half0 t.val) (t.val + 1)).sup (xpad (hArr V c) (wArr V c) (bArr V c) e)) := by
  have ht := t_lt t
  obtain ⟨hms, hls⟩ := hinv (by show t.val % 98 ≠ 0; omega) e
  rw [pay11_eq, pay10_eq]
  exact stats_step _ ms ls e (xpad (hArr V c) (wArr V c) (bArr V c) e)
    (half0 t.val) t.val (half0_le t.val) (xpad_noTop _ _ _ hfin e _) (xpad_hasReal _ _ _ hfin e t.val (by omega))
    (fun col => tile_masked V c t Y hY e col) hms hls

/-- The pure obligations of the relational proof data hold for the ideal specification when the three arrays are
    real-valued. -/
theorem stepsI (c : Dev nD) (hfin : FinIn (hArr V c) (wArr V c) (bArr V c)) : Steps V (SI V) c := by
  refine ⟨?_, ?_, ?_, ?_⟩
  · intro ms ls h
    exact absurd (show (0 : Fin (cfg1.N + 1)).val % 98 = 0 from rfl) h
  · intro t Y hY h0 ms ls _
    exact ⟨invA_I V c hfin t Y hY h0, o3_I V c t Y hY⟩
  · intro t Y hY h0 h97 ms ls hinv
    exact ⟨invB_I V c hfin t Y hY h0 h97 ms ls hinv, o3_I V c t Y hY⟩
  · intro t Y hY h97 ms ls hinv
    refine ⟨?_, o3_I V c t Y hY, ?_, ?_⟩
    · intro hne
      exact absurd (show t.succ.val % 98 = 0 by rw [Fin.val_succ]; omega) hne
    · intro e
      exact (pay12_apply _ e).trans (statsC_I V c hfin t Y hY h97 ms ls hinv e).1
    · intro e
      exact (pay7_apply _ e).trans (statsC_I V c hfin t Y hY h97 ms ls hinv e).2

end Cert.KernelIdeal.H

end
-- ==== Proof.LibArrAtCover.lean ====
/-
  What an output array holds after the write-backs, read off from what the body may leave.

  Relational proof data does not name an output array's contents: it says the array holds its entry contents
  overwritten, in point order, at each flushed block by the moved part of SOME contents the body may have left in
  the staging buffer there (ArrAt). Suppose an intended array G is given and, at every flushed point, everything
  the body may leave agrees with G on the moved part of the block, at the indices a predicate P selects. Then any
  contents the array may hold after the write-backs below n agree with G at every selected index that lies in the
  block of a flushed point below n: the write-back of that block put G there, and each later write-back either
  misses the index or rewrites it with the same value.

  With P everywhere true and the flushed blocks covering the array, the array is G.
-/
import Idealize.ShloMosaic.Lib.Pipeline.Cells

noncomputable section

namespace Idealize.ShloMosaic

open Idealize.SL
open Idealize.SL.BI (sProp)
open scoped Idealize.SL.BI
open Idealize.SL.RA
open TcCoe

set_option Elab.async false

variable {nD : Nat} {τ : Topo} {sig : RefSig} {Val : EltTy → Type}
variable {Ix : Type} [DecidableEq Ix] {Name : Type} [DecidableEq Name] {U : Type} [URA U] {Lvl : Type}

namespace Pipeline

variable {Λ₀ : SL.Sem.Labels}

namespace RDat

variable {cfg : Cfg sig Λ₀} {c : Dev nD} (rd : RDat τ Val Ix Name U Lvl cfg c)

/-- Agreement with an intended array on the flushed blocks. Let G be intended contents of output window w's array
    and P select indices of it. If at every flushed point everything the body may leave there has, on the moved
    part of the block, G's values at the selected indices (hleave: the moved part against G read through the
    block), then whatever the array may hold after the write-backs below n (hF) is G at every selected index i
    (hP) inside the block of a flushed point u below n (hu, hfl, hi). By induction on n: the write-back at n
    either holds i, and then puts there the moved part of something left, which is G i; or misses i, and then i
    keeps the value that the write-backs below n gave it, among which is the one at u. -/
theorem ArrAt_eq_of_leaves {w : Fin cfg.W}
    (G : Buf Val ((cfg.win w).arr.view.loc (c.tc : Thread nD τ)))
    (P : ((cfg.win w).arr.view.loc (c.tc : Thread nD τ)).ty.Idx → Prop)
    (hleave : ∀ u : Fin cfg.N, (cfg.win w).flush u = true → ∀ X, rd.Leaves w u X →
      ∀ y : ((cfg.win w).xblock (cfg.grid.coords u)).Idx, P (((cfg.win w).blk u).view.emb y) →
        (cfg.win w).cut (cfg.grid.coords u) X y = ((cfg.win w).blk u).view.read Val G y)
    {n : Nat} {F : Buf Val ((cfg.win w).arr.view.loc (c.tc : Thread nD τ))} (hF : rd.ArrAt w n F)
    {i : ((cfg.win w).arr.view.loc (c.tc : Thread nD τ)).ty.Idx} (hP : P i)
    (u : Fin cfg.N) (hu : u.val < n) (hfl : (cfg.win w).flush u = true)
    (hi : i ∈ ((cfg.win w).blk u).view.set) : F i = G i := by
  induction n generalizing F i u with
  | zero => exact absurd hu (Nat.not_lt_zero _)
  | succ n ih =>
    by_cases hn : n < cfg.N
    · -- the step from the write-backs below n to those below n + 1
      have hs := rd.ArrAt_succ w ⟨n, hn⟩
      dsimp only at hs
      rw [hs] at hF
      by_cases hfn : (cfg.win w).flush ⟨n, hn⟩ = true
      · rw [if_pos hfn] at hF
        obtain ⟨G₀, X, hG₀, hX, rfl⟩ := hF
        by_cases hin : i ∈ ((cfg.win w).blk ⟨n, hn⟩).view.setOn Finset.univ
        · -- the index lies in the block written back at n: it now holds the moved part of what was left, which is G
          obtain ⟨y, -, rfl⟩ := Finset.mem_map.mp hin
          rw [View.write_emb_of_mem _ _ (Finset.mem_univ y), hleave ⟨n, hn⟩ hfn X hX y hP, View.read_apply, cast_cast, cast_eq]
        · -- the write-back at n misses the index: it holds what it held, and its block was flushed below n
          rw [View.write_of_not_mem _ _ _ hin]
          have hne : u.val ≠ n := fun e => hin (by
            have : u = ⟨n, hn⟩ := Fin.ext e
            subst this; exact hi)
          exact ih hG₀ hP u (by omega) hfl hi
      · -- no write-back at n: the point u is another one
        rw [if_neg hfn] at hF
        have hne : u.val ≠ n := fun e => hfn (by
          have : u = ⟨n, hn⟩ := Fin.ext e
          subst this; exact hfl)
        exact ih hF hP u (by omega) hfl hi
    · -- past the last point nothing is written
      have hN : cfg.N ≤ n := Nat.not_lt.mp hn
      rw [rd.ArrAt_stable w (n + 1) (by omega), ← rd.ArrAt_stable w n hN] at hF
      exact ih hF hP u (by have := u.isLt; omega) hfl hi

/-- The same, the flushed point given by existence: a selected index inside the block of SOME flushed point below n. -/
theorem ArrAt_eq_of_leaves_of_exists {w : Fin cfg.W}
    (G : Buf Val ((cfg.win w).arr.view.loc (c.tc : Thread nD τ)))
    (P : ((cfg.win w).arr.view.loc (c.tc : Thread nD τ)).ty.Idx → Prop)
    (hleave : ∀ u : Fin cfg.N, (cfg.win w).flush u = true → ∀ X, rd.Leaves w u X →
      ∀ y : ((cfg.win w).xblock (cfg.grid.coords u)).Idx, P (((cfg.win w).blk u).view.emb y) →
        (cfg.win w).cut (cfg.grid.coords u) X y = ((cfg.win w).blk u).view.read Val G y)
    {n : Nat} {F : Buf Val ((cfg.win w).arr.view.loc (c.tc : Thread nD τ))} (hF : rd.ArrAt w n F)
    {i : ((cfg.win w).arr.view.loc (c.tc : Thread nD τ)).ty.Idx} (hP : P i)
    (hcov : ∃ u : Fin cfg.N, u.val < n ∧ (cfg.win w).flush u = true ∧ i ∈ ((cfg.win w).blk u).view.set) :
    F i = G i := by
  obtain ⟨u, hu, hfl, hi⟩ := hcov
  exact rd.ArrAt_eq_of_leaves G P hleave hF hP u hu hfl hi

/-- The same, the index given by its place in the block: at the element under index y of the block of a flushed
    point u below n, if it is selected, the array holds G's value. -/
theorem ArrAt_emb_eq_of_leaves {w : Fin cfg.W}
    (G : Buf Val ((cfg.win w).arr.view.loc (c.tc : Thread nD τ)))
    (P : ((cfg.win w).arr.view.loc (c.tc : Thread nD τ)).ty.Idx → Prop)
    (hleave : ∀ u : Fin cfg.N, (cfg.win w).flush u = true → ∀ X, rd.Leaves w u X →
      ∀ y : ((cfg.win w).xblock (cfg.grid.coords u)).Idx, P (((cfg.win w).blk u).view.emb y) →
        (cfg.win w).cut (cfg.grid.coords u) X y = ((cfg.win w).blk u).view.read Val G y)
    {n : Nat} {F : Buf Val ((cfg.win w).arr.view.loc (c.tc : Thread nD τ))} (hF : rd.ArrAt w n F)
    (u : Fin cfg.N) (hu : u.val < n) (hfl : (cfg.win w).flush u = true)
    (y : ((cfg.win w).xblock (cfg.grid.coords u)).Idx) (hP : P (((cfg.win w).blk u).view.emb y)) :
    F (((cfg.win w).blk u).view.emb y) = G (((cfg.win w).blk u).view.emb y) :=
  rd.ArrAt_eq_of_leaves G P hleave hF hP u hu hfl (((cfg.win w).blk u).view.emb_mem_set y)

/-- The whole array. If at every flushed point the moved part of everything the body may leave is G's block there,
    and every index of the array lies in the block of some flushed point, then after all the write-backs (any
    count n of points from the grid's on) the array holds exactly G. -/
theorem ArrAt_eq_of_leaves_of_cover {w : Fin cfg.W}
    (G : Buf Val ((cfg.win w).arr.view.loc (c.tc : Thread nD τ)))
    (hleave : ∀ u : Fin cfg.N, (cfg.win w).flush u = true → ∀ X, rd.Leaves w u X →
      (cfg.win w).cut (cfg.grid.coords u) X = ((cfg.win w).blk u).view.read Val G)
    (hcover : ∀ i : ((cfg.win w).arr.view.loc (c.tc : Thread nD τ)).ty.Idx,
      ∃ u : Fin cfg.N, (cfg.win w).flush u = true ∧ i ∈ ((cfg.win w).blk u).view.set)
    {n : Nat} (hn : cfg.N ≤ n) {F : Buf Val ((cfg.win w).arr.view.loc (c.tc : Thread nD τ))} (hF : rd.ArrAt w n F) :
    F = G := by
  funext i
  obtain ⟨u, hfl, hi⟩ := hcover i
  exact rd.ArrAt_eq_of_leaves G (fun _ => True) (fun u hu X hX y _ => congrFun (hleave u hu X hX) y) hF trivial u
    (Nat.lt_of_lt_of_le u.isLt hn) hfl hi

end RDat

end Pipeline

end Idealize.ShloMosaic
-- ==== Proof.KI.ValArr1.lean ====
/-
  What the second region leaves in its three output arrays, at the ideal instance: any contents the relational
  proof data admits after every write-back are the logits (on the whole array: every column lies in the part of
  some tile that is written back), and the two statistics arrays hold each half's row maximum and row sum of
  shifted exponentials (each half's block is written back once, at the half's last tile).
-/
import proofs.«422837_j27685359190570_3_alg».proof.Proof.KI.FindsI
import proofs.«422837_j27685359190570_3_alg».proof.Proof.LibArrAtCover

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx Cert.LseMath

variable (V : (c : Dev nD) → (b : Ref sig .tc) → Buf (Elt Ideal) ((c : Thread nD τ).loc b)) (c : Dev nD)

/-- The ideal specification at the arrays the region finds on each core. -/
abbrev SI' : Dev nD → Spec1 Ideal := fun c => specI (hArr V c) (wArr V c) (bArr V c)

/-! ## The output windows' index maps and cuts, over the grid -/

/-- The logits window at point t is at block row 0 and block column t; it keeps all 4096 rows, and of its 256
    columns those inside the array: the kept columns end at the smaller of the tile's end and 50000. -/
theorem idx_facts1_3 : ∀ t : Fin cfg1.N,
    win1_3.index t (0 : Fin 2) = 0 ∧ win1_3.index t (1 : Fin 2) = t.val
    ∧ win1_3.xsize (grid1.coords t) (0 : Fin 2) = 4096
    ∧ t.val * 256 + win1_3.xsize (grid1.coords t) (1 : Fin 2) = min ((t.val + 1) * 256) 50000 :=
  (by decide +kernel : ∀ t : Fin grid1.N, _)

/-- The two statistics windows at point t are at the block of the half t lies in. -/
theorem idx_facts1_4 : ∀ t : Fin cfg1.N,
    win1_4.index t (0 : Fin 3) = t.val / 98 ∧ win1_4.index t (1 : Fin 3) = 0 ∧ win1_4.index t (2 : Fin 3) = 0 :=
  (by decide +kernel : ∀ t : Fin grid1.N, _)

theorem idx_facts1_5 : ∀ t : Fin cfg1.N,
    win1_5.index t (0 : Fin 3) = t.val / 98 ∧ win1_5.index t (1 : Fin 3) = 0 ∧ win1_5.index t (2 : Fin 3) = 0 :=
  (by decide +kernel : ∀ t : Fin grid1.N, _)

/-! ## Membership in a point's block -/

/-- An index of the logits array is in point t's block iff each coordinate is in the kept part of the block's
    range on its axis. -/
theorem mem_blk1_3 (t : Fin cfg1.N) (i : S4096x50000.Idx) :
    i ∈ ((cfg1.win 3).blk t).view.set ↔ ∀ a : Fin 2, win1_3.index t a * S4096x256.size a ≤ (i a).val
      ∧ (i a).val < win1_3.index t a * S4096x256.size a + win1_3.xsize (grid1.coords t) a := by
  show i ∈ ((View.whole main_v37_0).slice (win1_3.rect t)).set ↔ _
  rw [View.set_slice_whole, Rect.mem_set_unit]
  exact Iff.rfl

theorem mem_blk1_4 (t : Fin cfg1.N) (i : S2x4096x1.Idx) :
    i ∈ ((cfg1.win 4).blk t).view.set ↔ ∀ a : Fin 3, win1_4.index t a * S1x4096x1.size a ≤ (i a).val
      ∧ (i a).val < win1_4.index t a * S1x4096x1.size a + S1x4096x1.size a := by
  show i ∈ ((View.whole main_v37_1).slice (win1_4.rect t)).set ↔ _
  rw [View.set_slice_whole, Rect.mem_set_unit]
  exact Iff.rfl

theorem mem_blk1_5 (t : Fin cfg1.N) (i : S2x4096x1.Idx) :
    i ∈ ((cfg1.win 5).blk t).view.set ↔ ∀ a : Fin 3, win1_5.index t a * S1x4096x1.size a ≤ (i a).val
      ∧ (i a).val < win1_5.index t a * S1x4096x1.size a + S1x4096x1.size a := by
  show i ∈ ((View.whole main_v37_2).slice (win1_5.rect t)).set ↔ _
  rw [View.set_slice_whole, Rect.mem_set_unit]
  exact Iff.rfl

/-! ## The statistics arrays as functions of the index -/

section Stat

variable (h : Vec Ideal S4096x1024 .bf16) (w : Vec Ideal S1024x50000 .f32) (b : Vec Ideal S1x50000 .f32)

/-- The row maxima: at half cc and row e, the maximum of the padded row over the half's columns. -/
def G4 (i : S2x4096x1.Idx) : EReal :=
  (cols ((i 0).val * 98) ((i 0).val * 98 + 98)).sup (xpad h w b (i 1))

/-- The row sums: at half cc and row e, the sum over the half's columns of the exponentials shifted by the maximum. -/
def G5 (i : S2x4096x1.Idx) : EReal :=
  esum (cols ((i 0).val * 98) ((i 0).val * 98 + 98)) (xpad h w b (i 1))
    ((cols ((i 0).val * 98) ((i 0).val * 98 + 98)).sup (xpad h w b (i 1)))

/-- At the last tile u of a half, the tiles from the half's first up to u are the half's 98 tiles: the half is
    u / 98, its first tile u / 98 · 98, and u + 1 = u / 98 · 98 + 98. -/
theorem cols_last (u : ℕ) (hu : u % 98 = 97) (k : ℕ) (hk : k = u / 98) :
    cols (half0 u) (u + 1) = cols (k * 98) (k * 98 + 98) := by
  subst hk
  have h1 : u + 1 = u / 98 * 98 + 98 := by omega
  unfold half0
  rw [h1]

theorem G4_at (u : ℕ) (hu : u % 98 = 97) (i : S2x4096x1.Idx) (e : Fin 4096)
    (hi0 : (i 0).val = u / 98) (hi1 : (i 1).val = e.val) :
    (cols (half0 u) (u + 1)).sup (xpad h w b e) = G4 h w b i := by
  have he : (i 1 : Fin 4096) = e := Fin.ext hi1
  unfold G4
  rw [he, cols_last u hu (i 0).val hi0]

theorem G5_at (u : ℕ) (hu : u % 98 = 97) (i : S2x4096x1.Idx) (e : Fin 4096)
    (hi0 : (i 0).val = u / 98) (hi1 : (i 1).val = e.val) :
    esum (cols (half0 u) (u + 1)) (xpad h w b e) ((cols (half0 u) (u + 1)).sup (xpad h w b e)) = G5 h w b i := by
  have he : (i 1 : Fin 4096) = e := Fin.ext hi1
  unfold G5
  rw [he, cols_last u hu (i 0).val hi0]

end Stat

variable (Fo : (w : Fin cfg1.W) → Buf (Elt Ideal) ((cfg1.win w).arr.view.loc (c.tc : Thread nD τ)))
  (hFo : ∀ w, (rdat1 V (SI' V) c).ArrAt w cfg1.N (Fo w))

attribute [local irreducible] cc1_transform_3 cc1_transform_4 cc1_transform_5 Pipeline.Grid.coords

include hFo

/-- The logits array. -/
theorem arr1_3 (e : Fin 4096) (n : Fin 50000) :
    (Fo 3 : S4096x50000.Idx → EReal) (ix2 e n) = tp (hArr V c) (wArr V c) (bArr V c) e n := by
  have hN : cfg1.N = 196 := N_1
  -- every column lies in the kept part of the block of its tile, which is written back
  have hcov : ∃ u : Fin cfg1.N, u.val < cfg1.N ∧ (cfg1.win 3).flush u = true
      ∧ (ix2 e n : S4096x50000.Idx) ∈ ((cfg1.win 3).blk u).view.set := by
    have hn : n.val < 50000 := n.isLt
    have he : e.val < 4096 := e.isLt
    obtain ⟨u, hu⟩ : ∃ u : Fin cfg1.N, u.val = n.val / 256 := ⟨⟨n.val / 256, by omega⟩, rfl⟩
    obtain ⟨h0, h1, h2, h3⟩ := idx_facts1_3 u
    refine ⟨u, u.isLt, flush1_3 u, ?_⟩
    rw [mem_blk1_3]
    intro a
    match a with
    | ⟨0, _⟩ =>
      show win1_3.index u 0 * 4096 ≤ e.val ∧ e.val < win1_3.index u 0 * 4096 + win1_3.xsize (grid1.coords u) 0
      omega
    | ⟨1, _⟩ =>
      show win1_3.index u 1 * 256 ≤ n.val ∧ n.val < win1_3.index u 1 * 256 + win1_3.xsize (grid1.coords u) 1
      omega
  -- at every point, the kept part of whatever the body may leave is the logits read through the block
  have hleave : ∀ u : Fin cfg1.N, (cfg1.win 3).flush u = true → ∀ X, (rdat1 V (SI' V) c).Leaves 3 u X →
      ∀ y : ((cfg1.win 3).xblock (cfg1.grid.coords u)).Idx, (fun _ => True) (((cfg1.win 3).blk u).view.emb y) →
        (cfg1.win 3).cut (cfg1.grid.coords u) X y
          = ((cfg1.win 3).blk u).view.read (Elt Ideal)
              (fun i : S4096x50000.Idx => tp (hArr V c) (wArr V c) (bArr V c) (i 0) (i 1)) y := by
    intro u _ X hX y _
    obtain ⟨Y, -, hO⟩ := hX
    dsimp only [rdat1] at hO
    obtain ⟨h0, h1, h2, h3⟩ := idx_facts1_3 u
    have hy0x : (y 0).val < win1_3.xsize (grid1.coords u) 0 := (y 0).isLt
    have hy0 : (y 0).val < 4096 := by omega
    have hy1 : (y 1).val < win1_3.xsize (grid1.coords u) 1 := (y 1).isLt
    have hcol : (y 1).val < 256 := by omega
    have hn : u.val * 256 + (y 1).val < 50000 := by omega
    have hO' := hO ⟨(y 0).val, hy0⟩ ⟨(y 1).val, hcol⟩ hn
    have hx : (cfg1.win 3).xinj (cfg1.grid.coords u) y
        = ix2 (n0 := 4096) (n1 := 256) ⟨(y 0).val, hy0⟩ ⟨(y 1).val, hcol⟩ := by
      funext a
      match a with
      | ⟨0, _⟩ => rfl
      | ⟨1, _⟩ => rfl
    refine (congrArg X hx).trans (hO'.trans ?_)
    change tp _ _ _ _ _ = tp _ _ _ _ _
    refine congrArg₂ (tp (hArr V c) (wArr V c) (bArr V c)) (Fin.ext ?_) (Fin.ext ?_)
    · show (y 0).val = win1_3.index u 0 * 4096 + 1 * (y 0).val
      omega
    · show u.val * 256 + (y 1).val = win1_3.index u 1 * 256 + 1 * (y 1).val
      omega
  exact (rdat1 V (SI' V) c).ArrAt_eq_of_leaves_of_exists (w := 3)
    (fun i : S4096x50000.Idx => tp (hArr V c) (wArr V c) (bArr V c) (i 0) (i 1)) (fun _ => True) hleave (hFo 3) trivial hcov

/-- The row maxima of the two halves. -/
theorem arr1_4 (cc : Fin 2) (e : Fin 4096) :
    (Fo 4 : S2x4096x1.Idx → EReal) (ix3 cc e 0)
      = (cols (cc.val * 98) (cc.val * 98 + 98)).sup (xpad (hArr V c) (wArr V c) (bArr V c) e) := by
  have hN : cfg1.N = 196 := N_1
  have hcc : cc.val < 2 := cc.isLt
  -- half cc's block is written back at the half's last tile
  have hcov : ∃ u : Fin cfg1.N, u.val < cfg1.N ∧ (cfg1.win 4).flush u = true
      ∧ (ix3 cc e 0 : S2x4096x1.Idx) ∈ ((cfg1.win 4).blk u).view.set := by
    have he : e.val < 4096 := e.isLt
    obtain ⟨u, hu⟩ : ∃ u : Fin cfg1.N, u.val = cc.val * 98 + 97 := ⟨⟨cc.val * 98 + 97, by omega⟩, rfl⟩
    obtain ⟨h0, h1, h2⟩ := idx_facts1_4 u
    refine ⟨u, u.isLt, (flush1_4 u).mpr (by omega), ?_⟩
    rw [mem_blk1_4]
    intro a
    match a with
    | ⟨0, _⟩ =>
      show win1_4.index u 0 * 1 ≤ cc.val ∧ cc.val < win1_4.index u 0 * 1 + 1
      omega
    | ⟨1, _⟩ =>
      show win1_4.index u 1 * 4096 ≤ e.val ∧ e.val < win1_4.index u 1 * 4096 + 4096
      omega
    | ⟨2, _⟩ =>
      show win1_4.index u 2 * 1 ≤ 0 ∧ 0 < win1_4.index u 2 * 1 + 1
      omega
  -- a point that writes the block back is the last tile of its half, where the body leaves the half's statistic
  have hleave : ∀ u : Fin cfg1.N, (cfg1.win 4).flush u = true → ∀ X, (rdat1 V (SI' V) c).Leaves 4 u X →
      ∀ y : ((cfg1.win 4).xblock (cfg1.grid.coords u)).Idx, (fun _ => True) (((cfg1.win 4).blk u).view.emb y) →
        (cfg1.win 4).cut (cfg1.grid.coords u) X y
          = ((cfg1.win 4).blk u).view.read (Elt Ideal) (G4 (hArr V c) (wArr V c) (bArr V c)) y := by
    intro u hfl X hX y _
    have hu : u.val % 98 = 97 := (flush1_4 u).mp hfl
    obtain ⟨Y, -, hO⟩ := hX
    dsimp only [rdat1] at hO
    rw [if_pos hu] at hO
    obtain ⟨h0, h1, h2⟩ := idx_facts1_4 u
    have hy0 : (y 0).val < 1 := (y 0).isLt
    have hy1 : (y 1).val < 4096 := (y 1).isLt
    have hy2 : (y 2).val < 1 := (y 2).isLt
    have hO' := hO ⟨(y 1).val, hy1⟩
    have hx : (cfg1.win 4).xinj (cfg1.grid.coords u) y
        = ix3 (n0 := 1) (n1 := 4096) (n2 := 1) 0 ⟨(y 1).val, hy1⟩ 0 := by
      funext a
      apply Fin.ext
      match a with
      | ⟨0, _⟩ => show (y 0).val = 0; omega
      | ⟨1, _⟩ => rfl
      | ⟨2, _⟩ => show (y 2).val = 0; omega
    exact (congrArg X hx).trans (hO'.trans (G4_at (hArr V c) (wArr V c) (bArr V c) u.val hu
      (((cfg1.win 4).blk u).view.emb y) ⟨(y 1).val, hy1⟩
      (by show win1_4.index u 0 * 1 + 1 * (y 0).val = _; omega)
      (by show win1_4.index u 1 * 4096 + 1 * (y 1).val = (y 1).val; omega)))
  exact (rdat1 V (SI' V) c).ArrAt_eq_of_leaves_of_exists (w := 4)
    (G4 (hArr V c) (wArr V c) (bArr V c)) (fun _ => True) hleave (hFo 4) trivial hcov

/-- The row sums of shifted exponentials of the two halves. -/
theorem arr1_5 (cc : Fin 2) (e : Fin 4096) :
    (Fo 5 : S2x4096x1.Idx → EReal) (ix3 cc e 0)
      = esum (cols (cc.val * 98) (cc.val * 98 + 98)) (xpad (hArr V c) (wArr V c) (bArr V c) e)
          ((cols (cc.val * 98) (cc.val * 98 + 98)).sup (xpad (hArr V c) (wArr V c) (bArr V c) e)) := by
  have hN : cfg1.N = 196 := N_1
  have hcc : cc.val < 2 := cc.isLt
  -- half cc's block is written back at the half's last tile
  have hcov : ∃ u : Fin cfg1.N, u.val < cfg1.N ∧ (cfg1.win 5).flush u = true
      ∧ (ix3 cc e 0 : S2x4096x1.Idx) ∈ ((cfg1.win 5).blk u).view.set := by
    have he : e.val < 4096 := e.isLt
    obtain ⟨u, hu⟩ : ∃ u : Fin cfg1.N, u.val = cc.val * 98 + 97 := ⟨⟨cc.val * 98 + 97, by omega⟩, rfl⟩
    obtain ⟨h0, h1, h2⟩ := idx_facts1_5 u
    refine ⟨u, u.isLt, (flush1_5 u).mpr (by omega), ?_⟩
    rw [mem_blk1_5]
    intro a
    match a with
    | ⟨0, _⟩ =>
      show win1_5.index u 0 * 1 ≤ cc.val ∧ cc.val < win1_5.index u 0 * 1 + 1
      omega
    | ⟨1, _⟩ =>
      show win1_5.index u 1 * 4096 ≤ e.val ∧ e.val < win1_5.index u 1 * 4096 + 4096
      omega
    | ⟨2, _⟩ =>
      show win1_5.index u 2 * 1 ≤ 0 ∧ 0 < win1_5.index u 2 * 1 + 1
      omega
  -- a point that writes the block back is the last tile of its half, where the body leaves the half's statistic
  have hleave : ∀ u : Fin cfg1.N, (cfg1.win 5).flush u = true → ∀ X, (rdat1 V (SI' V) c).Leaves 5 u X →
      ∀ y : ((cfg1.win 5).xblock (cfg1.grid.coords u)).Idx, (fun _ => True) (((cfg1.win 5).blk u).view.emb y) →
        (cfg1.win 5).cut (cfg1.grid.coords u) X y
          = ((cfg1.win 5).blk u).view.read (Elt Ideal) (G5 (hArr V c) (wArr V c) (bArr V c)) y := by
    intro u hfl X hX y _
    have hu : u.val % 98 = 97 := (flush1_5 u).mp hfl
    obtain ⟨Y, -, hO⟩ := hX
    dsimp only [rdat1] at hO
    rw [if_pos hu] at hO
    obtain ⟨h0, h1, h2⟩ := idx_facts1_5 u
    have hy0 : (y 0).val < 1 := (y 0).isLt
    have hy1 : (y 1).val < 4096 := (y 1).isLt
    have hy2 : (y 2).val < 1 := (y 2).isLt
    have hO' := hO ⟨(y 1).val, hy1⟩
    have hx : (cfg1.win 5).xinj (cfg1.grid.coords u) y
        = ix3 (n0 := 1) (n1 := 4096) (n2 := 1) 0 ⟨(y 1).val, hy1⟩ 0 := by
      funext a
      apply Fin.ext
      match a with
      | ⟨0, _⟩ => show (y 0).val = 0; omega
      | ⟨1, _⟩ => rfl
      | ⟨2, _⟩ => show (y 2).val = 0; omega
    exact (congrArg X hx).trans (hO'.trans (G5_at (hArr V c) (wArr V c) (bArr V c) u.val hu
      (((cfg1.win 5).blk u).view.emb y) ⟨(y 1).val, hy1⟩
      (by show win1_5.index u 0 * 1 + 1 * (y 0).val = _; omega)
      (by show win1_5.index u 1 * 4096 + 1 * (y 1).val = (y 1).val; omega)))
  exact (rdat1 V (SI' V) c).ArrAt_eq_of_leaves_of_exists (w := 5)
    (G5 (hArr V c) (wArr V c) (bArr V c)) (fun _ => True) hleave (hFo 5) trivial hcov

end Cert.KernelIdeal.H

end
-- ==== Proof.TakeSpec.lean ====
/-
  Reading one logit per row by a label, as jnp.take_along_axis does in its filling mode, and the two ways the
  programs subtract the log-sum-exp around it. A label l is first wrapped (a negative label counts from the end:
  l + 50000), is in bounds when the wrapped label lies in [0, 49999], and reads the column "wrapped label clamped
  to [0, 49999]"; out of bounds the result is the fill value, which at the ideal instance is the bottom element.
-/
import Idealize.ShloMosaic.PureOps.Ideal
import Idealize.ShloMosaic.Lib.ValueIdx
import proofs.«422837_j27685359190570_3_alg».proof.Proof.LseMath

noncomputable section

namespace Cert.TakeSpec

open Idealize.ShloMosaic Cert.LseMath

/-- The wrapped label. -/
def adj (l : BitVec 32) : BitVec 32 := Scalar.select (IntOp.cmpi .slt l 0#32) (IntOp.addi l 50000#32) l
/-- Whether the wrapped label is in bounds, as a bit. -/
def okb (l : BitVec 32) : BitVec 1 := IntOp.andi (IntOp.cmpi .sge (adj l) 0#32) (IntOp.cmpi .sle (adj l) 49999#32)
/-- The column read: the wrapped label, read signed, clamped into the row. -/
def colOf (l : BitVec 32) : Fin 50000 := ⟨min (adj l).toInt.toNat 49999, by omega⟩

/-- The kernel's program: the logit read by the label (the bottom element when out of bounds) minus the merged
    log-sum-exp of the two halves' statistics (m0, l0), (m1, l1). -/
def rowK (x : Fin 50000 → EReal) (l : BitVec 32) (m0 l0 m1 l1 : EReal) : EReal :=
  Scalar.select (okb l) (x (colOf l)) (⊥ : EReal)
    - (max m0 m1 + Ideal.log (l0 * Ideal.exp (m0 - max m0 m1) + l1 * Ideal.exp (m1 - max m0 m1)))

/-- The reference's program: the log-softmax entry read by the label (the bottom element when out of bounds), the
    log-softmax being the logits minus their maximum M minus the logarithm of the sum of exponentials shifted by M. -/
def rowR (x : Fin 50000 → EReal) (l : BitVec 32) : EReal :=
  Scalar.select (okb l)
    ((x (colOf l) - max (⊥ : EReal) (Finset.univ.sup x))
      - Ideal.log (∑ n : Fin 50000, Ideal.exp (x n - max (⊥ : EReal) (Finset.univ.sup x))))
    (⊥ : EReal)

end Cert.TakeSpec

end
-- ==== Proof.KI.TailI.lean ====
/-
  The host operations after the second region, at the ideal instance, read at an index: from the contents Fo of
  the region's three output arrays (the logits, the two halves' row maxima and row sums) and the labels, the
  vector whose mean is the first result holds, at row e, the logit read by the label minus the merged
  log-sum-exp; the first result is that vector's sum divided by 4096; the second result is the logits array.
-/
import proofs.«422837_j27685359190570_3_alg».proof.Proof.KI.Run
import proofs.«422837_j27685359190570_3_alg».proof.Proof.TakeSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.ReduceAll

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx Cert.LseMath Cert.TakeSpec

variable (m : (ℓ : Loc nD τ sig) → Buf (Elt Ideal) ℓ) (c : Dev nD) (Fo : Fam1 (F := Ideal) c)

/-- The labels, the three output arrays, and the vector of per-row terms, at their literal types. -/
abbrev labArr : S4096x1.Idx → BitVec 32 := V3 m c main_v33
abbrev fo3 : S4096x50000.Idx → EReal := Fo 3
abbrev fo4 : S2x4096x1.Idx → EReal := Fo 4
abbrev fo5 : S2x4096x1.Idx → EReal := Fo 5
abbrev v58 : S4096.Idx → EReal := W7 m c Fo (Proc.devRef .tc main_v58)

/-! # The stretches as functions, and their readings at a row -/

namespace TailI

/-! ## The three host stretches, each as one function of the buffers it reads -/

/-- The first stretch's last result: the merged log-sum-exp column, from the two statistics arrays (the row maxima a4,
    the row sums a5, each holding the two halves). -/
def lseOf (a4 a5 : S2x4096x1.Idx → EReal) : S4096x1.Idx → EReal :=
  have m0 : S4096x1.Idx → EReal := shapeCast S4096x1 (extractStridedSlice S1x4096x1 ![0, 0, 0] a4 slices_S2x4096x1_S1x4096x1_0_0_0) shapeCasts_S1x4096x1_S4096x1
  have m1 : S4096x1.Idx → EReal := shapeCast S4096x1 (extractStridedSlice S1x4096x1 ![1, 0, 0] a4 slices_S2x4096x1_S1x4096x1_1_0_0) shapeCasts_S1x4096x1_S4096x1
  have l0 : S4096x1.Idx → EReal := shapeCast S4096x1 (extractStridedSlice S1x4096x1 ![0, 0, 0] a5 slices_S2x4096x1_S1x4096x1_0_0_0) shapeCasts_S1x4096x1_S4096x1
  have l1 : S4096x1.Idx → EReal := shapeCast S4096x1 (extractStridedSlice S1x4096x1 ![1, 0, 0] a5 slices_S2x4096x1_S1x4096x1_1_0_0) shapeCasts_S1x4096x1_S4096x1
  have mx : S4096x1.Idx → EReal := maximumf (F := Ideal) (φ := .f32) m0 m1
  addf (F := Ideal) (φ := .f32) mx
    (Host.log (F := Ideal) (φ := .f32)
      (addf (F := Ideal) (φ := .f32)
        (mulf (F := Ideal) (φ := .f32) l0 (Host.exp (F := Ideal) (φ := .f32) (subf (F := Ideal) (φ := .f32) m0 mx)))
        (mulf (F := Ideal) (φ := .f32) l1 (Host.exp (F := Ideal) (φ := .f32) (subf (F := Ideal) (φ := .f32) m1 mx)))))

set_option maxHeartbeats 4000000 in
/-- The first stretch leaves that column in its last result buffer. -/
theorem after2_v55 (Vv : Valuation τ sig (Elt Ideal)) :
    (StableHlo.after hostOps2 Vv (Proc.devRef .tc main_v55) : S4096x1.Idx → EReal)
      = lseOf (Vv (Proc.devRef .tc main_v37_1)) (Vv (Proc.devRef .tc main_v37_2)) := by
  after_results_simp
  rfl

/-! ## Reading the first stretch at a row -/

/-- Half p of a statistics array, reshaped to a column, read at row e: the array at (p, e, 0). -/
theorem half0_apply (a : S2x4096x1.Idx → EReal) (e : Fin 4096) :
    shapeCast S4096x1 (extractStridedSlice S1x4096x1 ![0, 0, 0] a slices_S2x4096x1_S1x4096x1_0_0_0) shapeCasts_S1x4096x1_S4096x1 (ix2 e 0)
      = a (ix3 0 e 0) := by
  refine (shapeCast_apply _ shapeCasts_S1x4096x1_S4096x1 (ix2 e 0) (ix3 0 e 0) ?_).trans ?_
  · rewrite [Shape.rowMajor_val_three, Shape.rowMajor_val_two]
    show (0 * 4096 + e.val) * 1 + 0 = e.val * 1 + 0
    omega
  · exact extractStridedSlice_apply ![0, 0, 0] a slices_S2x4096x1_S1x4096x1_0_0_0 (ix3 0 e 0) (ix3 0 e 0) (fun b => match b with
      | ⟨0, _⟩ => rfl
      | ⟨1, _⟩ => by show e.val = 0 + e.val; omega
      | ⟨2, _⟩ => rfl)
theorem half1_apply (a : S2x4096x1.Idx → EReal) (e : Fin 4096) :
    shapeCast S4096x1 (extractStridedSlice S1x4096x1 ![1, 0, 0] a slices_S2x4096x1_S1x4096x1_1_0_0) shapeCasts_S1x4096x1_S4096x1 (ix2 e 0)
      = a (ix3 1 e 0) := by
  refine (shapeCast_apply _ shapeCasts_S1x4096x1_S4096x1 (ix2 e 0) (ix3 0 e 0) ?_).trans ?_
  · rewrite [Shape.rowMajor_val_three, Shape.rowMajor_val_two]
    show (0 * 4096 + e.val) * 1 + 0 = e.val * 1 + 0
    omega
  · exact extractStridedSlice_apply ![1, 0, 0] a slices_S2x4096x1_S1x4096x1_1_0_0 (ix3 0 e 0) (ix3 1 e 0) (fun b => match b with
      | ⟨0, _⟩ => rfl
      | ⟨1, _⟩ => by show e.val = 0 + e.val; omega
      | ⟨2, _⟩ => rfl)

/-- The merged log-sum-exp column at row e, from the two halves' maxima and sums at that row. -/
theorem lseOf_apply (a4 a5 : S2x4096x1.Idx → EReal) (e : Fin 4096) :
    lseOf a4 a5 (ix2 e 0)
      = max (a4 (ix3 0 e 0)) (a4 (ix3 1 e 0))
        + Ideal.log (a5 (ix3 0 e 0) * Ideal.exp (a4 (ix3 0 e 0) - max (a4 (ix3 0 e 0)) (a4 (ix3 1 e 0)))
          + a5 (ix3 1 e 0) * Ideal.exp (a4 (ix3 1 e 0) - max (a4 (ix3 0 e 0)) (a4 (ix3 1 e 0)))) := by
  rw [← half0_apply a4 e, ← half1_apply a4 e, ← half0_apply a5 e, ← half1_apply a5 e]
  rfl

/-! ## The gather of one logit per row -/

/-- The gather read at row e: the operand at row e (the batching axis) and at the column "start index of row e,
    read signed and clamped into [0, 49999]" (the collapsed axis the start index map names). -/
theorem gather_row_apply {α : Type} {w : Nat} (x : S4096x50000.Idx → α) (idx : IVec S4096x1x1 w) (e : Fin 4096) :
    Host.gather gather_S4096x50000_S4096x1x1_S4096x1_n_1_0_0_1_2_11 x idx (ix2 e 0) = x (ix2 e ⟨min (idx (ix3 e 0 0)).toInt.toNat 49999, by omega⟩) := by
  have h0 : (GatherDims.operandIdx gather_S4096x50000_S4096x1x1_S4096x1_n_1_0_0_1_2_11 (ix2 e 0) idx ⟨0, by decide⟩).val = e.val := by
    show GatherDims.start gather_S4096x50000_S4096x1x1_S4096x1_n_1_0_0_1_2_11 (ix2 e 0) idx ⟨0, _⟩ + GatherDims.batchCoord gather_S4096x50000_S4096x1x1_S4096x1_n_1_0_0_1_2_11 (ix2 e 0) ⟨0, _⟩ + GatherDims.offCoord gather_S4096x50000_S4096x1x1_S4096x1_n_1_0_0_1_2_11 (ix2 e 0) ⟨0, _⟩ = e.val
    rw [GatherDims.start_batching _ _ _ _ (by decide),
      GatherDims.offCoord_eq_zero _ _ _ (fun h => ((GatherDims.mem_sKept _ _).mp h).2 (by decide))]
    simp only [Nat.add_zero, Nat.zero_add]
    rfl
  have h1 : (GatherDims.operandIdx gather_S4096x50000_S4096x1x1_S4096x1_n_1_0_0_1_2_11 (ix2 e 0) idx ⟨1, by decide⟩).val = min (idx (ix3 e 0 0)).toInt.toNat 49999 := by
    show GatherDims.start gather_S4096x50000_S4096x1x1_S4096x1_n_1_0_0_1_2_11 (ix2 e 0) idx ⟨1, _⟩ + GatherDims.batchCoord gather_S4096x50000_S4096x1x1_S4096x1_n_1_0_0_1_2_11 (ix2 e 0) ⟨1, _⟩ + GatherDims.offCoord gather_S4096x50000_S4096x1x1_S4096x1_n_1_0_0_1_2_11 (ix2 e 0) ⟨1, _⟩ = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    have hsi : GatherDims.siIdx gather_S4096x50000_S4096x1x1_S4096x1_n_1_0_0_1_2_11 (ix2 e 0) ⟨List.idxOf (⟨1, by decide⟩ : Fin S4096x50000.rank) (GatherDims.startIndexMap gather_S4096x50000_S4096x1x1_S4096x1_n_1_0_0_1_2_11),
        List.idxOf_lt_length_iff.2 (by decide)⟩ = ix3 e 0 0 := by
      funext b; refine Fin.ext ?_
      match b with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact h0
  | ⟨1, _⟩ => exact h1

/-- The wrapped labels, as a column and reshaped to the gather's start indices. -/
def adjCol (lab : S4096x1.Idx → BitVec 32) : S4096x1.Idx → BitVec 32 :=
  select (cmpi .slt lab (broadcastInDim S4096x1 ![] bcast_S_S4096x1 (constantI S_ 32 0#32)))
    (addi lab (broadcastInDim S4096x1 ![] bcast_S_S4096x1 (constantI S_ 32 50000#32))) lab
def adj3 (lab : S4096x1.Idx → BitVec 32) : S4096x1x1.Idx → BitVec 32 :=
  shapeCast S4096x1x1 (adjCol lab) shapeCasts_S4096x1_S4096x1x1
/-- The bounds test on the start indices. -/
def ok3 (lab : S4096x1.Idx → BitVec 32) : S4096x1x1.Idx → BitVec 1 :=
  andi (cmpi .sge (adj3 lab) (broadcastInDim S4096x1x1 ![] bcast_S_S4096x1x1 (constantI S_ 32 0#32)))
    (cmpi .sle (adj3 lab) (broadcastInDim S4096x1x1 ![0, 1, 2] bcast_S1x1x1_S4096x1x1_0_1_2
      (broadcastInDim S1x1x1 ![2] bcast_S1_S1x1x1_2 (constantI S1 32 49999#32))))

/-- The second stretch's last result: per row, the logit read by the label in the filling mode — the label wrapped,
    tested against the bounds, the row gathered at the wrapped label, the fill value where the test fails. -/
def takeOf (x : S4096x50000.Idx → EReal) (lab : S4096x1.Idx → BitVec 32) : S4096x1.Idx → EReal :=
  select (Host.reduce IntOp.andi (ok3 lab) (constantI S_ 1 1#1) reducesTo_S4096x1x1_S4096x1_d2 h_S_)
    (Host.gather gather_S4096x50000_S4096x1x1_S4096x1_n_1_0_0_1_2_11 x (adj3 lab))
    (broadcastInDim S4096x1 ![] bcast_S_S4096x1 (constant (F := Ideal) S_ .f32 0x7FC00000#32))

set_option maxHeartbeats 4000000 in
/-- The second stretch leaves that column in its last result buffer. -/
theorem after2_1_v56 (Vv : Valuation τ sig (Elt Ideal)) :
    (StableHlo.after hostOps2_1 Vv (Proc.devRef .tc main_v56) : S4096x1.Idx → EReal)
      = takeOf (Vv (Proc.devRef .tc main_v37_0)) (Vv (Proc.devRef .tc main_v33)) := by
  after_results_simp
  rfl

/-! ## Reading the second stretch at a row -/

theorem adjCol_apply (lab : S4096x1.Idx → BitVec 32) (j : S4096x1.Idx) : adjCol lab j = adj (lab j) := rfl

theorem adj3_apply (lab : S4096x1.Idx → BitVec 32) (e : Fin 4096) : adj3 lab (ix3 e 0 0) = adj (lab (ix2 e 0)) := by
  unfold adj3
  refine (shapeCast_apply _ shapeCasts_S4096x1_S4096x1x1 (ix3 e 0 0) (ix2 e 0) ?_).trans (adjCol_apply lab _)
  rewrite [Shape.rowMajor_val_three, Shape.rowMajor_val_two]
  show e.val * 1 + 0 = (e.val * 1 + 0) * 1 + 0
  omega

theorem ok3_apply (lab : S4096x1.Idx → BitVec 32) (e : Fin 4096) : ok3 lab (ix3 e 0 0) = okb (lab (ix2 e 0)) := by
  unfold okb
  rw [← adj3_apply lab e]
  rfl

/-- And with 1 on a one-bit word is the word. -/
theorem andi_one (b : BitVec 1) : IntOp.andi b 1#1 = b := by
  by_cases h : b = 1#1
  · subst h; decide
  · rw [eq_zero_of_ne_one h]; decide

/-- A reduction by "and" from 1 over the last axis, of extent one, is the word itself. -/
theorem reduce_and_apply (y : S4096x1x1.Idx → BitVec 1) (e : Fin 4096) :
    Host.reduce IntOp.andi y (constantI S_ 1 1#1) reducesTo_S4096x1x1_S4096x1_d2 h_S_ (ix2 e 0) = y (ix3 e 0 0) := by
  rw [Host.reduce_eq_fold]
  have hset : (Finset.univ.filter fun i : S4096x1x1.Idx => reducesTo_S4096x1x1_S4096x1_d2.drop i = ix2 e 0) = {ix3 e 0 0} := by
    ext i
    obtain ⟨a, b, c, rfl⟩ : ∃ (a : Fin 4096) (b c : Fin 1), i = ix3 a b c :=
      ⟨_, _, _, eq_ix3 (n0 := 4096) (n1 := 1) (n2 := 1) i⟩
    simp only [Finset.mem_filter, Finset.mem_univ, true_and, Finset.mem_singleton]
    obtain rfl : b = 0 := Fin.fin_one_eq_zero b
    obtain rfl : c = 0 := Fin.fin_one_eq_zero c
    constructor
    · intro hd
      have hv := congrArg Fin.val (congrFun hd ⟨0, Nat.zero_lt_two⟩)
      have h0 : a = e := Fin.ext hv
      rw [h0]
    · intro h
      have hv := congrFun h ⟨0, Nat.zero_lt_succ 2⟩
      have h0 : a = e := hv
      subst h0
      funext b
      match b with
      | ⟨0, _⟩ => rfl
      | ⟨1, _⟩ => rfl
  rw [hset, Finset.fold_singleton]
  exact andi_one _

/-- The fill constant is a NaN pattern: the bottom element at the ideal instance. -/
theorem fill_eq_bot : Ideal.ofBits .f32 0x7FC00000#32 = (⊥ : EReal) := by
  simp [Ideal.ofBits, Ideal.ieee]

/-- The logit read by the label at row e. -/
theorem takeOf_apply (x : S4096x50000.Idx → EReal) (lab : S4096x1.Idx → BitVec 32) (e : Fin 4096) :
    takeOf x lab (ix2 e 0)
      = Scalar.select (okb (lab (ix2 e 0))) (x (ix2 e (colOf (lab (ix2 e 0))))) (⊥ : EReal) := by
  show Scalar.select (Host.reduce IntOp.andi (ok3 lab) (constantI S_ 1 1#1) reducesTo_S4096x1x1_S4096x1_d2 h_S_ (ix2 e 0))
      (Host.gather gather_S4096x50000_S4096x1x1_S4096x1_n_1_0_0_1_2_11 x (adj3 lab) (ix2 e 0)) (Ideal.ofBits .f32 0x7FC00000#32) = _
  rw [reduce_and_apply, ok3_apply, gather_row_apply, fill_eq_bot]
  simp only [adj3_apply]
  rfl

/-- The third stretch's per-row vector: the difference of two columns, reshaped to a vector. -/
def rowsOf (a b : S4096x1.Idx → EReal) : S4096.Idx → EReal :=
  shapeCast S4096 (subf (F := Ideal) (φ := .f32) a b) shapeCasts_S4096x1_S4096

/-- The third stretch leaves it in the buffer the sum reads, -/
theorem after2_2_v58 (Vv : Valuation τ sig (Elt Ideal)) :
    (StableHlo.after hostOps2_2 Vv (Proc.devRef .tc main_v58) : S4096.Idx → EReal)
      = rowsOf (Vv (Proc.devRef .tc main_v56)) (Vv (Proc.devRef .tc main_v55)) := by
  after_results
  rfl
/-- and its last result is that vector summed from zero and divided by 4096. -/
theorem after2_2_v60 (Vv : Valuation τ sig (Elt Ideal)) :
    (StableHlo.after hostOps2_2 Vv (Proc.devRef .tc main_v60) : S_.Idx → EReal)
      = Host.divf (Host.reduceAdd (F := Ideal) (rowsOf (Vv (Proc.devRef .tc main_v56)) (Vv (Proc.devRef .tc main_v55)))
            (constant S_ .f32 0x00000000#32) reducesTo_S4096_S_d0 h_S_)
          (constant (F := Ideal) S_ .f32 0x45800000#32) := by
  after_results
  rfl

/-! ## The three stretches composed -/

/-- The difference of the two columns at row e, in the kernel's program of that row. -/
theorem rowsOf_apply (x : S4096x50000.Idx → EReal) (lab : S4096x1.Idx → BitVec 32) (a4 a5 : S2x4096x1.Idx → EReal) (e : Fin 4096) :
    rowsOf (takeOf x lab) (lseOf a4 a5) (ix1 e)
      = rowK (fun n => x (ix2 e n)) (lab (ix2 e 0)) (a4 (ix3 0 e 0)) (a5 (ix3 0 e 0)) (a4 (ix3 1 e 0)) (a5 (ix3 1 e 0)) := by
  unfold rowsOf
  refine (shapeCast_apply _ shapeCasts_S4096x1_S4096 (ix1 e) (ix2 e 0) ?_).trans ?_
  · rewrite [Shape.rowMajor_val_two, Shape.rowMajor_val_one]
    show e.val * 1 + 0 = e.val
    omega
  · show takeOf x lab (ix2 e 0) - lseOf a4 a5 (ix2 e 0) = _
    rw [takeOf_apply, lseOf_apply]
    rfl

/-- The per-row vector as the three stretches compute it from the region's output arrays and the labels. -/
theorem v58_eq : v58 m c Fo = rowsOf (takeOf (fo3 c Fo) (labArr m c)) (lseOf (fo4 c Fo) (fo5 c Fo)) := by
  have h370 : (W5 m c Fo (Proc.devRef .tc main_v37_0) : S4096x50000.Idx → EReal) = fo3 c Fo :=
    (StableHlo.after_of_writes_sub hostOps2 _ hostOps2_writes (by decide)).trans (W4_arr m c Fo 3)
  have h33 : (W5 m c Fo (Proc.devRef .tc main_v33) : S4096x1.Idx → BitVec 32) = labArr m c :=
    (StableHlo.after_of_writes_sub hostOps2 _ hostOps2_writes (by decide)).trans (W4_of_ne m c Fo main_v33 (by decide))
  have h371 : (W4 m c Fo (Proc.devRef .tc main_v37_1) : S2x4096x1.Idx → EReal) = fo4 c Fo := W4_arr m c Fo 4
  have h372 : (W4 m c Fo (Proc.devRef .tc main_v37_2) : S2x4096x1.Idx → EReal) = fo5 c Fo := W4_arr m c Fo 5
  have h56 : (W6 m c Fo (Proc.devRef .tc main_v56) : S4096x1.Idx → EReal) = takeOf (fo3 c Fo) (labArr m c) :=
    (after2_1_v56 (W5 m c Fo)).trans (congrArg₂ takeOf h370 h33)
  have h55 : (W6 m c Fo (Proc.devRef .tc main_v55) : S4096x1.Idx → EReal) = lseOf (fo4 c Fo) (fo5 c Fo) :=
    ((StableHlo.after_of_writes_sub hostOps2_1 _ hostOps2_1_writes (by decide)).trans (after2_v55 (W4 m c Fo))).trans
      (congrArg₂ lseOf h371 h372)
  exact (after2_2_v58 (W6 m c Fo)).trans (congrArg₂ rowsOf h56 h55)

end TailI

open TailI

/-- Row e of the per-row vector. -/
theorem tail58 (e : Fin 4096) :
    v58 m c Fo (ix1 e) = rowK (fun n => fo3 c Fo (ix2 e n)) (labArr m c (ix2 e 0))
      (fo4 c Fo (ix3 0 e 0)) (fo5 c Fo (ix3 0 e 0)) (fo4 c Fo (ix3 1 e 0)) (fo5 c Fo (ix3 1 e 0)) := by
  rw [v58_eq]
  exact rowsOf_apply (fo3 c Fo) (labArr m c) (fo4 c Fo) (fo5 c Fo) e

/-- The first result: the per-row vector summed from zero and divided by 4096. -/
theorem tail60 :
    (W7 m c Fo (Proc.devRef .tc main_v60) : S_.Idx → EReal)
      = Host.divf (Host.reduceAdd (F := Ideal) (v58 m c Fo) (constant S_ .f32 0x00000000#32) reducesTo_S4096_S_d0 h_S_)
          (constant (F := Ideal) S_ .f32 0x45800000#32) := by
  have h58 : v58 m c Fo = rowsOf (W6 m c Fo (Proc.devRef .tc main_v56)) (W6 m c Fo (Proc.devRef .tc main_v55)) :=
    after2_2_v58 (W6 m c Fo)
  rw [h58]
  exact after2_2_v60 (W6 m c Fo)

/-- The second result is the logits array as the region left it. -/
theorem tail37 : (W7 m c Fo (Proc.devRef .tc main_v37_0) : S4096x50000.Idx → EReal) = fo3 c Fo := by
  show StableHlo.after hostOps2_2 (W6 m c Fo) (Proc.devRef .tc main_v37_0) = _
  rw [StableHlo.after_of_writes_sub hostOps2_2 _ hostOps2_2_writes (by decide)]
  show StableHlo.after hostOps2_1 (W5 m c Fo) (Proc.devRef .tc main_v37_0) = _
  rw [StableHlo.after_of_writes_sub hostOps2_1 _ hostOps2_1_writes (by decide)]
  show StableHlo.after hostOps2 (W4 m c Fo) (Proc.devRef .tc main_v37_0) = _
  rw [StableHlo.after_of_writes_sub hostOps2 _ hostOps2_writes (by decide)]
  exact W4_arr m c Fo 3

end Cert.KernelIdeal.H

end
-- ==== Proof.KI.ValH.lean ====
/-
  What the first kernel (one row tile of tanh (emb · W1 + b1) per grid point) leaves in its output array, at the
  ideal values, index by index: the payload at an index, each window's block as rows of its array, what a point
  writes back as a block of one whole-array function, and the four row tiles covering the array.
-/
import proofs.«422837_j27685359190570_3_alg».proof.Proof.KI.Body0
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

/-! ## The payload at an index -/

/-- The first kernel's product: rows by columns over one contracted axis of extent 512. -/
abbrev D0 : DotDims S1024x512 S512x1024 S1024x1024 := dot_S1024x512_S512x1024_S1024x1024_1_0_0_1_n_n

/-- The product into the zero accumulator, read at row a and column b, is the sum over the contracted coordinate
    of the entries' products: the contraction index is its one coordinate, the left operand is read at (a, i) and
    the right one at (i, b). -/
theorem matmul0_apply (A : FVec Ideal S1024x512 .bf16) (B : FVec Ideal S512x1024 .bf16) (a : Fin 1024) (b : Fin 1024) :
    FloatOps.matmul D0 none A B (constant (F := Ideal) S1024x1024 .f32 0x00000000#32) (ix2 a b) = ∑ i : Fin 512, A (ix2 a i) * B (ix2 i b) := by
  rw [Ideal.matmul_constant_zero_apply, ← Equiv.sum_comp (contrEquiv1 D0 512 rfl rfl).symm]
  refine Finset.sum_congr rfl fun i _ => ?_
  have ci := contrEquiv1_symm_val D0 512 rfl rfl i
  have l : D0.lhsIdx (ix2 a b) ((contrEquiv1 D0 512 rfl rfl).symm i) = ix2 a i := by
    funext ax; apply Fin.ext
    match ax with
    | ⟨0, _⟩ => simp [DotDims.lhsIdx, D0, dot_S1024x512_S512x1024_S1024x1024_1_0_0_1_n_n]; rfl
    | ⟨1, _⟩ => simp [DotDims.lhsIdx, D0, dot_S1024x512_S512x1024_S1024x1024_1_0_0_1_n_n]; exact ci
  have r : D0.rhsIdx (ix2 a b) ((contrEquiv1 D0 512 rfl rfl).symm i) = ix2 i b := by
    funext ax; apply Fin.ext
    match ax with
    | ⟨0, _⟩ => simp [DotDims.rhsIdx, D0, dot_S1024x512_S512x1024_S1024x1024_1_0_0_1_n_n]; exact ci
    | ⟨1, _⟩ => simp [DotDims.rhsIdx, D0, dot_S1024x512_S512x1024_S1024x1024_1_0_0_1_n_n]; rfl
  rw [l, r]

/-- The payload at row a and column b: the hyperbolic tangent of the row of the first input times the column of
    the second plus the bias at the column. At the ideal values the two roundings to bf16 are the identity, the
    shape casts are between equal shapes, and the bias row is broadcast over the rows. -/
theorem pay0_apply (x0 : FVec Ideal S1024x512 .f32) (x1 : FVec Ideal S512x1024 .f32) (x2 : FVec Ideal S1x1024 .f32) (a : Fin 1024) (b : Fin 1024) :
    k0_pay1 (F := Ideal) x0 x1 x2 (ix2 a b) = Ideal.tanh ((∑ i : Fin 512, x0 (ix2 a i) * x1 (ix2 i b)) + x2 (ix2 0 b)) := by
  unfold k0_pay1
  rw [shapeCast_self, shapeCast_self]
  show Ideal.tanh (FloatOps.matmul D0 none (truncf .bf16 x0 bitsLt_bf16_f32) (truncf .bf16 x1 bitsLt_bf16_f32)
      (constant (F := Ideal) S1024x1024 .f32 0x00000000#32) (ix2 a b)
    + broadcastTo S1024x1024 x2 broadcasts_S1x1024_S1024x1024 (ix2 a b)) = _
  rw [matmul0_apply, broadcastTo_1b_ab_apply]
  rfl

/-! ## The blocks -/

variable (VI : (c : Dev nD) → (b : Ref sig .tc) → Buf (Elt Ideal) ((c : Thread nD τ).loc b))

/-- The printed index maps over the grid: the row-tile windows (the first input and the output) are at block row t
    and block column 0 at point t; the weight and the bias windows stay at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first input's block at point t is rows 1024 t … 1024 t + 1023 of its array. -/
theorem iblk0_0_apply (c : Dev nD) (t : Fin cfg0.N) (y : S1024x512.Idx) (k : S4096x512.Idx)
    (hk0 : (k 0).val = 1024 * t.val + (y 0).val) (hk1 : (k 1).val = (y 1).val) :
    (iblk0 VI c 0 t : Vec Ideal S1024x512 .f32) y = (VI c main_v25 : S4096x512.Idx → EReal) k := by
  obtain ⟨h0, h1, -⟩ := idx_facts0 t
  unfold iblk0
  rw [View.read_apply]
  show VI c main_v25 _ = VI c main_v25 _
  congr 1
  funext a
  apply Fin.ext
  match a with
  | ⟨0, _⟩ => show win0_0.index t 0 * 1024 + 1 * (y 0).val = (k 0).val; omega
  | ⟨1, _⟩ => show win0_0.index t 1 * 512 + 1 * (y 1).val = (k 1).val; omega

/-- The second input's block at every point is its whole array. -/
theorem iblk0_1_apply (c : Dev nD) (t : Fin cfg0.N) (y k : S512x1024.Idx)
    (hk0 : (k 0).val = (y 0).val) (hk1 : (k 1).val = (y 1).val) :
    (iblk0 VI c 1 t : Vec Ideal S512x1024 .f32) y = (VI c main_arg3 : S512x1024.Idx → EReal) k := by
  obtain ⟨-, -, h0, h1, -⟩ := idx_facts0 t
  unfold iblk0
  rw [View.read_apply]
  show VI c main_arg3 _ = VI c main_arg3 _
  congr 1
  funext a
  apply Fin.ext
  match a with
  | ⟨0, _⟩ => show win0_1.index t 0 * 512 + 1 * (y 0).val = (k 0).val; omega
  | ⟨1, _⟩ => show win0_1.index t 1 * 1024 + 1 * (y 1).val = (k 1).val; omega

/-- The bias block at every point is its whole array. -/
theorem iblk0_2_apply (c : Dev nD) (t : Fin cfg0.N) (y k : S1x1024.Idx)
    (hk0 : (k 0).val = (y 0).val) (hk1 : (k 1).val = (y 1).val) :
    (iblk0 VI c 2 t : Vec Ideal S1x1024 .f32) y = (VI c main_v34 : S1x1024.Idx → EReal) k := by
  obtain ⟨-, -, -, -, h0, h1, -⟩ := idx_facts0 t
  unfold iblk0
  rw [View.read_apply]
  show VI c main_v34 _ = VI c main_v34 _
  congr 1
  funext a
  apply Fin.ext
  match a with
  | ⟨0, _⟩ => show win0_2.index t 0 * 1 + 1 * (y 0).val = (k 0).val; omega
  | ⟨1, _⟩ => show win0_2.index t 1 * 1024 + 1 * (y 1).val = (k 1).val; omega

/-! ## From blocks to the array -/

/-- One dense layer over whole arrays: at row e and column k, the hyperbolic tangent of row e of x times column k
    of w plus the bias b at column k. -/
def mlp1 (x : S4096x512.Idx → EReal) (w : S512x1024.Idx → EReal) (b : S1x1024.Idx → EReal) : S4096x1024.Idx → EReal := fun i =>
  Ideal.tanh ((∑ j : Fin 512, x (ix2 (i 0) j) * w (ix2 j (i 1))) + b (ix2 0 (i 1)))

theorem mlp1_apply (x : S4096x512.Idx → EReal) (w : S512x1024.Idx → EReal) (b : S1x1024.Idx → EReal) (e : Fin 4096) (k : Fin 1024) :
    mlp1 x w b (ix2 e k) = Ideal.tanh ((∑ j : Fin 512, x (ix2 e j) * w (ix2 j k)) + b (ix2 0 k)) := rfl

/-- What the output array ends holding: the dense layer of the three input arrays as the region finds them. -/
abbrev G0 (c : Dev nD) : S4096x1024.Idx → EReal := mlp1 (VI c main_v25) (VI c main_arg3) (VI c main_v34)

/-- The payload of the three blocks at point t, at a block index y, is the dense layer of the three arrays at the
    array index i that y is in block t: row 1024 t + y 0, column y 1. The first input's block holds rows
    1024 t … 1024 t + 1023 of its array, the weights' and the bias's blocks are their arrays. -/
theorem pay_blocks0_apply (c : Dev nD) (t : Fin cfg0.N) (y : S1024x1024.Idx) (i : S4096x1024.Idx)
    (hi0 : (i 0).val = 1024 * t.val + (y 0).val) (hi1 : (i 1).val = (y 1).val) :
    k0_pay1 (F := Ideal) (iblk0 VI c 0 t) (iblk0 VI c 1 t) (iblk0 VI c 2 t) y = G0 VI c i := by
  have hy : y = ix2 (n0 := 1024) (n1 := 1024) (y 0) (y 1) := eq_ix2 y
  rw [hy]
  refine (pay0_apply (iblk0 VI c 0 t) (iblk0 VI c 1 t) (iblk0 VI c 2 t) (y 0) (y 1)).trans ?_
  show _ = Ideal.tanh _
  refine congrArg Ideal.tanh (congrArg₂ (· + ·) (Finset.sum_congr rfl fun j _ => ?_) ?_)
  · exact congrArg₂ (· * ·) (iblk0_0_apply VI c t (ix2 (y 0) j) (ix2 (i 0) j) hi0 rfl)
      (iblk0_1_apply VI c t (ix2 j (y 1)) (ix2 j (i 1)) rfl hi1)
  · exact iblk0_2_apply VI c t (ix2 0 (y 1)) (ix2 0 (i 1)) rfl hi1

/-- What point t writes back is block t of that array: a block's coordinate is the block index times the block
    size plus the coordinate inside the block. -/
theorem flushed0_3_eq (c : Dev nD) (t : Fin cfg0.N) :
    (dat0 (F := Ideal) VI c).flushed 3 t = ((cfg0.win 3).blk t).view.read (Elt Ideal) (G0 VI c) := by
  obtain ⟨-, -, -, -, -, -, h0, h1⟩ := idx_facts0 t
  show (cfg0.win 3).cut (grid0.coords t) ((dat0 (F := Ideal) VI c).after 3 t) = _
  rw [after0_3]
  funext j
  exact pay_blocks0_apply VI c t j (((cfg0.win 3).blk t).view.emb j)
    (by show win0_3.index t 0 * 1024 + 1 * (j 0).val = _; omega)
    (by show win0_3.index t 1 * 1024 + 1 * (j 1).val = _; omega)

/-- An index of the output array is in point t's block iff each coordinate is in the block's range on its axis. -/
theorem mem_blk0_3 (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v35).slice (win0_3.rect t)).set ↔ _
  rw [View.set_slice_whole, Rect.mem_set_unit]
  exact Iff.rfl

/-- The four row tiles cover the output array: row e lies in the block of point e / 1024, which is written back. -/
theorem cover_arr0_3 (i : S4096x1024.Idx) :
    ∃ t : Fin cfg0.N, (cfg0.win 3).flush t = true ∧ i ∈ ((cfg0.win 3).blk t).view.set := by
  have hi0 : (i 0).val < 4096 := idx2_lt0 i
  have hi1 : (i 1).val < 1024 := idx2_lt1 i
  have hN : cfg0.N = 4 := N_0
  obtain ⟨t, ht⟩ : ∃ t : Fin cfg0.N, t.val = (i 0).val / 1024 := ⟨⟨(i 0).val / 1024, by omega⟩, rfl⟩
  obtain ⟨-, -, -, -, -, -, h0, h1⟩ := idx_facts0 t
  refine ⟨t, flush0_3 t, ?_⟩
  rw [mem_blk0_3]
  intro a
  match a with
  | ⟨0, _⟩ => show win0_3.index t 0 * 1024 ≤ (i 0).val ∧ (i 0).val < win0_3.index t 0 * 1024 + 1024; omega
  | ⟨1, _⟩ => show win0_3.index t 1 * 1024 ≤ (i 1).val ∧ (i 1).val < win0_3.index t 1 * 1024 + 1024; omega

/-- The output array after the write-backs is the dense layer of the three input arrays as the region finds them:
    every point writes back its block of that one function, and the blocks cover the array. -/
theorem arr0_3_eq (c : Dev nD) : (dat0 (F := Ideal) VI c).arrAt 3 cfg0.N = G0 VI c :=
  (dat0 (F := Ideal) VI c).arrAt_eq_of_cover 3 (G0 VI c) (fun t _ => flushed0_3_eq VI c t) cover_arr0_3

/-- Index by index: at row e and column k the output array holds the hyperbolic tangent of row e of the first
    input array times column k of the weights plus the bias at column k. -/
theorem arr0_3_apply (c : Dev nD) (e : Fin 4096) (k : Fin 1024) :
    ((dat0 (F := Ideal) VI c).arrAt 3 cfg0.N : S4096x1024.Idx → EReal) (ix2 e k)
      = mlp1 (VI c main_v25) (VI c main_arg3) (VI c main_v34) (ix2 e k) :=
  congrFun (arr0_3_eq VI c) (ix2 e k)

end Cert.KernelIdeal.H

end
-- ==== Proof.KI.PrefixI.lean ====
/-
  The host operations before and between the two regions, at the ideal instance: what the regions find in the
  arrays they read, as functions of the argument arrays. The concatenated embedding rows and the gathered labels
  are the very operations the reference applies to the same arguments (stated against the reference's stage
  functions); the biases are reshaped rows; the weights are the arguments; the activations are what the first
  region left.
-/
import proofs.«422837_j27685359190570_3_alg».proof.Proof.KI.Run
import proofs.«422837_j27685359190570_3_alg».proof.Proof.KI.ValH
import proofs.«422837_j27685359190570_3_alg».proof.Proof.RefReadP
import Idealize.ShloMosaic.Lib.StableHlo.Run

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

variable (m : (ℓ : Loc nD τ sig) → Buf (Elt Ideal) ℓ) (c : Dev nD)

open Idealize.ShloMosaic.StableHlo in
/-- The embedding rows the first region reads are the reference's concatenated rows of the same arguments.
    The array is written by the three-way concatenate, and no later host operation writes it; each of the three
    concatenated pieces is a gather whose operands are produced by the same operations, in the same order and from
    the same arguments, as the reference's stage functions apply, so each piece is the reference's piece and the
    concatenation of equal pieces is the reference's concatenation. -/
theorem emb_eq :
    (V1 m c main_v25 : S4096x512.Idx → EReal)
      = Cert.ReferenceIdeal.ReadP.val_main_v25 (F := Ideal) (m ((c : Thread nD τ).loc main_arg0)) (m ((c : Thread nD τ).loc main_arg1))
          (m ((c : Thread nD τ).loc main_arg2)) (m ((c : Thread nD τ).loc main_arg7)) (m ((c : Thread nD τ).loc main_arg8)) := by
  -- the concatenate's result, with each operand's contents at its own reference
  have hcat : ∀ X : Valuation τ sig (Elt Ideal),
      (StableHlo.nary (τ := τ) ![main_v8, main_v15, main_v24] main_v25
          (fun u => concatenate S4096x512 1 [⟨S4096x256, u 0⟩, ⟨S4096x128, u 1⟩, ⟨S4096x128, u 2⟩]
            concatenates_S4096x256_S4096x128_S4096x128_S4096x512_d1)).result X (no_index (Proc.devRef .tc main_v25))
        = concatenate S4096x512 1 [⟨S4096x256, X (Proc.devRef .tc main_v8)⟩, ⟨S4096x128, X (Proc.devRef .tc main_v15)⟩,
            ⟨S4096x128, X (Proc.devRef .tc main_v24)⟩] concatenates_S4096x256_S4096x128_S4096x128_S4096x512_d1 :=
    fun X => StableHlo.nary_result _ _ _ _ _ X
  -- the concatenation of three pieces equal to the reference's three pieces is the reference's concatenation
  have key : ∀ (A : S4096x256.Idx → EReal) (B C : S4096x128.Idx → EReal),
      A = Cert.ReferenceIdeal.ReadP.val_main_v8 (F := Ideal) (m ((c : Thread nD τ).loc main_arg0)) (m ((c : Thread nD τ).loc main_arg7)) →
      B = Cert.ReferenceIdeal.ReadP.val_main_v15 (F := Ideal) (m ((c : Thread nD τ).loc main_arg1)) (m ((c : Thread nD τ).loc main_arg8)) →
      C = Cert.ReferenceIdeal.ReadP.val_main_v24 (F := Ideal) (m ((c : Thread nD τ).loc main_arg2)) (m ((c : Thread nD τ).loc main_arg8)) →
      concatenate S4096x512 1 [⟨S4096x256, A⟩, ⟨S4096x128, B⟩, ⟨S4096x128, C⟩] concatenates_S4096x256_S4096x128_S4096x128_S4096x512_d1
        = Cert.ReferenceIdeal.ReadP.val_main_v25 (F := Ideal) (m ((c : Thread nD τ).loc main_arg0)) (m ((c : Thread nD τ).loc main_arg1))
          (m ((c : Thread nD τ).loc main_arg2)) (m ((c : Thread nD τ).loc main_arg7)) (m ((c : Thread nD τ).loc main_arg8)) := by
    intro A B C hA hB hC
    subst hA hB hC
    rfl
  show StableHlo.after hostOps0 (W0 m c) (Proc.devRef .tc main_v25) = _
  simp (disch := decide) only [after_cons, after_nil, hcat,
      nullary_result_ne', unary_result_ne', binary_result_ne', ternary_result_ne', reshape_result_ne',
      nary_result_ne']
  refine key _ _ _ ?_ ?_ ?_
  · after_results_simp
    rfl
  · after_results_simp
    rfl
  · after_results_simp
    rfl

/-- The labels the tail reads are the reference's gathered labels of the same arguments. Neither the first region
    nor the second host stretch writes the label array, so it is what the first host stretch left: the reshape to
    one column of the gather, whose operands are produced by the reference's own operations from the same
    arguments; the reshape read at row e, column 0 is the gather at e (the same row-major position). -/
theorem lab_eq (e : Fin 4096) :
    (V3 m c main_v33 : S4096x1.Idx → BitVec 32) (ix2 e 0)
      = Cert.ReferenceIdeal.ReadP.val_main_v41 (F := Ideal) (m ((c : Thread nD τ).loc main_arg9)) (m ((c : Thread nD τ).loc main_arg10)) (ix1 e) := by
  have e3 : W3 m c (Proc.devRef .tc main_v33) = W2 m c (Proc.devRef .tc main_v33) :=
    StableHlo.after_of_writes_sub hostOps1 _ hostOps1_writes (by decide)
  have e2 : W2 m c (Proc.devRef .tc main_v33) = W1 m c (Proc.devRef .tc main_v33) :=
    W2_of_ne m c main_v33 (by decide)
  have e1 : (W1 m c (Proc.devRef .tc main_v33) : S4096x1.Idx → BitVec 32)
      = shapeCast S4096x1 (Cert.ReferenceIdeal.ReadP.val_main_v41 (F := Ideal) (m ((c : Thread nD τ).loc main_arg9)) (m ((c : Thread nD τ).loc main_arg10)) : S4096.Idx → BitVec 32) shapeCasts_S4096_S4096x1 := by
    show StableHlo.after hostOps0 (W0 m c) (Proc.devRef .tc main_v33) = _
    after_results_simp
    rfl
  show W3 m c (Proc.devRef .tc main_v33) (ix2 e 0) = _
  rw [e3, e2, e1]
  exact shapeCast_apply _ shapeCasts_S4096_S4096x1 (ix2 e 0) (ix1 e)
    (by rewrite [Shape.rowMajor_val_two, Shape.rowMajor_val_one]; show (e : Nat) = (e : Nat) * 1 + 0; omega)

/-- The first bias as a row: the array is the reshape of the bias argument to one row, and the row's column k and
    the argument's entry k sit at the same row-major position. -/
theorem b1_eq (k : Fin 1024) :
    (V1 m c main_v34 : S1x1024.Idx → EReal) (ix2 0 k) = (m ((c : Thread nD τ).loc main_arg4) : S1024.Idx → EReal) (ix1 k) := by
  have e : (V1 m c main_v34 : S1x1024.Idx → EReal)
      = shapeCast S1x1024 (m ((c : Thread nD τ).loc main_arg4) : S1024.Idx → EReal) shapeCasts_S1024_S1x1024 := by
    show StableHlo.after hostOps0 (W0 m c) (Proc.devRef .tc main_v34) = _
    after_results
    rfl
  rw [e]
  exact shapeCast_apply _ shapeCasts_S1024_S1x1024 (ix2 0 k) (ix1 k)
    (by rewrite [Shape.rowMajor_val_two, Shape.rowMajor_val_one]; show (k : Nat) = 0 * 1024 + (k : Nat); omega)

/-- The second bias as a row: the second host stretch reshapes the bias argument, which neither the first host
    stretch nor the first region wrote, to one row; column n of the row is the argument's entry n. -/
theorem b2_eq (n : Fin 50000) :
    (V3 m c main_v36 : S1x50000.Idx → EReal) (ix2 0 n) = (m ((c : Thread nD τ).loc main_arg6) : S50000.Idx → EReal) (ix1 n) := by
  have e2 : W2 m c (Proc.devRef .tc main_arg6) = W1 m c (Proc.devRef .tc main_arg6) :=
    W2_of_ne m c main_arg6 (by decide)
  have e1 : W1 m c (Proc.devRef .tc main_arg6) = W0 m c (Proc.devRef .tc main_arg6) :=
    StableHlo.after_of_writes_sub hostOps0 _ hostOps0_writes (by decide)
  have e : (V3 m c main_v36 : S1x50000.Idx → EReal)
      = shapeCast S1x50000 (W2 m c (Proc.devRef .tc main_arg6) : S50000.Idx → EReal) shapeCasts_S50000_S1x50000 := by
    show StableHlo.after hostOps1 (W2 m c) (Proc.devRef .tc main_v36) = _
    after_results
    rfl
  rw [e, e2, e1]
  exact shapeCast_apply _ shapeCasts_S50000_S1x50000 (ix2 0 n) (ix1 n)
    (by rewrite [Shape.rowMajor_val_two, Shape.rowMajor_val_one]; show (n : Nat) = 0 * 50000 + (n : Nat); omega)

/-- The weights are the arguments: no host operation of the first stretch writes the first weight array, -/
theorem w1_eq : (V1 m c main_arg3 : S512x1024.Idx → EReal) = m ((c : Thread nD τ).loc main_arg3) :=
  StableHlo.after_of_writes_sub hostOps0 _ hostOps0_writes (by decide)
/-- and neither host stretch writes the second weight array, which is no array of the first region. -/
theorem w2_eq : (V3 m c main_arg5 : S1024x50000.Idx → EReal) = m ((c : Thread nD τ).loc main_arg5) := by
  have e3 : W3 m c (Proc.devRef .tc main_arg5) = W2 m c (Proc.devRef .tc main_arg5) :=
    StableHlo.after_of_writes_sub hostOps1 _ hostOps1_writes (by decide)
  have e2 : W2 m c (Proc.devRef .tc main_arg5) = W1 m c (Proc.devRef .tc main_arg5) :=
    W2_of_ne m c main_arg5 (by decide)
  have e1 : W1 m c (Proc.devRef .tc main_arg5) = W0 m c (Proc.devRef .tc main_arg5) :=
    StableHlo.after_of_writes_sub hostOps0 _ hostOps0_writes (by decide)
  exact e3.trans (e2.trans e1)

/-- The activations the second region reads are what the first region left: the second host stretch does not write
    the first region's output array, which at the region's exit holds the dense layer of the region's inputs. -/
theorem h_eq : (V3 m c main_v35 : S4096x1024.Idx → EReal) = G0 (V1 m) c := by
  have e3 : W3 m c (Proc.devRef .tc main_v35) = W2 m c (Proc.devRef .tc main_v35) :=
    StableHlo.after_of_writes_sub hostOps1 _ hostOps1_writes (by decide)
  have e2 : W2 m c (Proc.devRef .tc main_v35) = (dat0 (V1 m) c).arrAt 3 cfg0.N := W2_arr m c 3
  exact e3.trans (e2.trans (arr0_3_eq (V1 m) c))

end Cert.KernelIdeal.H

end
-- ==== Proof.KI.PreI.lean ====
/-
  The precondition read at an element: every entry of the second layer's weights and of its bias is a real number
  (the printed precondition says that the absolute value of every float input is below +∞, all tests conjoined).
-/
import proofs.«422837_j27685359190570_3_alg».proof.Defs
import proofs.«422837_j27685359190570_3_alg».proof.Proof.Gen.KernelIdeal
import proofs.«422837_j27685359190570_3_alg».proof.Proof.Gen.Pre_finite_inputs
import Idealize.ShloMosaic.PureOps.Ideal.Laws
import Idealize.ShloMosaic.Lib.ValueIdx
import Idealize.ShloMosaic.Lib.ReduceAll
import Idealize.ShloMosaic.Lib.StableHlo.Predicate

set_option maxRecDepth 16384

noncomputable section

namespace Cert.KernelIdeal.H

open Cert.KernelIdeal Cert.KernelIdeal.Gen
open Idealize.ShloMosaic Idealize.ShloMosaic.TcCoe Idealize.SL.Sem Idealize.ShloMosaic.ValueIdx

variable [hPre : Cert.Pre_finite_inputs.Facts]
variable (m : (ℓ : Loc nD τ sig) → Buf (Elt Ideal) ℓ) (hpre : Cert.Pre_KernelIdeal m) (c : Dev nD)

/-- The scalar shape has one index. -/
instance : Subsingleton Cert.Pre_finite_inputs.S_.Idx := ⟨fun a b => funext fun d => d.elim0⟩

/-- An extended real whose absolute value is below +∞ is a real number: neither infinity is. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern of +∞ denotes the top element. -/
theorem ofBits_inf_f32 : Ideal.ofBits .f32 0x7F800000#32 = ⊤ := by simp [Ideal.ofBits, Ideal.ieee]

/-- An element whose test "absolute value below the +∞ pattern" came out 1 is a real number. -/
theorem real_of_test (x : EReal) (e : Ideal.cmp .olt (max x (-x)) (Ideal.ofBits .f32 0x7F800000#32) = 1#1) :
    ∃ r : ℝ, x = (r : EReal) := by
  rw [ofBits_inf_f32] at e
  refine real_of_abs_lt_top x ?_
  by_contra hn
  have e' : BitVec.ofBool (decide (max x (-x) < ⊤)) = 1#1 := e
  rw [decide_eq_false hn] at e'
  exact absurd e' (by decide)

include hpre in
/-- Every entry of the second layer's weights is a real number. -/
theorem fin_w2 (i : S1024x50000.Idx) : ∃ r : ℝ, (m ((c : Thread nD τ).loc main_arg5) : S1024x50000.Idx → EReal) i = (r : EReal) := by
  -- the precondition's one bit is the conjunction of the seven tests "all elements have absolute value below +∞"
  have h := congrFun (hpre c) ValueIdx.ix0
  dsimp only [Cert.Pre_finite_inputs.fn, Cert.Pre_finite_inputs.fn_part1] at h
  -- the sixth conjunct is the weights' test; a conjunction over all elements that is 1 is 1 at each
  obtain ⟨h5', h6⟩ := IntOp.andi_eq_one.mp h
  obtain ⟨_, h5⟩ := IntOp.andi_eq_one.mp h5'
  exact real_of_test _ (Host.reduce_andi_all _ _ _ _ _ h5 i)

include hpre in
/-- Every entry of the second layer's bias is a real number. -/
theorem fin_b2 (i : S50000.Idx) : ∃ r : ℝ, (m ((c : Thread nD τ).loc main_arg6) : S50000.Idx → EReal) i = (r : EReal) := by
  have h := congrFun (hpre c) ValueIdx.ix0
  dsimp only [Cert.Pre_finite_inputs.fn, Cert.Pre_finite_inputs.fn_part1] at h
  -- the seventh conjunct is the bias's test
  obtain ⟨_, h6⟩ := IntOp.andi_eq_one.mp h
  exact real_of_test _ (Host.reduce_andi_all _ _ _ _ _ h6 i)

end Cert.KernelIdeal.H

end
-- ==== Proof.RowEq.lean ====
/-
  The two programs' per-row terms agree. For a row x of real logits, let the row be cut into two halves (the padded
  columns of tiles 0-97 and 98-195, the padding being the bottom element past column 50000), each half carrying its
  maximum and its sum of exponentials shifted by that maximum. Then the kernel's term (the logit read by the label
  minus the merged log-sum-exp) is the reference's (the log-softmax entry read by the label); out of bounds both
  are the bottom element.
-/
import proofs.«422837_j27685359190570_3_alg».proof.Proof.TakeSpec
import Mathlib.Algebra.BigOperators.Fin

noncomputable section

namespace Cert.TakeSpec

open Idealize.ShloMosaic Cert.LseMath

/-- The row padded with the bottom element past its last column. -/
def pad (x : Fin 50000 → EReal) (n : ℕ) : EReal := if hn : n < 50000 then x ⟨n, hn⟩ else ⊥

/-- The columns of the tiles lo, …, hi - 1 (256 columns a tile). -/
def tcols (lo hi : ℕ) : Finset ℕ := Finset.Ico (lo * 256) (hi * 256)

/-- Inside the row the padded row is the row. -/
theorem pad_lt (x : Fin 50000 → EReal) (n : ℕ) (hn : n < 50000) : pad x n = x ⟨n, hn⟩ := dif_pos hn

/-- Past the row's last column the padded row is the bottom element. -/
theorem pad_ge (x : Fin 50000 → EReal) (n : ℕ) (hn : ¬ n < 50000) : pad x n = ⊥ := dif_neg hn

/-- The padded row at a column of the row. -/
theorem pad_val (x : Fin 50000 → EReal) (i : Fin 50000) : pad x i.val = x i := pad_lt x i.val i.isLt

/-- A padded row of real logits has no top entry: each entry is a real number or the bottom element. -/
theorem pad_ne_top (x : Fin 50000 → EReal) (hx : ∀ n, ∃ r : ℝ, x n = (r : EReal)) (n : ℕ) : pad x n ≠ ⊤ := by
  by_cases hn : n < 50000
  · obtain ⟨r, hr⟩ := hx ⟨n, hn⟩
    rw [pad_lt x n hn, hr]; exact EReal.coe_ne_top r
  · rw [pad_ge x n hn]; exact bot_ne_top

/-- Inside the row an entry of a padded row of real logits is a real number. -/
theorem pad_real (x : Fin 50000 → EReal) (hx : ∀ n, ∃ r : ℝ, x n = (r : EReal)) (n : ℕ) (hn : n < 50000) :
    pad x n ≠ ⊥ ∧ pad x n ≠ ⊤ := by
  obtain ⟨r, hr⟩ := hx ⟨n, hn⟩
  rw [pad_lt x n hn, hr]; exact ⟨EReal.coe_ne_bot r, EReal.coe_ne_top r⟩

/-- The maximum of the padded row over the first 50000 columns is the maximum of the row. -/
theorem sup_range_pad (x : Fin 50000 → EReal) : (Finset.range 50000).sup (pad x) = Finset.univ.sup x := by
  apply le_antisymm
  · apply Finset.sup_le
    intro n hn
    rw [pad_lt x n (Finset.mem_range.mp hn)]
    exact Finset.le_sup (Finset.mem_univ _)
  · apply Finset.sup_le
    intro i _
    rw [← pad_val x i]
    exact Finset.le_sup (Finset.mem_range.mpr i.isLt)

/-- The shifted sum of exponentials of the padded row over the first 50000 columns is the row's. -/
theorem esum_range_pad (x : Fin 50000 → EReal) (m : EReal) :
    esum (Finset.range 50000) (pad x) m = ∑ n : Fin 50000, Ideal.exp (x n - m) := by
  unfold esum
  rw [← Fin.sum_univ_eq_sum_range (fun n => Ideal.exp (pad x n - m)) 50000]
  exact Finset.sum_congr rfl (fun i _ => by rw [pad_val x i])

/-- The two halves are disjoint. -/
theorem tcols_disjoint : Disjoint (tcols 0 98) (tcols 98 196) := by
  rw [Finset.disjoint_left]
  intro n h1 h2
  simp only [tcols, Finset.mem_Ico] at h1 h2
  omega

/-- The first 50000 columns lie in the two halves together. -/
theorem range_subset : Finset.range 50000 ⊆ tcols 0 98 ∪ tcols 98 196 := by
  intro n hn
  have hn' := Finset.mem_range.mp hn
  simp only [tcols, Finset.mem_union, Finset.mem_Ico]
  omega

theorem rowK_eq_rowR (x : Fin 50000 → EReal) (hx : ∀ n, ∃ r : ℝ, x n = (r : EReal)) (l : BitVec 32) :
    rowK x l ((tcols 0 98).sup (pad x)) (esum (tcols 0 98) (pad x) ((tcols 0 98).sup (pad x)))
        ((tcols 98 196).sup (pad x)) (esum (tcols 98 196) (pad x) ((tcols 98 196).sup (pad x)))
      = rowR x l := by
  have h1 : NoTop (tcols 0 98 ∪ tcols 98 196) (pad x) := fun n _ => pad_ne_top x hx n
  have hA : HasReal (tcols 0 98) (pad x) :=
    ⟨0, by simp only [tcols, Finset.mem_Ico]; omega, pad_real x hx 0 (by omega)⟩
  have hB : HasReal (tcols 98 196) (pad x) :=
    ⟨25088, by simp only [tcols, Finset.mem_Ico]; omega, pad_real x hx 25088 (by omega)⟩
  have hU : HasReal (tcols 0 98 ∪ tcols 98 196) (pad x) := by
    obtain ⟨n, hn, h⟩ := hA
    exact ⟨n, Finset.mem_union_left _ hn, h⟩
  have hoff : ∀ n ∈ tcols 0 98 ∪ tcols 98 196, n ∉ Finset.range 50000 → pad x n = ⊥ :=
    fun n _ hn => pad_ge x n (fun h => hn (Finset.mem_range.mpr h))
  obtain ⟨hmax, hsum⟩ := merge (tcols 0 98) (tcols 98 196) tcols_disjoint (pad x) h1 hA hB
  have hM : (tcols 0 98 ∪ tcols 98 196).sup (pad x) = Finset.univ.sup x := by
    rw [sup_of_bot_off _ _ range_subset (pad x) hoff, sup_range_pad]
  obtain ⟨m, hm⟩ := sup_real _ (pad x) h1 hU
  obtain ⟨L, hL, hLe⟩ := esum_pos_real _ (pad x) h1 hU m
  have hS : (∑ n : Fin 50000, Ideal.exp (x n - (m : EReal))) = (L : EReal) := by
    rw [← esum_range_pad, ← esum_of_bot_off _ _ range_subset (pad x) hoff, hLe]
  unfold rowK rowR
  rw [hsum, hmax, ← hM, hm, hLe, max_eq_right (bot_le : (⊥ : EReal) ≤ (m : EReal)), hS]
  by_cases hok : okb l = 1#1
  · obtain ⟨r, hr⟩ := hx (colOf l)
    rw [hok, ValueIdx.select_one, ValueIdx.select_one, hr]
    exact sub_lse_real r m L hL
  · rw [ValueIdx.eq_zero_of_ne_one hok, ValueIdx.select_zero, ValueIdx.select_zero]
    exact bot_sub _

end Cert.TakeSpec

end
-- ==== Proof.RefChunks.lean ====
/-
  The reference's 93 host operations cut into eleven stretches, and what the first six leave. The list of operations
  is the stretches one after the other, so the buffers after the whole run are the stretches' folds nested; each
  stretch writes a known list of references and leaves every other buffer as it was. After the first six stretches
  the gathered embedding pieces, their concatenation, the logits and the gathered labels are the generated stage
  functions of the argument arrays (each stage function is one operation applied to earlier stage functions, so the
  fold of a stretch unfolds to it once the stretch's inputs are known to be stage functions).
-/
import proofs.«422837_j27685359190570_3_alg».proof.Proof.RefRunP
import proofs.«422837_j27685359190570_3_alg».proof.Proof.RefReadP
import Idealize.ShloMosaic.Lib.Pipeline.Value
import Idealize.ShloMosaic.Lib.StableHlo.Run

set_option maxRecDepth 16384

noncomputable section

namespace Cert.ReferenceIdeal.RefChunks

open Cert.ReferenceIdeal Cert.ReferenceIdeal.Gen Cert.ReferenceIdeal.ReadP
open Idealize.ShloMosaic Idealize.ShloMosaic.TcCoe Idealize.SL.Sem Idealize.ShloMosaic.StableHlo

section Chunks
/-! The stretches: operations 1-11, 12-20, 21-31, 32 (the concatenation), 33-41 (the logits), 42-50 (the labels), 51-58 and 59-65 (the log-softmax), 66-74 and 75-88 (the pick by label), 89-93 (the mean). -/
variable {F : FTy → Type} [FloatOps F]

abbrev c1 : List (HloOp τ sig (Elt F)) :=
  [
    unary main_arg7 main_v0 ((extractStridedSlice S1x4096 ![0, 0] · slices_S2x4096_S1x4096_0_0) : (⟨S2x4096, .i32⟩ : BufTy).Contents (Elt F) → (⟨S1x4096, .i32⟩ : BufTy).Contents (Elt F)),
    reshape main_v0 main_v1 rfl shapeCasts_S1x4096_S4096,
    nullary main_c (constantI S_ 32 0#32),
    unary main_c main_v2 (broadcastInDim S4096 ![] bcast_S_S4096 : (⟨S_, .i32⟩ : BufTy).Contents (Elt F) → (⟨S4096, .i32⟩ : BufTy).Contents (Elt F)),
    binary main_v1 main_v2 main_v3 (cmpi .slt : (⟨S4096, .i32⟩ : BufTy).Contents (Elt F) → (⟨S4096, .i32⟩ : BufTy).Contents (Elt F) → (⟨S4096, .i1⟩ : BufTy).Contents (Elt F)),
    nullary main_c_0 (constantI S_ 32 20000#32),
    unary main_c_0 main_v4 (broadcastInDim S4096 ![] bcast_S_S4096 : (⟨S_, .i32⟩ : BufTy).Contents (Elt F) → (⟨S4096, .i32⟩ : BufTy).Contents (Elt F)),
    binary main_v1 main_v4 main_v5 (addi : (⟨S4096, .i32⟩ : BufTy).Contents (Elt F) → (⟨S4096, .i32⟩ : BufTy).Contents (Elt F) → (⟨S4096, .i32⟩ : BufTy).Contents (Elt F)),
    ternary main_v3 main_v5 main_v1 main_v6 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v6 main_v7 (broadcastInDim S4096x1 ![0] bcast_S4096_S4096x1_0 : (⟨S4096, .i32⟩ : BufTy).Contents (Elt F) → (⟨S4096x1, .i32⟩ : BufTy).Contents (Elt F)),
    binary main_arg0 main_v7 main_v8 ((fun x i => Host.gather gather_S20000x256_S4096x1_S4096x256_1_0_n_n_0_1_1256 x i) : (⟨S20000x256, .f32⟩ : BufTy).Contents (Elt F) → (⟨S4096x1, .i32⟩ : BufTy).Contents (Elt F) → (⟨S4096x256, .f32⟩ : BufTy).Contents (Elt F)) ]

abbrev c2 : List (HloOp τ sig (Elt F)) :=
  [
    nullary main_c_1 (constantI S_ 32 0#32),
    unary main_c_1 main_v9 (broadcastInDim S4096 ![] bcast_S_S4096 : (⟨S_, .i32⟩ : BufTy).Contents (Elt F) → (⟨S4096, .i32⟩ : BufTy).Contents (Elt F)),
    binary main_arg8 main_v9 main_v10 (cmpi .slt : (⟨S4096, .i32⟩ : BufTy).Contents (Elt F) → (⟨S4096, .i32⟩ : BufTy).Contents (Elt F) → (⟨S4096, .i1⟩ : BufTy).Contents (Elt F)),
    nullary main_c_2 (constantI S_ 32 200#32),
    unary main_c_2 main_v11 (broadcastInDim S4096 ![] bcast_S_S4096 : (⟨S_, .i32⟩ : BufTy).Contents (Elt F) → (⟨S4096, .i32⟩ : BufTy).Contents (Elt F)),
    binary main_arg8 main_v11 main_v12 (addi : (⟨S4096, .i32⟩ : BufTy).Contents (Elt F) → (⟨S4096, .i32⟩ : BufTy).Contents (Elt F) → (⟨S4096, .i32⟩ : BufTy).Contents (Elt F)),
    ternary main_v10 main_v12 main_arg8 main_v13 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v13 main_v14 (broadcastInDim S4096x1 ![0] bcast_S4096_S4096x1_0 : (⟨S4096, .i32⟩ : BufTy).Contents (Elt F) → (⟨S4096x1, .i32⟩ : BufTy).Contents (Elt F)),
    binary main_arg1 main_v14 main_v15 ((fun x i => Host.gather gather_S200x128_S4096x1_S4096x128_1_0_n_n_0_1_1128 x i) : (⟨S200x128, .f32⟩ : BufTy).Contents (Elt F) → (⟨S4096x1, .i32⟩ : BufTy).Contents (Elt F) → (⟨S4096x128, .f32⟩ : BufTy).Contents (Elt F)) ]

abbrev c3 : List (HloOp τ sig (Elt F)) :=
  [
    unary main_arg2 main_v16 ((extractStridedSlice S200x1x128x1 ![0, 3, 0, 1] · slices_S200x4x128x2_S200x1x128x1_0_3_0_1) : (⟨S200x4x128x2, .f32⟩ : BufTy).Contents (Elt F) → (⟨S200x1x128x1, .f32⟩ : BufTy).Contents (Elt F)),
    reshape main_v16 main_v17 rfl shapeCasts_S200x1x128x1_S200x128,
    nullary main_c_3 (constantI S_ 32 0#32),
    unary main_c_3 main_v18 (broadcastInDim S4096 ![] bcast_S_S4096 : (⟨S_, .i32⟩ : BufTy).Contents (Elt F) → (⟨S4096, .i32⟩ : BufTy).Contents (Elt F)),
    binary main_arg8 main_v18 main_v19 (cmpi .slt : (⟨S4096, .i32⟩ : BufTy).Contents (Elt F) → (⟨S4096, .i32⟩ : BufTy).Contents (Elt F) → (⟨S4096, .i1⟩ : BufTy).Contents (Elt F)),
    nullary main_c_4 (constantI S_ 32 200#32),
    unary main_c_4 main_v20 (broadcastInDim S4096 ![] bcast_S_S4096 : (⟨S_, .i32⟩ : BufTy).Contents (Elt F) → (⟨S4096, .i32⟩ : BufTy).Contents (Elt F)),
    binary main_arg8 main_v20 main_v21 (addi : (⟨S4096, .i32⟩ : BufTy).Contents (Elt F) → (⟨S4096, .i32⟩ : BufTy).Contents (Elt F) → (⟨S4096, .i32⟩ : BufTy).Contents (Elt F)),
    ternary main_v19 main_v21 main_arg8 main_v22 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v22 main_v23 (broadcastInDim S4096x1 ![0] bcast_S4096_S4096x1_0 : (⟨S4096, .i32⟩ : BufTy).Contents (Elt F) → (⟨S4096x1, .i32⟩ : BufTy).Contents (Elt F)),
    binary main_v17 main_v23 main_v24 ((fun x i => Host.gather gather_S200x128_S4096x1_S4096x128_1_0_n_n_0_1_1128 x i) : (⟨S200x128, .f32⟩ : BufTy).Contents (Elt F) → (⟨S4096x1, .i32⟩ : BufTy).Contents (Elt F) → (⟨S4096x128, .f32⟩ : BufTy).Contents (Elt F)) ]

abbrev c4 : List (HloOp τ sig (Elt F)) :=
  [
    nary ![main_v8, main_v15, main_v24] main_v25 (fun u => concatenate S4096x512 1 [⟨S4096x256, u 0⟩, ⟨S4096x128, u 1⟩, ⟨S4096x128, u 2⟩] concatenates_S4096x256_S4096x128_S4096x128_S4096x512_d1) ]

abbrev c5 : List (HloOp τ sig (Elt F)) :=
  [
    binary main_v25 main_arg3 main_v26 ((fun l r => Host.dotGeneral dot_S4096x512_S512x1024_S4096x1024_1_0_0_1_n_n none l r) : (⟨S4096x512, .f32⟩ : BufTy).Contents (Elt F) → (⟨S512x1024, .f32⟩ : BufTy).Contents (Elt F) → (⟨S4096x1024, .f32⟩ : BufTy).Contents (Elt F)),
    unary main_arg4 main_v27 (broadcastInDim S1x1024 ![1] bcast_S1024_S1x1024_1 : (⟨S1024, .f32⟩ : BufTy).Contents (Elt F) → (⟨S1x1024, .f32⟩ : BufTy).Contents (Elt F)),
    unary main_v27 main_v28 (broadcastInDim S4096x1024 ![0, 1] bcast_S1x1024_S4096x1024_0_1 : (⟨S1x1024, .f32⟩ : BufTy).Contents (Elt F) → (⟨S4096x1024, .f32⟩ : BufTy).Contents (Elt F)),
    binary main_v26 main_v28 main_v29 (addf : (⟨S4096x1024, .f32⟩ : BufTy).Contents (Elt F) → (⟨S4096x1024, .f32⟩ : BufTy).Contents (Elt F) → (⟨S4096x1024, .f32⟩ : BufTy).Contents (Elt F)),
    unary main_v29 main_v30 (Host.tanh : (⟨S4096x1024, .f32⟩ : BufTy).Contents (Elt F) → (⟨S4096x1024, .f32⟩ : BufTy).Contents (Elt F)),
    binary main_v30 main_arg5 main_v31 ((fun l r => Host.dotGeneral dot_S4096x1024_S1024x50000_S4096x50000_1_0_0_1_n_n none l r) : (⟨S4096x1024, .f32⟩ : BufTy).Contents (Elt F) → (⟨S1024x50000, .f32⟩ : BufTy).Contents (Elt F) → (⟨S4096x50000, .f32⟩ : BufTy).Contents (Elt F)),
    unary main_arg6 main_v32 (broadcastInDim S1x50000 ![1] bcast_S50000_S1x50000_1 : (⟨S50000, .f32⟩ : BufTy).Contents (Elt F) → (⟨S1x50000, .f32⟩ : BufTy).Contents (Elt F)),
    unary main_v32 main_v33 (broadcastInDim S4096x50000 ![0, 1] bcast_S1x50000_S4096x50000_0_1 : (⟨S1x50000, .f32⟩ : BufTy).Contents (Elt F) → (⟨S4096x50000, .f32⟩ : BufTy).Contents (Elt F)),
    binary main_v31 main_v33 main_v34 (addf : (⟨S4096x50000, .f32⟩ : BufTy).Contents (Elt F) → (⟨S4096x50000, .f32⟩ : BufTy).Contents (Elt F) → (⟨S4096x50000, .f32⟩ : BufTy).Contents (Elt F)) ]

abbrev c6 : List (HloOp τ sig (Elt F)) :=
  [
    nullary main_c_5 (constantI S_ 32 0#32),
    unary main_c_5 main_v35 (broadcastInDim S4096 ![] bcast_S_S4096 : (⟨S_, .i32⟩ : BufTy).Contents (Elt F) → (⟨S4096, .i32⟩ : BufTy).Contents (Elt F)),
    binary main_arg9 main_v35 main_v36 (cmpi .slt : (⟨S4096, .i32⟩ : BufTy).Contents (Elt F) → (⟨S4096, .i32⟩ : BufTy).Contents (Elt F) → (⟨S4096, .i1⟩ : BufTy).Contents (Elt F)),
    nullary main_c_6 (constantI S_ 32 20000#32),
    unary main_c_6 main_v37 (broadcastInDim S4096 ![] bcast_S_S4096 : (⟨S_, .i32⟩ : BufTy).Contents (Elt F) → (⟨S4096, .i32⟩ : BufTy).Contents (Elt F)),
    binary main_arg9 main_v37 main_v38 (addi : (⟨S4096, .i32⟩ : BufTy).Contents (Elt F) → (⟨S4096, .i32⟩ : BufTy).Contents (Elt F) → (⟨S4096, .i32⟩ : BufTy).Contents (Elt F)),
    ternary main_v36 main_v38 main_arg9 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v39 main_v40 (broadcastInDim S4096x1 ![0] bcast_S4096_S4096x1_0 : (⟨S4096, .i32⟩ : BufTy).Contents (Elt F) → (⟨S4096x1, .i32⟩ : BufTy).Contents (Elt F)),
    binary main_arg10 main_v40 main_v41 ((fun x i => Host.gather gather_S20000_S4096x1_S4096_n_0_n_n_0_1_1 x i) : (⟨S20000, .i32⟩ : BufTy).Contents (Elt F) → (⟨S4096x1, .i32⟩ : BufTy).Contents (Elt F) → (⟨S4096, .i32⟩ : BufTy).Contents (Elt F)) ]

abbrev c7 : List (HloOp τ sig (Elt F)) :=
  [
    TRef.nullary (TRef.of (T := ⟨S_, .f32⟩) main_call0_cst) (constant S_ .f32 0xFF800000#32),
    TRef.binary (TRef.of (T := ⟨S4096x50000, .f32⟩) main_v34) (TRef.of (T := ⟨S_, .f32⟩) main_call0_cst) (TRef.of (T := ⟨S4096, .f32⟩) main_call0_v0) (fun x v => Host.reduce FloatOps.maximumf x v reducesTo_S4096x50000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50000, .f32⟩) main_call0_v4) (broadcastInDim S4096x50000 ![0, 1] bcast_S4096x1_S4096x50000_0_1),
    TRef.binary (TRef.of (T := ⟨S4096x50000, .f32⟩) main_v34) (TRef.of (T := ⟨S4096x50000, .f32⟩) main_call0_v4) (TRef.of (T := ⟨S4096x50000, .f32⟩) main_call0_v5) subf ]

abbrev c8 : List (HloOp τ sig (Elt F)) :=
  [
    TRef.unary (TRef.of (T := ⟨S4096x50000, .f32⟩) main_call0_v5) (TRef.of (T := ⟨S4096x50000, .f32⟩) main_call0_v6) Host.exp,
    TRef.nullary (TRef.of (T := ⟨S_, .f32⟩) main_call0_cst_1) (constant S_ .f32 0x00000000#32),
    TRef.binary (TRef.of (T := ⟨S4096x50000, .f32⟩) main_call0_v6) (TRef.of (T := ⟨S_, .f32⟩) main_call0_cst_1) (TRef.of (T := ⟨S4096, .f32⟩) main_call0_v7) (fun x v => Host.reduceAdd x v reducesTo_S4096x50000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50000, .f32⟩) main_call0_v10) (broadcastInDim S4096x50000 ![0, 1] bcast_S4096x1_S4096x50000_0_1),
    TRef.binary (TRef.of (T := ⟨S4096x50000, .f32⟩) main_call0_v5) (TRef.of (T := ⟨S4096x50000, .f32⟩) main_call0_v10) (TRef.of (T := ⟨S4096x50000, .f32⟩) main_v42) subf ]

abbrev c9 : List (HloOp τ sig (Elt F)) :=
  [
    unary main_v41 main_v43 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v43) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 50000#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v43) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v43) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1 ]

abbrev c10 : List (HloOp τ sig (Elt F)) :=
  [
    TRef.nullary (TRef.of (T := ⟨S1, .i32⟩) main_call1_c_1) (constantI S1 32 49999#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x50000, .f32⟩) main_v42) (TRef.of (T := ⟨S4096x1x1, .i32⟩) main_call1_v5) (TRef.of (T := ⟨S4096x1, .f32⟩) main_call1_v13) (fun x i => Host.gather gather_S4096x50000_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v44) select ]

abbrev c11 : List (HloOp τ sig (Elt F)) :=
  [
    reshape main_v44 main_v45 rfl shapeCasts_S4096x1_S4096,
    nullary main_cst (constant S_ .f32 0x00000000#32),
    binary main_v45 main_cst main_v46 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_7 (constant S_ .f32 0x45800000#32),
    binary main_v46 main_cst_7 main_v47 (Host.divf : (⟨S_, .f32⟩ : BufTy).Contents (Elt F) → (⟨S_, .f32⟩ : BufTy).Contents (Elt F) → (⟨S_, .f32⟩ : BufTy).Contents (Elt F)) ]

theorem ops_split : (Cert.ReferenceIdeal.ValueP.ops : List (HloOp τ sig (Elt F)))
    = c1 ++ (c2 ++ (c3 ++ (c4 ++ (c5 ++ (c6 ++ (c7 ++ (c8 ++ (c9 ++ (c10 ++ (c11)))))))))) := rfl

/-- The references the operations of stretch 1 write. -/
abbrev W1 : List (Ref sig .tc) := [main_v0, main_v1, main_c, main_v2, main_v3, main_c_0, main_v4, main_v5, main_v6, main_v7, main_v8]
theorem c1_writes : (c1 : List (HloOp τ sig (Elt F))).Forall fun op => op.writes ⊆ (W1.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 1 does not write keeps its contents. -/
theorem c1_of (V : Valuation τ sig (Elt F)) (r : Ref sig .tc) (h : r ∉ W1) :
    after c1 V (Proc.devRef .tc r) = V (Proc.devRef .tc r) := after_of_writes_sub c1 V c1_writes h

/-- The references the operations of stretch 2 write. -/
abbrev W2 : List (Ref sig .tc) := [main_c_1, main_v9, main_v10, main_c_2, main_v11, main_v12, main_v13, main_v14, main_v15]
theorem c2_writes : (c2 : List (HloOp τ sig (Elt F))).Forall fun op => op.writes ⊆ (W2.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 2 does not write keeps its contents. -/
theorem c2_of (V : Valuation τ sig (Elt F)) (r : Ref sig .tc) (h : r ∉ W2) :
    after c2 V (Proc.devRef .tc r) = V (Proc.devRef .tc r) := after_of_writes_sub c2 V c2_writes h

/-- The references the operations of stretch 3 write. -/
abbrev W3 : List (Ref sig .tc) := [main_v16, main_v17, main_c_3, main_v18, main_v19, main_c_4, main_v20, main_v21, main_v22, main_v23, main_v24]
theorem c3_writes : (c3 : List (HloOp τ sig (Elt F))).Forall fun op => op.writes ⊆ (W3.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 3 does not write keeps its contents. -/
theorem c3_of (V : Valuation τ sig (Elt F)) (r : Ref sig .tc) (h : r ∉ W3) :
    after c3 V (Proc.devRef .tc r) = V (Proc.devRef .tc r) := after_of_writes_sub c3 V c3_writes h

/-- The references the operations of stretch 4 write. -/
abbrev W4 : List (Ref sig .tc) := [main_v25]
theorem c4_writes : (c4 : List (HloOp τ sig (Elt F))).Forall fun op => op.writes ⊆ (W4.map (Proc.devRef (τ := τ) .tc)).toFinset := by
  simp only [List.Forall]
  exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 4 does not write keeps its contents. -/
theorem c4_of (V : Valuation τ sig (Elt F)) (r : Ref sig .tc) (h : r ∉ W4) :
    after c4 V (Proc.devRef .tc r) = V (Proc.devRef .tc r) := after_of_writes_sub c4 V c4_writes h

/-- The references the operations of stretch 5 write. -/
abbrev W5 : List (Ref sig .tc) := [main_v26, main_v27, main_v28, main_v29, main_v30, main_v31, main_v32, main_v33, main_v34]
theorem c5_writes : (c5 : List (HloOp τ sig (Elt F))).Forall fun op => op.writes ⊆ (W5.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 5 does not write keeps its contents. -/
theorem c5_of (V : Valuation τ sig (Elt F)) (r : Ref sig .tc) (h : r ∉ W5) :
    after c5 V (Proc.devRef .tc r) = V (Proc.devRef .tc r) := after_of_writes_sub c5 V c5_writes h

/-- The references the operations of stretch 6 write. -/
abbrev W6 : List (Ref sig .tc) := [main_c_5, main_v35, main_v36, main_c_6, main_v37, main_v38, main_v39, main_v40, main_v41]
theorem c6_writes : (c6 : List (HloOp τ sig (Elt F))).Forall fun op => op.writes ⊆ (W6.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 6 does not write keeps its contents. -/
theorem c6_of (V : Valuation τ sig (Elt F)) (r : Ref sig .tc) (h : r ∉ W6) :
    after c6 V (Proc.devRef .tc r) = V (Proc.devRef .tc r) := after_of_writes_sub c6 V c6_writes h

/-- The references the operations of stretch 7 write. -/
abbrev W7 : List (Ref sig .tc) := [main_call0_cst, main_call0_v0, main_call0_cst_0, main_call0_v1, main_call0_v2, main_call0_v3, main_call0_v4, main_call0_v5]
theorem c7_writes : (c7 : List (HloOp τ sig (Elt F))).Forall fun op => op.writes ⊆ (W7.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 7 does not write keeps its contents. -/
theorem c7_of (V : Valuation τ sig (Elt F)) (r : Ref sig .tc) (h : r ∉ W7) :
    after c7 V (Proc.devRef .tc r) = V (Proc.devRef .tc r) := after_of_writes_sub c7 V c7_writes h

/-- The references the operations of stretch 8 write. -/
abbrev W8 : List (Ref sig .tc) := [main_call0_v6, main_call0_cst_1, main_call0_v7, main_call0_v8, main_call0_v9, main_call0_v10, main_v42]
theorem c8_writes : (c8 : List (HloOp τ sig (Elt F))).Forall fun op => op.writes ⊆ (W8.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 8 does not write keeps its contents. -/
theorem c8_of (V : Valuation τ sig (Elt F)) (r : Ref sig .tc) (h : r ∉ W8) :
    after c8 V (Proc.devRef .tc r) = V (Proc.devRef .tc r) := after_of_writes_sub c8 V c8_writes h

/-- The references the operations of stretch 9 write. -/
abbrev W9 : List (Ref sig .tc) := [main_v43, main_call1_c, main_call1_v0, main_call1_v1, main_call1_c_0, main_call1_v2, main_call1_v3, main_call1_v4, main_call1_v5]
theorem c9_writes : (c9 : List (HloOp τ sig (Elt F))).Forall fun op => op.writes ⊆ (W9.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 9 does not write keeps its contents. -/
theorem c9_of (V : Valuation τ sig (Elt F)) (r : Ref sig .tc) (h : r ∉ W9) :
    after c9 V (Proc.devRef .tc r) = V (Proc.devRef .tc r) := after_of_writes_sub c9 V c9_writes h

/-- The references the operations of stretch 10 write. -/
abbrev W10 : List (Ref sig .tc) := [main_call1_c_1, main_call1_c_2, main_call1_v6, main_call1_v7, main_call1_v8, main_call1_v9, main_call1_v10, main_call1_v11, main_call1_c_3, main_call1_v12, main_call1_v13, main_call1_cst, main_call1_v14, main_v44]
theorem c10_writes : (c10 : List (HloOp τ sig (Elt F))).Forall fun op => op.writes ⊆ (W10.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 10 does not write keeps its contents. -/
theorem c10_of (V : Valuation τ sig (Elt F)) (r : Ref sig .tc) (h : r ∉ W10) :
    after c10 V (Proc.devRef .tc r) = V (Proc.devRef .tc r) := after_of_writes_sub c10 V c10_writes h

/-- The references the operations of stretch 11 write. -/
abbrev W11 : List (Ref sig .tc) := [main_v45, main_cst, main_v46, main_cst_7, main_v47]
theorem c11_writes : (c11 : List (HloOp τ sig (Elt F))).Forall fun op => op.writes ⊆ (W11.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference stretch 11 does not write keeps its contents. -/
theorem c11_of (V : Valuation τ sig (Elt F)) (r : Ref sig .tc) (h : r ∉ W11) :
    after c11 V (Proc.devRef .tc r) = V (Proc.devRef .tc r) := after_of_writes_sub c11 V c11_writes h

end Chunks

section Run
variable {F : FTy → Type} [FloatOps F] (m : (ℓ : Loc nD τ sig) → Buf (Elt F) ℓ) (d : Dev nD)

/-- The launch contents, and the buffers after each stretch in turn. -/
def V0 : Valuation τ sig (Elt F) := launchContents m d
def V1 : Valuation τ sig (Elt F) := after c1 (V0 m d)
def V2 : Valuation τ sig (Elt F) := after c2 (V1 m d)
def V3 : Valuation τ sig (Elt F) := after c3 (V2 m d)
def V4 : Valuation τ sig (Elt F) := after c4 (V3 m d)
def V5 : Valuation τ sig (Elt F) := after c5 (V4 m d)
def V6 : Valuation τ sig (Elt F) := after c6 (V5 m d)
def V7 : Valuation τ sig (Elt F) := after c7 (V6 m d)
def V8 : Valuation τ sig (Elt F) := after c8 (V7 m d)
def V9 : Valuation τ sig (Elt F) := after c9 (V8 m d)
def V10 : Valuation τ sig (Elt F) := after c10 (V9 m d)
def V11 : Valuation τ sig (Elt F) := after c11 (V10 m d)

/-- The whole run is the stretches one after the other. -/
theorem after_ops_eq : after (Cert.ReferenceIdeal.ValueP.ops (F := F)) (launchContents m d) = V11 m d := by
  rw [ops_split, after_append, after_append, after_append, after_append, after_append, after_append, after_append, after_append, after_append, after_append]
  rfl

theorem V1_of (r : Ref sig .tc) (h : r ∉ W1) : V1 m d (Proc.devRef .tc r) = V0 m d (Proc.devRef .tc r) := c1_of _ r h
theorem V2_of (r : Ref sig .tc) (h : r ∉ W2) : V2 m d (Proc.devRef .tc r) = V1 m d (Proc.devRef .tc r) := c2_of _ r h
theorem V3_of (r : Ref sig .tc) (h : r ∉ W3) : V3 m d (Proc.devRef .tc r) = V2 m d (Proc.devRef .tc r) := c3_of _ r h
theorem V4_of (r : Ref sig .tc) (h : r ∉ W4) : V4 m d (Proc.devRef .tc r) = V3 m d (Proc.devRef .tc r) := c4_of _ r h
theorem V5_of (r : Ref sig .tc) (h : r ∉ W5) : V5 m d (Proc.devRef .tc r) = V4 m d (Proc.devRef .tc r) := c5_of _ r h
theorem V6_of (r : Ref sig .tc) (h : r ∉ W6) : V6 m d (Proc.devRef .tc r) = V5 m d (Proc.devRef .tc r) := c6_of _ r h
theorem V7_of (r : Ref sig .tc) (h : r ∉ W7) : V7 m d (Proc.devRef .tc r) = V6 m d (Proc.devRef .tc r) := c7_of _ r h
theorem V8_of (r : Ref sig .tc) (h : r ∉ W8) : V8 m d (Proc.devRef .tc r) = V7 m d (Proc.devRef .tc r) := c8_of _ r h
theorem V9_of (r : Ref sig .tc) (h : r ∉ W9) : V9 m d (Proc.devRef .tc r) = V8 m d (Proc.devRef .tc r) := c9_of _ r h
theorem V10_of (r : Ref sig .tc) (h : r ∉ W10) : V10 m d (Proc.devRef .tc r) = V9 m d (Proc.devRef .tc r) := c10_of _ r h
theorem V11_of (r : Ref sig .tc) (h : r ∉ W11) : V11 m d (Proc.devRef .tc r) = V10 m d (Proc.devRef .tc r) := c11_of _ r h

/-! After its stretch each of these buffers holds its stage function of the argument arrays: the three gathered
    pieces, their concatenation, the logits and the labels. -/

theorem L_main_v8 : V1 m d (Proc.devRef .tc main_v8) = val_main_v8 (F := F) (m ((d.tc : Thread nD τ).loc main_arg0)) (m ((d.tc : Thread nD τ).loc main_arg7)) := by
  rw [V1]; after_results
  rfl
theorem L_main_v15 : V2 m d (Proc.devRef .tc main_v15) = val_main_v15 (F := F) (m ((d.tc : Thread nD τ).loc main_arg1)) (m ((d.tc : Thread nD τ).loc main_arg8)) := by
  rw [V2]; after_results
  rw [V1_of m d main_arg8 (by decide), V1_of m d main_arg1 (by decide)]
  rfl
theorem L_main_v24 : V3 m d (Proc.devRef .tc main_v24) = val_main_v24 (F := F) (m ((d.tc : Thread nD τ).loc main_arg2)) (m ((d.tc : Thread nD τ).loc main_arg8)) := by
  rw [V3]; after_results
  rw [V2_of m d main_arg2 (by decide), V1_of m d main_arg2 (by decide), V2_of m d main_arg8 (by decide), V1_of m d main_arg8 (by decide)]
  rfl
theorem L_main_v25 : V4 m d (Proc.devRef .tc main_v25) = val_main_v25 (F := F) (m ((d.tc : Thread nD τ).loc main_arg0)) (m ((d.tc : Thread nD τ).loc main_arg1)) (m ((d.tc : Thread nD τ).loc main_arg2)) (m ((d.tc : Thread nD τ).loc main_arg7)) (m ((d.tc : Thread nD τ).loc main_arg8)) := by
  rw [V4]; simp only [after_cons, after_nil]; rw [nary_result]
  show concatenate S4096x512 1 [⟨S4096x256, V3 m d (Proc.devRef .tc main_v8)⟩, ⟨S4096x128, V3 m d (Proc.devRef .tc main_v15)⟩, ⟨S4096x128, V3 m d (Proc.devRef .tc main_v24)⟩] concatenates_S4096x256_S4096x128_S4096x128_S4096x512_d1 = _
  rw [V3_of m d main_v8 (by decide), V2_of m d main_v8 (by decide), L_main_v8, V3_of m d main_v15 (by decide), L_main_v15, L_main_v24]
  rfl
theorem L_main_v34 : V5 m d (Proc.devRef .tc main_v34) = val_main_v34 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  rw [V5]; after_results
  rw [L_main_v25, V4_of m d main_arg3 (by decide), V3_of m d main_arg3 (by decide), V2_of m d main_arg3 (by decide), V1_of m d main_arg3 (by decide), V4_of m d main_arg4 (by decide), V3_of m d main_arg4 (by decide), V2_of m d main_arg4 (by decide), V1_of m d main_arg4 (by decide), V4_of m d main_arg5 (by decide), V3_of m d main_arg5 (by decide), V2_of m d main_arg5 (by decide), V1_of m d main_arg5 (by decide), V4_of m d main_arg6 (by decide), V3_of m d main_arg6 (by decide), V2_of m d main_arg6 (by decide), V1_of m d main_arg6 (by decide)]
  rfl
theorem L_main_v41 : V6 m d (Proc.devRef .tc main_v41) = val_main_v41 (F := F) (m ((d.tc : Thread nD τ).loc main_arg9)) (m ((d.tc : Thread nD τ).loc main_arg10)) := by
  rw [V6]; after_results
  rw [V5_of m d main_arg9 (by decide), V4_of m d main_arg9 (by decide), V3_of m d main_arg9 (by decide), V2_of m d main_arg9 (by decide), V1_of m d main_arg9 (by decide), V5_of m d main_arg10 (by decide), V4_of m d main_arg10 (by decide), V3_of m d main_arg10 (by decide), V2_of m d main_arg10 (by decide), V1_of m d main_arg10 (by decide)]
  rfl

end Run

end Cert.ReferenceIdeal.RefChunks

end
-- ==== Proof.RefLogits.lean ====
/-
  The reference's logits stage at an element: the matrix product of the hidden activations
  tanh (emb · W1 + b1) with W2, plus b2, emb being the stage of the concatenated embedding rows.
-/
import proofs.«422837_j27685359190570_3_alg».proof.Proof.RefReadP
import proofs.«422837_j27685359190570_3_alg».proof.Proof.TakeSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.ReduceAll

set_option maxRecDepth 16384

noncomputable section

namespace Cert.ReferenceIdeal.RefPieces

open Cert.ReferenceIdeal Cert.ReferenceIdeal.Gen Cert.ReferenceIdeal.ReadP
open Idealize.ShloMosaic Idealize.ShloMosaic.TcCoe Idealize.SL.Sem Idealize.ShloMosaic.ValueIdx Cert.TakeSpec

variable (x0 : (⟨S20000x256, .f32⟩ : BufTy).Contents (Elt Ideal)) (x1 : (⟨S200x128, .f32⟩ : BufTy).Contents (Elt Ideal)) (x2 : (⟨S200x4x128x2, .f32⟩ : BufTy).Contents (Elt Ideal)) (x3 : (⟨S512x1024, .f32⟩ : BufTy).Contents (Elt Ideal)) (x4 : (⟨S1024, .f32⟩ : BufTy).Contents (Elt Ideal)) (x5 : (⟨S1024x50000, .f32⟩ : BufTy).Contents (Elt Ideal)) (x6 : (⟨S50000, .f32⟩ : BufTy).Contents (Elt Ideal)) (x7 : (⟨S2x4096, .i32⟩ : BufTy).Contents (Elt Ideal)) (x8 x9 : (⟨S4096, .i32⟩ : BufTy).Contents (Elt Ideal)) (x10 : (⟨S20000, .i32⟩ : BufTy).Contents (Elt Ideal))

/-! ### The index maps of the stages at an element -/

theorem lidx31 (e : Fin 4096) (n : Fin 50000) (k : Fin 1024) : lidx_main_v31 (ix2 e n) k = ix2 e k := by
  funext a
  match a with
  | ⟨0, _⟩ => exact Fin.ext rfl
  | ⟨1, _⟩ => exact Fin.ext rfl

theorem ridx31 (e : Fin 4096) (n : Fin 50000) (k : Fin 1024) : ridx_main_v31 (ix2 e n) k = ix2 k n := by
  funext a
  match a with
  | ⟨0, _⟩ => exact Fin.ext rfl
  | ⟨1, _⟩ => exact Fin.ext rfl

theorem lidx26 (e : Fin 4096) (k : Fin 1024) (i : Fin 512) : lidx_main_v26 (ix2 e k) i = ix2 e i := by
  funext a
  match a with
  | ⟨0, _⟩ => exact Fin.ext rfl
  | ⟨1, _⟩ => exact Fin.ext rfl

theorem ridx26 (e : Fin 4096) (k : Fin 1024) (i : Fin 512) : ridx_main_v26 (ix2 e k) i = ix2 i k := by
  funext a
  match a with
  | ⟨0, _⟩ => exact Fin.ext rfl
  | ⟨1, _⟩ => exact Fin.ext rfl

theorem idx33 (e : Fin 4096) (n : Fin 50000) : idx_main_v32 (idx_main_v33 (ix2 e n)) = ix1 n := by
  funext a
  match a with
  | ⟨0, _⟩ => exact Fin.ext rfl

theorem idx28 (e : Fin 4096) (k : Fin 1024) : idx_main_v27 (idx_main_v28 (ix2 e k)) = ix1 k := by
  funext a
  match a with
  | ⟨0, _⟩ => exact Fin.ext rfl

/-! ### The stages at an element -/

/-- The second bias, broadcast over the rows, reads its entry n at (e, n). -/
theorem bias2_apply (e : Fin 4096) (n : Fin 50000) :
    (val_main_v33 (F := Ideal) x6 : S4096x50000.Idx → EReal) (ix2 e n) = (x6 : S50000.Idx → EReal) (ix1 n) :=
  (val_main_v33_apply x6 (ix2 e n)).trans ((val_main_v32_apply x6 _).trans (congrArg x6 (idx33 e n)))

/-- The first bias likewise. -/
theorem bias1_apply (e : Fin 4096) (k : Fin 1024) :
    (val_main_v28 (F := Ideal) x4 : S4096x1024.Idx → EReal) (ix2 e k) = (x4 : S1024.Idx → EReal) (ix1 k) :=
  (val_main_v28_apply x4 (ix2 e k)).trans ((val_main_v27_apply x4 _).trans (congrArg x4 (idx28 e k)))

/-- The first matrix product at an element: the sum over the 512 embedding columns. -/
theorem prod1_apply (e : Fin 4096) (k : Fin 1024) :
    (val_main_v26 (F := Ideal) x0 x1 x2 x3 x7 x8 : S4096x1024.Idx → EReal) (ix2 e k)
      = ∑ i : Fin 512, (val_main_v25 (F := Ideal) x0 x1 x2 x7 x8 : S4096x512.Idx → EReal) (ix2 e i) * (x3 : S512x1024.Idx → EReal) (ix2 i k) := by
  refine (val_main_v26_apply x0 x1 x2 x3 x7 x8 (ix2 e k)).trans ?_
  refine Finset.sum_congr rfl fun i _ => ?_
  rw [lidx26, ridx26]

/-- The hidden activations at an element: the hyperbolic tangent of the first product plus the first bias. -/
theorem hidden_apply (e : Fin 4096) (k : Fin 1024) :
    (val_main_v30 (F := Ideal) x0 x1 x2 x3 x4 x7 x8 : S4096x1024.Idx → EReal) (ix2 e k)
      = Ideal.tanh ((∑ i : Fin 512, (val_main_v25 (F := Ideal) x0 x1 x2 x7 x8 : S4096x512.Idx → EReal) (ix2 e i) * (x3 : S512x1024.Idx → EReal) (ix2 i k))
          + (x4 : S1024.Idx → EReal) (ix1 k)) := by
  refine (val_main_v30_apply x0 x1 x2 x3 x4 x7 x8 (ix2 e k)).trans ?_
  refine (Ideal.hostUnary_tanh_def (φ := .f32) _).trans ?_
  refine congrArg Ideal.tanh ?_
  refine (val_main_v29_apply x0 x1 x2 x3 x4 x7 x8 (ix2 e k)).trans ?_
  refine (Ideal.addf_def (φ := .f32) _ _).trans ?_
  rw [prod1_apply x0 x1 x2 x3 x7 x8 e k, bias1_apply x4 e k]

/-- The logits, entry by entry. -/
theorem logits_apply (e : Fin 4096) (n : Fin 50000) :
    (val_main_v34 (F := Ideal) x0 x1 x2 x3 x4 x5 x6 x7 x8 : S4096x50000.Idx → EReal) (ix2 e n)
      = (∑ k : Fin 1024, Ideal.tanh ((∑ i : Fin 512, (val_main_v25 (F := Ideal) x0 x1 x2 x7 x8 : S4096x512.Idx → EReal) (ix2 e i) * (x3 : S512x1024.Idx → EReal) (ix2 i k))
          + (x4 : S1024.Idx → EReal) (ix1 k)) * (x5 : S1024x50000.Idx → EReal) (ix2 k n)) + (x6 : S50000.Idx → EReal) (ix1 n) := by
  refine (val_main_v34_apply x0 x1 x2 x3 x4 x5 x6 x7 x8 (ix2 e n)).trans ?_
  refine (Ideal.addf_def (φ := .f32) _ _).trans ?_
  rw [bias2_apply x6 e n]
  refine congrArg (· + (x6 : S50000.Idx → EReal) (ix1 n)) ?_
  refine (val_main_v31_apply x0 x1 x2 x3 x4 x5 x7 x8 (ix2 e n)).trans ?_
  refine Finset.sum_congr rfl fun k _ => ?_
  rw [lidx31, ridx31, hidden_apply x0 x1 x2 x3 x4 x7 x8 e k]

end Cert.ReferenceIdeal.RefPieces

end
-- ==== Proof.RefLsm.lean ====
/-
  The reference's log-softmax stage at an element: the logit minus the row's maximum M (taken from the bottom
  element) minus the logarithm of the row's sum of exponentials shifted by M.
-/
import proofs.«422837_j27685359190570_3_alg».proof.Proof.RefReadP
import proofs.«422837_j27685359190570_3_alg».proof.Proof.TakeSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.ReduceAll

set_option maxRecDepth 16384

noncomputable section

namespace Cert.ReferenceIdeal.RefPieces

open Cert.ReferenceIdeal Cert.ReferenceIdeal.Gen Cert.ReferenceIdeal.ReadP
open Idealize.ShloMosaic Idealize.ShloMosaic.TcCoe Idealize.SL.Sem Idealize.ShloMosaic.ValueIdx Cert.TakeSpec

variable (x0 : (⟨S20000x256, .f32⟩ : BufTy).Contents (Elt Ideal)) (x1 : (⟨S200x128, .f32⟩ : BufTy).Contents (Elt Ideal)) (x2 : (⟨S200x4x128x2, .f32⟩ : BufTy).Contents (Elt Ideal)) (x3 : (⟨S512x1024, .f32⟩ : BufTy).Contents (Elt Ideal)) (x4 : (⟨S1024, .f32⟩ : BufTy).Contents (Elt Ideal)) (x5 : (⟨S1024x50000, .f32⟩ : BufTy).Contents (Elt Ideal)) (x6 : (⟨S50000, .f32⟩ : BufTy).Contents (Elt Ideal)) (x7 : (⟨S2x4096, .i32⟩ : BufTy).Contents (Elt Ideal)) (x8 x9 : (⟨S4096, .i32⟩ : BufTy).Contents (Elt Ideal)) (x10 : (⟨S20000, .i32⟩ : BufTy).Contents (Elt Ideal))

/-! ## The row maximum -/

/-- The bit pattern of negative infinity is the bottom element. -/
theorem ofBits_ninf : Ideal.ofBits .f32 0xFF800000#32 = (⊥ : EReal) := by simp [Ideal.ofBits, Ideal.ieee]

/-- A fold of the maximum from the bottom element is the supremum. -/
theorem fold_max_bot {ι : Type} [Fintype ι] (g : ι → EReal) :
    (Finset.univ : Finset ι).fold (FloatOps.maximumf (F := Ideal) (φ := .f32)) (⊥ : EReal) g = Finset.univ.sup g := rfl

/-- The logits stage. -/
abbrev LG : S4096x50000.Idx → EReal := val_main_v34 (F := Ideal) x0 x1 x2 x3 x4 x5 x6 x7 x8

/-- The row's maximum as the reference takes it: from the bottom element. -/
abbrev MX (e : Fin 4096) : EReal := max (⊥ : EReal) (Finset.univ.sup fun n' : Fin 50000 => LG x0 x1 x2 x3 x4 x5 x6 x7 x8 (ix2 e n'))

/-- The reduction by maximum over the columns, from negative infinity, is at row e the supremum of the row: a fold
    of the maximum over the 50000 columns from the bottom element, the column inserted at axis 1. -/
theorem v0_apply (e : Fin 4096) :
    (val_main_call0_v0 (F := Ideal) x0 x1 x2 x3 x4 x5 x6 x7 x8 : S4096.Idx → EReal) (ix1 e)
      = Finset.univ.sup fun n' : Fin 50000 => LG x0 x1 x2 x3 x4 x5 x6 x7 x8 (ix2 e n') := by
  have h : S4096x50000.Reduces [1] S4096 := by decide
  unfold val_main_call0_v0
  refine (Host.reduce_eq_fold_single (FloatOps.maximumf (F := Ideal) (φ := .f32)) (LG x0 x1 x2 x3 x4 x5 x6 x7 x8)
    (val_main_call0_cst (F := Ideal)) reducesTo_S4096x50000_S4096_d1 h h_S_ (ix1 e)).trans ?_
  have hinit : (val_main_call0_cst (F := Ideal)) (Shape.Idx.first h_S_) = (⊥ : EReal) := ofBits_ninf
  have hfun : (LG x0 x1 x2 x3 x4 x5 x6 x7 x8 ∘ h.lift (ix1 e)) = fun n' : Fin 50000 => LG x0 x1 x2 x3 x4 x5 x6 x7 x8 (ix2 e n') :=
    funext fun k => congrArg (LG x0 x1 x2 x3 x4 x5 x6 x7 x8) (funext fun a => Fin.ext (by
      match a with
      | ⟨0, _⟩ => rfl
      | ⟨1, _⟩ => rfl))
  rw [hinit, hfun]
  exact fold_max_bot _

/-! ## The stages of the log-softmax at an element -/

/-- The broadcast of negative infinity is the bottom element at every row. -/
theorem v1_apply (i : S4096.Idx) : (val_main_call0_v1 (F := Ideal) : S4096.Idx → EReal) i = (⊥ : EReal) :=
  (val_main_call0_v1_apply (F := Ideal) i).trans ofBits_ninf

/-- The row's maximum taken against it. -/
theorem v2_apply (e : Fin 4096) :
    (val_main_call0_v2 (F := Ideal) x0 x1 x2 x3 x4 x5 x6 x7 x8 : S4096.Idx → EReal) (ix1 e) = MX x0 x1 x2 x3 x4 x5 x6 x7 x8 e := by
  refine (val_main_call0_v2_apply (F := Ideal) x0 x1 x2 x3 x4 x5 x6 x7 x8 (ix1 e)).trans ?_
  exact congrArg₂ (FloatOps.maximumf (F := Ideal) (φ := .f32)) (v1_apply (ix1 e)) (v0_apply x0 x1 x2 x3 x4 x5 x6 x7 x8 e)

/-- Broadcast over the columns: at (e, n) it is row e's value. -/
theorem v4_apply (e : Fin 4096) (n : Fin 50000) :
    (val_main_call0_v4 (F := Ideal) x0 x1 x2 x3 x4 x5 x6 x7 x8 : S4096x50000.Idx → EReal) (ix2 e n) = MX x0 x1 x2 x3 x4 x5 x6 x7 x8 e := by
  refine (val_main_call0_v4_apply (F := Ideal) x0 x1 x2 x3 x4 x5 x6 x7 x8 (ix2 e n)).trans
    ((val_main_call0_v3_apply (F := Ideal) x0 x1 x2 x3 x4 x5 x6 x7 x8 _).trans ?_)
  have hi : idx_main_call0_v3 (idx_main_call0_v4 (ix2 e n)) = ix1 e :=
    funext fun a => Fin.ext (by
      match a with
      | ⟨0, _⟩ => rfl)
  exact (congrArg (val_main_call0_v2 (F := Ideal) x0 x1 x2 x3 x4 x5 x6 x7 x8) hi).trans (v2_apply x0 x1 x2 x3 x4 x5 x6 x7 x8 e)

/-- The shifted logit. -/
theorem v5_apply (e : Fin 4096) (n : Fin 50000) :
    (val_main_call0_v5 (F := Ideal) x0 x1 x2 x3 x4 x5 x6 x7 x8 : S4096x50000.Idx → EReal) (ix2 e n)
      = LG x0 x1 x2 x3 x4 x5 x6 x7 x8 (ix2 e n) - MX x0 x1 x2 x3 x4 x5 x6 x7 x8 e := by
  refine (val_main_call0_v5_apply (F := Ideal) x0 x1 x2 x3 x4 x5 x6 x7 x8 (ix2 e n)).trans ?_
  exact congrArg (FloatOps.subf (F := Ideal) (φ := .f32) (LG x0 x1 x2 x3 x4 x5 x6 x7 x8 (ix2 e n))) (v4_apply x0 x1 x2 x3 x4 x5 x6 x7 x8 e n)

/-- Its exponential. -/
theorem v6_apply (e : Fin 4096) (n : Fin 50000) :
    (val_main_call0_v6 (F := Ideal) x0 x1 x2 x3 x4 x5 x6 x7 x8 : S4096x50000.Idx → EReal) (ix2 e n)
      = Ideal.exp (LG x0 x1 x2 x3 x4 x5 x6 x7 x8 (ix2 e n) - MX x0 x1 x2 x3 x4 x5 x6 x7 x8 e) := by
  refine (val_main_call0_v6_apply (F := Ideal) x0 x1 x2 x3 x4 x5 x6 x7 x8 (ix2 e n)).trans ?_
  exact congrArg (FloatOps.hostUnary (F := Ideal) (φ := .f32) .exp) (v5_apply x0 x1 x2 x3 x4 x5 x6 x7 x8 e n)

/-- The row's sum of the shifted exponentials: the reduction by addition from zero. -/
theorem v7_apply (e : Fin 4096) :
    (val_main_call0_v7 (F := Ideal) x0 x1 x2 x3 x4 x5 x6 x7 x8 : S4096.Idx → EReal) (ix1 e)
      = ∑ n' : Fin 50000, Ideal.exp (LG x0 x1 x2 x3 x4 x5 x6 x7 x8 (ix2 e n') - MX x0 x1 x2 x3 x4 x5 x6 x7 x8 e) := by
  refine (val_main_call0_v7_apply x0 x1 x2 x3 x4 x5 x6 x7 x8 (ix1 e)).trans ?_
  have h0 : (val_main_call0_cst_1 (F := Ideal)) (Shape.Idx.first h_S_) = (0 : EReal) :=
    (val_main_call0_cst_1_apply (F := Ideal) _).trans Ideal.ofBits_zero_f32
  refine (congrArg (· + _) h0).trans ((zero_add _).trans ?_)
  refine Finset.sum_congr rfl fun k _ => ?_
  have hi : idx_main_call0_v7 (ix1 e) k = ix2 e k :=
    funext fun a => Fin.ext (by
      match a with
      | ⟨0, _⟩ => rfl
      | ⟨1, _⟩ => rfl)
  exact (congrArg (val_main_call0_v6 (F := Ideal) x0 x1 x2 x3 x4 x5 x6 x7 x8) hi).trans (v6_apply x0 x1 x2 x3 x4 x5 x6 x7 x8 e k)

/-- Its logarithm, broadcast over the columns. -/
theorem v10_apply (e : Fin 4096) (n : Fin 50000) :
    (val_main_call0_v10 (F := Ideal) x0 x1 x2 x3 x4 x5 x6 x7 x8 : S4096x50000.Idx → EReal) (ix2 e n)
      = Ideal.log (∑ n' : Fin 50000, Ideal.exp (LG x0 x1 x2 x3 x4 x5 x6 x7 x8 (ix2 e n') - MX x0 x1 x2 x3 x4 x5 x6 x7 x8 e)) := by
  refine (val_main_call0_v10_apply (F := Ideal) x0 x1 x2 x3 x4 x5 x6 x7 x8 (ix2 e n)).trans ?_
  refine (val_main_call0_v9_apply (F := Ideal) x0 x1 x2 x3 x4 x5 x6 x7 x8 _).trans ?_
  have hs : (val_main_call0_v8 (F := Ideal) x0 x1 x2 x3 x4 x5 x6 x7 x8 : S4096x1.Idx → EReal) (idx_main_call0_v10 (ix2 e n))
      = ∑ n' : Fin 50000, Ideal.exp (LG x0 x1 x2 x3 x4 x5 x6 x7 x8 (ix2 e n') - MX x0 x1 x2 x3 x4 x5 x6 x7 x8 e) := by
    refine (val_main_call0_v8_apply (F := Ideal) x0 x1 x2 x3 x4 x5 x6 x7 x8 _).trans ?_
    have hi : idx_main_call0_v8 (idx_main_call0_v10 (ix2 e n)) = ix1 e :=
      funext fun a => Fin.ext (by
        match a with
        | ⟨0, _⟩ => rfl)
    exact (congrArg (val_main_call0_v7 (F := Ideal) x0 x1 x2 x3 x4 x5 x6 x7 x8) hi).trans (v7_apply x0 x1 x2 x3 x4 x5 x6 x7 x8 e)
  exact (congrArg (FloatOps.hostUnary (F := Ideal) (φ := .f32) .log) hs).trans (Ideal.hostUnary_log_def _)

/-- The log-softmax, entry by entry, over the logits stage of the same row. -/
theorem lsm_apply (e : Fin 4096) (n : Fin 50000) :
    (val_main_v42 (F := Ideal) x0 x1 x2 x3 x4 x5 x6 x7 x8 : S4096x50000.Idx → EReal) (ix2 e n)
      = ((val_main_v34 (F := Ideal) x0 x1 x2 x3 x4 x5 x6 x7 x8 : S4096x50000.Idx → EReal) (ix2 e n)
            - max (⊥ : EReal) (Finset.univ.sup fun n' : Fin 50000 => (val_main_v34 (F := Ideal) x0 x1 x2 x3 x4 x5 x6 x7 x8 : S4096x50000.Idx → EReal) (ix2 e n')))
          - Ideal.log (∑ n' : Fin 50000, Ideal.exp ((val_main_v34 (F := Ideal) x0 x1 x2 x3 x4 x5 x6 x7 x8 : S4096x50000.Idx → EReal) (ix2 e n')
              - max (⊥ : EReal) (Finset.univ.sup fun n'' : Fin 50000 => (val_main_v34 (F := Ideal) x0 x1 x2 x3 x4 x5 x6 x7 x8 : S4096x50000.Idx → EReal) (ix2 e n'')))) := by
  refine (val_main_v42_apply (F := Ideal) x0 x1 x2 x3 x4 x5 x6 x7 x8 (ix2 e n)).trans ?_
  exact (congrArg₂ (FloatOps.subf (F := Ideal) (φ := .f32)) (v5_apply x0 x1 x2 x3 x4 x5 x6 x7 x8 e n) (v10_apply x0 x1 x2 x3 x4 x5 x6 x7 x8 e n)).trans
    (Ideal.subf_def _ _)

end Cert.ReferenceIdeal.RefPieces

end
-- ==== Proof.LibTakeAlong.lean ====
/-
  jnp.take_along_axis's gather read at an element. A stablehlo.gather of an operand [R, C] along start indices
  [R, 1, 1] into a result [R, 1], with operand batching axis 0 paired with the start indices' axis 0, the collapsed
  slice axis 1, the start index map [1], the index vector on axis 2 and slice sizes [1, 1]: the result at (r, 0) is
  the operand at row r and at the column "the start index at (r, 0, 0), read signed, clamped to [0, C - 1]".
-/
import Idealize.ShloMosaic.PureOps.Dims
import Idealize.ShloMosaic.PureOps.Vector
import Idealize.ShloMosaic.Lib.ValueIdx

noncomputable section

namespace Cert.LibTakeAlong

open Idealize.ShloMosaic Idealize.ShloMosaic.ValueIdx

variable {R C : Nat} {α : Type} {w : Nat}

/-- The gather of take_along_axis at an element, for any dimension record with those dimension numbers. -/
theorem gather_take_along_apply (hC : 0 < C)
    (d : GatherDims (⟨2, ![R, C]⟩ : Shape) (⟨3, ![R, 1, 1]⟩ : Shape) (⟨2, ![R, 1]⟩ : Shape))
    (hod : d.offsetDims = []) (hcs : d.collapsedSliceDims = [1]) (hob : d.operandBatchingDims = [0])
    (hsb : d.startIndicesBatchingDims = [0]) (hsm : d.startIndexMap = [1]) (hiv : d.indexVectorDim = 2)
    (hss : d.sliceSizes = ![1, 1])
    (x : (⟨2, ![R, C]⟩ : Shape).Idx → α) (idx : IVec (⟨3, ![R, 1, 1]⟩ : Shape) w) (r : Fin R) :
    Host.gather d x idx (ix2 r 0) = x (ix2 r ⟨min (idx (ix3 r 0 0)).toInt.toNat (C - 1), by omega⟩) := by
  -- the record is its seven lists: take them at the given values
  obtain ⟨od, cs, ob, sb, sm, iv, ss, wf⟩ := d
  dsimp only at hod hcs hob hsb hsm hiv hss
  subst hod hcs hob hsb hsm hiv hss
  unfold Host.gather
  congr 1
  funext a
  refine Fin.ext ?_
  -- the operand index on each axis is the clamped start plus the batching coordinate plus the offset coordinate
  match a with
  | ⟨0, _⟩ =>
    -- axis 0 is the batching axis: no start, no offset, and the batching coordinate is the result's row
    show GatherDims.start _ (ix2 r 0) idx 0 + GatherDims.batchCoord _ (ix2 r 0) 0 + GatherDims.offCoord _ (ix2 r 0) 0 = r.val
    have hb : (0 : Fin 2) ∈ [(0 : Fin 2)] := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    -- axis 1 is the collapsed, start-indexed axis: no batching coordinate, no offset, and the start is the start
    -- index at the result's batch coordinates (r, 0) and component 0, clamped to [0, C - 1]
    show GatherDims.start _ (ix2 r 0) idx 1 + GatherDims.batchCoord _ (ix2 r 0) 1 + GatherDims.offCoord _ (ix2 r 0) 1 = min (idx (ix3 r 0 0)).toInt.toNat (C - 1)
    have hc : (1 : Fin 2) ∈ [(1 : Fin 2)] := List.mem_singleton.mpr rfl
    rw [GatherDims.batchCoord_eq_zero _ _ _ (fun h => absurd (List.mem_singleton.mp h) (show ¬((1 : Fin 2) = 0) by decide)),
      GatherDims.offCoord_eq_zero _ _ _ (fun h => ((GatherDims.mem_sKept _ _).mp h).1 hc)]
    simp only [Nat.add_zero]
    unfold GatherDims.start
    rw [dif_pos hc]
    have hsi : GatherDims.siIdx (s := (⟨2, ![R, C]⟩ : Shape)) (si := (⟨3, ![R, 1, 1]⟩ : Shape)) (t := (⟨2, ![R, 1]⟩ : Shape))
        ⟨[], [1], [0], [0], [1], 2, ![1, 1], wf⟩ (ix2 r 0)
        ⟨List.idxOf (1 : Fin 2) [(1 : Fin 2)], List.idxOf_lt_length_iff.2 hc⟩ = ix3 r 0 0 := by
      funext b; refine Fin.ext ?_
      match b with
      | ⟨0, _⟩ => rfl
      | ⟨1, _⟩ => rfl
      | ⟨2, _⟩ => rfl
    rw [hsi]
    rfl

end Cert.LibTakeAlong

end
-- ==== Proof.RefTake.lean ====
/-
  The reference's per-row vector at an element: the log-softmax stage read along each row by the row's label, in
  take_along_axis's filling mode (the fill value is the bottom element at the ideal instance).
-/
import proofs.«422837_j27685359190570_3_alg».proof.Proof.RefReadP
import proofs.«422837_j27685359190570_3_alg».proof.Proof.TakeSpec
import proofs.«422837_j27685359190570_3_alg».proof.Proof.LibTakeAlong
import Idealize.ShloMosaic.PureOps.Ideal.Laws
import Idealize.ShloMosaic.Lib.ValueIdx
import Idealize.ShloMosaic.Lib.ValueLayout
import Idealize.ShloMosaic.Lib.Pipeline.Value
import Idealize.ShloMosaic.Lib.ReduceAll

set_option maxRecDepth 16384

noncomputable section

namespace Cert.ReferenceIdeal.RefPieces

open Cert.ReferenceIdeal Cert.ReferenceIdeal.Gen Cert.ReferenceIdeal.ReadP
open Idealize.ShloMosaic Idealize.ShloMosaic.TcCoe Idealize.SL.Sem Idealize.ShloMosaic.ValueIdx Cert.TakeSpec

variable (x0 : (⟨S20000x256, .f32⟩ : BufTy).Contents (Elt Ideal)) (x1 : (⟨S200x128, .f32⟩ : BufTy).Contents (Elt Ideal)) (x2 : (⟨S200x4x128x2, .f32⟩ : BufTy).Contents (Elt Ideal)) (x3 : (⟨S512x1024, .f32⟩ : BufTy).Contents (Elt Ideal)) (x4 : (⟨S1024, .f32⟩ : BufTy).Contents (Elt Ideal)) (x5 : (⟨S1024x50000, .f32⟩ : BufTy).Contents (Elt Ideal)) (x6 : (⟨S50000, .f32⟩ : BufTy).Contents (Elt Ideal)) (x7 : (⟨S2x4096, .i32⟩ : BufTy).Contents (Elt Ideal)) (x8 x9 : (⟨S4096, .i32⟩ : BufTy).Contents (Elt Ideal)) (x10 : (⟨S20000, .i32⟩ : BufTy).Contents (Elt Ideal))

/-- The label column at (e, 0) is the label of row e. -/
theorem take_v43_at (e : Fin 4096) :
    (val_main_v43 (F := Ideal) x9 x10 : S4096x1.Idx → BitVec 32) (ix2 e 0) = (val_main_v41 (F := Ideal) x9 x10 : S4096.Idx → BitVec 32) (ix1 e) := by
  refine (val_main_v43_apply x9 x10 (ix2 e 0)).trans ?_
  have hi : idx_main_v43 (ix2 e (0 : Fin 1)) = ix1 e := by
    funext a; refine Fin.ext ?_
    match a with
    | ⟨0, _⟩ => rfl
  rw [hi]

/-- The wrapped label column at (e, 0) is the wrapped label of row e. -/
theorem take_v4_at (e : Fin 4096) :
    (val_main_call1_v4 (F := Ideal) x9 x10 : S4096x1.Idx → BitVec 32) (ix2 e 0) = adj ((val_main_v41 (F := Ideal) x9 x10 : S4096.Idx → BitVec 32) (ix1 e)) := by
  rw [val_main_call1_v4_apply, val_main_call1_v1_apply, val_main_call1_v3_apply, val_main_call1_v0_apply, val_main_call1_v2_apply,
    val_main_call1_c_apply, val_main_call1_c_0_apply, take_v43_at]
  rfl

/-- The start indices at (e, 0, 0) are the wrapped label of row e. -/
theorem take_v5_at (e : Fin 4096) :
    (val_main_call1_v5 (F := Ideal) x9 x10 : S4096x1x1.Idx → BitVec 32) (ix3 e 0 0) = adj ((val_main_v41 (F := Ideal) x9 x10 : S4096.Idx → BitVec 32) (ix1 e)) := by
  refine (val_main_call1_v5_apply x9 x10 (ix3 e 0 0)).trans ?_
  have hi : idx_main_call1_v5 (ix3 e (0 : Fin 1) (0 : Fin 1)) = ix2 e 0 := by
    funext a; refine Fin.ext ?_
    match a with
    | ⟨0, _⟩ => show ((e.val * 1 + 0) * 1 + 0) / 1 = e.val; omega
    | ⟨1, _⟩ => rfl
  rw [hi]
  exact take_v4_at x9 x10 e

/-- A fold over the one-element index type is one application of the operation. -/
theorem take_fold_fin_one {β : Type} (f : β → β → β) [Std.Commutative f] [Std.Associative f] (b : β) (g : Fin 1 → β) :
    (Finset.univ : Finset (Fin 1)).fold f b g = f (g 0) b := by
  rw [show (Finset.univ : Finset (Fin 1)) = {0} from rfl]
  exact Finset.fold_singleton

/-- The start-index shape with its unit axis 2 dropped is the label column's shape. -/
theorem take_red2 : S4096x1x1.Reduces [2] S4096x1 := by decide

/-- The in-bounds test at (e, 0, 0): the wrapped label is at least 0 and at most 49999. -/
theorem take_v11_at (e : Fin 4096) :
    (val_main_call1_v11 (F := Ideal) x9 x10 : S4096x1x1.Idx → BitVec 1) (ix3 e 0 0) = okb ((val_main_v41 (F := Ideal) x9 x10 : S4096.Idx → BitVec 32) (ix1 e)) := by
  rw [val_main_call1_v11_apply, val_main_call1_v7_apply, val_main_call1_v10_apply, val_main_call1_v6_apply, val_main_call1_v9_apply,
    val_main_call1_v8_apply, val_main_call1_c_2_apply, val_main_call1_c_1_apply, take_v5_at]
  rfl

/-- The in-bounds bit at (e, 0): the conjunction over the one coordinate of the unit axis, from true. -/
theorem take_v12_at (e : Fin 4096) :
    (val_main_call1_v12 (F := Ideal) x9 x10 : S4096x1.Idx → BitVec 1) (ix2 e 0) = okb ((val_main_v41 (F := Ideal) x9 x10 : S4096.Idx → BitVec 32) (ix1 e)) := by
  unfold val_main_call1_v12
  rw [Host.reduce_eq_fold_single IntOp.andi _ _ reducesTo_S4096x1x1_S4096x1_d2 take_red2 h_S_ (ix2 e 0)]
  refine (take_fold_fin_one IntOp.andi _ _).trans ?_
  have hl : take_red2.lift (ix2 e (0 : Fin 1)) (0 : Fin 1) = ix3 e 0 0 := by
    funext a; refine Fin.ext ?_
    match a with
    | ⟨0, _⟩ => rfl
    | ⟨1, _⟩ => rfl
    | ⟨2, _⟩ => rfl
  show IntOp.andi (val_main_call1_v11 (F := Ideal) x9 x10 (take_red2.lift (ix2 e (0 : Fin 1)) (0 : Fin 1))) 1#1 = _
  rw [hl, take_v11_at]
  exact (by decide : ∀ b : BitVec 1, IntOp.andi b 1#1 = b) _

/-- The reference's gather at (e, 0), for any operand and start indices: the operand at row e and at the column
    "start index at (e, 0, 0), read signed, clamped to [0, 49999]". -/
theorem take_gather_at (y : S4096x50000.Idx → EReal) (idx : IVec S4096x1x1 32) (e : Fin 4096) :
    Host.gather gather_S4096x50000_S4096x1x1_S4096x1_n_1_0_0_1_2_11 y idx (ix2 e 0)
      = y (ix2 e ⟨min (idx (ix3 e 0 0)).toInt.toNat 49999, by omega⟩) :=
  Cert.LibTakeAlong.gather_take_along_apply (R := 4096) (C := 50000) (by decide)
    gather_S4096x50000_S4096x1x1_S4096x1_n_1_0_0_1_2_11 rfl rfl rfl rfl rfl rfl rfl y idx e

/-- The gathered entry at (e, 0): the log-softmax stage at row e and the column read by the label. -/
theorem take_v13_at (e : Fin 4096) :
    (val_main_call1_v13 (F := Ideal) x0 x1 x2 x3 x4 x5 x6 x7 x8 x9 x10 : S4096x1.Idx → EReal) (ix2 e 0)
      = (val_main_v42 (F := Ideal) x0 x1 x2 x3 x4 x5 x6 x7 x8 : S4096x50000.Idx → EReal)
          (ix2 e (colOf ((val_main_v41 (F := Ideal) x9 x10 : S4096.Idx → BitVec 32) (ix1 e)))) := by
  have h5 := take_v5_at x9 x10 e
  unfold val_main_call1_v13
  generalize val_main_v42 (F := Ideal) x0 x1 x2 x3 x4 x5 x6 x7 x8 = y
  generalize val_main_call1_v5 (F := Ideal) x9 x10 = idx at h5 ⊢
  generalize (val_main_v41 (F := Ideal) x9 x10 : S4096.Idx → BitVec 32) (ix1 e) = L at h5 ⊢
  refine (take_gather_at y idx e).trans ?_
  congr 1
  funext a; refine Fin.ext ?_
  match a with
  | ⟨0, _⟩ => rfl
  | ⟨1, _⟩ =>
    show min (idx (ix3 e 0 0)).toInt.toNat 49999 = min (adj L).toInt.toNat 49999
    rw [h5]

/-- The fill value is the bottom element: the f32 pattern 0x7FC00000 is a NaN. -/
theorem take_v14_at (e : Fin 4096) : (val_main_call1_v14 (F := Ideal) : S4096x1.Idx → EReal) (ix2 e 0) = ⊥ := by
  rw [val_main_call1_v14_apply, val_main_call1_cst_apply]
  show Ideal.ofBits .f32 0x7FC00000#32 = ⊥
  simp [Ideal.ofBits, Ideal.ieee]

/-- The per-row vector, entry by entry, over the log-softmax stage. -/
theorem take_apply (e : Fin 4096) :
    (val_main_v45 (F := Ideal) x0 x1 x2 x3 x4 x5 x6 x7 x8 x9 x10 : S4096.Idx → EReal) (ix1 e)
      = Scalar.select (okb ((val_main_v41 (F := Ideal) x9 x10 : S4096.Idx → BitVec 32) (ix1 e)))
          ((val_main_v42 (F := Ideal) x0 x1 x2 x3 x4 x5 x6 x7 x8 : S4096x50000.Idx → EReal)
            (ix2 e (colOf ((val_main_v41 (F := Ideal) x9 x10 : S4096.Idx → BitVec 32) (ix1 e)))))
          (⊥ : EReal) := by
  refine (val_main_v45_apply x0 x1 x2 x3 x4 x5 x6 x7 x8 x9 x10 (ix1 e)).trans ?_
  have hi : idx_main_v45 (ix1 e) = ix2 e 0 := by
    funext a; refine Fin.ext ?_
    match a with
    | ⟨0, _⟩ => show e.val / 1 = e.val; omega
    | ⟨1, _⟩ => rfl
  rw [hi, val_main_v44_apply, take_v12_at, take_v13_at, take_v14_at]

end Cert.ReferenceIdeal.RefPieces

end
-- ==== Proof.RefSide.lean ====
/-
  The reference's run read back at the ideal instance. The run leaves every buffer at the fold of the program's 93
  host operations over the launch contents; read stretch by stretch: the argument arrays are written by no
  operation; the logits are the matrix product of the hidden activations tanh (emb · W1 + b1) with W2 plus b2, emb
  being the concatenated embedding rows; the vector whose mean is the first result holds, at row e, the
  log-softmax entry of the row's logits read by the row's label; the first result is that vector summed from zero
  and divided by 4096.
-/
import proofs.«422837_j27685359190570_3_alg».proof.Proof.RefRunP
import proofs.«422837_j27685359190570_3_alg».proof.Proof.RefReadP
import proofs.«422837_j27685359190570_3_alg».proof.Proof.TakeSpec
import proofs.«422837_j27685359190570_3_alg».proof.Proof.RefChunks
import proofs.«422837_j27685359190570_3_alg».proof.Proof.RefLogits
import proofs.«422837_j27685359190570_3_alg».proof.Proof.RefLsm
import proofs.«422837_j27685359190570_3_alg».proof.Proof.RefTake
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.ReduceAll

set_option maxRecDepth 16384

noncomputable section

namespace Cert.ReferenceIdeal.RefSide

open Cert.ReferenceIdeal Cert.ReferenceIdeal.Gen Cert.ReferenceIdeal.ReadP Cert.ReferenceIdeal.RefChunks
open Idealize.ShloMosaic Idealize.ShloMosaic.TcCoe Idealize.SL.Sem Idealize.ShloMosaic.StableHlo Idealize.ShloMosaic.ValueIdx Cert.TakeSpec

section Folds
variable {F : FTy → Type} [FloatOps F] (m : (ℓ : Loc nD τ sig) → Buf (Elt F) ℓ) (d : Dev nD)

/-- Contents carried to a value's type and back are the contents. -/
theorem ofBuf_toBuf {Val : EltTy → Type} {T : BufTy} (X : TRef sig T) (z : T.Contents Val) : X.ofBuf (Val := Val) (X.toBuf z) = z := by
  simp only [TRef.ofBuf, TRef.toBuf, cast_cast, cast_eq]

/-! After its stretch each of these buffers holds its stage function of the argument arrays: the shifted logits and
    the log-softmax (the inlined log_softmax), the wrapped labels and the picked entries (the inlined
    take_along_axis), and the picked entries as a vector. Inside an inlined function each operation carries its
    operands from the buffers' types to the values' types and its result back; the pairs cancel. -/

theorem L_main_call0_v5 : V7 m d (Proc.devRef .tc main_call0_v5) = val_main_call0_v5 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  rw [V7]; after_results
  repeat rw [ofBuf_toBuf]
  rw [V6_of m d main_v34 (by decide), L_main_v34]
  simp only [TRef.ofBuf, TRef.toBuf, cast_eq]
  rfl
theorem L_main_v42 : V8 m d (Proc.devRef .tc main_v42) = val_main_v42 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  rw [V8]; after_results
  repeat rw [ofBuf_toBuf]
  rw [L_main_call0_v5]
  simp only [TRef.ofBuf, TRef.toBuf, cast_eq]
  rfl
theorem L_main_call1_v5 : V9 m d (Proc.devRef .tc main_call1_v5) = val_main_call1_v5 (F := F) (m ((d.tc : Thread nD τ).loc main_arg9)) (m ((d.tc : Thread nD τ).loc main_arg10)) := by
  rw [V9]; after_results
  repeat rw [ofBuf_toBuf]
  rw [V8_of m d main_v41 (by decide), V7_of m d main_v41 (by decide), L_main_v41]
  simp only [TRef.ofBuf, TRef.toBuf, cast_eq]
  rfl
set_option maxHeartbeats 1600000 in
theorem L_main_v44 : V10 m d (Proc.devRef .tc main_v44) = val_main_v44 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
  rw [V10]; after_results
  repeat rw [ofBuf_toBuf]
  rw [L_main_call1_v5, V9_of m d main_v42 (by decide), L_main_v42]
  simp only [TRef.ofBuf, TRef.toBuf, cast_eq]
  rfl
theorem L_main_v45 : V11 m d (Proc.devRef .tc main_v45) = val_main_v45 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
  rw [V11]; after_results
  rw [L_main_v44]
  rfl

/-- A reference no stretch writes holds, after the run, what the memory held at the launch. -/
theorem V11_keep (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) :
    V11 m d (Proc.devRef .tc r) = m ((d.tc : Thread nD τ).loc r) := by
  rw [V11_of m d r h11, V10_of m d r h10, V9_of m d r h9, V8_of m d r h8, V7_of m d r h7, V6_of m d r h6, V5_of m d r h5, V4_of m d r h4, V3_of m d r h3, V2_of m d r h2, V1_of m d r h1]
  rfl

end Folds

variable (m : (ℓ : Loc nD τ sig) → Buf (Elt Ideal) ℓ) (d : Dev nD)

/-- Every buffer after the program's operations, from the launch contents. -/
abbrev Wend : Valuation τ sig (Elt Ideal) := after (Cert.ReferenceIdeal.ValueP.ops (F := Ideal)) (launchContents m d)

/-- The concatenated embedding rows and the gathered labels, as the stage functions of the arguments. -/
abbrev embR : S4096x512.Idx → EReal :=
  val_main_v25 (F := Ideal) (m ((d.tc : Thread nD τ).loc main_arg0)) (m ((d.tc : Thread nD τ).loc main_arg1)) (m ((d.tc : Thread nD τ).loc main_arg2))
    (m ((d.tc : Thread nD τ).loc main_arg7)) (m ((d.tc : Thread nD τ).loc main_arg8))
abbrev labR : S4096.Idx → BitVec 32 :=
  val_main_v41 (F := Ideal) (m ((d.tc : Thread nD τ).loc main_arg9)) (m ((d.tc : Thread nD τ).loc main_arg10))

/-- The reference's logit of row e and column n. -/
def tpR (e : Fin 4096) (n : Fin 50000) : EReal :=
  (∑ k : Fin 1024, Ideal.tanh ((∑ i : Fin 512, embR m d (ix2 e i) * (m ((d.tc : Thread nD τ).loc main_arg3) : S512x1024.Idx → EReal) (ix2 i k))
      + (m ((d.tc : Thread nD τ).loc main_arg4) : S1024.Idx → EReal) (ix1 k)) * (m ((d.tc : Thread nD τ).loc main_arg5) : S1024x50000.Idx → EReal) (ix2 k n))
    + (m ((d.tc : Thread nD τ).loc main_arg6) : S50000.Idx → EReal) (ix1 n)

/-- The buffers after the whole run are the stretches' folds nested. -/
theorem Wend_eq : Wend m d = V11 m d := after_ops_eq m d

/-- The second result, entry by entry. -/
theorem ref34_apply (e : Fin 4096) (n : Fin 50000) :
    (Wend m d (Proc.devRef .tc main_v34) : S4096x50000.Idx → EReal) (ix2 e n) = tpR m d e n := by
  -- The last six stretches do not write the logits; after the fifth they are their stage function, read entry by entry.
  rw [Wend_eq, V11_of m d main_v34 (by decide), V10_of m d main_v34 (by decide), V9_of m d main_v34 (by decide), V8_of m d main_v34 (by decide), V7_of m d main_v34 (by decide), V6_of m d main_v34 (by decide), L_main_v34]
  exact RefPieces.logits_apply _ _ _ _ _ _ _ _ _ e n

/-- The per-row vector, entry by entry. -/
theorem ref45_apply (e : Fin 4096) :
    (Wend m d (Proc.devRef .tc main_v45) : S4096.Idx → EReal) (ix1 e) = rowR (tpR m d e) (labR m d (ix1 e)) := by
  -- The row of logits is the stage function's row.
  have h : (fun n : Fin 50000 => (val_main_v34 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) : S4096x50000.Idx → EReal) (ix2 e n)) = tpR m d e :=
    funext fun n => RefPieces.logits_apply _ _ _ _ _ _ _ _ _ e n
  -- The vector is its stage function: the pick by label of the log-softmax, which is the row's term.
  rw [Wend_eq, L_main_v45, RefPieces.take_apply, RefPieces.lsm_apply, ← h]
  rfl

/-- The first result: the per-row vector summed from zero and divided by 4096. -/
theorem ref47_eq :
    (Wend m d (Proc.devRef .tc main_v47) : S_.Idx → EReal)
      = Host.divf (Host.reduceAdd (F := Ideal) (Wend m d (Proc.devRef .tc main_v45) : S4096.Idx → EReal) (constant S_ .f32 0x00000000#32) reducesTo_S4096_S_d0 h_S_)
          (constant (F := Ideal) S_ .f32 0x45800000#32) := by
  -- Both sides are read off the last stretch: the reshaping, the sum from zero, the division.
  rw [Wend_eq, V11]
  after_results

/-- No operation writes an argument. -/
theorem ref_args :
    Wend m d (Proc.devRef .tc main_arg0) = m ((d.tc : Thread nD τ).loc main_arg0)
    ∧ Wend m d (Proc.devRef .tc main_arg1) = m ((d.tc : Thread nD τ).loc main_arg1)
    ∧ Wend m d (Proc.devRef .tc main_arg2) = m ((d.tc : Thread nD τ).loc main_arg2)
    ∧ Wend m d (Proc.devRef .tc main_arg3) = m ((d.tc : Thread nD τ).loc main_arg3)
    ∧ Wend m d (Proc.devRef .tc main_arg4) = m ((d.tc : Thread nD τ).loc main_arg4)
    ∧ Wend m d (Proc.devRef .tc main_arg5) = m ((d.tc : Thread nD τ).loc main_arg5)
    ∧ Wend m d (Proc.devRef .tc main_arg6) = m ((d.tc : Thread nD τ).loc main_arg6)
    ∧ Wend m d (Proc.devRef .tc main_arg7) = m ((d.tc : Thread nD τ).loc main_arg7)
    ∧ Wend m d (Proc.devRef .tc main_arg8) = m ((d.tc : Thread nD τ).loc main_arg8)
    ∧ Wend m d (Proc.devRef .tc main_arg9) = m ((d.tc : Thread nD τ).loc main_arg9)
    ∧ Wend m d (Proc.devRef .tc main_arg10) = m ((d.tc : Thread nD τ).loc main_arg10) := by
  rw [Wend_eq]
  exact ⟨V11_keep m d main_arg0 (by decide) (by decide) (by decide) (by decide) (by decide) (by decide) (by decide) (by decide) (by decide) (by decide) (by decide),
    V11_keep m d main_arg1 (by decide) (by decide) (by decide) (by decide) (by decide) (by decide) (by decide) (by decide) (by decide) (by decide) (by decide),
    V11_keep m d main_arg2 (by decide) (by decide) (by decide) (by decide) (by decide) (by decide) (by decide) (by decide) (by decide) (by decide) (by decide),
    V11_keep m d main_arg3 (by decide) (by decide) (by decide) (by decide) (by decide) (by decide) (by decide) (by decide) (by decide) (by decide) (by decide),
    V11_keep m d main_arg4 (by decide) (by decide) (by decide) (by decide) (by decide) (by decide) (by decide) (by decide) (by decide) (by decide) (by decide),
    V11_keep m d main_arg5 (by decide) (by decide) (by decide) (by decide) (by decide) (by decide) (by decide) (by decide) (by decide) (by decide) (by decide),
    V11_keep m d main_arg6 (by decide) (by decide) (by decide) (by decide) (by decide) (by decide) (by decide) (by decide) (by decide) (by decide) (by decide),
    V11_keep m d main_arg7 (by decide) (by decide) (by decide) (by decide) (by decide) (by decide) (by decide) (by decide) (by decide) (by decide) (by decide),
    V11_keep m d main_arg8 (by decide) (by decide) (by decide) (by decide) (by decide) (by decide) (by decide) (by decide) (by decide) (by decide) (by decide),
    V11_keep m d main_arg9 (by decide) (by decide) (by decide) (by decide) (by decide) (by decide) (by decide) (by decide) (by decide) (by decide) (by decide),
    V11_keep m d main_arg10 (by decide) (by decide) (by decide) (by decide) (by decide) (by decide) (by decide) (by decide) (by decide) (by decide) (by decide)⟩

end Cert.ReferenceIdeal.RefSide

end
-- ==== Proof.Alg.lean ====
/-
  The two idealized programs compute the same results. The kernel's run ends, on every core, with its buffers at
  the host tail's values over SOME contents of the second region's arrays that its relational proof data admits;
  those contents are the logits and the two halves' online log-sum-exp statistics; the tail's per-row term (the
  logit read by the label minus the merged log-sum-exp) is the reference's log-softmax entry read by the label,
  by the algebra of the blocked log-sum-exp; both programs then take the same mean. The logits themselves are the
  second result on both sides.
-/
import proofs.«422837_j27685359190570_3_alg».proof.Defs
import proofs.«422837_j27685359190570_3_alg».proof.Proof.KI.Frames
import proofs.«422837_j27685359190570_3_alg».proof.Proof.KI.StepsI
import proofs.«422837_j27685359190570_3_alg».proof.Proof.KI.ValArr1
import proofs.«422837_j27685359190570_3_alg».proof.Proof.KI.TailI
import proofs.«422837_j27685359190570_3_alg».proof.Proof.KI.PrefixI
import proofs.«422837_j27685359190570_3_alg».proof.Proof.KI.PreI
import proofs.«422837_j27685359190570_3_alg».proof.Proof.RowEq
import proofs.«422837_j27685359190570_3_alg».proof.Proof.RefSide

set_option maxRecDepth 16384

noncomputable section

namespace Cert.Proof.Alg

open Idealize.ShloMosaic Idealize.ShloMosaic.TcCoe Idealize.SL.Sem
open Idealize.ShloMosaic.ValueIdx Cert.LseMath Cert.TakeSpec
open Cert.KernelIdeal Cert.KernelIdeal.H

variable [hPre : Cert.Pre_finite_inputs.Facts]

/-- tanh of anything is a real number. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

section Kernel

variable (m : (ℓ : Loc nD τ sig) → Buf (Elt Ideal) ℓ) (hpre : Cert.Pre_KernelIdeal m) (c : Dev nD)

include hpre in
/-- The three arrays the second region reads are real-valued. -/
theorem finIn : FinIn (hArr (V3 m) c) (wArr (V3 m) c) (bArr (V3 m) c) where
  hh i := by
    show ∃ r : ℝ, (V3 m c main_v35 : S4096x1024.Idx → EReal) i = (r : EReal)
    rw [h_eq m c]
    exact tanh_real _
  hw i := by
    show ∃ r : ℝ, (V3 m c main_arg5 : S1024x50000.Idx → EReal) i = (r : EReal)
    rw [w2_eq m c]
    exact fin_w2 m hpre c i
  hb i := by
    show ∃ r : ℝ, (V3 m c main_v36 : S1x50000.Idx → EReal) i = (r : EReal)
    obtain ⟨a, n, rfl⟩ : ∃ (a : Fin 1) (n : Fin 50000), i = ix2 a n := ⟨i 0, i 1, eq_ix2 i⟩
    obtain rfl : a = 0 := Subsingleton.elim _ _
    rw [b2_eq m c n]
    exact fin_b2 m hpre c _

end Kernel

section Values

open Cert.ReferenceIdeal.RefSide

variable (m : (ℓ : Loc nD τ sig) → Buf (Elt Ideal) ℓ) (hpre : Cert.Pre_KernelIdeal m)
  (m' : (ℓ : Loc Cert.ReferenceIdeal.nD Cert.ReferenceIdeal.τ Cert.ReferenceIdeal.sig) → Buf (Elt Ideal) ℓ)
  (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10))
  (c : Dev nD)

include hagree in
/-- The kernel's logits are the reference's: the activations the second region reads are tanh (emb · W1 + b1) of the
    same embedding rows, weights and bias. -/
theorem tp_eq (e : Fin 4096) (n : Fin 50000) :
    tp (hArr (V3 m) c) (wArr (V3 m) c) (bArr (V3 m) c) e n = tpR m' c e n := by
  obtain ⟨h0, h1, h2, h3, h4, h5, h6, h7, h8, h9, h10⟩ := hagree c
  have hb : (bArr (V3 m) c) (ix2 0 n) = (m ((c : Thread nD τ).loc main_arg6) : S50000.Idx → EReal) (ix1 n) := b2_eq m c n
  have hw : ∀ k : Fin 1024, (wArr (V3 m) c) (ix2 k n) = (m ((c : Thread nD τ).loc main_arg5) : S1024x50000.Idx → EReal) (ix2 k n) := fun k => by
    show (V3 m c main_arg5 : S1024x50000.Idx → EReal) (ix2 k n) = _
    rw [w2_eq m c]
  have hh : ∀ k : Fin 1024, (hArr (V3 m) c) (ix2 e k)
      = Ideal.tanh ((∑ i : Fin 512, (Cert.ReferenceIdeal.ReadP.val_main_v25 (F := Ideal) (m ((c : Thread nD τ).loc main_arg0)) (m ((c : Thread nD τ).loc main_arg1))
            (m ((c : Thread nD τ).loc main_arg2)) (m ((c : Thread nD τ).loc main_arg7)) (m ((c : Thread nD τ).loc main_arg8)) : S4096x512.Idx → EReal) (ix2 e i)
              * (m ((c : Thread nD τ).loc main_arg3) : S512x1024.Idx → EReal) (ix2 i k))
          + (m ((c : Thread nD τ).loc main_arg4) : S1024.Idx → EReal) (ix1 k)) := fun k => by
    show (V3 m c main_v35 : S4096x1024.Idx → EReal) (ix2 e k) = _
    rw [h_eq m c]
    show mlp1 (V1 m c main_v25) (V1 m c main_arg3) (V1 m c main_v34) (ix2 e k) = _
    rw [mlp1_apply, emb_eq m c, w1_eq m c, b1_eq m c k]
  unfold tp tpR
  delta Cert.ReferenceIdeal.RefSide.embR
  rw [h0, h1, h2, h3, h4, h5, h6, h7, h8, hb]
  congr 1
  exact Finset.sum_congr rfl fun k _ => by rw [hh k, hw k]

include hagree in
/-- The labels the kernel's tail reads are the reference's. -/
theorem lab_eq' (e : Fin 4096) : labArr m c (ix2 e 0) = labR m' c (ix1 e) := by
  obtain ⟨h0, h1, h2, h3, h4, h5, h6, h7, h8, h9, h10⟩ := hagree c
  show (V3 m c main_v33 : S4096x1.Idx → BitVec 32) (ix2 e 0) = _
  rw [lab_eq m c e]
  delta Cert.ReferenceIdeal.RefSide.labR
  rw [h9, h10]

end Values

section Rows

open Cert.ReferenceIdeal.RefSide

variable (m : (ℓ : Loc nD τ sig) → Buf (Elt Ideal) ℓ) (hpre : Cert.Pre_KernelIdeal m) (c : Dev nD)
  (Fo : Fam1 (F := Ideal) c) (hFo : ∀ w, (rdat1 (V3 m) (SI (V3 m)) c).ArrAt w cfg1.N (Fo w))

include hpre hFo in
/-- Row e of the kernel's per-row vector is the log-softmax entry of the row's logits read by the row's label. -/
theorem v58_row (e : Fin 4096) :
    v58 m c Fo (ix1 e) = rowR (tp (hArr (V3 m) c) (wArr (V3 m) c) (bArr (V3 m) c) e) (labArr m c (ix2 e 0)) := by
  have hfin := finIn m hpre c
  have hx : ∀ n, ∃ r : ℝ, tp (hArr (V3 m) c) (wArr (V3 m) c) (bArr (V3 m) c) e n = (r : EReal) := fun n => by
    obtain ⟨rb, hrb⟩ := hfin.hb (ix2 0 n)
    have hs : ∃ r : ℝ, (∑ k : Fin 1024, (hArr (V3 m) c) (ix2 e k) * (wArr (V3 m) c) (ix2 k n)) = (r : EReal) := by
      refine Finset.sum_induction _ (fun y => ∃ r : ℝ, y = (r : EReal)) ?_ ⟨0, by simp⟩ ?_
      · rintro a b ⟨ra, rfl⟩ ⟨rb, rfl⟩; exact ⟨ra + rb, by rw [EReal.coe_add]⟩
      · intro k _
        obtain ⟨r1, h1⟩ := hfin.hh (ix2 e k)
        obtain ⟨r2, h2⟩ := hfin.hw (ix2 k n)
        exact ⟨r1 * r2, by rw [h1, h2, EReal.coe_mul]⟩
    obtain ⟨rs, hrs⟩ := hs
    exact ⟨rs + rb, by unfold tp; rw [hrs, hrb, EReal.coe_add]⟩
  have hpad : pad (tp (hArr (V3 m) c) (wArr (V3 m) c) (bArr (V3 m) c) e) = xpad (hArr (V3 m) c) (wArr (V3 m) c) (bArr (V3 m) c) e := rfl
  rw [tail58 m c Fo e, ← rowK_eq_rowR _ hx, hpad]
  have e3 : (fun n => fo3 c Fo (ix2 e n)) = tp (hArr (V3 m) c) (wArr (V3 m) c) (bArr (V3 m) c) e :=
    funext fun n => arr1_3 (V3 m) c Fo hFo e n
  have e40 := arr1_4 (V3 m) c Fo hFo 0 e
  have e41 := arr1_4 (V3 m) c Fo hFo 1 e
  have e50 := arr1_5 (V3 m) c Fo hFo 0 e
  have e51 := arr1_5 (V3 m) c Fo hFo 1 e
  simp only [Fin.val_zero, Fin.val_one, Nat.zero_mul, Nat.zero_add, Nat.one_mul] at e40 e41 e50 e51
  rw [e3]
  show rowK _ _ (fo4 c Fo (ix3 0 e 0)) (fo5 c Fo (ix3 0 e 0)) (fo4 c Fo (ix3 1 e 0)) (fo5 c Fo (ix3 1 e 0)) = _
  unfold fo4 fo5
  rw [e40, e41, e50, e51]
  rfl

end Rows

/-! ## The claim -/

open Cert.ReferenceIdeal.RefSide in
/-- The two idealized programs, from memories agreeing on the arguments, both run and end with equal results. -/
theorem algebraic : Cert.algebraic_KernelIdeal_ReferenceIdeal := by
  intro m ρ m' ρ' hpre hagree
  refine ⟨fun c => Wend m' c (Proc.devRef .tc Cert.ReferenceIdeal.main_v47), fun c => Wend m' c (Proc.devRef .tc Cert.ReferenceIdeal.main_v34), ?_, ?_⟩
  · -- the kernel
    refine (θ_run defs _ _).mono (fun r h c => ?_)
      (run_all m ρ (SI (V3 m)) (fun c => stepsI (V3 m) c (finIn m hpre c)))
    obtain ⟨Fo, hFo, hmem⟩ := h c
    refine ⟨?_, ?_, args_of_mem m (SI (V3 m)) c Fo hFo r.2 hmem⟩
    · -- the first result
      rw [hmem _ (mem_uc main_v60 (by decide))]
      show (W7 m c Fo (Proc.devRef .tc main_v60) : S_.Idx → EReal) = Wend m' c (Proc.devRef .tc Cert.ReferenceIdeal.main_v47)
      rw [tail60 m c Fo, ref47_eq m' c]
      have hv : (v58 m c Fo : S4096.Idx → EReal) = (Wend m' c (Proc.devRef .tc Cert.ReferenceIdeal.main_v45) : Cert.ReferenceIdeal.S4096.Idx → EReal) := by
        funext i
        obtain ⟨e, rfl⟩ : ∃ e : Fin 4096, i = ix1 e := ⟨i 0, eq_ix1 i⟩
        rw [v58_row m hpre c Fo hFo e, ref45_apply m' c e, lab_eq' m m' hagree c e]
        congr 1
        exact funext fun n => tp_eq m m' hagree c e n
      rw [hv]
    · -- the second result
      rw [hmem _ (mem_uc main_v37_0 (by decide))]
      show (W7 m c Fo (Proc.devRef .tc main_v37_0) : S4096x50000.Idx → EReal) = Wend m' c (Proc.devRef .tc Cert.ReferenceIdeal.main_v34)
      rw [tail37 m c Fo]
      funext i
      obtain ⟨e, n, rfl⟩ : ∃ (e : Fin 4096) (n : Fin 50000), i = ix2 e n := ⟨i 0, i 1, eq_ix2 i⟩
      refine (arr1_3 (V3 m) c Fo hFo e n).trans ?_
      rw [tp_eq m m' hagree c e n]
      exact (ref34_apply m' c e n).symm
  · -- the reference
    refine (θ_run Cert.ReferenceIdeal.defs _ _).mono (fun r h c => ?_) (Cert.ReferenceIdeal.ValueP.run_after (F := Ideal) m' ρ')
    obtain ⟨a0, a1, a2, a3, a4, a5, a6, a7, a8, a9, a10⟩ := ref_args m' c
    exact ⟨h c _, h c _, (h c _).trans a0, (h c _).trans a1, (h c _).trans a2, (h c _).trans a3, (h c _).trans a4, (h c _).trans a5,
      (h c _).trans a6, (h c _).trans a7, (h c _).trans a8, (h c _).trans a9, (h c _).trans a10⟩

open Cert.ReferenceIdeal.RefSide in
/-- The reference runs, faults nowhere, and leaves its arguments unchanged. -/
theorem frame_ri : Cert.frame_ReferenceIdeal := by
  intro m ρ _
  refine (θ_run Cert.ReferenceIdeal.defs _ _).mono (fun r h c => ?_) (Cert.ReferenceIdeal.ValueP.run_after (F := Ideal) m ρ)
  obtain ⟨a0, a1, a2, a3, a4, a5, a6, a7, a8, a9, a10⟩ := ref_args m c
  exact ⟨(h c _).trans a0, (h c _).trans a1, (h c _).trans a2, (h c _).trans a3, (h c _).trans a4, (h c _).trans a5,
    (h c _).trans a6, (h c _).trans a7, (h c _).trans a8, (h c _).trans a9, (h c _).trans a10⟩

end Cert.Proof.Alg

end
-- ==== Proof.lean ====
/-
  The certificate's claim. The two kernels' frames come from one run of the program as host stretches and two
  kernel regions (the first region with exact proof data, the second, whose statistics outputs are written only at
  the last column tile of each half and which carries two scratch columns between grid points, with relational
  proof data), stated once for the idealized program and laid out again for the printed one. The reference's frame
  is its run with no result read back. The one ledger entry names the mask's fill constant the bottom element. The
  algebraic claim is the equality of the blocked (online) log-sum-exp with the reference's log-softmax, row by row.
-/
import proofs.«422837_j27685359190570_3_alg».proof.Defs
import proofs.«422837_j27685359190570_3_alg».proof.Proof.Gen.Kernel
import proofs.«422837_j27685359190570_3_alg».proof.Proof.Gen.KernelIdeal
import proofs.«422837_j27685359190570_3_alg».proof.Proof.Gen.ReferenceIdeal
import proofs.«422837_j27685359190570_3_alg».proof.Proof.Gen.Pre_finite_inputs
import proofs.«422837_j27685359190570_3_alg».proof.Proof.K.Frames
import proofs.«422837_j27685359190570_3_alg».proof.Proof.KI.Frames
import proofs.«422837_j27685359190570_3_alg».proof.Proof.Alg
import Idealize.ShloMosaic.PureOps.IdealRules

noncomputable section

namespace Cert.Proof

open Idealize.ShloMosaic Idealize.SL.Sem

theorem frame_k : @Cert.frame_Kernel Cert.Kernel.Gen.facts Cert.Pre_finite_inputs.Gen.facts :=
  fun m ρ _ => Cert.Kernel.H.frame m ρ

theorem frame_ki : @Cert.frame_KernelIdeal Cert.KernelIdeal.Gen.facts Cert.Pre_finite_inputs.Gen.facts :=
  fun m ρ _ => Cert.KernelIdeal.H.frame m ρ

/-- The ledger's one entry: the certificate's table gives the mask's fill constant the value ⊥. -/
theorem preserves : Cert.preserves_Kernel_KernelIdeal :=
  IdealRules.named_const.statement Cert.KernelIdeal.κ "neg_big" .f32 0xFF333332#32 (⊥ : EReal) rfl

theorem claim : Cert.Claim :=
  ⟨Cert.Kernel.Gen.facts, Cert.KernelIdeal.Gen.facts, Cert.ReferenceIdeal.Gen.facts, Cert.Pre_finite_inputs.Gen.facts,
    frame_k, frame_ki, Cert.Proof.Alg.frame_ri, preserves, Cert.Proof.Alg.algebraic⟩

end Cert.Proof

end
